-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v238) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S2x4000000 : Shape := ⟨2, ![2, 4000000]⟩
abbrev S2x8 : Shape := ⟨2, ![2, 8]⟩
abbrev S8 : Shape := ⟨1, ![8]⟩
abbrev S20x8 : Shape := ⟨2, ![20, 8]⟩
abbrev S8x1 : Shape := ⟨2, ![8, 1]⟩
abbrev S1 : Shape := ⟨1, ![1]⟩
abbrev S30x8 : Shape := ⟨2, ![30, 8]⟩
abbrev S8x8 : Shape := ⟨2, ![8, 8]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel
  bcast_S_S2x8 : S_.BroadcastsInDim S2x8 (![] : Fin 0 → Fin S2x8.rank)
  reducesTo_S2x8_S_d0_1 : S2x8.ReducesTo [0, 1] S_
  bcast_S_S8 : S_.BroadcastsInDim S8 (![] : Fin 0 → Fin S8.rank)
  reducesTo_S8_S_d0 : S8.ReducesTo [0] S_
  bcast_S_S20x8 : S_.BroadcastsInDim S20x8 (![] : Fin 0 → Fin S20x8.rank)
  reducesTo_S20x8_S_d0_1 : S20x8.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  bcast_S_S30x8 : S_.BroadcastsInDim S30x8 (![] : Fin 0 → Fin S30x8.rank)
  reducesTo_S30x8_S_d0_1 : S30x8.ReducesTo [0, 1] S_
  bcast_S_S8x8 : S_.BroadcastsInDim S8x8 (![] : Fin 0 → Fin S8x8.rank)
  reducesTo_S8x8_S_d0_1 : S8x8.ReducesTo [0, 1] S_
  bcast_S_S2x4000000 : S_.BroadcastsInDim S2x4000000 (![] : Fin 0 → Fin S2x4000000.rank)
  reducesTo_S2x4000000_S_d0_1 : S2x4000000.ReducesTo [0, 1] S_

variable [Facts]

def fn_part3 {F : FTy → Type} [FloatOps F] (main_arg1 : IVec S2x4000000 32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_c_20 : IVec S_ 32 := constantI S_ 32 0#32
  let main_v54 : IVec S2x4000000 32 := broadcastInDim S2x4000000 ![] bcast_S_S2x4000000 main_c_20
  let main_v55 : IVec S2x4000000 1 := cmpi .sge main_arg1 main_v54
  let main_c_21 : IVec S_ 1 := constantI S_ 1 1#1
  let main_v56 : IVec S_ 1 := (fun x v => Host.reduce IntOp.andi x v reducesTo_S2x4000000_S_d0_1 h_S_) main_v55 main_c_21
  let main_v57 : IVec S_ 1 := andi main_v53 main_v56
  let main_c_22 : IVec S_ 32 := constantI S_ 32 500000#32
  let main_v58 : IVec S2x4000000 32 := broadcastInDim S2x4000000 ![] bcast_S_S2x4000000 main_c_22
  let main_v59 : IVec S2x4000000 1 := cmpi .slt main_arg1 main_v58
  let main_c_23 : IVec S_ 1 := constantI S_ 1 1#1
  let main_v60 : IVec S_ 1 := (fun x v => Host.reduce IntOp.andi x v reducesTo_S2x4000000_S_d0_1 h_S_) main_v59 main_c_23
  let main_v61 : IVec S_ 1 := andi main_v57 main_v60
  main_v61

def fn_part2 {F : FTy → Type} [FloatOps F] (main_arg1 : IVec S2x4000000 32) (main_arg8 : FVec F S30x8 .f32) (main_arg9 : FVec F S8 .f32) (main_arg10 : FVec F S8x8 .f32) (main_arg11 : FVec F S8 .f32) (main_v33 : IVec S_ 1) : IVec S_ 1 :=
  let main_v34 : FVec F S30x8 .f32 := Host.absf main_arg8
  let main_cst_12 : FVec F S_ .f32 := constant S_ .f32 0x7F800000#32
  let main_v35 : FVec F S30x8 .f32 := broadcastInDim S30x8 ![] bcast_S_S30x8 main_cst_12
  let main_v36 : IVec S30x8 1 := cmpf .olt main_v34 main_v35
  let main_c_13 : IVec S_ 1 := constantI S_ 1 1#1
  let main_v37 : IVec S_ 1 := (fun x v => Host.reduce IntOp.andi x v reducesTo_S30x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x8 .f32 := Host.absf main_arg10
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8 .f32 := Host.absf main_arg11
  let main_cst_18 : FVec F S_ .f32 := constant S_ .f32 0x7F800000#32
  let main_v50 : FVec F S8 .f32 := broadcastInDim S8 ![] bcast_S_S8 main_cst_18
  fn_part3 (F := F) main_arg1 main_v48 main_v49 main_v50

def fn_part1 {F : FTy → Type} [FloatOps F] (main_arg1 : IVec S2x4000000 32) (main_arg5 : FVec F S8 .f32) (main_arg6 : FVec F S8x1 .f32) (main_arg7 : FVec F S1 .f32) (main_arg8 : FVec F S30x8 .f32) (main_arg9 : FVec F S8 .f32) (main_arg10 : FVec F S8x8 .f32) (main_arg11 : FVec F S8 .f32) (main_v13 : IVec S_ 1) (main_v16 : IVec S20x8 1) : IVec S_ 1 :=
  let main_c_5 : IVec S_ 1 := constantI S_ 1 1#1
  let main_v17 : IVec S_ 1 := (fun x v => Host.reduce IntOp.andi x v reducesTo_S20x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1 .f32 := Host.absf main_arg6
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S500000x2 .f32) (main_arg1 : IVec S2x4000000 32) (main_arg2 : FVec F S2x8 .f32) (main_arg3 : FVec F S8 .f32) (main_arg4 : FVec F S20x8 .f32) (main_arg5 : FVec F S8 .f32) (main_arg6 : FVec F S8x1 .f32) (main_arg7 : FVec F S1 .f32) (main_arg8 : FVec F S30x8 .f32) (main_arg9 : FVec F S8 .f32) (main_arg10 : FVec F S8x8 .f32) (main_arg11 : FVec F S8 .f32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  let main_v4 : FVec F S2x8 .f32 := Host.absf main_arg2
  let main_cst_0 : FVec F S_ .f32 := constant S_ .f32 0x7F800000#32
  let main_v5 : FVec F S2x8 .f32 := broadcastInDim S2x8 ![] bcast_S_S2x8 main_cst_0
  let main_v6 : IVec S2x8 1 := cmpf .olt main_v4 main_v5
  let main_c_1 : IVec S_ 1 := constantI S_ 1 1#1
  let main_v7 : IVec S_ 1 := (fun x v => Host.reduce IntOp.andi x v reducesTo_S2x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S20x8 .f32 := Host.absf main_arg4
  let main_cst_4 : FVec F S_ .f32 := constant S_ .f32 0x7F800000#32
  let main_v15 : FVec F S20x8 .f32 := broadcastInDim S20x8 ![] bcast_S_S20x8 main_cst_4
  let main_v16 : IVec S20x8 1 := cmpf .olt main_v14 main_v15
  fn_part1 (F := F) main_arg1 main_arg5 main_arg6 main_arg7 main_arg8 main_arg9 main_arg10 main_arg11 main_v13 main_v16
-- ==== Kernel.lean ====
abbrev S500000x2 : Shape := ⟨2, ![500000, 2]⟩
abbrev S2x4000000 : Shape := ⟨2, ![2, 4000000]⟩
abbrev S2x8 : Shape := ⟨2, ![2, 8]⟩
abbrev S8 : Shape := ⟨1, ![8]⟩
abbrev S20x8 : Shape := ⟨2, ![20, 8]⟩
abbrev S8x1 : Shape := ⟨2, ![8, 1]⟩
abbrev S1 : Shape := ⟨1, ![1]⟩
abbrev S30x8 : Shape := ⟨2, ![30, 8]⟩
abbrev S8x8 : Shape := ⟨2, ![8, 8]⟩
abbrev S1x4000000 : Shape := ⟨2, ![1, 4000000]⟩
abbrev S4000000 : Shape := ⟨1, ![4000000]⟩
abbrev S1x8 : Shape := ⟨2, ![1, 8]⟩
abbrev S500000x10 : Shape := ⟨2, ![500000, 10]⟩
abbrev S5000x2 : Shape := ⟨2, ![5000, 2]⟩
abbrev S5000x10 : Shape := ⟨2, ![5000, 10]⟩
abbrev S5000x8 : Shape := ⟨2, ![5000, 8]⟩
abbrev S_ : Shape := ⟨0, ![]⟩
abbrev S4000000x1 : Shape := ⟨2, ![4000000, 1]⟩
abbrev S1x1 : Shape := ⟨2, ![1, 1]⟩
abbrev S4000000x10 : Shape := ⟨2, ![4000000, 10]⟩
abbrev S4000000x20 : Shape := ⟨2, ![4000000, 20]⟩
abbrev S6400x10 : Shape := ⟨2, ![6400, 10]⟩
abbrev S6400x20 : Shape := ⟨2, ![6400, 20]⟩
abbrev S6400x8 : Shape := ⟨2, ![6400, 8]⟩
abbrev S6400x1 : Shape := ⟨2, ![6400, 1]⟩
abbrev S5000x30 : Shape := ⟨2, ![5000, 30]⟩

abbrev nBuf : Space → Nat
  | .hbm => 254
  | .vmem => 88
  | .smem => 0
  | _ => 0

abbrev hbmTy0_0 (i : Nat) : BufTy := match i % 128 with
  | 0 => ⟨S500000x2, .f32⟩
  | 1 => ⟨S2x4000000, .i32⟩
  | 2 => ⟨S2x8, .f32⟩
  | 3 => ⟨S8, .f32⟩
  | 4 => ⟨S20x8, .f32⟩
  | 5 => ⟨S8, .f32⟩
  | 6 => ⟨S8x1, .f32⟩
  | 7 => ⟨S1, .f32⟩
  | 8 => ⟨S30x8, .f32⟩
  | 9 => ⟨S8, .f32⟩
  | 10 => ⟨S8x8, .f32⟩
  | 11 => ⟨S8, .f32⟩
  | 12 => ⟨S1x4000000, .i32⟩
  | 13 => ⟨S4000000, .i32⟩
  | 14 => ⟨S1x4000000, .i32⟩
  | 15 => ⟨S4000000, .i32⟩
  | 16 => ⟨S1x8, .f32⟩
  | 17 => ⟨S500000x10, .f32⟩
  | 18 => ⟨S_, .i32⟩
  | 19 => ⟨S4000000, .i32⟩
  | 20 => ⟨S4000000, .i1⟩
  | 21 => ⟨S_, .i32⟩
  | 22 => ⟨S4000000, .i32⟩
  | 23 => ⟨S4000000, .i32⟩
  | 24 => ⟨S4000000, .i32⟩
  | 25 => ⟨S4000000x1, .i32⟩
  | 26 => ⟨S1, .i32⟩
  | 27 => ⟨S_, .i32⟩
  | 28 => ⟨S4000000x1, .i32⟩
  | 29 => ⟨S4000000x1, .i1⟩
  | 30 => ⟨S1x1, .i32⟩
  | 31 => ⟨S4000000x1, .i32⟩
  | 32 => ⟨S4000000x1, .i1⟩
  | 33 => ⟨S4000000x1, .i1⟩
  | 34 => ⟨S_, .i1⟩
  | 35 => ⟨S4000000, .i1⟩
  | 36 => ⟨S4000000x10, .f32⟩
  | 37 => ⟨S4000000x10, .i1⟩
  | 38 => ⟨S_, .f32⟩
  | 39 => ⟨S4000000x10, .f32⟩
  | 40 => ⟨S4000000x10, .f32⟩
  | 41 => ⟨S_, .i32⟩
  | 42 => ⟨S4000000, .i32⟩
  | 43 => ⟨S4000000, .i1⟩
  | 44 => ⟨S_, .i32⟩
  | 45 => ⟨S4000000, .i32⟩
  | 46 => ⟨S4000000, .i32⟩
  | 47 => ⟨S4000000, .i32⟩
  | 48 => ⟨S4000000x1, .i32⟩
  | 49 => ⟨S1, .i32⟩
  | 50 => ⟨S_, .i32⟩
  | 51 => ⟨S4000000x1, .i32⟩
  | 52 => ⟨S4000000x1, .i1⟩
  | 53 => ⟨S1x1, .i32⟩
  | 54 => ⟨S4000000x1, .i32⟩
  | 55 => ⟨S4000000x1, .i1⟩
  | 56 => ⟨S4000000x1, .i1⟩
  | 57 => ⟨S_, .i1⟩
  | 58 => ⟨S4000000, .i1⟩
  | 59 => ⟨S4000000x10, .f32⟩
  | 60 => ⟨S4000000x10, .i1⟩
  | 61 => ⟨S_, .f32⟩
  | 62 => ⟨S4000000x10, .f32⟩
  | 63 => ⟨S4000000x10, .f32⟩
  | 64 => ⟨S1x8, .f32⟩
  | 65 => ⟨S1x1, .f32⟩
  | 66 => ⟨S4000000x20, .f32⟩
  | 67 => ⟨S4000000x10, .f32⟩
  | 68 => ⟨S4000000x10, .f32⟩
  | 69 => ⟨S_, .f32⟩
  | 70 => ⟨S500000x10, .f32⟩
  | 71 => ⟨S4000000x1, .i32⟩
  | 72 => ⟨S500000x10, .f32⟩
  | 73 => ⟨S_, .f32⟩
  | 74 => ⟨S500000x10, .f32⟩
  | 75 => ⟨S4000000x1, .i32⟩
  | 76 => ⟨S500000x10, .f32⟩
  | 77 => ⟨S1x8, .f32⟩
  | 78 => ⟨S1x8, .f32⟩
  | 79 => ⟨S500000x10, .f32⟩
  | 80 => ⟨S_, .i32⟩
  | 81 => ⟨S4000000, .i32⟩
  | 82 => ⟨S4000000, .i1⟩
  | 83 => ⟨S_, .i32⟩
  | 84 => ⟨S4000000, .i32⟩
  | 85 => ⟨S4000000, .i32⟩
  | 86 => ⟨S4000000, .i32⟩
  | 87 => ⟨S4000000x1, .i32⟩
  | 88 => ⟨S1, .i32⟩
  | 89 => ⟨S_, .i32⟩
  | 90 => ⟨S4000000x1, .i32⟩
  | 91 => ⟨S4000000x1, .i1⟩
  | 92 => ⟨S1x1, .i32⟩
  | 93 => ⟨S4000000x1, .i32⟩
  | 94 => ⟨S4000000x1, .i1⟩
  | 95 => ⟨S4000000x1, .i1⟩
  | 96 => ⟨S_, .i1⟩
  | 97 => ⟨S4000000, .i1⟩
  | 98 => ⟨S4000000x10, .f32⟩
  | 99 => ⟨S4000000x10, .i1⟩
  | 100 => ⟨S_, .f32⟩
  | 101 => ⟨S4000000x10, .f32⟩
  | 102 => ⟨S4000000x10, .f32⟩
  | 103 => ⟨S_, .i32⟩
  | 104 => ⟨S4000000, .i32⟩
  | 105 => ⟨S4000000, .i1⟩
  | 106 => ⟨S_, .i32⟩
  | 107 => ⟨S4000000, .i32⟩
  | 108 => ⟨S4000000, .i32⟩
  | 109 => ⟨S4000000, .i32⟩
  | 110 => ⟨S4000000x1, .i32⟩
  | 111 => ⟨S1, .i32⟩
  | 112 => ⟨S_, .i32⟩
  | 113 => ⟨S4000000x1, .i32⟩
  | 114 => ⟨S4000000x1, .i1⟩
  | 115 => ⟨S1x1, .i32⟩
  | 116 => ⟨S4000000x1, .i32⟩
  | 117 => ⟨S4000000x1, .i1⟩
  | 118 => ⟨S4000000x1, .i1⟩
  | 119 => ⟨S_, .i1⟩
  | 120 => ⟨S4000000, .i1⟩
  | 121 => ⟨S4000000x10, .f32⟩
  | 122 => ⟨S4000000x10, .i1⟩
  | 123 => ⟨S_, .f32⟩
  | 124 => ⟨S4000000x10, .f32⟩
  | 125 => ⟨S4000000x10, .f32⟩
  | 126 => ⟨S1x8, .f32⟩
  | 127 => ⟨S1x1, .f32⟩
  | _ => ⟨S500000x2, .f32⟩

abbrev hbmTy0_1 (i : Nat) : BufTy := match i % 128 with
  | 0 => ⟨S4000000x20, .f32⟩
  | 1 => ⟨S4000000x10, .f32⟩
  | 2 => ⟨S4000000x10, .f32⟩
  | 3 => ⟨S_, .f32⟩
  | 4 => ⟨S500000x10, .f32⟩
  | 5 => ⟨S4000000x1, .i32⟩
  | 6 => ⟨S500000x10, .f32⟩
  | 7 => ⟨S_, .f32⟩
  | 8 => ⟨S500000x10, .f32⟩
  | 9 => ⟨S4000000x1, .i32⟩
  | 10 => ⟨S500000x10, .f32⟩
  | 11 => ⟨S1x8, .f32⟩
  | 12 => ⟨S1x8, .f32⟩
  | 13 => ⟨S500000x10, .f32⟩
  | 14 => ⟨S_, .i32⟩
  | 15 => ⟨S4000000, .i32⟩
  | 16 => ⟨S4000000, .i1⟩
  | 17 => ⟨S_, .i32⟩
  | 18 => ⟨S4000000, .i32⟩
  | 19 => ⟨S4000000, .i32⟩
  | 20 => ⟨S4000000, .i32⟩
  | 21 => ⟨S4000000x1, .i32⟩
  | 22 => ⟨S1, .i32⟩
  | 23 => ⟨S_, .i32⟩
  | 24 => ⟨S4000000x1, .i32⟩
  | 25 => ⟨S4000000x1, .i1⟩
  | 26 => ⟨S1x1, .i32⟩
  | 27 => ⟨S4000000x1, .i32⟩
  | 28 => ⟨S4000000x1, .i1⟩
  | 29 => ⟨S4000000x1, .i1⟩
  | 30 => ⟨S_, .i1⟩
  | 31 => ⟨S4000000, .i1⟩
  | 32 => ⟨S4000000x10, .f32⟩
  | 33 => ⟨S4000000x10, .i1⟩
  | 34 => ⟨S_, .f32⟩
  | 35 => ⟨S4000000x10, .f32⟩
  | 36 => ⟨S4000000x10, .f32⟩
  | 37 => ⟨S_, .i32⟩
  | 38 => ⟨S4000000, .i32⟩
  | 39 => ⟨S4000000, .i1⟩
  | 40 => ⟨S_, .i32⟩
  | 41 => ⟨S4000000, .i32⟩
  | 42 => ⟨S4000000, .i32⟩
  | 43 => ⟨S4000000, .i32⟩
  | 44 => ⟨S4000000x1, .i32⟩
  | 45 => ⟨S1, .i32⟩
  | 46 => ⟨S_, .i32⟩
  | 47 => ⟨S4000000x1, .i32⟩
  | 48 => ⟨S4000000x1, .i1⟩
  | 49 => ⟨S1x1, .i32⟩
  | 50 => ⟨S4000000x1, .i32⟩
  | 51 => ⟨S4000000x1, .i1⟩
  | 52 => ⟨S4000000x1, .i1⟩
  | 53 => ⟨S_, .i1⟩
  | 54 => ⟨S4000000, .i1⟩
  | 55 => ⟨S4000000x10, .f32⟩
  | 56 => ⟨S4000000x10, .i1⟩
  | 57 => ⟨S_, .f32⟩
  | 58 => ⟨S4000000x10, .f32⟩
  | 59 => ⟨S4000000x10, .f32⟩
  | 60 => ⟨S1x8, .f32⟩
  | 61 => ⟨S1x1, .f32⟩
  | 62 => ⟨S4000000x20, .f32⟩
  | 63 => ⟨S4000000x10, .f32⟩
  | 64 => ⟨S4000000x10, .f32⟩
  | 65 => ⟨S_, .f32⟩
  | 66 => ⟨S500000x10, .f32⟩
  | 67 => ⟨S4000000x1, .i32⟩
  | 68 => ⟨S500000x10, .f32⟩
  | 69 => ⟨S_, .f32⟩
  | 70 => ⟨S500000x10, .f32⟩
  | 71 => ⟨S4000000x1, .i32⟩
  | 72 => ⟨S500000x10, .f32⟩
  | 73 => ⟨S1x8, .f32⟩
  | 74 => ⟨S1x8, .f32⟩
  | 75 => ⟨S500000x10, .f32⟩
  | 76 => ⟨S_, .i32⟩
  | 77 => ⟨S4000000, .i32⟩
  | 78 => ⟨S4000000, .i1⟩
  | 79 => ⟨S_, .i32⟩
  | 80 => ⟨S4000000, .i32⟩
  | 81 => ⟨S4000000, .i32⟩
  | 82 => ⟨S4000000, .i32⟩
  | 83 => ⟨S4000000x1, .i32⟩
  | 84 => ⟨S1, .i32⟩
  | 85 => ⟨S_, .i32⟩
  | 86 => ⟨S4000000x1, .i32⟩
  | 87 => ⟨S4000000x1, .i1⟩
  | 88 => ⟨S1x1, .i32⟩
  | 89 => ⟨S4000000x1, .i32⟩
  | 90 => ⟨S4000000x1, .i1⟩
  | 91 => ⟨S4000000x1, .i1⟩
  | 92 => ⟨S_, .i1⟩
  | 93 => ⟨S4000000, .i1⟩
  | 94 => ⟨S4000000x10, .f32⟩
  | 95 => ⟨S4000000x10, .i1⟩
  | 96 => ⟨S_, .f32⟩
  | 97 => ⟨S4000000x10, .f32⟩
  | 98 => ⟨S4000000x10, .f32⟩
  | 99 => ⟨S_, .i32⟩
  | 100 => ⟨S4000000, .i32⟩
  | 101 => ⟨S4000000, .i1⟩
  | 102 => ⟨S_, .i32⟩
  | 103 => ⟨S4000000, .i32⟩
  | 104 => ⟨S4000000, .i32⟩
  | 105 => ⟨S4000000, .i32⟩
  | 106 => ⟨S4000000x1, .i32⟩
  | 107 => ⟨S1, .i32⟩
  | 108 => ⟨S_, .i32⟩
  | 109 => ⟨S4000000x1, .i32⟩
  | 110 => ⟨S4000000x1, .i1⟩
  | 111 => ⟨S1x1, .i32⟩
  | 112 => ⟨S4000000x1, .i32⟩
  | 113 => ⟨S4000000x1, .i1⟩
  | 114 => ⟨S4000000x1, .i1⟩
  | 115 => ⟨S_, .i1⟩
  | 116 => ⟨S4000000, .i1⟩
  | 117 => ⟨S4000000x10, .f32⟩
  | 118 => ⟨S4000000x10, .i1⟩
  | 119 => ⟨S_, .f32⟩
  | 120 => ⟨S4000000x10, .f32⟩
  | 121 => ⟨S4000000x10, .f32⟩
  | 122 => ⟨S1x8, .f32⟩
  | 123 => ⟨S1x1, .f32⟩
  | 124 => ⟨S4000000x1, .f32⟩
  | 125 => ⟨S4000000, .f32⟩
  | _ => ⟨S500000x2, .f32⟩

abbrev hbmTy (i : Nat) : BufTy := match i / 128 with
  | 0 => hbmTy0_0 i
  | 1 => hbmTy0_1 i
  | _ => ⟨S500000x2, .f32⟩

abbrev bufTy : (tb : Table) → Fin (tcTables nBuf tb) → BufTy
  | .hbm, ⟨i, _⟩ => hbmTy i
  | .local _ .vmem, ⟨0, _⟩ => ⟨S5000x2, .f32⟩
  | .local _ .vmem, ⟨1, _⟩ => ⟨S5000x2, .f32⟩
  | .local _ .vmem, ⟨2, _⟩ => ⟨S2x8, .f32⟩
  | .local _ .vmem, ⟨3, _⟩ => ⟨S1x8, .f32⟩
  | .local _ .vmem, ⟨4, _⟩ => ⟨S5000x10, .f32⟩
  | .local _ .vmem, ⟨5, _⟩ => ⟨S5000x10, .f32⟩
  | .local _ .vmem, ⟨6, _⟩ => ⟨S6400x10, .f32⟩
  | .local _ .vmem, ⟨7, _⟩ => ⟨S6400x10, .f32⟩
  | .local _ .vmem, ⟨8, _⟩ => ⟨S6400x10, .f32⟩
  | .local _ .vmem, ⟨9, _⟩ => ⟨S6400x10, .f32⟩
  | .local _ .vmem, ⟨10, _⟩ => ⟨S20x8, .f32⟩
  | .local _ .vmem, ⟨11, _⟩ => ⟨S1x8, .f32⟩
  | .local _ .vmem, ⟨12, _⟩ => ⟨S8x1, .f32⟩
  | .local _ .vmem, ⟨13, _⟩ => ⟨S1x1, .f32⟩
  | .local _ .vmem, ⟨14, _⟩ => ⟨S6400x20, .f32⟩
  | .local _ .vmem, ⟨15, _⟩ => ⟨S6400x20, .f32⟩
  | .local _ .vmem, ⟨16, _⟩ => ⟨S5000x10, .f32⟩
  | .local _ .vmem, ⟨17, _⟩ => ⟨S5000x10, .f32⟩
  | .local _ .vmem, ⟨18, _⟩ => ⟨S5000x10, .f32⟩
  | .local _ .vmem, ⟨19, _⟩ => ⟨S5000x10, .f32⟩
  | .local _ .vmem, ⟨20, _⟩ => ⟨S5000x10, .f32⟩
  | .local _ .vmem, ⟨21, _⟩ => ⟨S5000x10, .f32⟩
  | .local _ .vmem, ⟨22, _⟩ => ⟨S5000x2, .f32⟩
  | .local _ .vmem, ⟨23, _⟩ => ⟨S5000x2, .f32⟩
  | .local _ .vmem, ⟨24, _⟩ => ⟨S30x8, .f32⟩
  | .local _ .vmem, ⟨25, _⟩ => ⟨S1x8, .f32⟩
  | .local _ .vmem, ⟨26, _⟩ => ⟨S8x8, .f32⟩
  | .local _ .vmem, ⟨27, _⟩ => ⟨S1x8, .f32⟩
  | .local _ .vmem, ⟨28, _⟩ => ⟨S5000x10, .f32⟩
  | .local _ .vmem, ⟨29, _⟩ => ⟨S5000x10, .f32⟩
  | .local _ .vmem, ⟨30, _⟩ => ⟨S6400x10, .f32⟩
  | .local _ .vmem, ⟨31, _⟩ => ⟨S6400x10, .f32⟩
  | .local _ .vmem, ⟨32, _⟩ => ⟨S6400x10, .f32⟩
  | .local _ .vmem, ⟨33, _⟩ => ⟨S6400x10, .f32⟩
  | .local _ .vmem, ⟨34, _⟩ => ⟨S20x8, .f32⟩
  | .local _ .vmem, ⟨35, _⟩ => ⟨S1x8, .f32⟩
  | .local _ .vmem, ⟨36, _⟩ => ⟨S8x1, .f32⟩
  | .local _ .vmem, ⟨37, _⟩ => ⟨S1x1, .f32⟩
  | .local _ .vmem, ⟨38, _⟩ => ⟨S6400x20, .f32⟩
  | .local _ .vmem, ⟨39, _⟩ => ⟨S6400x20, .f32⟩
  | .local _ .vmem, ⟨40, _⟩ => ⟨S5000x10, .f32⟩
  | .local _ .vmem, ⟨41, _⟩ => ⟨S5000x10, .f32⟩
  | .local _ .vmem, ⟨42, _⟩ => ⟨S5000x10, .f32⟩
  | .local _ .vmem, ⟨43, _⟩ => ⟨S5000x10, .f32⟩
  | .local _ .vmem, ⟨44, _⟩ => ⟨S5000x10, .f32⟩
  | .local _ .vmem, ⟨45, _⟩ => ⟨S5000x10, .f32⟩
  | .local _ .vmem, ⟨46, _⟩ => ⟨S5000x2, .f32⟩
  | .local _ .vmem, ⟨47, _⟩ => ⟨S5000x2, .f32⟩
  | .local _ .vmem, ⟨48, _⟩ => ⟨S30x8, .f32⟩
  | .local _ .vmem, ⟨49, _⟩ => ⟨S1x8, .f32⟩
  | .local _ .vmem, ⟨50, _⟩ => ⟨S8x8, .f32⟩
  | .local _ .vmem, ⟨51, _⟩ => ⟨S1x8, .f32⟩
  | .local _ .vmem, ⟨52, _⟩ => ⟨S5000x10, .f32⟩
  | .local _ .vmem, ⟨53, _⟩ => ⟨S5000x10, .f32⟩
  | .local _ .vmem, ⟨54, _⟩ => ⟨S6400x10, .f32⟩
  | .local _ .vmem, ⟨55, _⟩ => ⟨S6400x10, .f32⟩
  | .local _ .vmem, ⟨56, _⟩ => ⟨S6400x10, .f32⟩
  | .local _ .vmem, ⟨57, _⟩ => ⟨S6400x10, .f32⟩
  | .local _ .vmem, ⟨58, _⟩ => ⟨S20x8, .f32⟩
  | .local _ .vmem, ⟨59, _⟩ => ⟨S1x8, .f32⟩
  | .local _ .vmem, ⟨60, _⟩ => ⟨S8x1, .f32⟩
  | .local _ .vmem, ⟨61, _⟩ => ⟨S1x1, .f32⟩
  | .local _ .vmem, ⟨62, _⟩ => ⟨S6400x20, .f32⟩
  | .local _ .vmem, ⟨63, _⟩ => ⟨S6400x20, .f32⟩
  | .local _ .vmem, ⟨64, _⟩ => ⟨S5000x10, .f32⟩
  | .local _ .vmem, ⟨65, _⟩ => ⟨S5000x10, .f32⟩
  | .local _ .vmem, ⟨66, _⟩ => ⟨S5000x10, .f32⟩
  | .local _ .vmem, ⟨67, _⟩ => ⟨S5000x10, .f32⟩
  | .local _ .vmem, ⟨68, _⟩ => ⟨S5000x10, .f32⟩
  | .local _ .vmem, ⟨69, _⟩ => ⟨S5000x10, .f32⟩
  | .local _ .vmem, ⟨70, _⟩ => ⟨S5000x2, .f32⟩
  | .local _ .vmem, ⟨71, _⟩ => ⟨S5000x2, .f32⟩
  | .local _ .vmem, ⟨72, _⟩ => ⟨S30x8, .f32⟩
  | .local _ .vmem, ⟨73, _⟩ => ⟨S1x8, .f32⟩
  | .local _ .vmem, ⟨74, _⟩ => ⟨S8x8, .f32⟩
  | .local _ .vmem, ⟨75, _⟩ => ⟨S1x8, .f32⟩
  | .local _ .vmem, ⟨76, _⟩ => ⟨S5000x10, .f32⟩
  | .local _ .vmem, ⟨77, _⟩ => ⟨S5000x10, .f32⟩
  | .local _ .vmem, ⟨78, _⟩ => ⟨S6400x10, .f32⟩
  | .local _ .vmem, ⟨79, _⟩ => ⟨S6400x10, .f32⟩
  | .local _ .vmem, ⟨80, _⟩ => ⟨S6400x10, .f32⟩
  | .local _ .vmem, ⟨81, _⟩ => ⟨S6400x10, .f32⟩
  | .local _ .vmem, ⟨82, _⟩ => ⟨S20x8, .f32⟩
  | .local _ .vmem, ⟨83, _⟩ => ⟨S1x8, .f32⟩
  | .local _ .vmem, ⟨84, _⟩ => ⟨S8x1, .f32⟩
  | .local _ .vmem, ⟨85, _⟩ => ⟨S1x1, .f32⟩
  | .local _ .vmem, ⟨86, _⟩ => ⟨S6400x1, .f32⟩
  | .local _ .vmem, ⟨87, _⟩ => ⟨S6400x1, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v6 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_cst : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_cst_0 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v22 : Ref sig .tc := ⟨.hbm, 102, rfl⟩
abbrev main_call3_c : Ref sig .tc := ⟨.hbm, 103, rfl⟩
abbrev main_call3_v0 : Ref sig .tc := ⟨.hbm, 104, rfl⟩
abbrev main_call3_v1 : Ref sig .tc := ⟨.hbm, 105, rfl⟩
abbrev main_call3_c_0 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_c_1 : Ref sig .tc := ⟨.hbm, 111, rfl⟩
abbrev main_call3_c_2 : Ref sig .tc := ⟨.hbm, 112, rfl⟩
abbrev main_call3_v6 : Ref sig .tc := ⟨.hbm, 113, rfl⟩
abbrev main_call3_v7 : Ref sig .tc := ⟨.hbm, 114, rfl⟩
abbrev main_call3_v8 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_c_3 : Ref sig .tc := ⟨.hbm, 119, rfl⟩
abbrev main_call3_v12 : Ref sig .tc := ⟨.hbm, 120, rfl⟩
abbrev main_call3_v13 : Ref sig .tc := ⟨.hbm, 121, rfl⟩
abbrev main_call3_v14 : Ref sig .tc := ⟨.hbm, 122, rfl⟩
abbrev main_call3_cst : Ref sig .tc := ⟨.hbm, 123, rfl⟩
abbrev main_call3_v15 : Ref sig .tc := ⟨.hbm, 124, rfl⟩
abbrev main_v23 : Ref sig .tc := ⟨.hbm, 125, rfl⟩
abbrev main_v24 : Ref sig .tc := ⟨.hbm, 126, rfl⟩
abbrev main_v25 : Ref sig .tc := ⟨.hbm, 127, rfl⟩
abbrev main_v26 : Ref sig .tc := ⟨.hbm, 128, rfl⟩
abbrev main_v27 : Ref sig .tc := ⟨.hbm, 129, rfl⟩
abbrev main_v28 : Ref sig .tc := ⟨.hbm, 130, rfl⟩
abbrev main_cst_1 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_cst_2 : Ref sig .tc := ⟨.hbm, 135, rfl⟩
abbrev main_v32 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_v36 : Ref sig .tc := ⟨.hbm, 140, rfl⟩
abbrev main_v37 : Ref sig .tc := ⟨.hbm, 141, rfl⟩
abbrev main_call4_c : Ref sig .tc := ⟨.hbm, 142, rfl⟩
abbrev main_call4_v0 : Ref sig .tc := ⟨.hbm, 143, rfl⟩
abbrev main_call4_v1 : Ref sig .tc := ⟨.hbm, 144, rfl⟩
abbrev main_call4_c_0 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_call4_v5 : Ref sig .tc := ⟨.hbm, 149, rfl⟩
abbrev main_call4_c_1 : Ref sig .tc := ⟨.hbm, 150, rfl⟩
abbrev main_call4_c_2 : Ref sig .tc := ⟨.hbm, 151, rfl⟩
abbrev main_call4_v6 : Ref sig .tc := ⟨.hbm, 152, rfl⟩
abbrev main_call4_v7 : Ref sig .tc := ⟨.hbm, 153, rfl⟩
abbrev main_call4_v8 : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_c_3 : Ref sig .tc := ⟨.hbm, 158, rfl⟩
abbrev main_call4_v12 : Ref sig .tc := ⟨.hbm, 159, rfl⟩
abbrev main_call4_v13 : Ref sig .tc := ⟨.hbm, 160, rfl⟩
abbrev main_call4_v14 : Ref sig .tc := ⟨.hbm, 161, rfl⟩
abbrev main_call4_cst : Ref sig .tc := ⟨.hbm, 162, rfl⟩
abbrev main_call4_v15 : Ref sig .tc := ⟨.hbm, 163, rfl⟩
abbrev main_v38 : Ref sig .tc := ⟨.hbm, 164, rfl⟩
abbrev main_call5_c : Ref sig .tc := ⟨.hbm, 165, rfl⟩
abbrev main_call5_v0 : Ref sig .tc := ⟨.hbm, 166, rfl⟩
abbrev main_call5_v1 : Ref sig .tc := ⟨.hbm, 167, rfl⟩
abbrev main_call5_c_0 : Ref sig .tc := ⟨.hbm, 168, rfl⟩
abbrev main_call5_v2 : Ref sig .tc := ⟨.hbm, 169, rfl⟩
abbrev main_call5_v3 : Ref sig .tc := ⟨.hbm, 170, rfl⟩
abbrev main_call5_v4 : Ref sig .tc := ⟨.hbm, 171, rfl⟩
abbrev main_call5_v5 : Ref sig .tc := ⟨.hbm, 172, rfl⟩
abbrev main_call5_c_1 : Ref sig .tc := ⟨.hbm, 173, rfl⟩
abbrev main_call5_c_2 : Ref sig .tc := ⟨.hbm, 174, rfl⟩
abbrev main_call5_v6 : Ref sig .tc := ⟨.hbm, 175, rfl⟩
abbrev main_call5_v7 : Ref sig .tc := ⟨.hbm, 176, rfl⟩
abbrev main_call5_v8 : Ref sig .tc := ⟨.hbm, 177, rfl⟩
abbrev main_call5_v9 : Ref sig .tc := ⟨.hbm, 178, rfl⟩
abbrev main_call5_v10 : Ref sig .tc := ⟨.hbm, 179, rfl⟩
abbrev main_call5_v11 : Ref sig .tc := ⟨.hbm, 180, rfl⟩
abbrev main_call5_c_3 : Ref sig .tc := ⟨.hbm, 181, rfl⟩
abbrev main_call5_v12 : Ref sig .tc := ⟨.hbm, 182, rfl⟩
abbrev main_call5_v13 : Ref sig .tc := ⟨.hbm, 183, rfl⟩
abbrev main_call5_v14 : Ref sig .tc := ⟨.hbm, 184, rfl⟩
abbrev main_call5_cst : Ref sig .tc := ⟨.hbm, 185, rfl⟩
abbrev main_call5_v15 : Ref sig .tc := ⟨.hbm, 186, rfl⟩
abbrev main_v39 : Ref sig .tc := ⟨.hbm, 187, rfl⟩
abbrev main_v40 : Ref sig .tc := ⟨.hbm, 188, rfl⟩
abbrev main_v41 : Ref sig .tc := ⟨.hbm, 189, rfl⟩
abbrev main_v42 : Ref sig .tc := ⟨.hbm, 190, rfl⟩
abbrev main_v43 : Ref sig .tc := ⟨.hbm, 191, rfl⟩
abbrev main_v44 : Ref sig .tc := ⟨.hbm, 192, rfl⟩
abbrev main_cst_3 : Ref sig .tc := ⟨.hbm, 193, rfl⟩
abbrev main_v45 : Ref sig .tc := ⟨.hbm, 194, rfl⟩
abbrev main_v46 : Ref sig .tc := ⟨.hbm, 195, rfl⟩
abbrev main_v47 : Ref sig .tc := ⟨.hbm, 196, rfl⟩
abbrev main_cst_4 : Ref sig .tc := ⟨.hbm, 197, rfl⟩
abbrev main_v48 : Ref sig .tc := ⟨.hbm, 198, rfl⟩
abbrev main_v49 : Ref sig .tc := ⟨.hbm, 199, rfl⟩
abbrev main_v50 : Ref sig .tc := ⟨.hbm, 200, rfl⟩
abbrev main_v51 : Ref sig .tc := ⟨.hbm, 201, rfl⟩
abbrev main_v52 : Ref sig .tc := ⟨.hbm, 202, rfl⟩
abbrev main_v53 : Ref sig .tc := ⟨.hbm, 203, rfl⟩
abbrev main_call6_c : Ref sig .tc := ⟨.hbm, 204, rfl⟩
abbrev main_call6_v0 : Ref sig .tc := ⟨.hbm, 205, rfl⟩
abbrev main_call6_v1 : Ref sig .tc := ⟨.hbm, 206, rfl⟩
abbrev main_call6_c_0 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_call6_v5 : Ref sig .tc := ⟨.hbm, 211, rfl⟩
abbrev main_call6_c_1 : Ref sig .tc := ⟨.hbm, 212, rfl⟩
abbrev main_call6_c_2 : Ref sig .tc := ⟨.hbm, 213, rfl⟩
abbrev main_call6_v6 : Ref sig .tc := ⟨.hbm, 214, rfl⟩
abbrev main_call6_v7 : Ref sig .tc := ⟨.hbm, 215, rfl⟩
abbrev main_call6_v8 : Ref sig .tc := ⟨.hbm, 216, rfl⟩
abbrev main_call6_v9 : Ref sig .tc := ⟨.hbm, 217, rfl⟩
abbrev main_call6_v10 : Ref sig .tc := ⟨.hbm, 218, rfl⟩
abbrev main_call6_v11 : Ref sig .tc := ⟨.hbm, 219, rfl⟩
abbrev main_call6_c_3 : Ref sig .tc := ⟨.hbm, 220, rfl⟩
abbrev main_call6_v12 : Ref sig .tc := ⟨.hbm, 221, rfl⟩
abbrev main_call6_v13 : Ref sig .tc := ⟨.hbm, 222, rfl⟩
abbrev main_call6_v14 : Ref sig .tc := ⟨.hbm, 223, rfl⟩
abbrev main_call6_cst : Ref sig .tc := ⟨.hbm, 224, rfl⟩
abbrev main_call6_v15 : Ref sig .tc := ⟨.hbm, 225, rfl⟩
abbrev main_v54 : Ref sig .tc := ⟨.hbm, 226, rfl⟩
abbrev main_call7_c : Ref sig .tc := ⟨.hbm, 227, rfl⟩
abbrev main_call7_v0 : Ref sig .tc := ⟨.hbm, 228, rfl⟩
abbrev main_call7_v1 : Ref sig .tc := ⟨.hbm, 229, rfl⟩
abbrev main_call7_c_0 : Ref sig .tc := ⟨.hbm, 230, rfl⟩
abbrev main_call7_v2 : Ref sig .tc := ⟨.hbm, 231, rfl⟩
abbrev main_call7_v3 : Ref sig .tc := ⟨.hbm, 232, rfl⟩
abbrev main_call7_v4 : Ref sig .tc := ⟨.hbm, 233, rfl⟩
abbrev main_call7_v5 : Ref sig .tc := ⟨.hbm, 234, rfl⟩
abbrev main_call7_c_1 : Ref sig .tc := ⟨.hbm, 235, rfl⟩
abbrev main_call7_c_2 : Ref sig .tc := ⟨.hbm, 236, rfl⟩
abbrev main_call7_v6 : Ref sig .tc := ⟨.hbm, 237, rfl⟩
abbrev main_call7_v7 : Ref sig .tc := ⟨.hbm, 238, rfl⟩
abbrev main_call7_v8 : Ref sig .tc := ⟨.hbm, 239, rfl⟩
abbrev main_call7_v9 : Ref sig .tc := ⟨.hbm, 240, rfl⟩
abbrev main_call7_v10 : Ref sig .tc := ⟨.hbm, 241, rfl⟩
abbrev main_call7_v11 : Ref sig .tc := ⟨.hbm, 242, rfl⟩
abbrev main_call7_c_3 : Ref sig .tc := ⟨.hbm, 243, rfl⟩
abbrev main_call7_v12 : Ref sig .tc := ⟨.hbm, 244, rfl⟩
abbrev main_call7_v13 : Ref sig .tc := ⟨.hbm, 245, rfl⟩
abbrev main_call7_v14 : Ref sig .tc := ⟨.hbm, 246, rfl⟩
abbrev main_call7_cst : Ref sig .tc := ⟨.hbm, 247, rfl⟩
abbrev main_call7_v15 : Ref sig .tc := ⟨.hbm, 248, rfl⟩
abbrev main_v55 : Ref sig .tc := ⟨.hbm, 249, rfl⟩
abbrev main_v56 : Ref sig .tc := ⟨.hbm, 250, rfl⟩
abbrev main_v57 : Ref sig .tc := ⟨.hbm, 251, rfl⟩
abbrev main_v58 : Ref sig .tc := ⟨.hbm, 252, rfl⟩
abbrev main_v59 : Ref sig .tc := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg8_0 : Ref sig .tc := ⟨.vmem, 28, rfl⟩
abbrev cc2_stg8_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg8_0 : Ref sig .tc := ⟨.vmem, 52, rfl⟩
abbrev cc4_stg8_1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg6_0 : Ref sig .tc := ⟨.vmem, 62, rfl⟩
abbrev cc5_stg6_1 : Ref sig .tc := ⟨.vmem, 63, rfl⟩
abbrev cc6_stg0_0 : Ref sig .tc := ⟨.vmem, 64, rfl⟩
abbrev cc6_stg0_1 : Ref sig .tc := ⟨.vmem, 65, rfl⟩
abbrev cc6_stg1_0 : Ref sig .tc := ⟨.vmem, 66, rfl⟩
abbrev cc6_stg1_1 : Ref sig .tc := ⟨.vmem, 67, rfl⟩
abbrev cc6_stg2_0 : Ref sig .tc := ⟨.vmem, 68, rfl⟩
abbrev cc6_stg2_1 : Ref sig .tc := ⟨.vmem, 69, rfl⟩
abbrev cc6_stg3_0 : Ref sig .tc := ⟨.vmem, 70, rfl⟩
abbrev cc6_stg3_1 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg6_0 : Ref sig .tc := ⟨.vmem, 74, rfl⟩
abbrev cc6_stg7_0 : Ref sig .tc := ⟨.vmem, 75, rfl⟩
abbrev cc6_stg8_0 : Ref sig .tc := ⟨.vmem, 76, rfl⟩
abbrev cc6_stg8_1 : Ref sig .tc := ⟨.vmem, 77, rfl⟩
abbrev cc7_stg0_0 : Ref sig .tc := ⟨.vmem, 78, rfl⟩
abbrev cc7_stg0_1 : Ref sig .tc := ⟨.vmem, 79, rfl⟩
abbrev cc7_stg1_0 : Ref sig .tc := ⟨.vmem, 80, rfl⟩
abbrev cc7_stg1_1 : Ref sig .tc := ⟨.vmem, 81, rfl⟩
abbrev cc7_stg2_0 : Ref sig .tc := ⟨.vmem, 82, rfl⟩
abbrev cc7_stg3_0 : Ref sig .tc := ⟨.vmem, 83, rfl⟩
abbrev cc7_stg4_0 : Ref sig .tc := ⟨.vmem, 84, rfl⟩
abbrev cc7_stg5_0 : Ref sig .tc := ⟨.vmem, 85, rfl⟩
abbrev cc7_stg6_0 : Ref sig .tc := ⟨.vmem, 86, rfl⟩
abbrev cc7_stg6_1 : Ref sig .tc := ⟨.vmem, 87, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem8_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem8_0 : DmaSem sig := 52
abbrev cc4_sem8_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem6_0 : DmaSem sig := 62
abbrev cc5_sem6_1 : DmaSem sig := 63
abbrev cc6_sem0_0 : DmaSem sig := 64
abbrev cc6_sem0_1 : DmaSem sig := 65
abbrev cc6_sem1_0 : DmaSem sig := 66
abbrev cc6_sem1_1 : DmaSem sig := 67
abbrev cc6_sem2_0 : DmaSem sig := 68
abbrev cc6_sem2_1 : DmaSem sig := 69
abbrev cc6_sem3_0 : DmaSem sig := 70
abbrev cc6_sem3_1 : DmaSem sig := 71
abbrev cc6_sem4_0 : DmaSem sig := 72
abbrev cc6_sem5_0 : DmaSem sig := 73
abbrev cc6_sem6_0 : DmaSem sig := 74
abbrev cc6_sem7_0 : DmaSem sig := 75
abbrev cc6_sem8_0 : DmaSem sig := 76
abbrev cc6_sem8_1 : DmaSem sig := 77
abbrev cc7_sem0_0 : DmaSem sig := 78
abbrev cc7_sem0_1 : DmaSem sig := 79
abbrev cc7_sem1_0 : DmaSem sig := 80
abbrev cc7_sem1_1 : DmaSem sig := 81
abbrev cc7_sem2_0 : DmaSem sig := 82
abbrev cc7_sem3_0 : DmaSem sig := 83
abbrev cc7_sem4_0 : DmaSem sig := 84
abbrev cc7_sem5_0 : DmaSem sig := 85
abbrev cc7_sem6_0 : DmaSem sig := 86
abbrev cc7_sem6_1 : DmaSem sig := 87

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![625], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x10 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S20x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S6400x20 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x10 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S30x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S8x8 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x8 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x10 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![625], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6400x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6400x10 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S20x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S6400x20 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x10 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x10 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x10 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x2 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S30x8 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x8 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S8x8 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x8 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S5000x10 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![625], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6400x10 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6400x10 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S20x8 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x8 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S8x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S6400x20 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x10 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x10 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x10 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S30x8 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x8 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S8x8 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x8 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S5000x10 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![625], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6400x10 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S6400x10 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S20x8 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x8 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S8x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S6400x1 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  shapeCasts_S8_S1x8 : S8.ShapeCasts S1x8
  inb_S5000x2_S5000x2_0_0 : ∀ a, (![0, 0] : Fin 2 → Nat) a + S5000x2.size a ≤ S5000x2.size a
  h_S5000x2 : 0 < S5000x2.numel
  bitsLt_bf16_f32 : FTy.bits .bf16 < FTy.bits .f32
  inb_S2x8_S2x8_0_0 : ∀ a, (![0, 0] : Fin 2 → Nat) a + S2x8.size a ≤ S2x8.size a
  h_S2x8 : 0 < S2x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  concatenates_S5000x8_S5000x2_S5000x10_d1 : Shape.Concatenates [S5000x8, S5000x2] S5000x10 1
  inb_S5000x10_S5000x10_0_0 : ∀ a, (![0, 0] : Fin 2 → Nat) a + S5000x10.size a ≤ S5000x10.size a
  h_S5000x10 : 0 < S5000x10.numel
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  reducesTo_S4000000x1_S4000000_d1 : S4000000x1.ReducesTo [1] S4000000
  h_S_ : 0 < S_.numel
  bcast_S4000000_S4000000x10_0 : S4000000.BroadcastsInDim S4000000x10 (![0] : Fin 1 → Fin S4000000x10.rank)
  bcast_S_S4000000x10 : S_.BroadcastsInDim S4000000x10 (![] : Fin 0 → Fin S4000000x10.rank)
  shapeCasts_S1_S1x1 : S1.ShapeCasts S1x1
  inb_S6400x10_S6400x10_0_0 : ∀ a, (![0, 0] : Fin 2 → Nat) a + S6400x10.size a ≤ S6400x10.size a
  h_S6400x10 : 0 < S6400x10.numel
  shapeCasts_S6400x10_S6400x10 : S6400x10.ShapeCasts S6400x10
  concatenates_S6400x10_S6400x10_S6400x20_d1 : Shape.Concatenates [S6400x10, S6400x10] S6400x20 1
  inb_S20x8_S20x8_0_0 : ∀ a, (![0, 0] : Fin 2 → Nat) a + S20x8.size a ≤ S20x8.size a
  h_S20x8 : 0 < S20x8.numel
  broadcasts_S1x8_S6400x8 : S1x8.Broadcasts S6400x8
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  broadcasts_S6400x1_S6400x10 : S6400x1.Broadcasts S6400x10
  inb_S6400x20_S6400x20_0_0 : ∀ a, (![0, 0] : Fin 2 → Nat) a + S6400x20.size a ≤ S6400x20.size a
  h_S6400x20 : 0 < S6400x20.numel
  slices_S4000000x20_S4000000x10_0_0 : S4000000x20.Slices ![0, 0] S4000000x10
  slices_S4000000x20_S4000000x10_0_10 : S4000000x20.Slices ![0, 10] S4000000x10
  bcast_S_S500000x10 : S_.BroadcastsInDim S500000x10 (![] : Fin 0 → Fin S500000x10.rank)
  shapeCasts_S5000x10_S5000x10 : S5000x10.ShapeCasts S5000x10
  concatenates_S5000x10_S5000x10_S5000x10_S5000x30_d1 : Shape.Concatenates [S5000x10, S5000x10, S5000x10] S5000x30 1
  inb_S30x8_S30x8_0_0 : ∀ a, (![0, 0] : Fin 2 → Nat) a + S30x8.size a ≤ S30x8.size a
  h_S30x8 : 0 < S30x8.numel
  inb_S8x8_S8x8_0_0 : ∀ a, (![0, 0] : Fin 2 → Nat) a + S8x8.size a ≤ S8x8.size a
  h_S8x8 : 0 < S8x8.numel
  inb_S6400x1_S6400x1_0_0 : ∀ a, (![0, 0] : Fin 2 → Nat) a + S6400x1.size a ≤ S6400x1.size a
  h_S6400x1 : 0 < S6400x1.numel
  shapeCasts_S4000000x1_S4000000 : S4000000x1.ShapeCasts S4000000
  dot_S5000x2_S2x8_S5000x8_1_0_0_1_n_n_wf : DotDims.WF S5000x2 S2x8 S5000x8 [1] [0] [0] [1] [] []
  gather_S500000x10_S4000000x1_S4000000x10_1_0_n_n_0_1_110_wf : GatherDims.WF S500000x10 S4000000x1 S4000000x10 [1] [0] [] [0] [] 1 ![1, 10]
  dot_S6400x20_S20x8_S6400x8_1_0_0_1_n_n_wf : DotDims.WF S6400x20 S20x8 S6400x8 [1] [0] [0] [1] [] []
  dot_S6400x8_S8x1_S6400x1_1_0_0_1_n_n_wf : DotDims.WF S6400x8 S8x1 S6400x1 [1] [0] [0] [1] [] []
  scatter_S500000x10_S4000000x1_S4000000x10_1_0_0_1_wf : ScatterDims.WF S500000x10 S4000000x1 S4000000x10 [1] [0] [0] 1
  dot_S5000x30_S30x8_S5000x8_1_0_0_1_n_n_wf : DotDims.WF S5000x30 S30x8 S5000x8 [1] [0] [0] [1] [] []
  dot_S5000x8_S8x8_S5000x8_1_0_0_1_n_n_wf : DotDims.WF S5000x8 S8x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S500000x2.size a
  hwx0_0 : ∀ i : grid0.Coords, EltTy.bits .f32 = 32 ∨ (Rect.block (s := S500000x2) S5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x8.size a ≤ S2x8.size a
  hwx0_1 : ∀ i : grid0.Coords, EltTy.bits .f32 = 32 ∨ (Rect.block (s := S2x8) S2x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x10.size a ≤ S500000x10.size a
  hwx0_3 : ∀ i : grid0.Coords, EltTy.bits .f32 = 32 ∨ (Rect.block (s := S500000x10) S5000x10.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x10.size a ≤ S4000000x10.size a
  hwx1_0 : ∀ i : grid1.Coords, EltTy.bits .f32 = 32 ∨ (Rect.block (s := S4000000x10) S6400x10.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x10.size a ≤ S4000000x10.size a
  hwx1_1 : ∀ i : grid1.Coords, EltTy.bits .f32 = 32 ∨ (Rect.block (s := S4000000x10) S6400x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20x8.size a ≤ S20x8.size a
  hwx1_2 : ∀ i : grid1.Coords, EltTy.bits .f32 = 32 ∨ (Rect.block (s := S20x8) S20x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x1.size a ≤ S8x1.size a
  hwx1_4 : ∀ i : grid1.Coords, EltTy.bits .f32 = 32 ∨ (Rect.block (s := S8x1) S8x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S6400x20.size a ≤ S4000000x20.size a
  hwx1_6 : ∀ i : grid1.Coords, EltTy.bits .f32 = 32 ∨ (Rect.block (s := S4000000x20) S6400x20.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x10.size a ≤ S500000x10.size a
  hwx2_0 : ∀ i : grid2.Coords, EltTy.bits .f32 = 32 ∨ (Rect.block (s := S500000x10) S5000x10.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x10.size a ≤ S500000x10.size a
  hwx2_1 : ∀ i : grid2.Coords, EltTy.bits .f32 = 32 ∨ (Rect.block (s := S500000x10) S5000x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x10.size a ≤ S500000x10.size a
  hwx2_2 : ∀ i : grid2.Coords, EltTy.bits .f32 = 32 ∨ (Rect.block (s := S500000x10) S5000x10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S500000x2.size a
  hwx2_3 : ∀ i : grid2.Coords, EltTy.bits .f32 = 32 ∨ (Rect.block (s := S500000x2) S5000x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S30x8.size a ≤ S30x8.size a
  hwx2_4 : ∀ i : grid2.Coords, EltTy.bits .f32 = 32 ∨ (Rect.block (s := S30x8) S30x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x8.size a ≤ S1x8.size a
  hwx2_5 : ∀ i : grid2.Coords, EltTy.bits .f32 = 32 ∨ (Rect.block (s := S1x8) S1x8.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S8x8.size a ≤ S8x8.size a
  hwx2_6 : ∀ i : grid2.Coords, EltTy.bits .f32 = 32 ∨ (Rect.block (s := S8x8) S8x8.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x8.size a ≤ S1x8.size a
  hwx2_7 : ∀ i : grid2.Coords, EltTy.bits .f32 = 32 ∨ (Rect.block (s := S1x8) S1x8.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x10.size a ≤ S500000x10.size a
  hwx2_8 : ∀ i : grid2.Coords, EltTy.bits .f32 = 32 ∨ (Rect.block (s := S500000x10) S5000x10.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x10.size a ≤ S4000000x10.size a
  hwx3_0 : ∀ i : grid3.Coords, EltTy.bits .f32 = 32 ∨ (Rect.block (s := S4000000x10) S6400x10.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6400x10.size a ≤ S4000000x10.size a
  hwx3_1 : ∀ i : grid3.Coords, EltTy.bits .f32 = 32 ∨ (Rect.block (s := S4000000x10) S6400x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S20x8.size a ≤ S20x8.size a
  hwx3_2 : ∀ i : grid3.Coords, EltTy.bits .f32 = 32 ∨ (Rect.block (s := S20x8) S20x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x8.size a ≤ S1x8.size a
  hwx3_3 : ∀ i : grid3.Coords, EltTy.bits .f32 = 32 ∨ (Rect.block (s := S1x8) S1x8.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S8x1.size a ≤ S8x1.size a
  hwx3_4 : ∀ i : grid3.Coords, EltTy.bits .f32 = 32 ∨ (Rect.block (s := S8x1) S8x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S6400x20.size a ≤ S4000000x20.size a
  hwx3_6 : ∀ i : grid3.Coords, EltTy.bits .f32 = 32 ∨ (Rect.block (s := S4000000x20) S6400x20.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x10.size a ≤ S500000x10.size a
  hwx4_0 : ∀ i : grid4.Coords, EltTy.bits .f32 = 32 ∨ (Rect.block (s := S500000x10) S5000x10.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x10.size a ≤ S500000x10.size a
  hwx4_1 : ∀ i : grid4.Coords, EltTy.bits .f32 = 32 ∨ (Rect.block (s := S500000x10) S5000x10.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x10.size a ≤ S500000x10.size a
  hwx4_2 : ∀ i : grid4.Coords, EltTy.bits .f32 = 32 ∨ (Rect.block (s := S500000x10) S5000x10.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x2.size a ≤ S500000x2.size a
  hwx4_3 : ∀ i : grid4.Coords, EltTy.bits .f32 = 32 ∨ (Rect.block (s := S500000x2) S5000x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S30x8.size a ≤ S30x8.size a
  hwx4_4 : ∀ i : grid4.Coords, EltTy.bits .f32 = 32 ∨ (Rect.block (s := S30x8) S30x8.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x8.size a ≤ S1x8.size a
  hwx4_5 : ∀ i : grid4.Coords, EltTy.bits .f32 = 32 ∨ (Rect.block (s := S1x8) S1x8.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S8x8.size a ≤ S8x8.size a
  hwx4_6 : ∀ i : grid4.Coords, EltTy.bits .f32 = 32 ∨ (Rect.block (s := S8x8) S8x8.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x8.size a ≤ S1x8.size a
  hwx4_7 : ∀ i : grid4.Coords, EltTy.bits .f32 = 32 ∨ (Rect.block (s := S1x8) S1x8.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x10.size a ≤ S500000x10.size a
  hwx4_8 : ∀ i : grid4.Coords, EltTy.bits .f32 = 32 ∨ (Rect.block (s := S500000x10) S5000x10.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6400x10.size a ≤ S4000000x10.size a
  hwx5_0 : ∀ i : grid5.Coords, EltTy.bits .f32 = 32 ∨ (Rect.block (s := S4000000x10) S6400x10.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6400x10.size a ≤ S4000000x10.size a
  hwx5_1 : ∀ i : grid5.Coords, EltTy.bits .f32 = 32 ∨ (Rect.block (s := S4000000x10) S6400x10.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S20x8.size a ≤ S20x8.size a
  hwx5_2 : ∀ i : grid5.Coords, EltTy.bits .f32 = 32 ∨ (Rect.block (s := S20x8) S20x8.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x8.size a ≤ S1x8.size a
  hwx5_3 : ∀ i : grid5.Coords, EltTy.bits .f32 = 32 ∨ (Rect.block (s := S1x8) S1x8.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S8x1.size a ≤ S8x1.size a
  hwx5_4 : ∀ i : grid5.Coords, EltTy.bits .f32 = 32 ∨ (Rect.block (s := S8x1) S8x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x1.size a ≤ S1x1.size a
  hwx5_5 : ∀ i : grid5.Coords, EltTy.bits .f32 = 32 ∨ (Rect.block (s := S1x1) S1x1.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S6400x20.size a ≤ S4000000x20.size a
  hwx5_6 : ∀ i : grid5.Coords, EltTy.bits .f32 = 32 ∨ (Rect.block (s := S4000000x20) S6400x20.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x10.size a ≤ S500000x10.size a
  hwx6_0 : ∀ i : grid6.Coords, EltTy.bits .f32 = 32 ∨ (Rect.block (s := S500000x10) S5000x10.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x10.size a ≤ S500000x10.size a
  hwx6_1 : ∀ i : grid6.Coords, EltTy.bits .f32 = 32 ∨ (Rect.block (s := S500000x10) S5000x10.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x10.size a ≤ S500000x10.size a
  hwx6_2 : ∀ i : grid6.Coords, EltTy.bits .f32 = 32 ∨ (Rect.block (s := S500000x10) S5000x10.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x2.size a ≤ S500000x2.size a
  hwx6_3 : ∀ i : grid6.Coords, EltTy.bits .f32 = 32 ∨ (Rect.block (s := S500000x2) S5000x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S30x8.size a ≤ S30x8.size a
  hwx6_4 : ∀ i : grid6.Coords, EltTy.bits .f32 = 32 ∨ (Rect.block (s := S30x8) S30x8.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x8.size a ≤ S1x8.size a
  hwx6_5 : ∀ i : grid6.Coords, EltTy.bits .f32 = 32 ∨ (Rect.block (s := S1x8) S1x8.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S8x8.size a ≤ S8x8.size a
  hwx6_6 : ∀ i : grid6.Coords, EltTy.bits .f32 = 32 ∨ (Rect.block (s := S8x8) S8x8.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x8.size a ≤ S1x8.size a
  hwx6_7 : ∀ i : grid6.Coords, EltTy.bits .f32 = 32 ∨ (Rect.block (s := S1x8) S1x8.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S5000x10.size a ≤ S500000x10.size a
  hwx6_8 : ∀ i : grid6.Coords, EltTy.bits .f32 = 32 ∨ (Rect.block (s := S500000x10) S5000x10.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6400x10.size a ≤ S4000000x10.size a
  hwx7_0 : ∀ i : grid7.Coords, EltTy.bits .f32 = 32 ∨ (Rect.block (s := S4000000x10) S6400x10.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S6400x10.size a ≤ S4000000x10.size a
  hwx7_1 : ∀ i : grid7.Coords, EltTy.bits .f32 = 32 ∨ (Rect.block (s := S4000000x10) S6400x10.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S20x8.size a ≤ S20x8.size a
  hwx7_2 : ∀ i : grid7.Coords, EltTy.bits .f32 = 32 ∨ (Rect.block (s := S20x8) S20x8.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x8.size a ≤ S1x8.size a
  hwx7_3 : ∀ i : grid7.Coords, EltTy.bits .f32 = 32 ∨ (Rect.block (s := S1x8) S1x8.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S8x1.size a ≤ S8x1.size a
  hwx7_4 : ∀ i : grid7.Coords, EltTy.bits .f32 = 32 ∨ (Rect.block (s := S8x1) S8x1.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x1.size a ≤ S1x1.size a
  hwx7_5 : ∀ i : grid7.Coords, EltTy.bits .f32 = 32 ∨ (Rect.block (s := S1x1) S1x1.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S6400x1.size a ≤ S4000000x1.size a
  hwx7_6 : ∀ i : grid7.Coords, EltTy.bits .f32 = 32 ∨ (Rect.block (s := S4000000x1) S6400x1.size (cc7_transform_6 i) (hinb7_6 i)).WholeWords (EltTy.packing .f32)

variable [Facts₀]

def dot_S5000x2_S2x8_S5000x8_1_0_0_1_n_n : DotDims S5000x2 S2x8 S5000x8 where
  lhsContracting := [1]
  rhsContracting := [0]
  lhsNonContracting := [0]
  rhsNonContracting := [1]
  lhsBatch := []
  rhsBatch := []
  wf := dot_S5000x2_S2x8_S5000x8_1_0_0_1_n_n_wf
def gather_S500000x10_S4000000x1_S4000000x10_1_0_n_n_0_1_110 : GatherDims S500000x10 S4000000x1 S4000000x10 where
  offsetDims := [1]
  collapsedSliceDims := [0]
  operandBatchingDims := []
  startIndicesBatchingDims := []
  startIndexMap := [0]
  indexVectorDim := 1
  sliceSizes := ![1, 10]
  wf := gather_S500000x10_S4000000x1_S4000000x10_1_0_n_n_0_1_110_wf
def dot_S6400x20_S20x8_S6400x8_1_0_0_1_n_n : DotDims S6400x20 S20x8 S6400x8 where
  lhsContracting := [1]
  rhsContracting := [0]
  lhsNonContracting := [0]
  rhsNonContracting := [1]
  lhsBatch := []
  rhsBatch := []
  wf := dot_S6400x20_S20x8_S6400x8_1_0_0_1_n_n_wf
def dot_S6400x8_S8x1_S6400x1_1_0_0_1_n_n : DotDims S6400x8 S8x1 S6400x1 where
  lhsContracting := [1]
  rhsContracting := [0]
  lhsNonContracting := [0]
  rhsNonContracting := [1]
  lhsBatch := []
  rhsBatch := []
  wf := dot_S6400x8_S8x1_S6400x1_1_0_0_1_n_n_wf
def scatter_S500000x10_S4000000x1_S4000000x10_1_0_0_1 : ScatterDims S500000x10 S4000000x1 S4000000x10 where
  updateWindowDims := [1]
  insertedWindowDims := [0]
  scatterDimsToOperandDims := [0]
  indexVectorDim := 1
  wf := scatter_S500000x10_S4000000x1_S4000000x10_1_0_0_1_wf
def dot_S5000x30_S30x8_S5000x8_1_0_0_1_n_n : DotDims S5000x30 S30x8 S5000x8 where
  lhsContracting := [1]
  rhsContracting := [0]
  lhsNonContracting := [0]
  rhsNonContracting := [1]
  lhsBatch := []
  rhsBatch := []
  wf := dot_S5000x30_S30x8_S5000x8_1_0_0_1_n_n_wf
def dot_S5000x8_S8x8_S5000x8_1_0_0_1_n_n : DotDims S5000x8 S8x8 S5000x8 where
  lhsContracting := [1]
  rhsContracting := [0]
  lhsNonContracting := [0]
  rhsNonContracting := [1]
  lhsBatch := []
  rhsBatch := []
  wf := dot_S5000x8_S8x8_S5000x8_1_0_0_1_n_n_wf

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S6400x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S6400x10.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S20x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S8x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S6400x20.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v15) S5000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x10.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S5000x10.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S5000x2.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S30x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S1x8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S8x8.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v20) S1x8.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v21) S5000x10.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v22) S6400x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S6400x10.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S20x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S8x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v25) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v26) S6400x20.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v31) S5000x10.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v34) S5000x10.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v21) S5000x10.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg0) S5000x2.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg8) S30x8.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v35) S1x8.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg10) S8x8.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v36) S1x8.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v37) S5000x10.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v38) S6400x10.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v39) S6400x10.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg4) S20x8.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v40) S1x8.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg6) S8x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v41) S1x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v42) S6400x20.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v47) S5000x10.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v50) S5000x10.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v37) S5000x10.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg0) S5000x2.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_arg8) S30x8.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v51) S1x8.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg10) S8x8.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v52) S1x8.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v53) S5000x10.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v54) S6400x10.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v55) S6400x10.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg4) S20x8.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v56) S1x8.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg6) S8x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v57) S1x1.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v58) S6400x1.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S500000x2 : Shape := ⟨2, ![500000, 2]⟩
abbrev S2x4000000 : Shape := ⟨2, ![2, 4000000]⟩
abbrev S2x8 : Shape := ⟨2, ![2, 8]⟩
abbrev S8 : Shape := ⟨1, ![8]⟩
abbrev S20x8 : Shape := ⟨2, ![20, 8]⟩
abbrev S8x1 : Shape := ⟨2, ![8, 1]⟩
abbrev S1 : Shape := ⟨1, ![1]⟩
abbrev S30x8 : Shape := ⟨2, ![30, 8]⟩
abbrev S8x8 : Shape := ⟨2, ![8, 8]⟩
abbrev S1x4000000 : Shape := ⟨2, ![1, 4000000]⟩
abbrev S4000000 : Shape := ⟨1, ![4000000]⟩
abbrev S500000x8 : Shape := ⟨2, ![500000, 8]⟩
abbrev S1x8 : Shape := ⟨2, ![1, 8]⟩
abbrev S500000x10 : Shape := ⟨2, ![500000, 10]⟩
abbrev S_ : Shape := ⟨0, ![]⟩
abbrev S4000000x1 : Shape := ⟨2, ![4000000, 1]⟩
abbrev S4000000x10 : Shape := ⟨2, ![4000000, 10]⟩
abbrev S4000000x20 : Shape := ⟨2, ![4000000, 20]⟩
abbrev S4000000x8 : Shape := ⟨2, ![4000000, 8]⟩
abbrev S1x1 : Shape := ⟨2, ![1, 1]⟩
abbrev S500000x30 : Shape := ⟨2, ![500000, 30]⟩

abbrev nBuf : Space → Nat
  | .hbm => 293
  | .vmem => 0
  | .smem => 0
  | _ => 0

abbrev hbmTy0_0 (i : Nat) : BufTy := match i % 128 with
  | 0 => ⟨S500000x2, .f32⟩
  | 1 => ⟨S2x4000000, .i32⟩
  | 2 => ⟨S2x8, .f32⟩
  | 3 => ⟨S8, .f32⟩
  | 4 => ⟨S20x8, .f32⟩
  | 5 => ⟨S8, .f32⟩
  | 6 => ⟨S8x1, .f32⟩
  | 7 => ⟨S1, .f32⟩
  | 8 => ⟨S30x8, .f32⟩
  | 9 => ⟨S8, .f32⟩
  | 10 => ⟨S8x8, .f32⟩
  | 11 => ⟨S8, .f32⟩
  | 12 => ⟨S1x4000000, .i32⟩
  | 13 => ⟨S4000000, .i32⟩
  | 14 => ⟨S1x4000000, .i32⟩
  | 15 => ⟨S4000000, .i32⟩
  | 16 => ⟨S500000x8, .f32⟩
  | 17 => ⟨S1x8, .f32⟩
  | 18 => ⟨S500000x8, .f32⟩
  | 19 => ⟨S500000x8, .f32⟩
  | 20 => ⟨S500000x8, .f32⟩
  | 21 => ⟨S500000x10, .f32⟩
  | 22 => ⟨S_, .i32⟩
  | 23 => ⟨S4000000, .i32⟩
  | 24 => ⟨S4000000, .i1⟩
  | 25 => ⟨S_, .i32⟩
  | 26 => ⟨S4000000, .i32⟩
  | 27 => ⟨S4000000, .i32⟩
  | 28 => ⟨S4000000, .i32⟩
  | 29 => ⟨S4000000x1, .i32⟩
  | 30 => ⟨S4000000x10, .f32⟩
  | 31 => ⟨S_, .i32⟩
  | 32 => ⟨S4000000, .i32⟩
  | 33 => ⟨S4000000, .i1⟩
  | 34 => ⟨S_, .i32⟩
  | 35 => ⟨S4000000, .i32⟩
  | 36 => ⟨S4000000, .i32⟩
  | 37 => ⟨S4000000, .i32⟩
  | 38 => ⟨S4000000x1, .i32⟩
  | 39 => ⟨S4000000x10, .f32⟩
  | 40 => ⟨S4000000x20, .f32⟩
  | 41 => ⟨S4000000x8, .f32⟩
  | 42 => ⟨S1x8, .f32⟩
  | 43 => ⟨S4000000x8, .f32⟩
  | 44 => ⟨S4000000x8, .f32⟩
  | 45 => ⟨S4000000x8, .f32⟩
  | 46 => ⟨S4000000x1, .f32⟩
  | 47 => ⟨S1x1, .f32⟩
  | 48 => ⟨S4000000x1, .f32⟩
  | 49 => ⟨S4000000x1, .f32⟩
  | 50 => ⟨S4000000x1, .f32⟩
  | 51 => ⟨S4000000x1, .f32⟩
  | 52 => ⟨S_, .f32⟩
  | 53 => ⟨S4000000x1, .f32⟩
  | 54 => ⟨S4000000x1, .f32⟩
  | 55 => ⟨S_, .f32⟩
  | 56 => ⟨S4000000x1, .f32⟩
  | 57 => ⟨S4000000x1, .f32⟩
  | 58 => ⟨S_, .i32⟩
  | 59 => ⟨S4000000, .i32⟩
  | 60 => ⟨S4000000, .i1⟩
  | 61 => ⟨S_, .i32⟩
  | 62 => ⟨S4000000, .i32⟩
  | 63 => ⟨S4000000, .i32⟩
  | 64 => ⟨S4000000, .i32⟩
  | 65 => ⟨S4000000x1, .i32⟩
  | 66 => ⟨S4000000x10, .f32⟩
  | 67 => ⟨S4000000x10, .f32⟩
  | 68 => ⟨S4000000x10, .f32⟩
  | 69 => ⟨S_, .i32⟩
  | 70 => ⟨S4000000, .i32⟩
  | 71 => ⟨S4000000, .i1⟩
  | 72 => ⟨S_, .i32⟩
  | 73 => ⟨S4000000, .i32⟩
  | 74 => ⟨S4000000, .i32⟩
  | 75 => ⟨S4000000, .i32⟩
  | 76 => ⟨S4000000x1, .i32⟩
  | 77 => ⟨S4000000x10, .f32⟩
  | 78 => ⟨S4000000x10, .f32⟩
  | 79 => ⟨S4000000x10, .f32⟩
  | 80 => ⟨S_, .f32⟩
  | 81 => ⟨S500000x10, .f32⟩
  | 82 => ⟨S4000000x1, .i32⟩
  | 83 => ⟨S500000x10, .f32⟩
  | 84 => ⟨S_, .f32⟩
  | 85 => ⟨S500000x10, .f32⟩
  | 86 => ⟨S4000000x1, .i32⟩
  | 87 => ⟨S500000x10, .f32⟩
  | 88 => ⟨S500000x30, .f32⟩
  | 89 => ⟨S500000x8, .f32⟩
  | 90 => ⟨S1x8, .f32⟩
  | 91 => ⟨S500000x8, .f32⟩
  | 92 => ⟨S500000x8, .f32⟩
  | 93 => ⟨S500000x8, .f32⟩
  | 94 => ⟨S500000x8, .f32⟩
  | 95 => ⟨S1x8, .f32⟩
  | 96 => ⟨S500000x8, .f32⟩
  | 97 => ⟨S500000x8, .f32⟩
  | 98 => ⟨S500000x8, .f32⟩
  | 99 => ⟨S500000x10, .f32⟩
  | 100 => ⟨S_, .i32⟩
  | 101 => ⟨S4000000, .i32⟩
  | 102 => ⟨S4000000, .i1⟩
  | 103 => ⟨S_, .i32⟩
  | 104 => ⟨S4000000, .i32⟩
  | 105 => ⟨S4000000, .i32⟩
  | 106 => ⟨S4000000, .i32⟩
  | 107 => ⟨S4000000x1, .i32⟩
  | 108 => ⟨S4000000x10, .f32⟩
  | 109 => ⟨S_, .i32⟩
  | 110 => ⟨S4000000, .i32⟩
  | 111 => ⟨S4000000, .i1⟩
  | 112 => ⟨S_, .i32⟩
  | 113 => ⟨S4000000, .i32⟩
  | 114 => ⟨S4000000, .i32⟩
  | 115 => ⟨S4000000, .i32⟩
  | 116 => ⟨S4000000x1, .i32⟩
  | 117 => ⟨S4000000x10, .f32⟩
  | 118 => ⟨S4000000x20, .f32⟩
  | 119 => ⟨S4000000x8, .f32⟩
  | 120 => ⟨S1x8, .f32⟩
  | 121 => ⟨S4000000x8, .f32⟩
  | 122 => ⟨S4000000x8, .f32⟩
  | 123 => ⟨S4000000x8, .f32⟩
  | 124 => ⟨S4000000x1, .f32⟩
  | 125 => ⟨S1x1, .f32⟩
  | 126 => ⟨S4000000x1, .f32⟩
  | 127 => ⟨S4000000x1, .f32⟩
  | _ => ⟨S500000x2, .f32⟩

abbrev hbmTy0_1 (i : Nat) : BufTy := match i % 128 with
  | 0 => ⟨S4000000x1, .f32⟩
  | 1 => ⟨S4000000x1, .f32⟩
  | 2 => ⟨S_, .f32⟩
  | 3 => ⟨S4000000x1, .f32⟩
  | 4 => ⟨S4000000x1, .f32⟩
  | 5 => ⟨S_, .f32⟩
  | 6 => ⟨S4000000x1, .f32⟩
  | 7 => ⟨S4000000x1, .f32⟩
  | 8 => ⟨S_, .i32⟩
  | 9 => ⟨S4000000, .i32⟩
  | 10 => ⟨S4000000, .i1⟩
  | 11 => ⟨S_, .i32⟩
  | 12 => ⟨S4000000, .i32⟩
  | 13 => ⟨S4000000, .i32⟩
  | 14 => ⟨S4000000, .i32⟩
  | 15 => ⟨S4000000x1, .i32⟩
  | 16 => ⟨S4000000x10, .f32⟩
  | 17 => ⟨S4000000x10, .f32⟩
  | 18 => ⟨S4000000x10, .f32⟩
  | 19 => ⟨S_, .i32⟩
  | 20 => ⟨S4000000, .i32⟩
  | 21 => ⟨S4000000, .i1⟩
  | 22 => ⟨S_, .i32⟩
  | 23 => ⟨S4000000, .i32⟩
  | 24 => ⟨S4000000, .i32⟩
  | 25 => ⟨S4000000, .i32⟩
  | 26 => ⟨S4000000x1, .i32⟩
  | 27 => ⟨S4000000x10, .f32⟩
  | 28 => ⟨S4000000x10, .f32⟩
  | 29 => ⟨S4000000x10, .f32⟩
  | 30 => ⟨S_, .f32⟩
  | 31 => ⟨S500000x10, .f32⟩
  | 32 => ⟨S4000000x1, .i32⟩
  | 33 => ⟨S500000x10, .f32⟩
  | 34 => ⟨S_, .f32⟩
  | 35 => ⟨S500000x10, .f32⟩
  | 36 => ⟨S4000000x1, .i32⟩
  | 37 => ⟨S500000x10, .f32⟩
  | 38 => ⟨S500000x30, .f32⟩
  | 39 => ⟨S500000x8, .f32⟩
  | 40 => ⟨S1x8, .f32⟩
  | 41 => ⟨S500000x8, .f32⟩
  | 42 => ⟨S500000x8, .f32⟩
  | 43 => ⟨S500000x8, .f32⟩
  | 44 => ⟨S500000x8, .f32⟩
  | 45 => ⟨S1x8, .f32⟩
  | 46 => ⟨S500000x8, .f32⟩
  | 47 => ⟨S500000x8, .f32⟩
  | 48 => ⟨S500000x8, .f32⟩
  | 49 => ⟨S500000x10, .f32⟩
  | 50 => ⟨S_, .i32⟩
  | 51 => ⟨S4000000, .i32⟩
  | 52 => ⟨S4000000, .i1⟩
  | 53 => ⟨S_, .i32⟩
  | 54 => ⟨S4000000, .i32⟩
  | 55 => ⟨S4000000, .i32⟩
  | 56 => ⟨S4000000, .i32⟩
  | 57 => ⟨S4000000x1, .i32⟩
  | 58 => ⟨S4000000x10, .f32⟩
  | 59 => ⟨S_, .i32⟩
  | 60 => ⟨S4000000, .i32⟩
  | 61 => ⟨S4000000, .i1⟩
  | 62 => ⟨S_, .i32⟩
  | 63 => ⟨S4000000, .i32⟩
  | 64 => ⟨S4000000, .i32⟩
  | 65 => ⟨S4000000, .i32⟩
  | 66 => ⟨S4000000x1, .i32⟩
  | 67 => ⟨S4000000x10, .f32⟩
  | 68 => ⟨S4000000x20, .f32⟩
  | 69 => ⟨S4000000x8, .f32⟩
  | 70 => ⟨S1x8, .f32⟩
  | 71 => ⟨S4000000x8, .f32⟩
  | 72 => ⟨S4000000x8, .f32⟩
  | 73 => ⟨S4000000x8, .f32⟩
  | 74 => ⟨S4000000x1, .f32⟩
  | 75 => ⟨S1x1, .f32⟩
  | 76 => ⟨S4000000x1, .f32⟩
  | 77 => ⟨S4000000x1, .f32⟩
  | 78 => ⟨S4000000x1, .f32⟩
  | 79 => ⟨S4000000x1, .f32⟩
  | 80 => ⟨S_, .f32⟩
  | 81 => ⟨S4000000x1, .f32⟩
  | 82 => ⟨S4000000x1, .f32⟩
  | 83 => ⟨S_, .f32⟩
  | 84 => ⟨S4000000x1, .f32⟩
  | 85 => ⟨S4000000x1, .f32⟩
  | 86 => ⟨S_, .i32⟩
  | 87 => ⟨S4000000, .i32⟩
  | 88 => ⟨S4000000, .i1⟩
  | 89 => ⟨S_, .i32⟩
  | 90 => ⟨S4000000, .i32⟩
  | 91 => ⟨S4000000, .i32⟩
  | 92 => ⟨S4000000, .i32⟩
  | 93 => ⟨S4000000x1, .i32⟩
  | 94 => ⟨S4000000x10, .f32⟩
  | 95 => ⟨S4000000x10, .f32⟩
  | 96 => ⟨S4000000x10, .f32⟩
  | 97 => ⟨S_, .i32⟩
  | 98 => ⟨S4000000, .i32⟩
  | 99 => ⟨S4000000, .i1⟩
  | 100 => ⟨S_, .i32⟩
  | 101 => ⟨S4000000, .i32⟩
  | 102 => ⟨S4000000, .i32⟩
  | 103 => ⟨S4000000, .i32⟩
  | 104 => ⟨S4000000x1, .i32⟩
  | 105 => ⟨S4000000x10, .f32⟩
  | 106 => ⟨S4000000x10, .f32⟩
  | 107 => ⟨S4000000x10, .f32⟩
  | 108 => ⟨S_, .f32⟩
  | 109 => ⟨S500000x10, .f32⟩
  | 110 => ⟨S4000000x1, .i32⟩
  | 111 => ⟨S500000x10, .f32⟩
  | 112 => ⟨S_, .f32⟩
  | 113 => ⟨S500000x10, .f32⟩
  | 114 => ⟨S4000000x1, .i32⟩
  | 115 => ⟨S500000x10, .f32⟩
  | 116 => ⟨S500000x30, .f32⟩
  | 117 => ⟨S500000x8, .f32⟩
  | 118 => ⟨S1x8, .f32⟩
  | 119 => ⟨S500000x8, .f32⟩
  | 120 => ⟨S500000x8, .f32⟩
  | 121 => ⟨S500000x8, .f32⟩
  | 122 => ⟨S500000x8, .f32⟩
  | 123 => ⟨S1x8, .f32⟩
  | 124 => ⟨S500000x8, .f32⟩
  | 125 => ⟨S500000x8, .f32⟩
  | 126 => ⟨S500000x8, .f32⟩
  | 127 => ⟨S500000x10, .f32⟩
  | _ => ⟨S500000x2, .f32⟩

abbrev hbmTy0_2 (i : Nat) : BufTy := match i % 128 with
  | 0 => ⟨S_, .i32⟩
  | 1 => ⟨S4000000, .i32⟩
  | 2 => ⟨S4000000, .i1⟩
  | 3 => ⟨S_, .i32⟩
  | 4 => ⟨S4000000, .i32⟩
  | 5 => ⟨S4000000, .i32⟩
  | 6 => ⟨S4000000, .i32⟩
  | 7 => ⟨S4000000x1, .i32⟩
  | 8 => ⟨S4000000x10, .f32⟩
  | 9 => ⟨S_, .i32⟩
  | 10 => ⟨S4000000, .i32⟩
  | 11 => ⟨S4000000, .i1⟩
  | 12 => ⟨S_, .i32⟩
  | 13 => ⟨S4000000, .i32⟩
  | 14 => ⟨S4000000, .i32⟩
  | 15 => ⟨S4000000, .i32⟩
  | 16 => ⟨S4000000x1, .i32⟩
  | 17 => ⟨S4000000x10, .f32⟩
  | 18 => ⟨S4000000x20, .f32⟩
  | 19 => ⟨S4000000x8, .f32⟩
  | 20 => ⟨S1x8, .f32⟩
  | 21 => ⟨S4000000x8, .f32⟩
  | 22 => ⟨S4000000x8, .f32⟩
  | 23 => ⟨S4000000x8, .f32⟩
  | 24 => ⟨S4000000x1, .f32⟩
  | 25 => ⟨S1x1, .f32⟩
  | 26 => ⟨S4000000x1, .f32⟩
  | 27 => ⟨S4000000x1, .f32⟩
  | 28 => ⟨S4000000x1, .f32⟩
  | 29 => ⟨S4000000x1, .f32⟩
  | 30 => ⟨S_, .f32⟩
  | 31 => ⟨S4000000x1, .f32⟩
  | 32 => ⟨S4000000x1, .f32⟩
  | 33 => ⟨S_, .f32⟩
  | 34 => ⟨S4000000x1, .f32⟩
  | 35 => ⟨S4000000x1, .f32⟩
  | 36 => ⟨S4000000, .f32⟩
  | _ => ⟨S500000x2, .f32⟩

abbrev hbmTy (i : Nat) : BufTy := match i / 128 with
  | 0 => hbmTy0_0 i
  | 1 => hbmTy0_1 i
  | 2 => hbmTy0_2 i
  | _ => ⟨S500000x2, .f32⟩

abbrev bufTy : (tb : Table) → Fin (tcTables nBuf tb) → BufTy
  | .hbm, ⟨i, _⟩ => hbmTy i
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_c_4 : Ref sig .tc := ⟨.hbm, 58, rfl⟩
abbrev main_v40 : Ref sig .tc := ⟨.hbm, 59, rfl⟩
abbrev main_v41 : Ref sig .tc := ⟨.hbm, 60, rfl⟩
abbrev main_c_5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_6 : Ref sig .tc := ⟨.hbm, 69, rfl⟩
abbrev main_v49 : Ref sig .tc := ⟨.hbm, 70, rfl⟩
abbrev main_v50 : Ref sig .tc := ⟨.hbm, 71, rfl⟩
abbrev main_c_7 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_10 : Ref sig .tc := ⟨.hbm, 100, rfl⟩
abbrev main_v76 : Ref sig .tc := ⟨.hbm, 101, rfl⟩
abbrev main_v77 : Ref sig .tc := ⟨.hbm, 102, rfl⟩
abbrev main_c_11 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_c_12 : Ref sig .tc := ⟨.hbm, 109, rfl⟩
abbrev main_v83 : Ref sig .tc := ⟨.hbm, 110, rfl⟩
abbrev main_v84 : Ref sig .tc := ⟨.hbm, 111, rfl⟩
abbrev main_c_13 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_14 : Ref sig .tc := ⟨.hbm, 130, rfl⟩
abbrev main_v102 : Ref sig .tc := ⟨.hbm, 131, rfl⟩
abbrev main_v103 : Ref sig .tc := ⟨.hbm, 132, rfl⟩
abbrev main_cst_15 : Ref sig .tc := ⟨.hbm, 133, rfl⟩
abbrev main_v104 : Ref sig .tc := ⟨.hbm, 134, rfl⟩
abbrev main_v105 : Ref sig .tc := ⟨.hbm, 135, rfl⟩
abbrev main_c_16 : Ref sig .tc := ⟨.hbm, 136, rfl⟩
abbrev main_v106 : Ref sig .tc := ⟨.hbm, 137, rfl⟩
abbrev main_v107 : Ref sig .tc := ⟨.hbm, 138, rfl⟩
abbrev main_c_17 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_c_18 : Ref sig .tc := ⟨.hbm, 147, rfl⟩
abbrev main_v115 : Ref sig .tc := ⟨.hbm, 148, rfl⟩
abbrev main_v116 : Ref sig .tc := ⟨.hbm, 149, rfl⟩
abbrev main_c_19 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_20 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_21 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_c_22 : Ref sig .tc := ⟨.hbm, 178, rfl⟩
abbrev main_v142 : Ref sig .tc := ⟨.hbm, 179, rfl⟩
abbrev main_v143 : Ref sig .tc := ⟨.hbm, 180, rfl⟩
abbrev main_c_23 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_c_24 : Ref sig .tc := ⟨.hbm, 187, rfl⟩
abbrev main_v149 : Ref sig .tc := ⟨.hbm, 188, rfl⟩
abbrev main_v150 : Ref sig .tc := ⟨.hbm, 189, rfl⟩
abbrev main_c_25 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_cst_26 : Ref sig .tc := ⟨.hbm, 208, rfl⟩
abbrev main_v168 : Ref sig .tc := ⟨.hbm, 209, rfl⟩
abbrev main_v169 : Ref sig .tc := ⟨.hbm, 210, rfl⟩
abbrev main_cst_27 : Ref sig .tc := ⟨.hbm, 211, rfl⟩
abbrev main_v170 : Ref sig .tc := ⟨.hbm, 212, rfl⟩
abbrev main_v171 : Ref sig .tc := ⟨.hbm, 213, rfl⟩
abbrev main_c_28 : Ref sig .tc := ⟨.hbm, 214, rfl⟩
abbrev main_v172 : Ref sig .tc := ⟨.hbm, 215, rfl⟩
abbrev main_v173 : Ref sig .tc := ⟨.hbm, 216, rfl⟩
abbrev main_c_29 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_c_30 : Ref sig .tc := ⟨.hbm, 225, rfl⟩
abbrev main_v181 : Ref sig .tc := ⟨.hbm, 226, rfl⟩
abbrev main_v182 : Ref sig .tc := ⟨.hbm, 227, rfl⟩
abbrev main_c_31 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_cst_32 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_cst_33 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_c_34 : Ref sig .tc := ⟨.hbm, 256, rfl⟩
abbrev main_v208 : Ref sig .tc := ⟨.hbm, 257, rfl⟩
abbrev main_v209 : Ref sig .tc := ⟨.hbm, 258, rfl⟩
abbrev main_c_35 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_c_36 : Ref sig .tc := ⟨.hbm, 265, rfl⟩
abbrev main_v215 : Ref sig .tc := ⟨.hbm, 266, rfl⟩
abbrev main_v216 : Ref sig .tc := ⟨.hbm, 267, rfl⟩
abbrev main_c_37 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_cst_38 : Ref sig .tc := ⟨.hbm, 286, rfl⟩
abbrev main_v234 : Ref sig .tc := ⟨.hbm, 287, rfl⟩
abbrev main_v235 : Ref sig .tc := ⟨.hbm, 288, rfl⟩
abbrev main_cst_39 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  concatenates_S500000x8_S500000x2_S500000x10_d1 : Shape.Concatenates [S500000x8, S500000x2] S500000x10 1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x10_S4000000x10_S4000000x20_d1 : Shape.Concatenates [S4000000x10, S4000000x10] S4000000x20 1
  bcast_S1x8_S4000000x8_0_1 : S1x8.BroadcastsInDim S4000000x8 (![0, 1] : Fin 2 → Fin S4000000x8.rank)
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  bcast_S_S4000000x1 : S_.BroadcastsInDim S4000000x1 (![] : Fin 0 → Fin S4000000x1.rank)
  bcast_S4000000x1_S4000000x10_0_1 : S4000000x1.BroadcastsInDim S4000000x10 (![0, 1] : Fin 2 → Fin S4000000x10.rank)
  bcast_S_S500000x10 : S_.BroadcastsInDim S500000x10 (![] : Fin 0 → Fin S500000x10.rank)
  concatenates_S500000x10_S500000x10_S500000x10_S500000x30_d1 : Shape.Concatenates [S500000x10, S500000x10, S500000x10] S500000x30 1
  shapeCasts_S4000000x1_S4000000 : S4000000x1.ShapeCasts S4000000
  dot_S500000x2_S2x8_S500000x8_1_0_0_1_n_n_wf : DotDims.WF S500000x2 S2x8 S500000x8 [1] [0] [0] [1] [] []
  gather_S500000x10_S4000000x1_S4000000x10_1_0_n_n_0_1_110_wf : GatherDims.WF S500000x10 S4000000x1 S4000000x10 [1] [0] [] [0] [] 1 ![1, 10]
  dot_S4000000x20_S20x8_S4000000x8_1_0_0_1_n_n_wf : DotDims.WF S4000000x20 S20x8 S4000000x8 [1] [0] [0] [1] [] []
  dot_S4000000x8_S8x1_S4000000x1_1_0_0_1_n_n_wf : DotDims.WF S4000000x8 S8x1 S4000000x1 [1] [0] [0] [1] [] []
  scatter_S500000x10_S4000000x1_S4000000x10_1_0_0_1_wf : ScatterDims.WF S500000x10 S4000000x1 S4000000x10 [1] [0] [0] 1
  dot_S500000x30_S30x8_S500000x8_1_0_0_1_n_n_wf : DotDims.WF S500000x30 S30x8 S500000x8 [1] [0] [0] [1] [] []
  dot_S500000x8_S8x8_S500000x8_1_0_0_1_n_n_wf : DotDims.WF S500000x8 S8x8 S500000x8 [1] [0] [0] [1] [] []

variable [Facts₀]

def dot_S500000x2_S2x8_S500000x8_1_0_0_1_n_n : DotDims S500000x2 S2x8 S500000x8 where
  lhsContracting := [1]
  rhsContracting := [0]
  lhsNonContracting := [0]
  rhsNonContracting := [1]
  lhsBatch := []
  rhsBatch := []
  wf := dot_S500000x2_S2x8_S500000x8_1_0_0_1_n_n_wf
def gather_S500000x10_S4000000x1_S4000000x10_1_0_n_n_0_1_110 : GatherDims S500000x10 S4000000x1 S4000000x10 where
  offsetDims := [1]
  collapsedSliceDims := [0]
  operandBatchingDims := []
  startIndicesBatchingDims := []
  startIndexMap := [0]
  indexVectorDim := 1
  sliceSizes := ![1, 10]
  wf := gather_S500000x10_S4000000x1_S4000000x10_1_0_n_n_0_1_110_wf
def dot_S4000000x20_S20x8_S4000000x8_1_0_0_1_n_n : DotDims S4000000x20 S20x8 S4000000x8 where
  lhsContracting := [1]
  rhsContracting := [0]
  lhsNonContracting := [0]
  rhsNonContracting := [1]
  lhsBatch := []
  rhsBatch := []
  wf := dot_S4000000x20_S20x8_S4000000x8_1_0_0_1_n_n_wf
def dot_S4000000x8_S8x1_S4000000x1_1_0_0_1_n_n : DotDims S4000000x8 S8x1 S4000000x1 where
  lhsContracting := [1]
  rhsContracting := [0]
  lhsNonContracting := [0]
  rhsNonContracting := [1]
  lhsBatch := []
  rhsBatch := []
  wf := dot_S4000000x8_S8x1_S4000000x1_1_0_0_1_n_n_wf
def scatter_S500000x10_S4000000x1_S4000000x10_1_0_0_1 : ScatterDims S500000x10 S4000000x1 S4000000x10 where
  updateWindowDims := [1]
  insertedWindowDims := [0]
  scatterDimsToOperandDims := [0]
  indexVectorDim := 1
  wf := scatter_S500000x10_S4000000x1_S4000000x10_1_0_0_1_wf
def dot_S500000x30_S30x8_S500000x8_1_0_0_1_n_n : DotDims S500000x30 S30x8 S500000x8 where
  lhsContracting := [1]
  rhsContracting := [0]
  lhsNonContracting := [0]
  rhsNonContracting := [1]
  lhsBatch := []
  rhsBatch := []
  wf := dot_S500000x30_S30x8_S500000x8_1_0_0_1_n_n_wf
def dot_S500000x8_S8x8_S500000x8_1_0_0_1_n_n : DotDims S500000x8 S8x8 S500000x8 where
  lhsContracting := [1]
  rhsContracting := [0]
  lhsNonContracting := [0]
  rhsNonContracting := [1]
  lhsBatch := []
  rhsBatch := []
  wf := dot_S500000x8_S8x8_S500000x8_1_0_0_1_n_n_wf

class Facts : Prop extends Facts₀ where

variable [Facts]
-- ==== Proof.Spec.lean ====
/-
  The message-passing network as ONE function of the argument arrays, in the vocabulary both programs share.

  Nodes carry ten features: eight hidden ones and the two input coordinates.  `inNet` makes the first hidden
  features, `tanh (x · W_in + b_in)`, and appends `x`.  One round (`step`) gathers each edge's two endpoint rows
  (`rows`: the row a node id names, a negative id counted from the end), scores the edge by
  `gate = logistic (tanh ([x_col, x_row] · W_e1 + b_e1) · W_e2 + b_e2)`, sums the gated endpoint rows into the
  opposite endpoints (`segsum`: the rows of `u` whose id is `n`, added up, for every node `n`), and passes
  `[m_in, m_out, x_cat]` through two `tanh` layers (`node`), appending `x` again.  The result is the gate of every
  edge after three rounds.

  The gather and the segment sum are used only as the two programs' common operations: nothing here opens them.
-/
import proofs.«426732_j67937792688144_3_alg».proof.Proof.Gen.ReferenceIdeal
import Idealize.ShloMosaic.PureOps.Ideal

noncomputable section

namespace Cert.Spec

open Idealize.ShloMosaic Idealize.SL.Sem
open Cert.ReferenceIdeal Cert.ReferenceIdeal.Gen

/-- A float array of shape `s` over the extended reals; an integer array of 32-bit words. -/
abbrev FA (s : Shape) := FVec Ideal s .f32
abbrev IA (s : Shape) := IVec s 32

/-- A bias row `[1, 8]` repeated down 500000 node rows, and down 4000000 edge rows. -/
def nodeBias (b2 : FA S1x8) : FA S500000x8 := broadcastInDim S500000x8 ![0, 1] bcast_S1x8_S500000x8_0_1 b2
def edgeBias (b2 : FA S1x8) : FA S4000000x8 := broadcastInDim S4000000x8 ![0, 1] bcast_S1x8_S4000000x8_0_1 b2
def edgeBias1 (b2 : FA S1x1) : FA S4000000x1 := broadcastInDim S4000000x1 ![0, 1] bcast_S1x1_S4000000x1_0_1 b2
/-- The constant one, on every edge. -/
def edgeOne : FA S4000000x1 := broadcastInDim S4000000x1 ![] bcast_S_S4000000x1 (constant (F := Ideal) S_ .f32 0x3F800000#32)

/-- The input layer: `[tanh (x · W + b), x]`, row by row. -/
def inNet (x : FA S500000x2) (w : FA S2x8) (b2 : FA S1x8) : FA S500000x10 :=
  concatenate S500000x10 1
    [⟨S500000x8, Host.tanh (addf (Host.dotGeneral dot_S500000x2_S2x8_S500000x8_1_0_0_1_n_n none x w) (nodeBias b2))⟩,
     ⟨S500000x2, x⟩] concatenates_S500000x8_S500000x2_S500000x10_d1

/-- Node ids as gather start indices: a negative id counts from the end (`id + 500000`), as a column `[E, 1]`. -/
def wrap (i : IA S4000000) : IA S4000000x1 :=
  broadcastInDim S4000000x1 ![0] bcast_S4000000_S4000000x1_0
    (select (cmpi .slt i (broadcastInDim S4000000 ![] bcast_S_S4000000 (constantI S_ 32 0#32)))
      (addi i (broadcastInDim S4000000 ![] bcast_S_S4000000 (constantI S_ 32 500000#32))) i)

/-- Edge `e`'s endpoint row: row `i e` of the node features. -/
def rows (xc : FA S500000x10) (i : IA S4000000) : FA S4000000x10 :=
  Host.gather gather_S500000x10_S4000000x1_S4000000x10_1_0_n_n_0_1_110 xc (wrap i)

/-- The edge score `1 / (1 + exp (-(tanh ([x_col, x_row] · W1 + b1) · W2 + b2)))`, one number per edge. -/
def gate (xcol xrow : FA S4000000x10) (e1w : FA S20x8) (e1b2 : FA S1x8) (e2w : FA S8x1) (e2b2 : FA S1x1) : FA S4000000x1 :=
  Host.divf edgeOne
    (addf edgeOne
      (Host.exp (Host.negf (addf
        (Host.dotGeneral dot_S4000000x8_S8x1_S4000000x1_1_0_0_1_n_n none
          (Host.tanh (addf
            (Host.dotGeneral dot_S4000000x20_S20x8_S4000000x8_1_0_0_1_n_n none
              (concatenate S4000000x20 1 [⟨S4000000x10, xcol⟩, ⟨S4000000x10, xrow⟩]
                concatenates_S4000000x10_S4000000x10_S4000000x20_d1) e1w)
            (edgeBias e1b2)))
          e2w)
        (edgeBias1 e2b2)))))

/-- Every feature of an edge's endpoint row times the edge's score. -/
def scaled (xs : FA S4000000x10) (e : FA S4000000x1) : FA S4000000x10 :=
  mulf xs (broadcastInDim S4000000x10 ![0, 1] bcast_S4000000x1_S4000000x10_0_1 e)

/-- Both gated endpoint rows of every edge, side by side: columns 0–9 the `col` endpoint's, 10–19 the `row` endpoint's. -/
def edgeMul (xcol xrow : FA S4000000x10) (e1w : FA S20x8) (e1b2 : FA S1x8) (e2w : FA S8x1) (e2b2 : FA S1x1) : FA S4000000x20 :=
  concatenate S4000000x20 1
    [⟨S4000000x10, scaled xcol (gate xcol xrow e1w e1b2 e2w e2b2)⟩,
     ⟨S4000000x10, scaled xrow (gate xcol xrow e1w e1b2 e2w e2b2)⟩]
    concatenates_S4000000x10_S4000000x10_S4000000x20_d1

/-- For every node, the sum of the rows of `u` whose id is that node (from zero). -/
def segsum (i : IA S4000000) (u : FA S4000000x10) : FA S500000x10 :=
  Host.scatterAdd scatter_S500000x10_S4000000x1_S4000000x10_1_0_0_1
    (broadcastInDim S500000x10 ![] bcast_S_S500000x10 (constant (F := Ideal) S_ .f32 0x00000000#32))
    (broadcastInDim S4000000x1 ![0] bcast_S4000000_S4000000x1_0 i) u

/-- The node layers: `[tanh (tanh ([m_in, m_out, x_cat] · W1 + b1) · W2 + b2), x]`, row by row. -/
def node (mi mo xc : FA S500000x10) (x : FA S500000x2) (n1w : FA S30x8) (n1b2 : FA S1x8) (n2w : FA S8x8) (n2b2 : FA S1x8) :
    FA S500000x10 :=
  concatenate S500000x10 1
    [⟨S500000x8, Host.tanh (addf
        (Host.dotGeneral dot_S500000x8_S8x8_S500000x8_1_0_0_1_n_n none
          (Host.tanh (addf
            (Host.dotGeneral dot_S500000x30_S30x8_S500000x8_1_0_0_1_n_n none
              (concatenate S500000x30 1 [⟨S500000x10, mi⟩, ⟨S500000x10, mo⟩, ⟨S500000x10, xc⟩]
                concatenates_S500000x10_S500000x10_S500000x10_S500000x30_d1) n1w)
            (nodeBias n1b2)))
          n2w)
        (nodeBias n2b2))⟩,
     ⟨S500000x2, x⟩] concatenates_S500000x8_S500000x2_S500000x10_d1

/-- The argument arrays. -/
structure Args where
  x : FA S500000x2
  ei : IA S2x4000000
  win_w : FA S2x8
  win_b : FA S8
  e1_w : FA S20x8
  e1_b : FA S8
  e2_w : FA S8x1
  e2_b : FA S1
  n1_w : FA S30x8
  n1_b : FA S8
  n2_w : FA S8x8
  n2_b : FA S8

/-- The two rows of the edge list: the `row` endpoint's ids and the `col` endpoint's. -/
def Args.row (a : Args) : IA S4000000 :=
  shapeCast S4000000 (extractStridedSlice S1x4000000 ![0, 0] a.ei slices_S2x4000000_S1x4000000_0_0) shapeCasts_S1x4000000_S4000000
def Args.col (a : Args) : IA S4000000 :=
  shapeCast S4000000 (extractStridedSlice S1x4000000 ![1, 0] a.ei slices_S2x4000000_S1x4000000_1_0) shapeCasts_S1x4000000_S4000000

/-- A bias vector as a row `[1, n]`. -/
def row8 (b : FA S8) : FA S1x8 := broadcastInDim S1x8 ![1] bcast_S8_S1x8_1 b
def row1 (b : FA S1) : FA S1x1 := broadcastInDim S1x1 ![1] bcast_S1_S1x1_1 b

/-- Every node id of the edge list names a node: `0 ≤ id < 500000`, read as a signed integer. -/
structure InRange (a : Args) : Prop where
  row : ∀ e : S4000000.Idx, 0 ≤ (a.row e).toInt ∧ (a.row e).toInt < 500000
  col : ∀ e : S4000000.Idx, 0 ≤ (a.col e).toInt ∧ (a.col e).toInt < 500000

/-- The edge scores from node features `xc`. -/
def score (a : Args) (xc : FA S500000x10) : FA S4000000x1 :=
  gate (rows xc a.col) (rows xc a.row) a.e1_w (row8 a.e1_b) a.e2_w (row1 a.e2_b)

/-- One round of message passing. -/
def step (a : Args) (xc : FA S500000x10) : FA S500000x10 :=
  node (segsum a.col (scaled (rows xc a.row) (score a xc))) (segsum a.row (scaled (rows xc a.col) (score a xc))) xc a.x
    a.n1_w (row8 a.n1_b) a.n2_w (row8 a.n2_b)

/-- The node features before the first round. -/
def start (a : Args) : FA S500000x10 := inNet a.x a.win_w (row8 a.win_b)

/-- The result: every edge's score after three rounds, as a vector over the edges. -/
def out (a : Args) : FA S4000000 :=
  shapeCast S4000000 (score a (step a (step a (step a (start a))))) shapeCasts_S4000000x1_S4000000

end Cert.Spec

end
-- ==== Proof.Args.lean ====
/-
  The argument arrays of a launch memory as the specification's record, and the type of the contents a region is
  entered at.
-/
import proofs.«426732_j67937792688144_3_alg».proof.Proof.Gen.KernelIdeal.Frame
import proofs.«426732_j67937792688144_3_alg».proof.Proof.Spec

set_option maxRecDepth 16384

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

/-- The TensorCore's buffer contents when a region is entered. -/
abbrev Entry := (c : Dev nD) → (b : Ref sig .tc) → Buf (Elt Ideal) ((c : Thread nD τ).loc b)

/-- Core `c`'s argument arrays in the launch memory `m`. -/
def argsOf (m : (ℓ : Loc nD τ sig) → Buf (Elt Ideal) ℓ) (c : Dev nD) : Cert.Spec.Args where
  x := m ((c : Thread nD τ).loc main_arg0)
  ei := m ((c : Thread nD τ).loc main_arg1)
  win_w := m ((c : Thread nD τ).loc main_arg2)
  win_b := m ((c : Thread nD τ).loc main_arg3)
  e1_w := m ((c : Thread nD τ).loc main_arg4)
  e1_b := m ((c : Thread nD τ).loc main_arg5)
  e2_w := m ((c : Thread nD τ).loc main_arg6)
  e2_b := m ((c : Thread nD τ).loc main_arg7)
  n1_w := m ((c : Thread nD τ).loc main_arg8)
  n1_b := m ((c : Thread nD τ).loc main_arg9)
  n2_w := m ((c : Thread nD τ).loc main_arg10)
  n2_b := m ((c : Thread nD τ).loc main_arg11)

end Cert.KernelIdeal.Value

end
-- ==== Proof.ChainDefs.lean ====
/-
  What stays the same at every segment boundary of the idealized kernel's @main after its first stretch: the two rows of
  the edge list sit in their buffers and the argument arrays are as launched.
-/
import proofs.«426732_j67937792688144_3_alg».proof.Proof.Gen.KernelIdeal.Frame
import proofs.«426732_j67937792688144_3_alg».proof.Proof.Spec
import proofs.«426732_j67937792688144_3_alg».proof.Proof.Args
set_option maxRecDepth 16384

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

/-- At the contents `W`: the edge list's rows and the arguments the later segments read, as the record `a` has them. -/
structure Inv (W : Valuation τ sig (Elt Ideal)) (a : Cert.Spec.Args) : Prop where
  row : W (Proc.devRef .tc main_v1) = a.row
  col : W (Proc.devRef .tc main_v3) = a.col
  x : W (Proc.devRef .tc main_arg0) = a.x
  e1_w : W (Proc.devRef .tc main_arg4) = a.e1_w
  e1_b : W (Proc.devRef .tc main_arg5) = a.e1_b
  e2_w : W (Proc.devRef .tc main_arg6) = a.e2_w
  e2_b : W (Proc.devRef .tc main_arg7) = a.e2_b
  n1_w : W (Proc.devRef .tc main_arg8) = a.n1_w
  n1_b : W (Proc.devRef .tc main_arg9) = a.n1_b
  n2_w : W (Proc.devRef .tc main_arg10) = a.n2_w
  n2_b : W (Proc.devRef .tc main_arg11) = a.n2_b

end Cert.KernelIdeal.Value

end
-- ==== Proof.HostGlue.lean ====
/-
  The host operations between the pallas_calls, against the specification's.

  The idealized kernel gathers with a guard: where the (wrapped) node id is outside `[0, 499999]` it puts a fill value
  in place of the gathered row.  For ids in range the guard is true on every edge and the guarded gather is the plain
  one (`ktake_eq`).  The two column halves of the edge call's output are the two gated endpoint rows; a bias vector
  reshaped to a row is the same row as the vector broadcast to it.
-/
import proofs.«426732_j67937792688144_3_alg».proof.Proof.Gen.KernelIdeal.Frame
import proofs.«426732_j67937792688144_3_alg».proof.Proof.Spec
import proofs.«426732_j67937792688144_3_alg».proof.Proof.Args
import Idealize.ShloMosaic.Lib.Pipeline.Value
import Idealize.ShloMosaic.Lib.ValueIdx
import Idealize.ShloMosaic.Lib.ValueLayout
import Idealize.ShloMosaic.Lib.ReduceAll
set_option maxRecDepth 16384

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

/-- The wrapped node ids as a column, as the guarded gather computes them. -/
def ktakeIdx (i : IVec S4000000 32) : IVec S4000000x1 32 :=
  broadcastInDim S4000000x1 ![0] bcast_S4000000_S4000000x1_0
    (select (cmpi .slt i (broadcastInDim S4000000 ![] bcast_S_S4000000 (constantI S_ 32 0#32)))
      (addi i (broadcastInDim S4000000 ![] bcast_S_S4000000 (constantI S_ 32 500000#32))) i)

/-- The guard: the wrapped id is at least 0 and at most 499999. -/
def ktakeMask (i5 : IVec S4000000x1 32) : IVec S4000000 1 :=
  Host.reduce IntOp.andi
    (andi (cmpi .sge i5 (broadcastInDim S4000000x1 ![] bcast_S_S4000000x1 (constantI S_ 32 0#32)))
      (cmpi .sle i5 (broadcastInDim S4000000x1 ![0, 1] bcast_S1x1_S4000000x1_0_1
        (broadcastInDim S1x1 ![1] bcast_S1_S1x1_1 (constantI S1 32 499999#32)))))
    (constantI S_ 1 1#1) reducesTo_S4000000x1_S4000000_d1 h_S_

/-- The guarded gather of the idealized kernel: the gathered row where the guard holds, the fill value elsewhere. -/
def ktake (xc : FVec Ideal S500000x10 .f32) (i : IVec S4000000 32) : FVec Ideal S4000000x10 .f32 :=
  select (broadcastInDim S4000000x10 ![0] bcast_S4000000_S4000000x10_0 (ktakeMask (ktakeIdx i)))
    (Host.gather gather_S500000x10_S4000000x1_S4000000x10_1_0_n_n_0_1_110 xc (ktakeIdx i))
    (broadcastInDim S4000000x10 ![] bcast_S_S4000000x10 (constant (F := Ideal) S_ .f32 0x7FC00000#32))

/-! ## The guard on ids in range -/

/-- A signed word that is not negative is not below zero, and is at least zero; one below 500000 is at most 499999. -/
theorem word_slt_zero (v : BitVec 32) (h0 : 0 ≤ v.toInt) : IntOp.cmpi .slt v 0#32 = 0#1 := by
  show BitVec.ofBool (v.slt 0#32) = 0#1
  rw [BitVec.slt, show (0#32 : BitVec 32).toInt = 0 from rfl, decide_eq_false (by omega)]
  rfl
theorem word_sge_zero (v : BitVec 32) (h0 : 0 ≤ v.toInt) : IntOp.cmpi .sge v 0#32 = 1#1 := by
  show BitVec.ofBool ((0#32 : BitVec 32).sle v) = 1#1
  rw [BitVec.sle, show (0#32 : BitVec 32).toInt = 0 from rfl, decide_eq_true h0]
  rfl
theorem word_sle_max (v : BitVec 32) (h1 : v.toInt < 500000) : IntOp.cmpi .sle v 499999#32 = 1#1 := by
  show BitVec.ofBool (v.sle 499999#32) = 1#1
  rw [BitVec.sle, show (499999#32 : BitVec 32).toInt = 499999 from by decide, decide_eq_true (by omega)]
  rfl

/-- A left fold by `and` over ones, from one, is one. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` of an array of ones, from one, is one at every index. -/
theorem reduce_andi_one {s t u : Shape} {axes : List (Fin s.rank)} (x : s.Idx → BitVec 1) (init : u.Idx → BitVec 1)
    (h : s.ReducesTo axes t) (hu : 0 < u.numel) (hx : ∀ p, x p = 1#1) (hinit : ∀ q, init q = 1#1) (j : t.Idx) :
    Host.reduce IntOp.andi x init h hu j = 1#1 := by
  rw [Host.reduce_eq_foldl, hinit]
  exact foldl_andi_one x hx _

/-- The wrapped id at a column position is an id of the list (the wrap leaves an id that is not negative as it is),
    so it is in range. -/
theorem ktakeIdx_range (i : IVec S4000000 32) (hi : ∀ e : S4000000.Idx, 0 ≤ (i e).toInt ∧ (i e).toInt < 500000)
    (p : S4000000x1.Idx) : 0 ≤ (ktakeIdx i p).toInt ∧ (ktakeIdx i p).toInt < 500000 := by
  unfold ktakeIdx broadcastInDim
  rw [ValueIdx.select_apply]
  show 0 ≤ BitVec.toInt (Scalar.select (IntOp.cmpi .slt (i _) 0#32) (IntOp.addi (i _) 500000#32) (i _)) ∧ BitVec.toInt (Scalar.select (IntOp.cmpi .slt (i _) 0#32) (IntOp.addi (i _) 500000#32) (i _)) < 500000
  rw [word_slt_zero _ (hi _).1, ValueIdx.select_zero]
  exact hi _

/-- With every id in range the guard is one on every edge. -/
theorem ktakeMask_one (i : IVec S4000000 32) (hi : ∀ e : S4000000.Idx, 0 ≤ (i e).toInt ∧ (i e).toInt < 500000)
    (e : S4000000.Idx) : ktakeMask (ktakeIdx i) e = 1#1 := by
  unfold ktakeMask
  refine reduce_andi_one _ _ _ _ (fun p => ?_) (fun _ => rfl) e
  show IntOp.andi (IntOp.cmpi .sge (ktakeIdx i p) 0#32) (IntOp.cmpi .sle (ktakeIdx i p) 499999#32) = 1#1
  rw [word_sge_zero _ (ktakeIdx_range i hi p).1, word_sle_max _ (ktakeIdx_range i hi p).2]
  decide

/-- With every id in range the select keeps the gathered row everywhere. -/
theorem ktake_eq_gather (xc : FVec Ideal S500000x10 .f32) (i : IVec S4000000 32)
    (hi : ∀ e : S4000000.Idx, 0 ≤ (i e).toInt ∧ (i e).toInt < 500000) :
    ktake xc i = Host.gather gather_S500000x10_S4000000x1_S4000000x10_1_0_n_n_0_1_110 xc (ktakeIdx i) := by
  funext q
  unfold ktake
  rw [ValueIdx.select_apply]
  have hm : broadcastInDim S4000000x10 ![0] bcast_S4000000_S4000000x10_0 (ktakeMask (ktakeIdx i)) q = 1#1 := by
    unfold broadcastInDim
    exact ktakeMask_one i hi _
  rw [hm, ValueIdx.select_one]

/-- The wrapped ids are the specification's, and the two programs' gather dimension records are the same record. -/
theorem ktakeIdx_eq_wrap (i : IVec S4000000 32) : ktakeIdx i = Cert.Spec.wrap i := rfl
theorem gatherDims_eq :
    gather_S500000x10_S4000000x1_S4000000x10_1_0_n_n_0_1_110
      = Cert.ReferenceIdeal.gather_S500000x10_S4000000x1_S4000000x10_1_0_n_n_0_1_110 := rfl

/-- With every id in range the guard holds everywhere: the guarded gather is the plain one. -/
theorem ktake_eq (xc : FVec Ideal S500000x10 .f32) (i : IVec S4000000 32)
    (hi : ∀ e : S4000000.Idx, 0 ≤ (i e).toInt ∧ (i e).toInt < 500000) :
    ktake xc i = Cert.Spec.rows xc i := by
  rw [ktake_eq_gather xc i hi, ktakeIdx_eq_wrap, gatherDims_eq]
  rfl

/-! ## The two column halves of two arrays side by side -/

/-- The left ten columns of two ten-column arrays set side by side are the first array. -/
theorem sliceLo_concat {α : Type} (A B : S4000000x10.Idx → α) (hc : Shape.Concatenates [S4000000x10, S4000000x10] S4000000x20 1)
    (hs : S4000000x20.Slices ![0, 0] S4000000x10) :
    extractStridedSlice S4000000x10 ![0, 0] (concatenate S4000000x20 1 [⟨S4000000x10, A⟩, ⟨S4000000x10, B⟩] hc) hs = A := by
  funext j
  obtain ⟨a, b, rfl⟩ : ∃ (a : Fin 4000000) (b : Fin 10), j = ValueIdx.ix2 a b := ⟨j 0, j 1, ValueIdx.eq_ix2 j⟩
  refine (ValueIdx.slice2_axis1_eq 0 _ hs a b).trans ?_
  refine concatenate_pair_apply_left 1 A B hc _ rfl (ValueIdx.ix2 a b) (fun c => ?_)
  match c with
  | ⟨0, _⟩ => rfl
  | ⟨1, _⟩ => exact (Nat.zero_add _).symm

/-- The right ten columns are the second array. -/
theorem sliceHi_concat {α : Type} (A B : S4000000x10.Idx → α) (hc : Shape.Concatenates [S4000000x10, S4000000x10] S4000000x20 1)
    (hs : S4000000x20.Slices ![0, 10] S4000000x10) :
    extractStridedSlice S4000000x10 ![0, 10] (concatenate S4000000x20 1 [⟨S4000000x10, A⟩, ⟨S4000000x10, B⟩] hc) hs = B := by
  funext j
  obtain ⟨a, b, rfl⟩ : ∃ (a : Fin 4000000) (b : Fin 10), j = ValueIdx.ix2 a b := ⟨j 0, j 1, ValueIdx.eq_ix2 j⟩
  refine (ValueIdx.slice2_axis1_eq 10 _ hs a b).trans ?_
  refine concatenate_pair_apply_right 1 A B hc _ rfl rfl (ValueIdx.ix2 a b) (fun c hc' => ?_) ?_
  · match c with
    | ⟨0, _⟩ => rfl
    | ⟨1, _⟩ => exact absurd rfl hc'
  · show b.val + 10 = 10 + b.val
    omega

/-- The left column half of the edge call's output: the `col` endpoint's gated row. -/
theorem sliceLo_edgeMul (xcol xrow : FVec Ideal S4000000x10 .f32) (e1w : FVec Ideal S20x8 .f32) (e1b2 : FVec Ideal S1x8 .f32)
    (e2w : FVec Ideal S8x1 .f32) (e2b2 : FVec Ideal S1x1 .f32) :
    extractStridedSlice S4000000x10 ![0, 0] (Cert.Spec.edgeMul xcol xrow e1w e1b2 e2w e2b2) slices_S4000000x20_S4000000x10_0_0
      = Cert.Spec.scaled xcol (Cert.Spec.gate xcol xrow e1w e1b2 e2w e2b2) := by
  unfold Cert.Spec.edgeMul
  exact sliceLo_concat _ _ _ _

/-- The right column half: the `row` endpoint's gated row. -/
theorem sliceHi_edgeMul (xcol xrow : FVec Ideal S4000000x10 .f32) (e1w : FVec Ideal S20x8 .f32) (e1b2 : FVec Ideal S1x8 .f32)
    (e2w : FVec Ideal S8x1 .f32) (e2b2 : FVec Ideal S1x1 .f32) :
    extractStridedSlice S4000000x10 ![0, 10] (Cert.Spec.edgeMul xcol xrow e1w e1b2 e2w e2b2) slices_S4000000x20_S4000000x10_0_10
      = Cert.Spec.scaled xrow (Cert.Spec.gate xcol xrow e1w e1b2 e2w e2b2) := by
  unfold Cert.Spec.edgeMul
  exact sliceHi_concat _ _ _ _

/-! ## A bias vector as a row -/

/-- A vector of 8 reshaped to a row reads, at every position of the row, the vector there; so does its broadcast. -/
theorem shapeCast_row8 {α : Type} (b : S8.Idx → α) (h : S8.ShapeCasts S1x8) (hb : S8.BroadcastsInDim S1x8 ![1]) :
    shapeCast S1x8 b h = broadcastInDim S1x8 ![1] hb b := by
  funext j
  obtain ⟨u, i, rfl⟩ : ∃ (u : Fin 1) (i : Fin 8), j = ValueIdx.ix2 u i := ⟨j 0, j 1, ValueIdx.eq_ix2 j⟩
  refine (ValueIdx.shapeCast_a_1a_apply b h u i).trans ?_
  refine (broadcastInDim_apply ![1] hb b _ (ValueIdx.ix1 i) (fun a => ?_)).symm
  match a with
  | ⟨0, _⟩ =>
    show i.val = if (8 : Nat) = 1 then 0 else i.val
    rw [if_neg (by decide)]

theorem shapeCast_row1 {α : Type} (b : S1.Idx → α) (h : S1.ShapeCasts S1x1) (hb : S1.BroadcastsInDim S1x1 ![1]) :
    shapeCast S1x1 b h = broadcastInDim S1x1 ![1] hb b := by
  funext j
  obtain ⟨u, i, rfl⟩ : ∃ (u : Fin 1) (i : Fin 1), j = ValueIdx.ix2 u i := ⟨j 0, j 1, ValueIdx.eq_ix2 j⟩
  refine (ValueIdx.shapeCast_a_1a_apply b h u i).trans ?_
  refine (broadcastInDim_apply ![1] hb b _ (ValueIdx.ix1 i) (fun a => ?_)).symm
  match a with
  | ⟨0, _⟩ =>
    show i.val = if (1 : Nat) = 1 then 0 else _
    rw [if_pos rfl]
    omega

/-- A vector of 8 reshaped to a row is the vector broadcast to that row; the same for a vector of 1. -/
theorem reshape_row8 (b : FVec Ideal S8 .f32) : shapeCast S1x8 b shapeCasts_S8_S1x8 = Cert.Spec.row8 b :=
  shapeCast_row8 b _ _
theorem reshape_row1 (b : FVec Ideal S1 .f32) : shapeCast S1x1 b shapeCasts_S1_S1x1 = Cert.Spec.row1 b :=
  shapeCast_row1 b _ _

/-! ## The segment sum and the edge list's rows: the same operations -/

/-- The two programs' scatter dimension records are the same record. -/
theorem scatterDims_eq :
    scatter_S500000x10_S4000000x1_S4000000x10_1_0_0_1
      = Cert.ReferenceIdeal.scatter_S500000x10_S4000000x1_S4000000x10_1_0_0_1 := rfl

/-- The segment sum as this program spells it is the specification's. -/
theorem ksegsum_eq (i : IVec S4000000 32) (u : FVec Ideal S4000000x10 .f32) :
    Host.scatterAdd scatter_S500000x10_S4000000x1_S4000000x10_1_0_0_1
        (broadcastInDim S500000x10 ![] bcast_S_S500000x10 (constant (F := Ideal) S_ .f32 0x00000000#32))
        (broadcastInDim S4000000x1 ![0] bcast_S4000000_S4000000x1_0 i) u
      = Cert.Spec.segsum i u := by
  rw [scatterDims_eq]
  rfl

/-- The two rows of the edge list as this program slices them are the specification's. -/
theorem krow_eq (ei : IVec S2x4000000 32) (a : Cert.Spec.Args) (h : a.ei = ei) :
    shapeCast S4000000 (extractStridedSlice S1x4000000 ![0, 0] ei slices_S2x4000000_S1x4000000_0_0) shapeCasts_S1x4000000_S4000000
      = a.row := by
  subst h
  rfl
theorem kcol_eq (ei : IVec S2x4000000 32) (a : Cert.Spec.Args) (h : a.ei = ei) :
    shapeCast S4000000 (extractStridedSlice S1x4000000 ![1, 0] ei slices_S2x4000000_S1x4000000_1_0) shapeCasts_S1x4000000_S4000000
      = a.col := by
  subst h
  rfl

end Cert.KernelIdeal.Value

end
-- ==== Proof.RegionIn_Row.lean ====
/-
  The input layer read one entry at a time.  Row `r` of a block of 5000 node rows and row `n` of the whole node array get
  the same ten numbers whenever the two rows hold the same two input coordinates: for a hidden feature `c`,
  `tanh (x₀ · W[0,c] + x₁ · W[1,c] + b[c])` — the block's product into a zero accumulator and the array's product are
  the same two-term sum, and the bias row is repeated down the rows in both —, and behind the eight hidden features the
  two coordinates themselves.  Nothing is rearranged: both sides are read at an index and are the same expression.
-/
import proofs.«426732_j67937792688144_3_alg».proof.Proof.Gen.KernelIdeal.Skeleton
import proofs.«426732_j67937792688144_3_alg».proof.Proof.Spec
import Idealize.ShloMosaic.Lib.StackMember
import Idealize.ShloMosaic.Lib.ValueLayout

noncomputable section

namespace Cert.KernelIdeal.Value

open Idealize.ShloMosaic Idealize.ShloMosaic.ValueIdx Idealize.ShloMosaic.StackMember
open Idealize.SL.Sem
open Cert.KernelIdeal Cert.KernelIdeal.Gen

/-- Column `c` of the eight hidden features, and column `8 + c` of the two appended coordinates, among a row's ten. -/
abbrev inHiddenCol (c : Fin 8) : Fin 10 := ⟨c.val, by omega⟩
abbrev inCoordCol (c : Fin 2) : Fin 10 := ⟨c.val + 8, by omega⟩

/-- Both programs multiply by the plain `rows × 2` by `2 × 8` product. -/
theorem inBlockDot_eq : dot_S5000x2_S2x8_S5000x8_1_0_0_1_n_n = DotDims.plain 5000 2 8 := rfl
theorem inNodeDot_eq : Cert.ReferenceIdeal.dot_S500000x2_S2x8_S500000x8_1_0_0_1_n_n = DotDims.plain 500000 2 8 := rfl

/-- The block's product into the zero accumulator, at row `r` and hidden feature `c`: `∑ k, x[r,k] · W[k,c]`. -/
theorem inBlockProd_apply (xb : FVec Ideal S5000x2 .bf16) (w : FVec Ideal S2x8 .bf16) (r : Fin 5000) (c : Fin 8) :
    matmul dot_S5000x2_S2x8_S5000x8_1_0_0_1_n_n none xb w (constant (F := Ideal) S5000x8 .f32 0x00000000#32) (ix2 r c)
      = ∑ k : Fin 2, xb (ix2 r k) * w (ix2 k c) := by
  rw [inBlockDot_eq, matmul_zero_eq_dotGeneral]
  exact dotGeneral_plain_apply none xb w r c

/-- The whole array's product at node `n` and hidden feature `c`: the same sum. -/
theorem inNodeProd_apply (x : FVec Ideal S500000x2 .f32) (w : FVec Ideal S2x8 .f32) (n : Fin 500000) (c : Fin 8) :
    Host.dotGeneral Cert.ReferenceIdeal.dot_S500000x2_S2x8_S500000x8_1_0_0_1_n_n none x w (ix2 n c)
      = ∑ k : Fin 2, x (ix2 n k) * w (ix2 k c) := by
  rw [inNodeDot_eq]
  exact dotGeneral_plain_apply none x w n c

/-- The kernel's result at row `r` of a block, hidden feature `c`: `tanh (∑ k, x[r,k] · W[k,c] + b[c])`. -/
theorem inBlockOut_hidden (xb : Vec Ideal S5000x2 .f32) (w : Vec Ideal S2x8 .f32) (b : Vec Ideal S1x8 .f32) (r : Fin 5000) (c : Fin 8) :
    k0_pay1 (F := Ideal) xb w b (ix2 r (inHiddenCol c))
      = Ideal.tanh ((∑ k : Fin 2, xb (ix2 r k) * w (ix2 k c)) + b (ix2 (0 : Fin 1) c)) := by
  unfold k0_pay1
  refine (concatenate_pair_apply_left (t := S5000x10) (s₁ := S5000x8) (s₂ := S5000x2) 1 _ _
    concatenates_S5000x8_S5000x2_S5000x10_d1 (ix2 r (inHiddenCol c)) rfl (ix2 r c) ?_).trans ?_
  · intro a
    match a with
    | ⟨0, _⟩ => rfl
    | ⟨1, _⟩ => rfl
  · refine congrArg Ideal.tanh ?_
    refine congrArg₂ (· + ·) (inBlockProd_apply _ _ r c) ?_
    refine (broadcastTo_1b_ab_apply _ broadcasts_S1x8_S5000x8 r c).trans ?_
    rw [shapeCast_self]

/-- The kernel's result at row `r`, appended coordinate `c`: the input coordinate itself. -/
theorem inBlockOut_coord (xb : Vec Ideal S5000x2 .f32) (w : Vec Ideal S2x8 .f32) (b : Vec Ideal S1x8 .f32) (r : Fin 5000) (c : Fin 2) :
    k0_pay1 (F := Ideal) xb w b (ix2 r (inCoordCol c)) = xb (ix2 r c) := by
  unfold k0_pay1
  refine concatenate_pair_apply_right (t := S5000x10) (s₁ := S5000x8) (s₂ := S5000x2) 1 _ _
    concatenates_S5000x8_S5000x2_S5000x10_d1 (ix2 r (inCoordCol c)) rfl rfl (ix2 r c) ?_ ?_
  · intro a ha
    match a with
    | ⟨0, _⟩ => rfl
    | ⟨1, _⟩ => exact absurd rfl ha
  · rfl

/-- The input layer at node `n`, hidden feature `c`. -/
theorem inNet_hidden (x : FVec Ideal S500000x2 .f32) (w : FVec Ideal S2x8 .f32) (b : FVec Ideal S1x8 .f32) (n : Fin 500000) (c : Fin 8) :
    Cert.Spec.inNet x w b (ix2 n (inHiddenCol c))
      = Ideal.tanh ((∑ k : Fin 2, x (ix2 n k) * w (ix2 k c)) + b (ix2 (0 : Fin 1) c)) := by
  unfold Cert.Spec.inNet
  refine (concatenate_pair_apply_left (t := Cert.ReferenceIdeal.S500000x10) (s₁ := Cert.ReferenceIdeal.S500000x8)
    (s₂ := Cert.ReferenceIdeal.S500000x2) 1 _ _ _ (ix2 n (inHiddenCol c)) rfl (ix2 n c) ?_).trans ?_
  · intro a
    match a with
    | ⟨0, _⟩ => rfl
    | ⟨1, _⟩ => rfl
  · refine congrArg Ideal.tanh ?_
    refine congrArg₂ (· + ·) (inNodeProd_apply x w n c) ?_
    unfold Cert.Spec.nodeBias
    exact broadcastInDim_oneRow_apply _ b n c

/-- The input layer at node `n`, appended coordinate `c`. -/
theorem inNet_coord (x : FVec Ideal S500000x2 .f32) (w : FVec Ideal S2x8 .f32) (b : FVec Ideal S1x8 .f32) (n : Fin 500000) (c : Fin 2) :
    Cert.Spec.inNet x w b (ix2 n (inCoordCol c)) = x (ix2 n c) := by
  unfold Cert.Spec.inNet
  refine concatenate_pair_apply_right (t := Cert.ReferenceIdeal.S500000x10) (s₁ := Cert.ReferenceIdeal.S500000x8)
    (s₂ := Cert.ReferenceIdeal.S500000x2) 1 _ _ _ (ix2 n (inCoordCol c)) rfl rfl (ix2 n c) ?_ ?_
  · intro a ha
    match a with
    | ⟨0, _⟩ => rfl
    | ⟨1, _⟩ => exact absurd rfl ha
  · rfl

/-- A block whose row `r` is the array's row `n` gives, at row `r`, the input layer's row `n`. -/
theorem inBlockOut_eq_inNet (x : FVec Ideal S500000x2 .f32) (w : FVec Ideal S2x8 .f32) (b : FVec Ideal S1x8 .f32)
    (xb : Vec Ideal S5000x2 .f32) (r : Fin 5000) (n : Fin 500000) (hx : ∀ k : Fin 2, xb (ix2 r k) = x (ix2 n k)) (j : Fin 10) :
    k0_pay1 (F := Ideal) xb w b (ix2 r j) = Cert.Spec.inNet x w b (ix2 n j) := by
  by_cases hj : j.val < 8
  · obtain ⟨c, rfl⟩ : ∃ c : Fin 8, j = inHiddenCol c := ⟨⟨j.val, hj⟩, rfl⟩
    rw [inBlockOut_hidden, inNet_hidden]
    simp only [hx]
  · obtain ⟨c, rfl⟩ : ∃ c : Fin 2, j = inCoordCol c :=
      ⟨⟨j.val - 8, by omega⟩, Fin.ext (by show j.val = j.val - 8 + 8; omega)⟩
    rw [inBlockOut_coord, inNet_coord]
    exact hx c

/-- The same over whole indices: block index `j` against array index `i`, when the block's row `j 0` is the array's row `i 0`
    and the columns agree. -/
theorem inBlockOut_eq_inNet_at (x : FVec Ideal S500000x2 .f32) (w : FVec Ideal S2x8 .f32) (b : FVec Ideal S1x8 .f32)
    (xb : Vec Ideal S5000x2 .f32) (wb : Vec Ideal S2x8 .f32) (bb : Vec Ideal S1x8 .f32) (j : S5000x10.Idx) (i : S500000x10.Idx)
    (hw : wb = w) (hb : bb = b)
    (hx : ∀ (r : Fin 5000) (n : Fin 500000), r.val = (j 0).val → n.val = (i 0).val → ∀ k : Fin 2, xb (ix2 r k) = x (ix2 n k))
    (hcol : (i 1).val = (j 1).val) :
    k0_pay1 (F := Ideal) xb wb bb j = Cert.Spec.inNet x w b i := by
  subst hw hb
  obtain ⟨r, q, rfl⟩ : ∃ (r : Fin 5000) (q : Fin 10), j = ix2 r q := ⟨j 0, j 1, eq_ix2 j⟩
  obtain ⟨n, q', rfl⟩ : ∃ (n : Fin 500000) (q' : Fin 10), i = ix2 n q' := ⟨i 0, i 1, eq_ix2 i⟩
  obtain rfl : q' = q := Fin.ext hcol
  exact inBlockOut_eq_inNet x wb bb xb r n (hx r n rfl rfl) q'

end Cert.KernelIdeal.Value

end
-- ==== Proof.RegionIn.lean ====
/-
  The input layer's pallas_call: after its 100 grid points, each writing 5000 node rows, the output array is the
  input layer of the whole node array.

  Point `t` stages rows `5000 t … 5000 t + 4999` of the coordinates, the whole weight matrix and the whole bias row, and
  writes back rows `5000 t … 5000 t + 4999` of the result.  So what it writes back is that block of the input layer of
  the whole array (row by row, by the entry-wise reading), and since row `n` lies in the block of point `n / 5000`, the
  100 blocks fill the array.
-/
import proofs.«426732_j67937792688144_3_alg».proof.Proof.Gen.KernelIdeal.Frame
import proofs.«426732_j67937792688144_3_alg».proof.Proof.Spec
import proofs.«426732_j67937792688144_3_alg».proof.Proof.Args
import proofs.«426732_j67937792688144_3_alg».proof.Proof.RegionIn_Row
set_option maxRecDepth 16384

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

/-- The offset of every whole-buffer access of the body is zero. -/
theorem inOffZero : (![0, 0] : Fin 2 → Nat) = fun _ => 0 := funext fun a => by fin_cases a <;> rfl

/-- The windows' index maps over the grid: the coordinates' window and the result's window are at block row `t`, column
    block `0`; the weights' and the bias' windows are at block `(0, 0)`, the whole array. -/
theorem inBlockIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the input layer of the arrays as the region finds them. -/
theorem inFlushed (V : Entry) (c : Dev nD) (t : Fin cfg0.N) :
    (dat0 (F := Ideal) V c).flushed 3 t
      = ((cfg0.win 3).blk t).view.read (Elt Ideal) (Cert.Spec.inNet (V c main_arg0) (V c main_arg2) (V c main_v4)) := by
  show (cfg0.win 3).cut (grid0.coords t) ((dat0 (F := Ideal) V c).after 3 t) = _
  rw [after0_3]
  unfold out0_3
  rw [View.canon_unit_zero inOffZero]
  simp only [View.ld_unit_zero (S := S5000x2) inOffZero, View.ld_unit_zero (S := S2x8) inOffZero, View.ld_unit_zero (S := S1x8) inOffZero]
  obtain ⟨e00, e01, e10, e11, e20, e21, e30, e31⟩ := inBlockIdx t
  funext j
  show k0_pay1 (F := Ideal) (iblk0 V c 0 t) (iblk0 V c 1 t) (iblk0 V c 2 t) j
    = Cert.Spec.inNet (V c main_arg0) (V c main_arg2) (V c main_v4) (((cfg0.win 3).blk t).view.emb j)
  refine inBlockOut_eq_inNet_at (V c main_arg0) (V c main_arg2) (V c main_v4) (iblk0 V c 0 t) (iblk0 V c 1 t) (iblk0 V c 2 t) j
    (((cfg0.win 3).blk t).view.emb j) ?_ ?_ ?_ ?_
  · -- the weights' block is the whole weight matrix
    funext y
    show V c main_arg2 (((cfg0.win 1).blk t).view.emb y) = V c main_arg2 y
    refine congrArg (V c main_arg2) ?_
    funext a; apply Fin.ext
    match a with
    | ⟨0, _⟩ => show win0_1.index t (0 : Fin 2) * 2 + 1 * (y 0).val = (y 0).val; omega
    | ⟨1, _⟩ => show win0_1.index t (1 : Fin 2) * 8 + 1 * (y 1).val = (y 1).val; omega
  · -- the bias' block is the whole bias row
    funext y
    show V c main_v4 (((cfg0.win 2).blk t).view.emb y) = V c main_v4 y
    refine congrArg (V c main_v4) ?_
    funext a; apply Fin.ext
    match a with
    | ⟨0, _⟩ => show win0_2.index t (0 : Fin 2) * 1 + 1 * (y 0).val = (y 0).val; omega
    | ⟨1, _⟩ => show win0_2.index t (1 : Fin 2) * 8 + 1 * (y 1).val = (y 1).val; omega
  · -- row `r` of the coordinates' block is row `5000 t + r` of the coordinates, the row the result's block has there
    intro r n hr hn k
    have hn' : n.val = win0_3.index t (0 : Fin 2) * 5000 + 1 * (j 0).val := hn
    show V c main_arg0 (((cfg0.win 0).blk t).view.emb (ix2 r k)) = V c main_arg0 (ix2 n k)
    refine congrArg (V c main_arg0) ?_
    funext a; apply Fin.ext
    match a with
    | ⟨0, _⟩ => show win0_0.index t (0 : Fin 2) * 5000 + 1 * r.val = n.val; omega
    | ⟨1, _⟩ => show win0_0.index t (1 : Fin 2) * 2 + 1 * k.val = k.val; omega
  · show win0_3.index t (1 : Fin 2) * 10 + 1 * (j 1).val = (j 1).val; omega

/-- An index of the result array is in point `t`'s block iff each coordinate is in the block's range on its axis. -/
theorem mem_inBlock (t : Fin cfg0.N) (i : S500000x10.Idx) :
    i ∈ ((cfg0.win 3).blk t).view.set
      ↔ ∀ a : Fin 2, win0_3.index t a * S5000x10.size a ≤ (i a).val ∧ (i a).val < win0_3.index t a * S5000x10.size a + S5000x10.size a := by
  show i ∈ ((View.whole main_v5).slice (win0_3.rect t)).set ↔ _
  rw [View.set_slice_whole, Rect.mem_set_unit]
  exact Iff.rfl

/-- Row `n` of the result is written back by point `n / 5000`: the blocks fill the array. -/
theorem inCover (i : S500000x10.Idx) :
    ∃ t : Fin cfg0.N, (cfg0.win 3).flush t = true ∧ i ∈ ((cfg0.win 3).blk t).view.set := by
  have hi0 : (i 0).val < 500000 := (i 0).isLt
  have hi1 : (i 1).val < 10 := (i 1).isLt
  have hN : grid0.N = 100 := N_0
  refine ⟨⟨(i 0).val / 5000, by show (i 0).val / 5000 < grid0.N; omega⟩, flush0_3 _, ?_⟩
  obtain ⟨e00, e01, e10, e11, e20, e21, e30, e31⟩ := inBlockIdx ⟨(i 0).val / 5000, by show (i 0).val / 5000 < grid0.N; omega⟩
  have e30' : win0_3.index ⟨(i 0).val / 5000, by show (i 0).val / 5000 < grid0.N; omega⟩ (0 : Fin 2) = (i 0).val / 5000 := e30
  rw [mem_inBlock]
  intro a
  match a with
  | ⟨0, _⟩ =>
    show win0_3.index _ (0 : Fin 2) * 5000 ≤ (i 0).val ∧ (i 0).val < win0_3.index _ (0 : Fin 2) * 5000 + 5000
    omega
  | ⟨1, _⟩ =>
    show win0_3.index _ (1 : Fin 2) * 10 ≤ (i 1).val ∧ (i 1).val < win0_3.index _ (1 : Fin 2) * 10 + 10
    omega

/-- THE ARRAY after the region: the input layer of the arrays the region was entered at. -/
theorem arr0 (V : Entry) (c : Dev nD) :
    (dat0 (F := Ideal) V c).arrAt 3 cfg0.N = Cert.Spec.inNet (V c main_arg0) (V c main_arg2) (V c main_v4) :=
  (dat0 (F := Ideal) V c).arrAt_eq_of_cover 3 _ (fun t _ => inFlushed V c t) inCover

end Cert.KernelIdeal.Value

end
-- ==== Proof.ChainStart.lean ====
/-
  From the launch to the first pallas_call's exit: the first stretch slices the edge list into its two rows and reshapes
  the input bias; the input layer's call leaves the node features the rounds start from.
-/
import proofs.«426732_j67937792688144_3_alg».proof.Proof.Gen.KernelIdeal.Frame
import proofs.«426732_j67937792688144_3_alg».proof.Proof.Spec
import proofs.«426732_j67937792688144_3_alg».proof.Proof.ChainDefs
import proofs.«426732_j67937792688144_3_alg».proof.Proof.HostGlue
import proofs.«426732_j67937792688144_3_alg».proof.Proof.RegionIn
set_option maxRecDepth 16384

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

/-! ## The first stretch

Its five operations write the two rows of the edge list (through a one-row slice each) and the input bias as a row; every
other buffer is as launched. -/

section Host0
variable (Wp : Valuation τ sig (Elt Ideal))

/-- After the first stretch the `row` buffer holds row 0 of the edge list as a vector. -/
theorem host0_v1 :
    StableHlo.after (hostOps0 (F := Ideal)) Wp (Proc.devRef .tc main_v1)
      = shapeCast S4000000 (extractStridedSlice S1x4000000 ![0, 0] (Wp (Proc.devRef .tc main_arg1) : IVec S2x4000000 32)
          slices_S2x4000000_S1x4000000_0_0) shapeCasts_S1x4000000_S4000000 := by
  after_results
  rfl

/-- The `col` buffer holds row 1. -/
theorem host0_v3 :
    StableHlo.after (hostOps0 (F := Ideal)) Wp (Proc.devRef .tc main_v3)
      = shapeCast S4000000 (extractStridedSlice S1x4000000 ![1, 0] (Wp (Proc.devRef .tc main_arg1) : IVec S2x4000000 32)
          slices_S2x4000000_S1x4000000_1_0) shapeCasts_S1x4000000_S4000000 := by
  after_results
  rfl

/-- The input bias sits in its buffer as a row `[1, 8]`. -/
theorem host0_v4 :
    StableHlo.after (hostOps0 (F := Ideal)) Wp (Proc.devRef .tc main_v4)
      = shapeCast S1x8 (Wp (Proc.devRef .tc main_arg3) : FVec Ideal S8 .f32) shapeCasts_S8_S1x8 := by
  after_results
  rfl

end Host0

variable (m : (ℓ : Loc nD τ sig) → Buf (Elt Ideal) ℓ) (ρ : Dev nD → PrngReg)

/-- A buffer none of the first stretch's five operations writes holds after it what it held at launch. -/
local macro "host0_keeps" : tactic => `(tactic| (
  refine StableHlo.after_of_forall_not_mem _ _ (List.forall_iff_forall_mem.mp ?_)
  simp only [hostOps0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ### The argument arrays after the first stretch: as launched -/

theorem W1_main_arg0 (c : Dev nD) :
    W1 m ρ c (Proc.devRef .tc main_arg0) = m ((c : Thread nD τ).loc main_arg0) := by
  show StableHlo.after hostOps0 (W0 m ρ c) (Proc.devRef .tc main_arg0) = W0 m ρ c (Proc.devRef .tc main_arg0)
  host0_keeps
theorem W1_main_arg2 (c : Dev nD) :
    W1 m ρ c (Proc.devRef .tc main_arg2) = m ((c : Thread nD τ).loc main_arg2) := by
  show StableHlo.after hostOps0 (W0 m ρ c) (Proc.devRef .tc main_arg2) = W0 m ρ c (Proc.devRef .tc main_arg2)
  host0_keeps
theorem W1_main_arg4 (c : Dev nD) :
    W1 m ρ c (Proc.devRef .tc main_arg4) = m ((c : Thread nD τ).loc main_arg4) := by
  show StableHlo.after hostOps0 (W0 m ρ c) (Proc.devRef .tc main_arg4) = W0 m ρ c (Proc.devRef .tc main_arg4)
  host0_keeps
theorem W1_main_arg5 (c : Dev nD) :
    W1 m ρ c (Proc.devRef .tc main_arg5) = m ((c : Thread nD τ).loc main_arg5) := by
  show StableHlo.after hostOps0 (W0 m ρ c) (Proc.devRef .tc main_arg5) = W0 m ρ c (Proc.devRef .tc main_arg5)
  host0_keeps
theorem W1_main_arg6 (c : Dev nD) :
    W1 m ρ c (Proc.devRef .tc main_arg6) = m ((c : Thread nD τ).loc main_arg6) := by
  show StableHlo.after hostOps0 (W0 m ρ c) (Proc.devRef .tc main_arg6) = W0 m ρ c (Proc.devRef .tc main_arg6)
  host0_keeps
theorem W1_main_arg7 (c : Dev nD) :
    W1 m ρ c (Proc.devRef .tc main_arg7) = m ((c : Thread nD τ).loc main_arg7) := by
  show StableHlo.after hostOps0 (W0 m ρ c) (Proc.devRef .tc main_arg7) = W0 m ρ c (Proc.devRef .tc main_arg7)
  host0_keeps
theorem W1_main_arg8 (c : Dev nD) :
    W1 m ρ c (Proc.devRef .tc main_arg8) = m ((c : Thread nD τ).loc main_arg8) := by
  show StableHlo.after hostOps0 (W0 m ρ c) (Proc.devRef .tc main_arg8) = W0 m ρ c (Proc.devRef .tc main_arg8)
  host0_keeps
theorem W1_main_arg9 (c : Dev nD) :
    W1 m ρ c (Proc.devRef .tc main_arg9) = m ((c : Thread nD τ).loc main_arg9) := by
  show StableHlo.after hostOps0 (W0 m ρ c) (Proc.devRef .tc main_arg9) = W0 m ρ c (Proc.devRef .tc main_arg9)
  host0_keeps
theorem W1_main_arg10 (c : Dev nD) :
    W1 m ρ c (Proc.devRef .tc main_arg10) = m ((c : Thread nD τ).loc main_arg10) := by
  show StableHlo.after hostOps0 (W0 m ρ c) (Proc.devRef .tc main_arg10) = W0 m ρ c (Proc.devRef .tc main_arg10)
  host0_keeps
theorem W1_main_arg11 (c : Dev nD) :
    W1 m ρ c (Proc.devRef .tc main_arg11) = m ((c : Thread nD τ).loc main_arg11) := by
  show StableHlo.after hostOps0 (W0 m ρ c) (Proc.devRef .tc main_arg11) = W0 m ρ c (Proc.devRef .tc main_arg11)
  host0_keeps

/-! ### What the first stretch writes, against the specification's record -/

theorem W1_main_v1 (c : Dev nD) : W1 m ρ c (Proc.devRef .tc main_v1) = (argsOf m c).row :=
  (host0_v1 (W0 m ρ c)).trans (krow_eq _ (argsOf m c) rfl)
theorem W1_main_v3 (c : Dev nD) : W1 m ρ c (Proc.devRef .tc main_v3) = (argsOf m c).col :=
  (host0_v3 (W0 m ρ c)).trans (kcol_eq _ (argsOf m c) rfl)
theorem W1_main_v4 (c : Dev nD) : W1 m ρ c (Proc.devRef .tc main_v4) = Cert.Spec.row8 (argsOf m c).win_b :=
  (host0_v4 (W0 m ρ c)).trans (reshape_row8 _)

/-! ## The input layer's call

It reads the node coordinates, the input weights and the bias row, and writes the node features; every other buffer is as
it was entered. -/

/-- The call's output array: the input layer of the launch's arguments. -/
theorem W2_main_v5 (c : Dev nD) : W2 m ρ c (Proc.devRef .tc main_v5) = Cert.Spec.start (argsOf m c) := by
  refine ((W2_arr m ρ c 3).trans (arr0 (V1 m ρ) c)).trans ?_
  show Cert.Spec.inNet (W1 m ρ c (Proc.devRef .tc main_arg0)) (W1 m ρ c (Proc.devRef .tc main_arg2)) (W1 m ρ c (Proc.devRef .tc main_v4))
    = Cert.Spec.inNet (argsOf m c).x (argsOf m c).win_w (Cert.Spec.row8 (argsOf m c).win_b)
  rw [W1_main_arg0 m ρ c, W1_main_arg2 m ρ c, W1_main_v4 m ρ c]
  rfl

/-- The node coordinates, an input array of the call, are as launched. -/
theorem W2_main_arg0 (c : Dev nD) : W2 m ρ c (Proc.devRef .tc main_arg0) = (argsOf m c).x :=
  ((W2_arr m ρ c 0).trans (((dat0 (V1 m ρ) c).arrAt_in 0 rfl _).trans (A_eq0 (V1 m ρ) c 0))).trans (W1_main_arg0 m ρ c)

/-- At the call's exit the rows of the edge list and the arguments the rounds read are as the launch's record has them. -/
theorem start_inv (c : Dev nD) : Inv (W2 m ρ c) (argsOf m c) := by
  refine ⟨?_, ?_, ?_, ?_, ?_, ?_, ?_, ?_, ?_, ?_, ?_⟩
  · exact (W2_of_ne m ρ c main_v1 (by decide)).trans (W1_main_v1 m ρ c)
  · exact (W2_of_ne m ρ c main_v3 (by decide)).trans (W1_main_v3 m ρ c)
  · exact W2_main_arg0 m ρ c
  · exact (W2_of_ne m ρ c main_arg4 (by decide)).trans (W1_main_arg4 m ρ c)
  · exact (W2_of_ne m ρ c main_arg5 (by decide)).trans (W1_main_arg5 m ρ c)
  · exact (W2_of_ne m ρ c main_arg6 (by decide)).trans (W1_main_arg6 m ρ c)
  · exact (W2_of_ne m ρ c main_arg7 (by decide)).trans (W1_main_arg7 m ρ c)
  · exact (W2_of_ne m ρ c main_arg8 (by decide)).trans (W1_main_arg8 m ρ c)
  · exact (W2_of_ne m ρ c main_arg9 (by decide)).trans (W1_main_arg9 m ρ c)
  · exact (W2_of_ne m ρ c main_arg10 (by decide)).trans (W1_main_arg10 m ρ c)
  · exact (W2_of_ne m ρ c main_arg11 (by decide)).trans (W1_main_arg11 m ρ c)

theorem start (c : Dev nD) :
    Inv (W2 m ρ c) (argsOf m c) ∧ W2 m ρ c (Proc.devRef .tc main_v5) = Cert.Spec.start (argsOf m c) :=
  ⟨start_inv m ρ c, W2_main_v5 m ρ c⟩

end Cert.KernelIdeal.Value

end
-- ==== Proof.TakeStretch1.lean ====
/-
  A guarded gather stretch: twenty-three host operations that wrap the node ids, test them against the table's
  bounds, gather the rows and select between the gathered row and the fill value.  Run from ANY buffer contents, the
  stretch leaves in its result buffer the guarded gather `ktake` of the table's buffer and the ids' buffer.
-/
import proofs.«426732_j67937792688144_3_alg».proof.Proof.Gen.KernelIdeal.Frame
import proofs.«426732_j67937792688144_3_alg».proof.Proof.HostGlue
import Idealize.ShloMosaic.Lib.StableHlo.Run
set_option maxRecDepth 16384

noncomputable section

namespace Cert.KernelIdeal.Value

open Idealize.ShloMosaic Idealize.ShloMosaic.TcCoe Idealize.ShloMosaic.Tactic
open Idealize.SL Idealize.SL.Sem
open Cert.KernelIdeal Cert.KernelIdeal.Gen

/-- A typed reference's two transports cancel. -/
theorem tref_ofBuf_toBuf1 {T : BufTy} (x : StableHlo.TRef sig T) (v : T.Contents (Elt Ideal)) : x.ofBuf (x.toBuf v) = v := by
  simp only [StableHlo.TRef.ofBuf, StableHlo.TRef.toBuf, cast_cast, cast_eq]

/-- The guarded gather stretch over the `col` ids, from any contents: the result buffer holds `ktake` of the table's
    and the ids' buffers. -/
theorem take_col1 (Wp : Valuation τ sig (Elt Ideal)) :
    StableHlo.after (hostOps1 (F := Ideal)) Wp (Proc.devRef .tc main_v6)
      = ktake (Wp (Proc.devRef .tc main_v5)) (Wp (Proc.devRef .tc main_v3)) := by
  have e3 : (StableHlo.TRef.of main_v3 (by rfl) (by decide) (by rfl) : StableHlo.TRef sig ⟨S4000000, .i32⟩).ofBuf
      (Wp (Proc.devRef .tc main_v3)) = Wp (Proc.devRef .tc main_v3) := rfl
  have e5 : (StableHlo.TRef.of main_v5 (by rfl) (by decide) (by rfl) : StableHlo.TRef sig ⟨S500000x10, .f32⟩).ofBuf
      (Wp (Proc.devRef .tc main_v5)) = Wp (Proc.devRef .tc main_v5) := rfl
  have e6 : ∀ v : (⟨S4000000x10, .f32⟩ : BufTy).Contents (Elt Ideal),
      (StableHlo.TRef.of main_v6 (by rfl) (by decide) (by rfl) : StableHlo.TRef sig ⟨S4000000x10, .f32⟩).toBuf v = v := fun _ => rfl
  after_results_simp
  simp only [tref_ofBuf_toBuf1]
  rw [e3, e5, e6]
  unfold ktake ktakeMask ktakeIdx
  rfl

/-- The guarded gather stretch over the `row` ids, from any contents. -/
theorem take_row1 (Wp : Valuation τ sig (Elt Ideal)) :
    StableHlo.after (hostOps1_1 (F := Ideal)) Wp (Proc.devRef .tc main_v7)
      = ktake (Wp (Proc.devRef .tc main_v5)) (Wp (Proc.devRef .tc main_v1)) := by
  have e1 : (StableHlo.TRef.of main_v1 (by rfl) (by decide) (by rfl) : StableHlo.TRef sig ⟨S4000000, .i32⟩).ofBuf
      (Wp (Proc.devRef .tc main_v1)) = Wp (Proc.devRef .tc main_v1) := rfl
  have e5 : (StableHlo.TRef.of main_v5 (by rfl) (by decide) (by rfl) : StableHlo.TRef sig ⟨S500000x10, .f32⟩).ofBuf
      (Wp (Proc.devRef .tc main_v5)) = Wp (Proc.devRef .tc main_v5) := rfl
  have e7 : ∀ v : (⟨S4000000x10, .f32⟩ : BufTy).Contents (Elt Ideal),
      (StableHlo.TRef.of main_v7 (by rfl) (by decide) (by rfl) : StableHlo.TRef sig ⟨S4000000x10, .f32⟩).toBuf v = v := fun _ => rfl
  after_results_simp
  simp only [tref_ofBuf_toBuf1]
  rw [e1, e5, e7]
  unfold ktake ktakeMask ktakeIdx
  rfl

end Cert.KernelIdeal.Value

end
-- ==== Proof.EdgeMulRow.lean ====
/-
  One edge's gated endpoint rows as a function of that edge alone.

  An edge carries two endpoint rows of ten features, `a` and `b`.  Side by side they are a row of twenty entries
  (`cat`).  The edge's score is `logistic (tanh (cat · W1 + b1) · W2 + b2)`: eight hidden numbers
  `tanh (∑ k, cat k * W1 k h + b1 h)`, then one number `logistic (∑ h, hiddenAt h * W2 h + b2)`.  The result row is
  every entry of `cat` times that score.  Nothing here depends on which edge it is or on how the edges are cut
  into blocks: a block of edges and the whole edge array are both read through this one function, row by row.
-/
import Idealize.ShloMosaic.PureOps.Ideal
import Idealize.ShloMosaic.PureOps.Ideal.Laws
import Idealize.ShloMosaic.Lib.ValueIdx

noncomputable section

namespace Cert.EdgeRow

open Idealize.ShloMosaic Idealize.ShloMosaic.ValueIdx

/-- The two endpoint rows side by side: entries 0–9 are `a`'s, entries 10–19 are `b`'s. -/
def cat (a b : Fin 10 → EReal) (k : Fin 20) : EReal :=
  if h : k.val < 10 then a ⟨k.val, h⟩ else b ⟨k.val - 10, by have := k.isLt; omega⟩

theorem cat_lt (a b : Fin 10 → EReal) (k : Fin 20) (h : k.val < 10) : cat a b k = a ⟨k.val, h⟩ := dif_pos h

theorem cat_ge (a b : Fin 10 → EReal) (k : Fin 20) (h : 10 ≤ k.val) :
    cat a b k = b ⟨k.val - 10, by have := k.isLt; omega⟩ := dif_neg (Nat.not_lt.2 h)

/-- Hidden number `h` of the edge: `tanh (∑ k, cat k * W1 k h + b1 h)`. -/
def hiddenAt (a b : Fin 10 → EReal) (w1 : (⟨2, ![20, 8]⟩ : Shape).Idx → EReal) (b1 : (⟨2, ![1, 8]⟩ : Shape).Idx → EReal)
    (h : Fin 8) : EReal :=
  Ideal.tanh ((∑ k : Fin 20, cat a b k * w1 (ix2 k h)) + b1 (ix2 (0 : Fin 1) h))

/-- The sum the score is the logistic of: `∑ h, hiddenAt h * W2 h + b2`. -/
def pre (a b : Fin 10 → EReal) (w1 : (⟨2, ![20, 8]⟩ : Shape).Idx → EReal) (b1 : (⟨2, ![1, 8]⟩ : Shape).Idx → EReal)
    (w2 : (⟨2, ![8, 1]⟩ : Shape).Idx → EReal) (b2 : (⟨2, ![1, 1]⟩ : Shape).Idx → EReal) : EReal :=
  (∑ h : Fin 8, hiddenAt a b w1 b1 h * w2 (ix2 h (0 : Fin 1))) + b2 (ix2 (0 : Fin 1) (0 : Fin 1))

/-- The edge's score, `1 / (1 + exp (-pre))`. -/
def score (a b : Fin 10 → EReal) (w1 : (⟨2, ![20, 8]⟩ : Shape).Idx → EReal) (b1 : (⟨2, ![1, 8]⟩ : Shape).Idx → EReal)
    (w2 : (⟨2, ![8, 1]⟩ : Shape).Idx → EReal) (b2 : (⟨2, ![1, 1]⟩ : Shape).Idx → EReal) : EReal :=
  Ideal.logistic (pre a b w1 b1 w2 b2)

/-- Entry `j` of the edge's result row: entry `j` of the two endpoint rows side by side, times the score. -/
def edgeRow (a b : Fin 10 → EReal) (w1 : (⟨2, ![20, 8]⟩ : Shape).Idx → EReal) (b1 : (⟨2, ![1, 8]⟩ : Shape).Idx → EReal)
    (w2 : (⟨2, ![8, 1]⟩ : Shape).Idx → EReal) (b2 : (⟨2, ![1, 1]⟩ : Shape).Idx → EReal) (j : Fin 20) : EReal :=
  cat a b j * score a b w1 b1 w2 b2

/-- The single-precision word of one is the number one. -/
theorem ofBits_one_f32 : Ideal.ofBits .f32 0x3F800000#32 = 1 := by
  simp [Ideal.ofBits, Ideal.ieee, -EReal.coe_mul]; norm_num

/-- The logistic written out with that word for one, as a host program spells it. -/
theorem logistic_eq_div (x : EReal) :
    Ideal.div (Ideal.ofBits .f32 0x3F800000#32) (Ideal.ofBits .f32 0x3F800000#32 + Ideal.exp (-x)) = Ideal.logistic x := by
  rw [ofBits_one_f32]; rfl

end Cert.EdgeRow

end
-- ==== Proof.EdgeMulBody.lean ====
/-
  The arithmetic of an edge call's body, read entry by entry.

  The body takes a block of 6400 edges: their two endpoint blocks `x0`, `x1` (ten features a row) and the four
  weight arrays.  It lays the endpoint rows side by side, multiplies by `W1` (a product contracted over the twenty
  entries), adds the bias row, takes `tanh`, multiplies by `W2` (contracted over the eight hidden numbers), adds the
  bias, takes the logistic, and scales both endpoint blocks by that one number per row.  Every step acts on a row
  alone, so entry `(r, j)` of the result is the row function `Cert.EdgeRow.edgeRow` of row `r` of `x0` and `x1`.
  A product into a zero accumulator is the plain sum over the contracted axis, and a change of float format is
  the identity on the extended reals, so nothing but reading each operation at an index is used.
-/
import proofs.«426732_j67937792688144_3_alg».proof.Proof.Gen.KernelIdeal
import proofs.«426732_j67937792688144_3_alg».proof.Proof.EdgeMulRow
import Idealize.ShloMosaic.Lib.Pipeline.Value
import Idealize.ShloMosaic.Lib.ValueLayout
import Idealize.ShloMosaic.PureOps.Ideal.Laws

set_option maxRecDepth 16384

noncomputable section

namespace Cert.KernelIdeal.EdgeBody

open Idealize.ShloMosaic Idealize.ShloMosaic.ValueIdx Idealize.SL.Sem
open Cert.KernelIdeal Cert.KernelIdeal.Gen Cert.EdgeRow

/-! ## The two products read at an index -/

theorem lhs20_0 (j : S6400x8.Idx) (k : dot_S6400x20_S20x8_S6400x8_1_0_0_1_n_n.contr.Idx) : (dot_S6400x20_S20x8_S6400x8_1_0_0_1_n_n.lhsIdx j k 0).val = (j 0).val := rfl
theorem lhs20_1 (j : S6400x8.Idx) (k : dot_S6400x20_S20x8_S6400x8_1_0_0_1_n_n.contr.Idx) : (dot_S6400x20_S20x8_S6400x8_1_0_0_1_n_n.lhsIdx j k 1).val = (k ⟨0, by decide⟩).val :=
  dot_S6400x20_S20x8_S6400x8_1_0_0_1_n_n.lhsIdx_val_of_single rfl j k
theorem rhs20_0 (j : S6400x8.Idx) (k : dot_S6400x20_S20x8_S6400x8_1_0_0_1_n_n.contr.Idx) : (dot_S6400x20_S20x8_S6400x8_1_0_0_1_n_n.rhsIdx j k 0).val = (k ⟨0, by decide⟩).val :=
  dot_S6400x20_S20x8_S6400x8_1_0_0_1_n_n.rhsIdx_val_of_single rfl j k
theorem rhs20_1 (j : S6400x8.Idx) (k : dot_S6400x20_S20x8_S6400x8_1_0_0_1_n_n.contr.Idx) : (dot_S6400x20_S20x8_S6400x8_1_0_0_1_n_n.rhsIdx j k 1).val = (j 1).val := rfl

theorem mm20_apply (lhs : FVec Ideal S6400x20 .bf16) (rhs : FVec Ideal S20x8 .bf16) (r : Fin 6400) (h : Fin 8) :
    matmul dot_S6400x20_S20x8_S6400x8_1_0_0_1_n_n none lhs rhs (constant (F := Ideal) S6400x8 .f32 0x00000000#32) (ix2 r h)
      = ∑ k : Fin 20, lhs (ix2 r k) * rhs (ix2 k h) := by
  refine (Ideal.matmul_constant_zero_apply dot_S6400x20_S20x8_S6400x8_1_0_0_1_n_n none lhs rhs (ix2 r h)).trans ?_
  refine (Equiv.sum_comp (contrEquiv1 dot_S6400x20_S20x8_S6400x8_1_0_0_1_n_n 20 rfl rfl).symm _).symm.trans ?_
  refine Finset.sum_congr rfl fun k _ => ?_
  have hk := contrEquiv1_symm_val dot_S6400x20_S20x8_S6400x8_1_0_0_1_n_n 20 rfl rfl k
  have el : dot_S6400x20_S20x8_S6400x8_1_0_0_1_n_n.lhsIdx (ix2 r h) ((contrEquiv1 dot_S6400x20_S20x8_S6400x8_1_0_0_1_n_n 20 rfl rfl).symm k) = ix2 r k := by
    funext a; apply Fin.ext
    match a with
    | ⟨0, _⟩ => exact lhs20_0 _ _
    | ⟨1, _⟩ => exact (lhs20_1 _ _).trans hk
  have er : dot_S6400x20_S20x8_S6400x8_1_0_0_1_n_n.rhsIdx (ix2 r h) ((contrEquiv1 dot_S6400x20_S20x8_S6400x8_1_0_0_1_n_n 20 rfl rfl).symm k) = ix2 k h := by
    funext a; apply Fin.ext
    match a with
    | ⟨0, _⟩ => exact (rhs20_0 _ _).trans hk
    | ⟨1, _⟩ => exact rhs20_1 _ _
  rw [el, er]

theorem lhs8_0 (j : S6400x1.Idx) (k : dot_S6400x8_S8x1_S6400x1_1_0_0_1_n_n.contr.Idx) : (dot_S6400x8_S8x1_S6400x1_1_0_0_1_n_n.lhsIdx j k 0).val = (j 0).val := rfl
theorem lhs8_1 (j : S6400x1.Idx) (k : dot_S6400x8_S8x1_S6400x1_1_0_0_1_n_n.contr.Idx) : (dot_S6400x8_S8x1_S6400x1_1_0_0_1_n_n.lhsIdx j k 1).val = (k ⟨0, by decide⟩).val :=
  dot_S6400x8_S8x1_S6400x1_1_0_0_1_n_n.lhsIdx_val_of_single rfl j k
theorem rhs8_0 (j : S6400x1.Idx) (k : dot_S6400x8_S8x1_S6400x1_1_0_0_1_n_n.contr.Idx) : (dot_S6400x8_S8x1_S6400x1_1_0_0_1_n_n.rhsIdx j k 0).val = (k ⟨0, by decide⟩).val :=
  dot_S6400x8_S8x1_S6400x1_1_0_0_1_n_n.rhsIdx_val_of_single rfl j k
theorem rhs8_1 (j : S6400x1.Idx) (k : dot_S6400x8_S8x1_S6400x1_1_0_0_1_n_n.contr.Idx) : (dot_S6400x8_S8x1_S6400x1_1_0_0_1_n_n.rhsIdx j k 1).val = (j 1).val := rfl

theorem mm8_apply (lhs : FVec Ideal S6400x8 .bf16) (rhs : FVec Ideal S8x1 .bf16) (r : Fin 6400) (z : Fin 1) :
    matmul dot_S6400x8_S8x1_S6400x1_1_0_0_1_n_n none lhs rhs (constant (F := Ideal) S6400x1 .f32 0x00000000#32) (ix2 r z)
      = ∑ k : Fin 8, lhs (ix2 r k) * rhs (ix2 k z) := by
  refine (Ideal.matmul_constant_zero_apply dot_S6400x8_S8x1_S6400x1_1_0_0_1_n_n none lhs rhs (ix2 r z)).trans ?_
  refine (Equiv.sum_comp (contrEquiv1 dot_S6400x8_S8x1_S6400x1_1_0_0_1_n_n 8 rfl rfl).symm _).symm.trans ?_
  refine Finset.sum_congr rfl fun k _ => ?_
  have hk := contrEquiv1_symm_val dot_S6400x8_S8x1_S6400x1_1_0_0_1_n_n 8 rfl rfl k
  have el : dot_S6400x8_S8x1_S6400x1_1_0_0_1_n_n.lhsIdx (ix2 r z) ((contrEquiv1 dot_S6400x8_S8x1_S6400x1_1_0_0_1_n_n 8 rfl rfl).symm k) = ix2 r k := by
    funext a; apply Fin.ext
    match a with
    | ⟨0, _⟩ => exact lhs8_0 _ _
    | ⟨1, _⟩ => exact (lhs8_1 _ _).trans hk
  have er : dot_S6400x8_S8x1_S6400x1_1_0_0_1_n_n.rhsIdx (ix2 r z) ((contrEquiv1 dot_S6400x8_S8x1_S6400x1_1_0_0_1_n_n 8 rfl rfl).symm k) = ix2 k z := by
    funext a; apply Fin.ext
    match a with
    | ⟨0, _⟩ => exact (rhs8_0 _ _).trans hk
    | ⟨1, _⟩ => exact rhs8_1 _ _
  rw [el, er]

/-! ## The layout operations read at an index -/

/-- Two blocks of rows side by side, read at row `r`: that row of each, side by side. -/
theorem concat_apply (x y : FVec Ideal S6400x10 .f32) (r : Fin 6400) (k : Fin 20) :
    concatenate S6400x20 1 [⟨S6400x10, x⟩, ⟨S6400x10, y⟩] concatenates_S6400x10_S6400x10_S6400x20_d1 (ix2 r k)
      = cat (fun q => x (ix2 r q)) (fun q => y (ix2 r q)) k := by
  by_cases hk : k.val < 10
  · rw [cat_lt _ _ _ hk]
    refine concatenate_pair_apply_left (1 : Fin S6400x20.rank) x y _ (ix2 r k) rfl (ix2 r ⟨k.val, hk⟩) fun b => ?_
    match b with
    | ⟨0, _⟩ => rfl
    | ⟨1, _⟩ => rfl
  · rw [cat_ge _ _ _ (Nat.le_of_not_lt hk)]
    refine concatenate_pair_apply_right (1 : Fin S6400x20.rank) x y _ (ix2 r k) rfl rfl
      (ix2 r ⟨k.val - 10, by have := k.isLt; omega⟩) (fun b hb => ?_) ?_
    · match b with
      | ⟨0, _⟩ => rfl
      | ⟨1, _⟩ => exact absurd rfl hb
    · show (k.val - 10) + 10 = k.val
      omega

/-- A column `[6400, 1]` repeated across ten columns reads, at `(r, q)`, the column at `r`. -/
theorem bcol_apply (g : FVec Ideal S6400x1 .f32) (r : Fin 6400) (q : Fin 10) :
    broadcastTo S6400x10 g broadcasts_S6400x1_S6400x10 (ix2 r q) = g (ix2 r (0 : Fin 1)) := by
  refine broadcastTo_apply g broadcasts_S6400x1_S6400x10 (ix2 r q) (ix2 r (0 : Fin 1)) fun a => ?_
  match a with
  | ⟨0, _⟩ => rfl
  | ⟨1, _⟩ => rfl

/-! ## The body as one term, and the body at an index -/

variable {F : FTy → Type} [FloatOps F]

/-- The arithmetic of an edge call's body on its six loaded blocks. -/
def edgeBody (v0 : Vec F S6400x10 .f32) (v2 : Vec F S6400x10 .f32) (v6 : Vec F S20x8 .f32) (v9 : Vec F S1x8 .f32) (v15 : Vec F S8x1 .f32) (v18 : Vec F S1x1 .f32) : FVec F S6400x20 .f32 :=
  have v1 : FVec F S6400x10 .f32 := shapeCast S6400x10 v0 shapeCasts_S6400x10_S6400x10
  have v3 : FVec F S6400x10 .f32 := shapeCast S6400x10 v2 shapeCasts_S6400x10_S6400x10
  have v4 : FVec F S6400x20 .f32 := concatenate S6400x20 1 [⟨S6400x10, v1⟩, ⟨S6400x10, v3⟩] concatenates_S6400x10_S6400x10_S6400x20_d1
  have v5 : FVec F S6400x20 .bf16 := truncf .bf16 v4 bitsLt_bf16_f32
  have v7 : FVec F S20x8 .bf16 := truncf .bf16 v6 bitsLt_bf16_f32
  have cst : FVec F S6400x8 .f32 := constant S6400x8 .f32 0x00000000#32
  have v8 : FVec F S6400x8 .f32 := matmul dot_S6400x20_S20x8_S6400x8_1_0_0_1_n_n none v5 v7 cst
  have v10 : FVec F S1x8 .f32 := shapeCast S1x8 v9 shapeCasts_S1x8_S1x8
  have v11 : FVec F S6400x8 .f32 := broadcastTo S6400x8 v10 broadcasts_S1x8_S6400x8
  have v12 : FVec F S6400x8 .f32 := addf v8 v11
  have v13 : FVec F S6400x8 .f32 := tanh v12
  have v14 : FVec F S6400x8 .bf16 := truncf .bf16 v13 bitsLt_bf16_f32
  have v16 : FVec F S8x1 .bf16 := truncf .bf16 v15 bitsLt_bf16_f32
  have cst_9 : FVec F S6400x1 .f32 := constant S6400x1 .f32 0x00000000#32
  have v17 : FVec F S6400x1 .f32 := matmul dot_S6400x8_S8x1_S6400x1_1_0_0_1_n_n none v14 v16 cst_9
  have v19 : FVec F S1x1 .f32 := shapeCast S1x1 v18 shapeCasts_S1x1_S1x1
  have v20 : FVec F S6400x1 .f32 := broadcastTo S6400x1 v19 broadcasts_S1x1_S6400x1
  have v21 : FVec F S6400x1 .f32 := addf v17 v20
  have v22 : FVec F S6400x1 .f32 := logistic v21
  have v23 : FVec F S6400x10 .f32 := broadcastTo S6400x10 v22 broadcasts_S6400x1_S6400x10
  have v24 : FVec F S6400x10 .f32 := mulf v1 v23
  have v25 : FVec F S6400x10 .f32 := broadcastTo S6400x10 v22 broadcasts_S6400x1_S6400x10
  have v26 : FVec F S6400x10 .f32 := mulf v3 v25
  have v27 : FVec F S6400x20 .f32 := concatenate S6400x20 1 [⟨S6400x10, v24⟩, ⟨S6400x10, v26⟩] concatenates_S6400x10_S6400x10_S6400x20_d1
  v27

/-- Both gated blocks side by side, read at `(r, j)`: entry `j` of the two rows side by side, times the gate at `r`. -/
theorem gated_apply (x y : FVec Ideal S6400x10 .f32) (g : FVec Ideal S6400x1 .f32) (r : Fin 6400) (j : Fin 20) :
    concatenate S6400x20 1
        [⟨S6400x10, mulf x (broadcastTo S6400x10 g broadcasts_S6400x1_S6400x10)⟩,
         ⟨S6400x10, mulf y (broadcastTo S6400x10 g broadcasts_S6400x1_S6400x10)⟩]
        concatenates_S6400x10_S6400x10_S6400x20_d1 (ix2 r j)
      = cat (fun q => x (ix2 r q)) (fun q => y (ix2 r q)) j * g (ix2 r (0 : Fin 1)) := by
  refine (concat_apply _ _ r j).trans ?_
  by_cases hj : j.val < 10
  · rw [cat_lt _ _ _ hj, cat_lt _ _ _ hj]
    show x _ * broadcastTo S6400x10 g broadcasts_S6400x1_S6400x10 (ix2 r _) = _
    rw [bcol_apply]
  · rw [cat_ge _ _ _ (Nat.le_of_not_lt hj), cat_ge _ _ _ (Nat.le_of_not_lt hj)]
    show y _ * broadcastTo S6400x10 g broadcasts_S6400x1_S6400x10 (ix2 r _) = _
    rw [bcol_apply]

/-- The gate of row `r` of a block `X` of twenty-entry rows. -/
theorem gate_apply (X : FVec Ideal S6400x20 .f32) (w1 : FVec Ideal S20x8 .f32) (b1 : FVec Ideal S1x8 .f32)
    (w2 : FVec Ideal S8x1 .f32) (b2 : FVec Ideal S1x1 .f32) (r : Fin 6400) :
    logistic (addf
        (matmul dot_S6400x8_S8x1_S6400x1_1_0_0_1_n_n none
          (truncf .bf16 (tanh (addf
            (matmul dot_S6400x20_S20x8_S6400x8_1_0_0_1_n_n none (truncf .bf16 X bitsLt_bf16_f32) (truncf .bf16 w1 bitsLt_bf16_f32)
              (constant (F := Ideal) S6400x8 .f32 0x00000000#32))
            (broadcastTo S6400x8 b1 broadcasts_S1x8_S6400x8))) bitsLt_bf16_f32)
          (truncf .bf16 w2 bitsLt_bf16_f32) (constant (F := Ideal) S6400x1 .f32 0x00000000#32))
        (broadcastTo S6400x1 b2 broadcasts_S1x1_S6400x1)) (ix2 r (0 : Fin 1))
      = Ideal.logistic ((∑ h : Fin 8, Ideal.tanh ((∑ k : Fin 20, X (ix2 r k) * w1 (ix2 k h)) + b1 (ix2 (0 : Fin 1) h)) * w2 (ix2 h (0 : Fin 1)))
          + b2 (ix2 (0 : Fin 1) (0 : Fin 1))) := by
  show Ideal.logistic (matmul (F := Ideal) dot_S6400x8_S8x1_S6400x1_1_0_0_1_n_n none _ _ _ (ix2 r (0 : Fin 1))
      + broadcastTo S6400x1 b2 broadcasts_S1x1_S6400x1 (ix2 r (0 : Fin 1))) = _
  rw [mm8_apply, broadcastTo_1b_ab_apply (a := 6400) (b := 1) b2 broadcasts_S1x1_S6400x1 r (0 : Fin 1)]
  refine congrArg (fun s => Ideal.logistic (s + b2 (ix2 (0 : Fin 1) (0 : Fin 1)))) (Finset.sum_congr rfl fun h _ => ?_)
  show Ideal.tanh (matmul (F := Ideal) dot_S6400x20_S20x8_S6400x8_1_0_0_1_n_n none _ _ _ (ix2 r h)
      + broadcastTo S6400x8 b1 broadcasts_S1x8_S6400x8 (ix2 r h)) * w2 (ix2 h (0 : Fin 1)) = _
  rw [mm20_apply, broadcastTo_1b_ab_apply (a := 6400) (b := 8) b1 broadcasts_S1x8_S6400x8 r h]
  rfl

/-- THE BODY AT AN INDEX: entry `(r, j)` of the body's result is the row function of row `r` of the two endpoint blocks. -/
theorem edgeBody_apply (x0 x1 : Vec Ideal S6400x10 .f32) (w1 : Vec Ideal S20x8 .f32) (b1 : Vec Ideal S1x8 .f32)
    (w2 : Vec Ideal S8x1 .f32) (b2 : Vec Ideal S1x1 .f32) (r : Fin 6400) (j : Fin 20) :
    edgeBody x0 x1 w1 b1 w2 b2 (ix2 r j)
      = edgeRow (fun q => x0 (ix2 r q)) (fun q => x1 (ix2 r q)) w1 b1 w2 b2 j := by
  unfold edgeBody
  simp only [shapeCast_self]
  refine (gated_apply x0 x1 _ r j).trans ?_
  unfold edgeRow score pre hiddenAt
  refine congrArg (fun s => cat (fun q => x0 (ix2 r q)) (fun q => x1 (ix2 r q)) j * s) ?_
  refine (gate_apply _ w1 b1 w2 b2 r).trans ?_
  simp only [concat_apply, shapeCast_self]

end Cert.KernelIdeal.EdgeBody

end
-- ==== Proof.EdgeMulSpecRow.lean ====
/-
  The specification's gated endpoint rows, read entry by entry.

  `Cert.Spec.edgeMul` scores every edge of the whole edge array by
  `1 / (1 + exp (-(tanh ([x_col, x_row] · W1 + b1) · W2 + b2)))` and scales both endpoint rows by the score.  A host
  product is the plain sum over the contracted axis, a bias row or a score column repeated along an axis reads its one
  row or column, and `1 / (1 + exp (-x))` with the single-precision word of one is the logistic.  So entry `(n, j)`
  is the row function `Cert.EdgeRow.edgeRow` of edge `n`'s two endpoint rows: the same function a block of edges is
  read through.
-/
import proofs.«426732_j67937792688144_3_alg».proof.Proof.Spec
import proofs.«426732_j67937792688144_3_alg».proof.Proof.EdgeMulRow
import Idealize.ShloMosaic.Lib.Pipeline.Value
import Idealize.ShloMosaic.Lib.ValueLayout
import Idealize.ShloMosaic.PureOps.Ideal.Laws

set_option maxRecDepth 16384

noncomputable section

namespace Cert.Spec.Row

open Idealize.ShloMosaic Idealize.ShloMosaic.ValueIdx Idealize.SL.Sem
open Cert.ReferenceIdeal Cert.ReferenceIdeal.Gen Cert.Spec
open Cert.EdgeRow (cat cat_lt cat_ge edgeRow hiddenAt pre logistic_eq_div)

/-! ## The two products read at an index -/

theorem lhs20_0 (j : S4000000x8.Idx) (k : dot_S4000000x20_S20x8_S4000000x8_1_0_0_1_n_n.contr.Idx) : (dot_S4000000x20_S20x8_S4000000x8_1_0_0_1_n_n.lhsIdx j k 0).val = (j 0).val := rfl
theorem lhs20_1 (j : S4000000x8.Idx) (k : dot_S4000000x20_S20x8_S4000000x8_1_0_0_1_n_n.contr.Idx) : (dot_S4000000x20_S20x8_S4000000x8_1_0_0_1_n_n.lhsIdx j k 1).val = (k ⟨0, by decide⟩).val :=
  dot_S4000000x20_S20x8_S4000000x8_1_0_0_1_n_n.lhsIdx_val_of_single rfl j k
theorem rhs20_0 (j : S4000000x8.Idx) (k : dot_S4000000x20_S20x8_S4000000x8_1_0_0_1_n_n.contr.Idx) : (dot_S4000000x20_S20x8_S4000000x8_1_0_0_1_n_n.rhsIdx j k 0).val = (k ⟨0, by decide⟩).val :=
  dot_S4000000x20_S20x8_S4000000x8_1_0_0_1_n_n.rhsIdx_val_of_single rfl j k
theorem rhs20_1 (j : S4000000x8.Idx) (k : dot_S4000000x20_S20x8_S4000000x8_1_0_0_1_n_n.contr.Idx) : (dot_S4000000x20_S20x8_S4000000x8_1_0_0_1_n_n.rhsIdx j k 1).val = (j 1).val := rfl

theorem dg20_apply (lhs : FVec Ideal S4000000x20 .f32) (rhs : FVec Ideal S20x8 .f32) (n : Fin 4000000) (h : Fin 8) :
    Host.dotGeneral (F := Ideal) dot_S4000000x20_S20x8_S4000000x8_1_0_0_1_n_n none lhs rhs (ix2 n h)
      = ∑ k : Fin 20, lhs (ix2 n k) * rhs (ix2 k h) := by
  refine (Ideal.dotGeneral_apply dot_S4000000x20_S20x8_S4000000x8_1_0_0_1_n_n none .single lhs rhs (ix2 n h)).trans ?_
  refine (Equiv.sum_comp (contrEquiv1 dot_S4000000x20_S20x8_S4000000x8_1_0_0_1_n_n 20 rfl rfl).symm _).symm.trans ?_
  refine Finset.sum_congr rfl fun k _ => ?_
  have hk := contrEquiv1_symm_val dot_S4000000x20_S20x8_S4000000x8_1_0_0_1_n_n 20 rfl rfl k
  have el : dot_S4000000x20_S20x8_S4000000x8_1_0_0_1_n_n.lhsIdx (ix2 n h) ((contrEquiv1 dot_S4000000x20_S20x8_S4000000x8_1_0_0_1_n_n 20 rfl rfl).symm k) = ix2 n k := by
    funext a; apply Fin.ext
    match a with
    | ⟨0, _⟩ => exact lhs20_0 _ _
    | ⟨1, _⟩ => exact (lhs20_1 _ _).trans hk
  have er : dot_S4000000x20_S20x8_S4000000x8_1_0_0_1_n_n.rhsIdx (ix2 n h) ((contrEquiv1 dot_S4000000x20_S20x8_S4000000x8_1_0_0_1_n_n 20 rfl rfl).symm k) = ix2 k h := by
    funext a; apply Fin.ext
    match a with
    | ⟨0, _⟩ => exact (rhs20_0 _ _).trans hk
    | ⟨1, _⟩ => exact rhs20_1 _ _
  rw [el, er]

theorem lhs8_0 (j : S4000000x1.Idx) (k : dot_S4000000x8_S8x1_S4000000x1_1_0_0_1_n_n.contr.Idx) : (dot_S4000000x8_S8x1_S4000000x1_1_0_0_1_n_n.lhsIdx j k 0).val = (j 0).val := rfl
theorem lhs8_1 (j : S4000000x1.Idx) (k : dot_S4000000x8_S8x1_S4000000x1_1_0_0_1_n_n.contr.Idx) : (dot_S4000000x8_S8x1_S4000000x1_1_0_0_1_n_n.lhsIdx j k 1).val = (k ⟨0, by decide⟩).val :=
  dot_S4000000x8_S8x1_S4000000x1_1_0_0_1_n_n.lhsIdx_val_of_single rfl j k
theorem rhs8_0 (j : S4000000x1.Idx) (k : dot_S4000000x8_S8x1_S4000000x1_1_0_0_1_n_n.contr.Idx) : (dot_S4000000x8_S8x1_S4000000x1_1_0_0_1_n_n.rhsIdx j k 0).val = (k ⟨0, by decide⟩).val :=
  dot_S4000000x8_S8x1_S4000000x1_1_0_0_1_n_n.rhsIdx_val_of_single rfl j k
theorem rhs8_1 (j : S4000000x1.Idx) (k : dot_S4000000x8_S8x1_S4000000x1_1_0_0_1_n_n.contr.Idx) : (dot_S4000000x8_S8x1_S4000000x1_1_0_0_1_n_n.rhsIdx j k 1).val = (j 1).val := rfl

theorem dg8_apply (lhs : FVec Ideal S4000000x8 .f32) (rhs : FVec Ideal S8x1 .f32) (n : Fin 4000000) (z : Fin 1) :
    Host.dotGeneral (F := Ideal) dot_S4000000x8_S8x1_S4000000x1_1_0_0_1_n_n none lhs rhs (ix2 n z)
      = ∑ k : Fin 8, lhs (ix2 n k) * rhs (ix2 k z) := by
  refine (Ideal.dotGeneral_apply dot_S4000000x8_S8x1_S4000000x1_1_0_0_1_n_n none .single lhs rhs (ix2 n z)).trans ?_
  refine (Equiv.sum_comp (contrEquiv1 dot_S4000000x8_S8x1_S4000000x1_1_0_0_1_n_n 8 rfl rfl).symm _).symm.trans ?_
  refine Finset.sum_congr rfl fun k _ => ?_
  have hk := contrEquiv1_symm_val dot_S4000000x8_S8x1_S4000000x1_1_0_0_1_n_n 8 rfl rfl k
  have el : dot_S4000000x8_S8x1_S4000000x1_1_0_0_1_n_n.lhsIdx (ix2 n z) ((contrEquiv1 dot_S4000000x8_S8x1_S4000000x1_1_0_0_1_n_n 8 rfl rfl).symm k) = ix2 n k := by
    funext a; apply Fin.ext
    match a with
    | ⟨0, _⟩ => exact lhs8_0 _ _
    | ⟨1, _⟩ => exact (lhs8_1 _ _).trans hk
  have er : dot_S4000000x8_S8x1_S4000000x1_1_0_0_1_n_n.rhsIdx (ix2 n z) ((contrEquiv1 dot_S4000000x8_S8x1_S4000000x1_1_0_0_1_n_n 8 rfl rfl).symm k) = ix2 k z := by
    funext a; apply Fin.ext
    match a with
    | ⟨0, _⟩ => exact (rhs8_0 _ _).trans hk
    | ⟨1, _⟩ => exact rhs8_1 _ _
  rw [el, er]

/-! ## The layout operations read at an index -/

/-- Two arrays of rows side by side, read at row `n`: that row of each, side by side. -/
theorem concat_apply (x y : FVec Ideal S4000000x10 .f32) (n : Fin 4000000) (k : Fin 20) :
    concatenate S4000000x20 1 [⟨S4000000x10, x⟩, ⟨S4000000x10, y⟩] concatenates_S4000000x10_S4000000x10_S4000000x20_d1 (ix2 n k)
      = cat (fun q => x (ix2 n q)) (fun q => y (ix2 n q)) k := by
  by_cases hk : k.val < 10
  · rw [cat_lt _ _ _ hk]
    refine concatenate_pair_apply_left (1 : Fin S4000000x20.rank) x y _ (ix2 n k) rfl (ix2 n ⟨k.val, hk⟩) fun b => ?_
    match b with
    | ⟨0, _⟩ => rfl
    | ⟨1, _⟩ => rfl
  · rw [cat_ge _ _ _ (Nat.le_of_not_lt hk)]
    refine concatenate_pair_apply_right (1 : Fin S4000000x20.rank) x y _ (ix2 n k) rfl rfl
      (ix2 n ⟨k.val - 10, by have := k.isLt; omega⟩) (fun b hb => ?_) ?_
    · match b with
      | ⟨0, _⟩ => rfl
      | ⟨1, _⟩ => exact absurd rfl hb
    · show (k.val - 10) + 10 = k.val
      omega

/-- The bias row repeated down the edges reads, at `(n, h)`, the row at `h`. -/
theorem edgeBias_apply (b : FA S1x8) (n : Fin 4000000) (h : Fin 8) : edgeBias b (ix2 n h) = b (ix2 (0 : Fin 1) h) := by
  unfold edgeBias
  refine broadcastInDim_apply _ bcast_S1x8_S4000000x8_0_1 b (ix2 n h) (ix2 (0 : Fin 1) h) fun a => ?_
  match a with
  | ⟨0, _⟩ => rfl
  | ⟨1, _⟩ => rfl

theorem edgeBias1_apply (b : FA S1x1) (n : Fin 4000000) (z : Fin 1) : edgeBias1 b (ix2 n z) = b (ix2 (0 : Fin 1) z) := by
  unfold edgeBias1
  refine broadcastInDim_apply _ bcast_S1x1_S4000000x1_0_1 b (ix2 n z) (ix2 (0 : Fin 1) z) fun a => ?_
  match a with
  | ⟨0, _⟩ => rfl
  | ⟨1, _⟩ =>
    show z.val = if (1 : ℕ) = 1 then 0 else z.val
    rw [if_pos rfl]
    have := z.isLt
    omega

/-- The constant one on every edge is the single-precision word of one. -/
theorem edgeOne_apply (i : S4000000x1.Idx) : edgeOne i = Ideal.ofBits .f32 0x3F800000#32 := rfl

/-- A column `[E, 1]` repeated across ten columns reads, at `(n, q)`, the column at `n`. -/
theorem scaled_apply (xs : FA S4000000x10) (e : FA S4000000x1) (n : Fin 4000000) (q : Fin 10) :
    scaled xs e (ix2 n q) = xs (ix2 n q) * e (ix2 n (0 : Fin 1)) := by
  unfold scaled
  show xs (ix2 n q) * broadcastInDim S4000000x10 ![0, 1] bcast_S4000000x1_S4000000x10_0_1 e (ix2 n q) = _
  refine congrArg (fun s => xs (ix2 n q) * s) ?_
  refine broadcastInDim_apply _ bcast_S4000000x1_S4000000x10_0_1 e (ix2 n q) (ix2 n (0 : Fin 1)) fun a => ?_
  match a with
  | ⟨0, _⟩ => rfl
  | ⟨1, _⟩ => rfl

/-! ## The specification at an index -/

/-- The score of edge `n` is the row function's score of that edge's two endpoint rows. -/
theorem gate_apply (xcol xrow : FA S4000000x10) (e1w : FA S20x8) (e1b2 : FA S1x8) (e2w : FA S8x1) (e2b2 : FA S1x1) (n : Fin 4000000) :
    gate xcol xrow e1w e1b2 e2w e2b2 (ix2 n (0 : Fin 1))
      = Cert.EdgeRow.score (fun q => xcol (ix2 n q)) (fun q => xrow (ix2 n q)) e1w e1b2 e2w e2b2 := by
  unfold gate
  show Ideal.div (edgeOne (ix2 n (0 : Fin 1))) (edgeOne (ix2 n (0 : Fin 1)) + Ideal.exp (-(
      Host.dotGeneral (F := Ideal) dot_S4000000x8_S8x1_S4000000x1_1_0_0_1_n_n none _ e2w (ix2 n (0 : Fin 1)) + edgeBias1 e2b2 (ix2 n (0 : Fin 1))))) = _
  rw [edgeOne_apply, logistic_eq_div, dg8_apply, edgeBias1_apply]
  unfold Cert.EdgeRow.score pre hiddenAt
  refine congrArg (fun s => Ideal.logistic (s + e2b2 (ix2 (0 : Fin 1) (0 : Fin 1)))) (Finset.sum_congr rfl fun h _ => ?_)
  show Ideal.tanh (Host.dotGeneral (F := Ideal) dot_S4000000x20_S20x8_S4000000x8_1_0_0_1_n_n none _ e1w (ix2 n h) + edgeBias e1b2 (ix2 n h)) * e2w (ix2 h (0 : Fin 1)) = _
  rw [dg20_apply, edgeBias_apply]
  simp only [concat_apply]

/-- THE SPECIFICATION AT AN INDEX: entry `(n, j)` of both gated endpoint rows of every edge is the row function of edge `n`'s
    two endpoint rows. -/
theorem edgeMul_apply (xcol xrow : FA S4000000x10) (e1w : FA S20x8) (e1b2 : FA S1x8) (e2w : FA S8x1) (e2b2 : FA S1x1)
    (n : Fin 4000000) (j : Fin 20) :
    edgeMul xcol xrow e1w e1b2 e2w e2b2 (ix2 n j)
      = edgeRow (fun q => xcol (ix2 n q)) (fun q => xrow (ix2 n q)) e1w e1b2 e2w e2b2 j := by
  unfold edgeMul
  refine (concat_apply _ _ n j).trans ?_
  unfold edgeRow
  by_cases hj : j.val < 10
  · rw [cat_lt _ _ _ hj, cat_lt _ _ _ hj, scaled_apply, gate_apply]
  · rw [cat_ge _ _ _ (Nat.le_of_not_lt hj), cat_ge _ _ _ (Nat.le_of_not_lt hj), scaled_apply, gate_apply]

end Cert.Spec.Row

end
-- ==== Proof.RegionEdgeMul1.lean ====
/-
  An edge pallas_call: after its 625 grid points, each writing 6400 edge rows, the output array holds both gated
  endpoint rows of every edge.

  Point `t` stages rows `6400 t … 6400 t + 6399` of the two endpoint arrays and the four whole weight arrays, and writes
  back rows `6400 t … 6400 t + 6399` of the output.  The body acts on each row alone (`EdgeBody.edgeBody_apply`), and so
  does the specification (`Cert.Spec.Row.edgeMul_apply`): both are one row function of the edge's two endpoint rows.  So
  what point `t` writes back is block `t` of the specification on the arrays as the call finds them, and since row `n` lies
  in block `n / 6400` the blocks cover the output array.
-/
import proofs.«426732_j67937792688144_3_alg».proof.Proof.Gen.KernelIdeal.Frame
import proofs.«426732_j67937792688144_3_alg».proof.Proof.Spec
import proofs.«426732_j67937792688144_3_alg».proof.Proof.Args
import proofs.«426732_j67937792688144_3_alg».proof.Proof.EdgeMulBody
import proofs.«426732_j67937792688144_3_alg».proof.Proof.EdgeMulSpecRow
set_option maxRecDepth 16384

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

/-- The printed index maps, decided once over the grid: the two endpoint windows and the output window take block `t` of
    rows at point `t`; the four weight windows always take their one block. -/
theorem idx_facts1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- Row `r` of window 0's block at point `t` is row `t * 6400 + r` of its array. -/
theorem blk0_apply1 (V : Entry) (c : Dev nD) (t : Fin cfg1.N) (r : Fin 6400) (q : Fin 10) (k : S4000000x10.Idx)
    (hk0 : (k 0).val = t.val * 6400 + r.val) (hk1 : (k 1).val = q.val) :
    (iblk1 (F := Ideal) V c 0 t : Vec Ideal S6400x10 .f32) (ix2 r q) = (V c main_v6 : Vec Ideal S4000000x10 .f32) k := by
  have e := idx_facts1 t
  unfold iblk1
  rw [View.read_apply]
  show V c main_v6 _ = V c main_v6 _
  refine congrArg (V c main_v6) ?_
  funext a
  apply Fin.ext
  match a with
  | ⟨0, _⟩ =>
    show win1_0.index t (0 : Fin 2) * 6400 + 1 * r.val = (k 0).val
    rw [e.1, hk0]; omega
  | ⟨1, _⟩ =>
    show win1_0.index t (1 : Fin 2) * 10 + 1 * q.val = (k 1).val
    rw [e.2.1, hk1]; omega

/-- Row `r` of window 1's block at point `t` is row `t * 6400 + r` of its array. -/
theorem blk1_apply1 (V : Entry) (c : Dev nD) (t : Fin cfg1.N) (r : Fin 6400) (q : Fin 10) (k : S4000000x10.Idx)
    (hk0 : (k 0).val = t.val * 6400 + r.val) (hk1 : (k 1).val = q.val) :
    (iblk1 (F := Ideal) V c 1 t : Vec Ideal S6400x10 .f32) (ix2 r q) = (V c main_v7 : Vec Ideal S4000000x10 .f32) k := by
  have e := idx_facts1 t
  unfold iblk1
  rw [View.read_apply]
  show V c main_v7 _ = V c main_v7 _
  refine congrArg (V c main_v7) ?_
  funext a
  apply Fin.ext
  match a with
  | ⟨0, _⟩ =>
    show win1_1.index t (0 : Fin 2) * 6400 + 1 * r.val = (k 0).val
    rw [e.2.2.1, hk0]; omega
  | ⟨1, _⟩ =>
    show win1_1.index t (1 : Fin 2) * 10 + 1 * q.val = (k 1).val
    rw [e.2.2.2.1, hk1]; omega

/-- Window 2's block at every point is its whole array. -/
theorem blk2_eq1 (V : Entry) (c : Dev nD) (t : Fin cfg1.N) :
    (iblk1 (F := Ideal) V c 2 t : Vec Ideal S20x8 .f32) = (V c main_arg4 : Vec Ideal S20x8 .f32) := by
  have e := idx_facts1 t
  funext y
  unfold iblk1
  rw [View.read_apply]
  show V c main_arg4 _ = V c main_arg4 _
  refine congrArg (V c main_arg4) ?_
  funext a
  apply Fin.ext
  match a with
  | ⟨0, _⟩ =>
    show win1_2.index t (0 : Fin 2) * 20 + 1 * (y 0).val = (y 0).val
    rw [e.2.2.2.2.1]; omega
  | ⟨1, _⟩ =>
    show win1_2.index t (1 : Fin 2) * 8 + 1 * (y 1).val = (y 1).val
    rw [e.2.2.2.2.2.1]; omega

/-- Window 3's block at every point is its whole array. -/
theorem blk3_eq1 (V : Entry) (c : Dev nD) (t : Fin cfg1.N) :
    (iblk1 (F := Ideal) V c 3 t : Vec Ideal S1x8 .f32) = (V c main_v8 : Vec Ideal S1x8 .f32) := by
  have e := idx_facts1 t
  funext y
  unfold iblk1
  rw [View.read_apply]
  show V c main_v8 _ = V c main_v8 _
  refine congrArg (V c main_v8) ?_
  funext a
  apply Fin.ext
  match a with
  | ⟨0, _⟩ =>
    show win1_3.index t (0 : Fin 2) * 1 + 1 * (y 0).val = (y 0).val
    rw [e.2.2.2.2.2.2.1]; omega
  | ⟨1, _⟩ =>
    show win1_3.index t (1 : Fin 2) * 8 + 1 * (y 1).val = (y 1).val
    rw [e.2.2.2.2.2.2.2.1]; omega

/-- Window 4's block at every point is its whole array. -/
theorem blk4_eq1 (V : Entry) (c : Dev nD) (t : Fin cfg1.N) :
    (iblk1 (F := Ideal) V c 4 t : Vec Ideal S8x1 .f32) = (V c main_arg6 : Vec Ideal S8x1 .f32) := by
  have e := idx_facts1 t
  funext y
  unfold iblk1
  rw [View.read_apply]
  show V c main_arg6 _ = V c main_arg6 _
  refine congrArg (V c main_arg6) ?_
  funext a
  apply Fin.ext
  match a with
  | ⟨0, _⟩ =>
    show win1_4.index t (0 : Fin 2) * 8 + 1 * (y 0).val = (y 0).val
    rw [e.2.2.2.2.2.2.2.2.1]; omega
  | ⟨1, _⟩ =>
    show win1_4.index t (1 : Fin 2) * 1 + 1 * (y 1).val = (y 1).val
    rw [e.2.2.2.2.2.2.2.2.2.1]; omega

/-- Window 5's block at every point is its whole array. -/
theorem blk5_eq1 (V : Entry) (c : Dev nD) (t : Fin cfg1.N) :
    (iblk1 (F := Ideal) V c 5 t : Vec Ideal S1x1 .f32) = (V c main_v9 : Vec Ideal S1x1 .f32) := by
  have e := idx_facts1 t
  funext y
  unfold iblk1
  rw [View.read_apply]
  show V c main_v9 _ = V c main_v9 _
  refine congrArg (V c main_v9) ?_
  funext a
  apply Fin.ext
  match a with
  | ⟨0, _⟩ =>
    show win1_5.index t (0 : Fin 2) * 1 + 1 * (y 0).val = (y 0).val
    rw [e.2.2.2.2.2.2.2.2.2.2.1]; omega
  | ⟨1, _⟩ =>
    show win1_5.index t (1 : Fin 2) * 1 + 1 * (y 1).val = (y 1).val
    rw [e.2.2.2.2.2.2.2.2.2.2.2.1]; omega

/-- AT ONE ENTRY: the body's result on blocks whose rows are rows `tv * 6400 + r` of the two endpoint arrays, read at
    `y`, is the specification on those arrays read at the entry `i` in row `tv * 6400 + y 0`, column `y 1`: both are
    the row function of the same two rows. -/
theorem point_eq1 (x0 x1 : Vec Ideal S6400x10 .f32) (w1 : Vec Ideal S20x8 .f32) (b1 : Vec Ideal S1x8 .f32)
    (w2 : Vec Ideal S8x1 .f32) (b2 : Vec Ideal S1x1 .f32) (A0 A1 : Vec Ideal S4000000x10 .f32)
    (tv : Nat) (y : S6400x20.Idx) (i : S4000000x20.Idx)
    (hi0 : (i 0).val = tv * 6400 + (y 0).val) (hi1 : (i 1).val = (y 1).val)
    (h0 : ∀ (r : Fin 6400) (q : Fin 10) (k : S4000000x10.Idx), (k 0).val = tv * 6400 + r.val → (k 1).val = q.val → x0 (ix2 r q) = A0 k)
    (h1 : ∀ (r : Fin 6400) (q : Fin 10) (k : S4000000x10.Idx), (k 0).val = tv * 6400 + r.val → (k 1).val = q.val → x1 (ix2 r q) = A1 k) :
    k1_pay1 (F := Ideal) x0 x1 w1 b1 w2 b2 y = Cert.Spec.edgeMul A0 A1 w1 b1 w2 b2 i := by
  obtain ⟨r, j, rfl⟩ : ∃ (r : Fin 6400) (j : Fin 20), y = ix2 r j := ⟨y 0, y 1, eq_ix2 y⟩
  obtain ⟨n, j', rfl⟩ : ∃ (n : Fin 4000000) (j' : Fin 20), i = ix2 n j' := ⟨i 0, i 1, eq_ix2 i⟩
  have hn : n.val = tv * 6400 + r.val := hi0
  obtain rfl : j = j' := (Fin.ext hi1).symm
  show EdgeBody.edgeBody x0 x1 w1 b1 w2 b2 (ix2 r j) = _
  rw [EdgeBody.edgeBody_apply, Cert.Spec.Row.edgeMul_apply]
  have ea : (fun q => x0 (ix2 r q)) = fun q => A0 (ix2 n q) := funext fun q => h0 r q (ix2 n q) hn rfl
  have eb : (fun q => x1 (ix2 r q)) = fun q => A1 (ix2 n q) := funext fun q => h1 r q (ix2 n q) hn rfl
  rw [ea, eb]

/-- WHAT POINT `t` WRITES BACK is block `t` of the specification on the arrays as the call finds them. -/
theorem flushed_eq1 (V : Entry) (c : Dev nD) (t : Fin cfg1.N) :
    (dat1 (F := Ideal) V c).flushed 6 t = ((cfg1.win 6).blk t).view.read (Elt Ideal)
      (Cert.Spec.edgeMul (V c main_v6) (V c main_v7) (V c main_arg4) (V c main_v8) (V c main_arg6) (V c main_v9)) := by
  have hz : (![0, 0] : Fin 2 → Nat) = fun _ => 0 := funext fun a => by fin_cases a <;> rfl
  have e := idx_facts1 t
  show (cfg1.win 6).cut (grid1.coords t) ((dat1 (F := Ideal) V c).after 6 t) = _
  rw [after1_6]
  unfold out1_6
  rw [View.canon_unit_zero hz]
  simp only [View.ld_unit_zero (S := S6400x10) hz, View.ld_unit_zero (S := S20x8) hz, View.ld_unit_zero (S := S1x8) hz,
    View.ld_unit_zero (S := S8x1) hz, View.ld_unit_zero (S := S1x1) hz]
  rw [blk2_eq1 V c t, blk3_eq1 V c t, blk4_eq1 V c t, blk5_eq1 V c t]
  funext y
  show k1_pay1 (F := Ideal) (iblk1 V c 0 t) (iblk1 V c 1 t) (V c main_arg4) (V c main_v8) (V c main_arg6) (V c main_v9) y
    = Cert.Spec.edgeMul (V c main_v6) (V c main_v7) (V c main_arg4) (V c main_v8) (V c main_arg6) (V c main_v9)
        (((cfg1.win 6).blk t).view.emb y)
  refine point_eq1 (iblk1 V c 0 t) (iblk1 V c 1 t) (V c main_arg4) (V c main_v8) (V c main_arg6) (V c main_v9)
    (V c main_v6) (V c main_v7) t.val y (((cfg1.win 6).blk t).view.emb y) ?_ ?_
    (fun r q k hk0 hk1 => blk0_apply1 V c t r q k hk0 hk1) (fun r q k hk0 hk1 => blk1_apply1 V c t r q k hk0 hk1)
  · show win1_6.index t (0 : Fin 2) * 6400 + 1 * (y 0).val = t.val * 6400 + (y 0).val
    rw [e.2.2.2.2.2.2.2.2.2.2.2.2.1]; omega
  · show win1_6.index t (1 : Fin 2) * 20 + 1 * (y 1).val = (y 1).val
    rw [e.2.2.2.2.2.2.2.2.2.2.2.2.2]; omega

/-- An entry of the output array is in point `t`'s block iff each coordinate is in the block's range on its axis. -/
theorem mem_blk1 (t : Fin cfg1.N) (i : S4000000x20.Idx) :
    i ∈ ((cfg1.win 6).blk t).view.set ↔ ∀ a : Fin 2, win1_6.index t a * S6400x20.size a ≤ (i a).val ∧ (i a).val < win1_6.index t a * S6400x20.size a + S6400x20.size a := by
  show i ∈ ((View.whole main_v10).slice (win1_6.rect t)).set ↔ _
  rw [View.set_slice_whole, Rect.mem_set_unit]
  exact Iff.rfl

/-- Every entry of the output array is in some point's block: row `n` is in block `n / 6400`. -/
theorem cover1 (i : S4000000x20.Idx) :
    ∃ t : Fin cfg1.N, (cfg1.win 6).flush t = true ∧ i ∈ ((cfg1.win 6).blk t).view.set := by
  have hi0 : (i 0).val < 4000000 := (i 0).isLt
  have hi1 : (i 1).val < 20 := (i 1).isLt
  have hN : cfg1.N = 625 := N_1
  obtain ⟨t, ht⟩ : ∃ t : Fin cfg1.N, t.val = (i 0).val / 6400 := ⟨⟨(i 0).val / 6400, by rw [hN]; omega⟩, rfl⟩
  have e := idx_facts1 t
  refine ⟨t, flush1_6 t, ?_⟩
  rw [mem_blk1]
  intro a
  match a with
  | ⟨0, _⟩ =>
    show win1_6.index t (0 : Fin 2) * 6400 ≤ (i 0).val ∧ (i 0).val < win1_6.index t (0 : Fin 2) * 6400 + 6400
    rw [e.2.2.2.2.2.2.2.2.2.2.2.2.1, ht]; omega
  | ⟨1, _⟩ =>
    show win1_6.index t (1 : Fin 2) * 20 ≤ (i 1).val ∧ (i 1).val < win1_6.index t (1 : Fin 2) * 20 + 20
    rw [e.2.2.2.2.2.2.2.2.2.2.2.2.2]; omega

theorem arr1 (V : Entry) (c : Dev nD) :
    (dat1 (F := Ideal) V c).arrAt 6 cfg1.N
      = Cert.Spec.edgeMul (V c main_v6) (V c main_v7) (V c main_arg4) (V c main_v8) (V c main_arg6) (V c main_v9) :=
  (dat1 (F := Ideal) V c).arrAt_eq_of_cover 6 _ (fun t _ => flushed_eq1 V c t) cover1

end Cert.KernelIdeal.Value

end
-- ==== Proof.NodeRow.lean ====
/-
  One node through the node layers.  A node's ten output features are a function of its three ten-feature input
  rows (the two message sums and the node's own features), its two input coordinates and the layers' weights:
  features 0-7 are `tanh (tanh ([a, b, c] · W1 + b1) · W2 + b2)`, features 8-9 the coordinates.  Both programs'
  node layers, read at one node and one feature, are this function of that node's rows: the reference's over the
  whole arrays, a kernel call's over a block of rows.  Stated for any number of rows.
-/
import Idealize.ShloMosaic.Lib.StackMember
import Idealize.ShloMosaic.Lib.ValueLayout

noncomputable section

namespace Cert.NodeRow

open Idealize.ShloMosaic Idealize.ShloMosaic.ValueIdx Idealize.ShloMosaic.StackMember
open scoped BigOperators

/-- Three ten-entry rows laid end to end. -/
def cat3 (a b c : Fin 10 → EReal) (l : Fin 30) : EReal :=
  if h : l.val < 10 then a ⟨l.val, h⟩
  else if h' : l.val < 20 then b ⟨l.val - 10, by omega⟩
  else c ⟨l.val - 20, by omega⟩

/-- The hidden layer at one node: `tanh ([a, b, c] · W1 + b1)`, feature `k`. -/
def hidden (a b c : Fin 10 → EReal) (w1 : (⟨2, ![30, 8]⟩ : Shape).Idx → EReal) (b1 : (⟨2, ![1, 8]⟩ : Shape).Idx → EReal)
    (k : Fin 8) : EReal :=
  Ideal.tanh ((∑ l : Fin 30, cat3 a b c l * w1 (ix2 l k)) + b1 (ix2 (0 : Fin 1) k))

/-- The node layers at one node: `[tanh (hidden · W2 + b2), x]`, feature `j`. -/
def nodeRow (a b c : Fin 10 → EReal) (x : Fin 2 → EReal) (w1 : (⟨2, ![30, 8]⟩ : Shape).Idx → EReal)
    (b1 : (⟨2, ![1, 8]⟩ : Shape).Idx → EReal) (w2 : (⟨2, ![8, 8]⟩ : Shape).Idx → EReal) (b2 : (⟨2, ![1, 8]⟩ : Shape).Idx → EReal)
    (j : Fin 10) : EReal :=
  if h : j.val < 8 then
    Ideal.tanh ((∑ k : Fin 8, hidden a b c w1 b1 k * w2 (ix2 k ⟨j.val, h⟩)) + b2 (ix2 (0 : Fin 1) ⟨j.val, h⟩))
  else x ⟨j.val - 8, by omega⟩

/-- Three `[M, 10]` arrays side by side, read at row `n`, are the three rows laid end to end. -/
theorem concat3_apply {M : Nat} (A B C : (⟨2, ![M, 10]⟩ : Shape).Idx → EReal)
    (h : Shape.Concatenates [(⟨2, ![M, 10]⟩ : Shape), ⟨2, ![M, 10]⟩, ⟨2, ![M, 10]⟩] ⟨2, ![M, 30]⟩ 1) (n : Fin M) (l : Fin 30) :
    concatenate (⟨2, ![M, 30]⟩ : Shape) 1 [⟨⟨2, ![M, 10]⟩, A⟩, ⟨⟨2, ![M, 10]⟩, B⟩, ⟨⟨2, ![M, 10]⟩, C⟩] h (ix2 n l)
      = cat3 (fun q => A (ix2 n q)) (fun q => B (ix2 n q)) (fun q => C (ix2 n q)) l := by
  unfold cat3
  split
  · rename_i h0
    exact concatenate_apply_piece (t := ⟨2, ![M, 30]⟩) 1 [⟨⟨2, ![M, 10]⟩, A⟩, ⟨⟨2, ![M, 10]⟩, B⟩, ⟨⟨2, ![M, 10]⟩, C⟩] h (ix2 n l) 0 (by simp) _ A rfl rfl 0 rfl (ix2 n ⟨l.val, h0⟩)
      (fun b hb => by match b with | ⟨0, _⟩ => rfl | ⟨1, _⟩ => exact absurd rfl hb) (by show 0 + l.val = l.val; omega)
  · rename_i h0
    split
    · rename_i h1
      exact concatenate_apply_piece (t := ⟨2, ![M, 30]⟩) 1 [⟨⟨2, ![M, 10]⟩, A⟩, ⟨⟨2, ![M, 10]⟩, B⟩, ⟨⟨2, ![M, 10]⟩, C⟩] h (ix2 n l) 1 (by simp) _ B rfl rfl 10 rfl (ix2 n ⟨l.val - 10, by omega⟩)
        (fun b hb => by match b with | ⟨0, _⟩ => rfl | ⟨1, _⟩ => exact absurd rfl hb) (by show 10 + (l.val - 10) = l.val; omega)
    · rename_i h1
      exact concatenate_apply_piece (t := ⟨2, ![M, 30]⟩) 1 [⟨⟨2, ![M, 10]⟩, A⟩, ⟨⟨2, ![M, 10]⟩, B⟩, ⟨⟨2, ![M, 10]⟩, C⟩] h (ix2 n l) 2 (by simp) _ C rfl rfl 20 rfl (ix2 n ⟨l.val - 20, by omega⟩)
        (fun b hb => by match b with | ⟨0, _⟩ => rfl | ⟨1, _⟩ => exact absurd rfl hb) (by show 20 + (l.val - 20) = l.val; omega)

/-- An `[M, 8]` array beside an `[M, 2]` one, read at row `n`: columns 0-7 the first's, 8-9 the second's. -/
theorem concat2_apply {M : Nat} (Y : (⟨2, ![M, 8]⟩ : Shape).Idx → EReal) (X : (⟨2, ![M, 2]⟩ : Shape).Idx → EReal)
    (h : Shape.Concatenates [(⟨2, ![M, 8]⟩ : Shape), ⟨2, ![M, 2]⟩] ⟨2, ![M, 10]⟩ 1) (n : Fin M) (j : Fin 10) :
    concatenate (⟨2, ![M, 10]⟩ : Shape) 1 [⟨⟨2, ![M, 8]⟩, Y⟩, ⟨⟨2, ![M, 2]⟩, X⟩] h (ix2 n j)
      = if h8 : j.val < 8 then Y (ix2 n ⟨j.val, h8⟩) else X (ix2 n ⟨j.val - 8, by omega⟩) := by
  split
  · rename_i h8
    exact concatenate_pair_apply_left (t := ⟨2, ![M, 10]⟩) 1 Y X h (ix2 n j) rfl (ix2 n ⟨j.val, h8⟩)
      (fun b => by match b with | ⟨0, _⟩ => rfl | ⟨1, _⟩ => rfl)
  · rename_i h8
    exact concatenate_pair_apply_right (t := ⟨2, ![M, 10]⟩) 1 Y X h (ix2 n j) rfl rfl (ix2 n ⟨j.val - 8, by omega⟩)
      (fun b hb => by match b with | ⟨0, _⟩ => rfl | ⟨1, _⟩ => exact absurd rfl hb)
      (by show (j.val - 8) + 8 = j.val; omega)

/-- THE REFERENCE'S NODE LAYERS AT A NODE: the host's two products, bias rows, `tanh`s and concatenations over `M`
    rows, read at row `n` and feature `j`, are `nodeRow` of row `n` of each array. -/
theorem hostNode_apply {M : Nat}
    (mi mo xc : FVec Ideal ⟨2, ![M, 10]⟩ .f32) (x : FVec Ideal ⟨2, ![M, 2]⟩ .f32)
    (w1 : FVec Ideal ⟨2, ![30, 8]⟩ .f32) (b1 : FVec Ideal ⟨2, ![1, 8]⟩ .f32)
    (w2 : FVec Ideal ⟨2, ![8, 8]⟩ .f32) (b2 : FVec Ideal ⟨2, ![1, 8]⟩ .f32)
    (hc3 : Shape.Concatenates [(⟨2, ![M, 10]⟩ : Shape), ⟨2, ![M, 10]⟩, ⟨2, ![M, 10]⟩] ⟨2, ![M, 30]⟩ 1)
    (hc2 : Shape.Concatenates [(⟨2, ![M, 8]⟩ : Shape), ⟨2, ![M, 2]⟩] ⟨2, ![M, 10]⟩ 1)
    (hb : (⟨2, ![1, 8]⟩ : Shape).BroadcastsInDim ⟨2, ![M, 8]⟩ ![0, 1])
    (d1 : DotDims ⟨2, ![M, 30]⟩ ⟨2, ![30, 8]⟩ ⟨2, ![M, 8]⟩) (hd1 : d1 = DotDims.plain M 30 8)
    (d2 : DotDims ⟨2, ![M, 8]⟩ ⟨2, ![8, 8]⟩ ⟨2, ![M, 8]⟩) (hd2 : d2 = DotDims.plain M 8 8)
    (n : Fin M) (j : Fin 10) :
    concatenate (⟨2, ![M, 10]⟩ : Shape) 1
      [⟨⟨2, ![M, 8]⟩, Host.tanh (addf
          (Host.dotGeneral d2 none
            (Host.tanh (addf
              (Host.dotGeneral d1 none
                (concatenate (⟨2, ![M, 30]⟩ : Shape) 1 [⟨⟨2, ![M, 10]⟩, mi⟩, ⟨⟨2, ![M, 10]⟩, mo⟩, ⟨⟨2, ![M, 10]⟩, xc⟩] hc3) w1)
              (broadcastInDim ⟨2, ![M, 8]⟩ ![0, 1] hb b1)))
            w2)
          (broadcastInDim ⟨2, ![M, 8]⟩ ![0, 1] hb b2))⟩,
       ⟨⟨2, ![M, 2]⟩, x⟩] hc2 (ix2 n j)
    = nodeRow (fun q => mi (ix2 n q)) (fun q => mo (ix2 n q)) (fun q => xc (ix2 n q)) (fun q => x (ix2 n q)) w1 b1 w2 b2 j := by
  subst hd1 hd2
  rw [concat2_apply]
  unfold nodeRow
  split
  · rename_i h8
    show Ideal.tanh (Host.dotGeneral (DotDims.plain M 8 8) none _ w2 (ix2 n ⟨j.val, h8⟩)
      + broadcastInDim ⟨2, ![M, 8]⟩ ![0, 1] hb b2 (ix2 n ⟨j.val, h8⟩)) = _
    rw [dotGeneral_plain_apply, broadcastInDim_oneRow_apply]
    refine congrArg Ideal.tanh (congrArg (· + _) (Finset.sum_congr rfl fun k _ => congrArg (· * _) ?_))
    show Ideal.tanh (Host.dotGeneral (DotDims.plain M 30 8) none _ w1 (ix2 n k)
      + broadcastInDim ⟨2, ![M, 8]⟩ ![0, 1] hb b1 (ix2 n k)) = _
    rw [dotGeneral_plain_apply, broadcastInDim_oneRow_apply]
    unfold hidden
    refine congrArg Ideal.tanh (congrArg (· + _) (Finset.sum_congr rfl fun l _ => congrArg (· * _) ?_))
    exact concat3_apply mi mo xc hc3 n l
  · rfl

/-- A KERNEL CALL'S NODE LAYERS AT A ROW OF ITS BLOCK: the body's two matrix products into zero, bias rows, `tanh`s
    and concatenations over a block of `M` rows, read at row `r` and feature `j`, are `nodeRow` of row `r` of each
    block.  (At the ideal values a narrowing of the format changes nothing.) -/
theorem kernNode_apply {M : Nat}
    (v0 v2 v4 : FVec Ideal ⟨2, ![M, 10]⟩ .f32) (v6 : FVec Ideal ⟨2, ![M, 2]⟩ .f32)
    (w1 : FVec Ideal ⟨2, ![30, 8]⟩ .f32) (b1 : FVec Ideal ⟨2, ![1, 8]⟩ .f32)
    (w2 : FVec Ideal ⟨2, ![8, 8]⟩ .f32) (b2 : FVec Ideal ⟨2, ![1, 8]⟩ .f32)
    (hs : (⟨2, ![M, 10]⟩ : Shape).ShapeCasts ⟨2, ![M, 10]⟩)
    (hc3 : Shape.Concatenates [(⟨2, ![M, 10]⟩ : Shape), ⟨2, ![M, 10]⟩, ⟨2, ![M, 10]⟩] ⟨2, ![M, 30]⟩ 1)
    (hc2 : Shape.Concatenates [(⟨2, ![M, 8]⟩ : Shape), ⟨2, ![M, 2]⟩] ⟨2, ![M, 10]⟩ 1)
    (hsb : (⟨2, ![1, 8]⟩ : Shape).ShapeCasts ⟨2, ![1, 8]⟩)
    (hbr : (⟨2, ![1, 8]⟩ : Shape).Broadcasts ⟨2, ![M, 8]⟩)
    (hlt : FTy.bits .bf16 < FTy.bits .f32)
    (d1 : DotDims ⟨2, ![M, 30]⟩ ⟨2, ![30, 8]⟩ ⟨2, ![M, 8]⟩) (hd1 : d1 = DotDims.plain M 30 8)
    (d2 : DotDims ⟨2, ![M, 8]⟩ ⟨2, ![8, 8]⟩ ⟨2, ![M, 8]⟩) (hd2 : d2 = DotDims.plain M 8 8)
    (r : Fin M) (j : Fin 10) :
    concatenate (⟨2, ![M, 10]⟩ : Shape) 1
      [⟨⟨2, ![M, 8]⟩, tanh (addf
          (matmul d2 none
            (truncf .bf16 (tanh (addf
              (matmul d1 none
                (truncf .bf16 (concatenate (⟨2, ![M, 30]⟩ : Shape) 1
                  [⟨⟨2, ![M, 10]⟩, shapeCast ⟨2, ![M, 10]⟩ v0 hs⟩, ⟨⟨2, ![M, 10]⟩, shapeCast ⟨2, ![M, 10]⟩ v2 hs⟩,
                   ⟨⟨2, ![M, 10]⟩, shapeCast ⟨2, ![M, 10]⟩ v4 hs⟩] hc3) hlt)
                (truncf .bf16 w1 hlt) (constant ⟨2, ![M, 8]⟩ .f32 0x00000000#32))
              (broadcastTo ⟨2, ![M, 8]⟩ (shapeCast ⟨2, ![1, 8]⟩ b1 hsb) hbr))) hlt)
            (truncf .bf16 w2 hlt) (constant ⟨2, ![M, 8]⟩ .f32 0x00000000#32))
          (broadcastTo ⟨2, ![M, 8]⟩ (shapeCast ⟨2, ![1, 8]⟩ b2 hsb) hbr))⟩,
       ⟨⟨2, ![M, 2]⟩, v6⟩] hc2 (ix2 r j)
    = nodeRow (fun q => v0 (ix2 r q)) (fun q => v2 (ix2 r q)) (fun q => v4 (ix2 r q)) (fun q => v6 (ix2 r q)) w1 b1 w2 b2 j := by
  subst hd1 hd2
  rw [concat2_apply, shapeCast_self v0 hs, shapeCast_self v2 hs, shapeCast_self v4 hs, shapeCast_self b1 hsb,
    shapeCast_self b2 hsb, matmul_zero_eq_dotGeneral, matmul_zero_eq_dotGeneral]
  unfold nodeRow
  split
  · rename_i h8
    show Ideal.tanh (Host.dotGeneral (F := Ideal) (DotDims.plain M 8 8) none _ (truncf .bf16 w2 hlt) (ix2 r ⟨j.val, h8⟩)
      + broadcastTo ⟨2, ![M, 8]⟩ b2 hbr (ix2 r ⟨j.val, h8⟩)) = _
    rw [dotGeneral_plain_apply, broadcastTo_1b_ab_apply]
    refine congrArg Ideal.tanh (congrArg (· + _) (Finset.sum_congr rfl fun k _ => congrArg (· * _) ?_))
    show Ideal.tanh (Host.dotGeneral (F := Ideal) (DotDims.plain M 30 8) none _ (truncf .bf16 w1 hlt) (ix2 r k)
      + broadcastTo ⟨2, ![M, 8]⟩ b1 hbr (ix2 r k)) = _
    rw [dotGeneral_plain_apply, broadcastTo_1b_ab_apply]
    unfold hidden
    refine congrArg Ideal.tanh (congrArg (· + _) (Finset.sum_congr rfl fun l _ => congrArg (· * _) ?_))
    exact concat3_apply v0 v2 v4 hc3 r l
  · rfl

end Cert.NodeRow

end
-- ==== Proof.RegionNode2.lean ====
/-
  A node pallas_call: after its 100 grid points, each writing 5000 node rows, the output array is the node layers of
  the whole arrays.  A grid point's block of the output is rows `5000 t … 5000 t + 4999`; the body computes each row of
  it from the same rows of the three feature arrays and of the coordinates, and from the whole weight arrays; read at a
  row and a feature, the body's arithmetic and the specification's are the same function of that node's rows.
-/
import proofs.«426732_j67937792688144_3_alg».proof.Proof.Gen.KernelIdeal.Frame
import proofs.«426732_j67937792688144_3_alg».proof.Proof.Spec
import proofs.«426732_j67937792688144_3_alg».proof.Proof.Args
import proofs.«426732_j67937792688144_3_alg».proof.Proof.NodeRow
import Idealize.ShloMosaic.Lib.Pipeline.Value
set_option maxRecDepth 16384

noncomputable section

namespace Cert.KernelIdeal.Value

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-! ## The body's arithmetic and the specification's, at a node -/

/-- The body's payload at a row of its block. -/
theorem pay_apply2 (x0 x1 x2 : Vec Ideal S5000x10 .f32) (x3 : Vec Ideal S5000x2 .f32) (x4 : Vec Ideal S30x8 .f32)
    (x5 : Vec Ideal S1x8 .f32) (x6 : Vec Ideal S8x8 .f32) (x7 : Vec Ideal S1x8 .f32) (r : Fin 5000) (j : Fin 10) :
    k2_pay1 x0 x1 x2 x3 x4 x5 x6 x7 (ix2 r j)
      = Cert.NodeRow.nodeRow (fun q => x0 (ix2 r q)) (fun q => x1 (ix2 r q)) (fun q => x2 (ix2 r q)) (fun q => x3 (ix2 r q))
          x4 x5 x6 x7 j :=
  Cert.NodeRow.kernNode_apply (M := 5000) x0 x1 x2 x3 x4 x5 x6 x7 shapeCasts_S5000x10_S5000x10
    concatenates_S5000x10_S5000x10_S5000x10_S5000x30_d1 concatenates_S5000x8_S5000x2_S5000x10_d1 shapeCasts_S1x8_S1x8
    broadcasts_S1x8_S5000x8 bitsLt_bf16_f32 dot_S5000x30_S30x8_S5000x8_1_0_0_1_n_n rfl dot_S5000x8_S8x8_S5000x8_1_0_0_1_n_n rfl r j

/-- The specification's node layers at a node. -/
theorem node_apply2 (mi mo xc : Cert.Spec.FA Cert.ReferenceIdeal.S500000x10) (x : Cert.Spec.FA Cert.ReferenceIdeal.S500000x2)
    (w1 : Cert.Spec.FA Cert.ReferenceIdeal.S30x8) (b1 : Cert.Spec.FA Cert.ReferenceIdeal.S1x8)
    (w2 : Cert.Spec.FA Cert.ReferenceIdeal.S8x8) (b2 : Cert.Spec.FA Cert.ReferenceIdeal.S1x8) (n : Fin 500000) (j : Fin 10) :
    Cert.Spec.node mi mo xc x w1 b1 w2 b2 (ix2 n j)
      = Cert.NodeRow.nodeRow (fun q => mi (ix2 n q)) (fun q => mo (ix2 n q)) (fun q => xc (ix2 n q)) (fun q => x (ix2 n q))
          w1 b1 w2 b2 j :=
  Cert.NodeRow.hostNode_apply (M := 500000) mi mo xc x w1 b1 w2 b2
    Cert.ReferenceIdeal.Gen.concatenates_S500000x10_S500000x10_S500000x10_S500000x30_d1
    Cert.ReferenceIdeal.Gen.concatenates_S500000x8_S500000x2_S500000x10_d1
    Cert.ReferenceIdeal.Gen.bcast_S1x8_S500000x8_0_1
    Cert.ReferenceIdeal.dot_S500000x30_S30x8_S500000x8_1_0_0_1_n_n rfl Cert.ReferenceIdeal.dot_S500000x8_S8x8_S500000x8_1_0_0_1_n_n rfl n j

/-! ## The blocks -/

theorem hz2 : (![0, 0] : Fin 2 → Nat) = fun _ => 0 := funext fun a => by fin_cases a <;> rfl

/-- The printed index maps, decided over the grid: the row windows' block index is `(t, 0)`, the weight windows' `(0, 0)`. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = t.val ∧ win2_8.index t (1 : Fin 2) = 0) :=
  (by decide +kernel : ∀ t : Fin grid2.N, _)

/-- A row window's block at point `t` is rows `5000 t …` of its array. -/
theorem iblk2_0_apply (V : Entry) (c : Dev nD) (t : Fin cfg2.N) (x : S5000x10.Idx) (k : S500000x10.Idx)
    (hk0 : (k 0).val = 5000 * t.val + (x 0).val) (hk1 : (k 1).val = (x 1).val) :
    (iblk2 V c 0 t : Vec Ideal S5000x10 .f32) x = (V c main_v15 : S500000x10.Idx → EReal) k := by
  obtain ⟨⟨e0, e1⟩, -⟩ := idx_facts2 t
  unfold iblk2
  rw [View.read_apply]
  show V c main_v15 _ = V c main_v15 _
  congr 1
  funext a
  apply Fin.ext
  match a with
  | ⟨0, _⟩ => show win2_0.index t 0 * 5000 + 1 * (x 0).val = (k 0).val; rw [e0, hk0]; omega
  | ⟨1, _⟩ => show win2_0.index t 1 * 10 + 1 * (x 1).val = (k 1).val; rw [e1, hk1]; omega

theorem iblk2_1_apply (V : Entry) (c : Dev nD) (t : Fin cfg2.N) (x : S5000x10.Idx) (k : S500000x10.Idx)
    (hk0 : (k 0).val = 5000 * t.val + (x 0).val) (hk1 : (k 1).val = (x 1).val) :
    (iblk2 V c 1 t : Vec Ideal S5000x10 .f32) x = (V c main_v18 : S500000x10.Idx → EReal) k := by
  obtain ⟨-, ⟨e0, e1⟩, -⟩ := idx_facts2 t
  unfold iblk2
  rw [View.read_apply]
  show V c main_v18 _ = V c main_v18 _
  congr 1
  funext a
  apply Fin.ext
  match a with
  | ⟨0, _⟩ => show win2_1.index t 0 * 5000 + 1 * (x 0).val = (k 0).val; rw [e0, hk0]; omega
  | ⟨1, _⟩ => show win2_1.index t 1 * 10 + 1 * (x 1).val = (k 1).val; rw [e1, hk1]; omega

theorem iblk2_2_apply (V : Entry) (c : Dev nD) (t : Fin cfg2.N) (x : S5000x10.Idx) (k : S500000x10.Idx)
    (hk0 : (k 0).val = 5000 * t.val + (x 0).val) (hk1 : (k 1).val = (x 1).val) :
    (iblk2 V c 2 t : Vec Ideal S5000x10 .f32) x = (V c main_v5 : S500000x10.Idx → EReal) k := by
  obtain ⟨-, -, ⟨e0, e1⟩, -⟩ := idx_facts2 t
  unfold iblk2
  rw [View.read_apply]
  show V c main_v5 _ = V c main_v5 _
  congr 1
  funext a
  apply Fin.ext
  match a with
  | ⟨0, _⟩ => show win2_2.index t 0 * 5000 + 1 * (x 0).val = (k 0).val; rw [e0, hk0]; omega
  | ⟨1, _⟩ => show win2_2.index t 1 * 10 + 1 * (x 1).val = (k 1).val; rw [e1, hk1]; omega

theorem iblk2_3_apply (V : Entry) (c : Dev nD) (t : Fin cfg2.N) (x : S5000x2.Idx) (k : S500000x2.Idx)
    (hk0 : (k 0).val = 5000 * t.val + (x 0).val) (hk1 : (k 1).val = (x 1).val) :
    (iblk2 V c 3 t : Vec Ideal S5000x2 .f32) x = (V c main_arg0 : S500000x2.Idx → EReal) k := by
  obtain ⟨-, -, -, ⟨e0, e1⟩, -⟩ := idx_facts2 t
  unfold iblk2
  rw [View.read_apply]
  show V c main_arg0 _ = V c main_arg0 _
  congr 1
  funext a
  apply Fin.ext
  match a with
  | ⟨0, _⟩ => show win2_3.index t 0 * 5000 + 1 * (x 0).val = (k 0).val; rw [e0, hk0]; omega
  | ⟨1, _⟩ => show win2_3.index t 1 * 2 + 1 * (x 1).val = (k 1).val; rw [e1, hk1]; omega

/-- A weight window's block is its whole array, at every point. -/
theorem iblk2_4_eq (V : Entry) (c : Dev nD) (t : Fin cfg2.N) :
    (iblk2 V c 4 t : Vec Ideal S30x8 .f32) = (V c main_arg8 : S30x8.Idx → EReal) := by
  obtain ⟨-, -, -, -, ⟨e0, e1⟩, -⟩ := idx_facts2 t
  funext x
  unfold iblk2
  rw [View.read_apply]
  show V c main_arg8 _ = V c main_arg8 _
  congr 1
  funext a
  apply Fin.ext
  match a with
  | ⟨0, _⟩ => show win2_4.index t 0 * 30 + 1 * (x 0).val = (x 0).val; rw [e0]; omega
  | ⟨1, _⟩ => show win2_4.index t 1 * 8 + 1 * (x 1).val = (x 1).val; rw [e1]; omega

theorem iblk2_5_eq (V : Entry) (c : Dev nD) (t : Fin cfg2.N) :
    (iblk2 V c 5 t : Vec Ideal S1x8 .f32) = (V c main_v19 : S1x8.Idx → EReal) := by
  obtain ⟨-, -, -, -, -, ⟨e0, e1⟩, -⟩ := idx_facts2 t
  funext x
  unfold iblk2
  rw [View.read_apply]
  show V c main_v19 _ = V c main_v19 _
  congr 1
  funext a
  apply Fin.ext
  match a with
  | ⟨0, _⟩ => show win2_5.index t 0 * 1 + 1 * (x 0).val = (x 0).val; rw [e0]; omega
  | ⟨1, _⟩ => show win2_5.index t 1 * 8 + 1 * (x 1).val = (x 1).val; rw [e1]; omega

theorem iblk2_6_eq (V : Entry) (c : Dev nD) (t : Fin cfg2.N) :
    (iblk2 V c 6 t : Vec Ideal S8x8 .f32) = (V c main_arg10 : S8x8.Idx → EReal) := by
  obtain ⟨-, -, -, -, -, -, ⟨e0, e1⟩, -⟩ := idx_facts2 t
  funext x
  unfold iblk2
  rw [View.read_apply]
  show V c main_arg10 _ = V c main_arg10 _
  congr 1
  funext a
  apply Fin.ext
  match a with
  | ⟨0, _⟩ => show win2_6.index t 0 * 8 + 1 * (x 0).val = (x 0).val; rw [e0]; omega
  | ⟨1, _⟩ => show win2_6.index t 1 * 8 + 1 * (x 1).val = (x 1).val; rw [e1]; omega

theorem iblk2_7_eq (V : Entry) (c : Dev nD) (t : Fin cfg2.N) :
    (iblk2 V c 7 t : Vec Ideal S1x8 .f32) = (V c main_v20 : S1x8.Idx → EReal) := by
  obtain ⟨-, -, -, -, -, -, -, ⟨e0, e1⟩, -⟩ := idx_facts2 t
  funext x
  unfold iblk2
  rw [View.read_apply]
  show V c main_v20 _ = V c main_v20 _
  congr 1
  funext a
  apply Fin.ext
  match a with
  | ⟨0, _⟩ => show win2_7.index t 0 * 1 + 1 * (x 0).val = (x 0).val; rw [e0]; omega
  | ⟨1, _⟩ => show win2_7.index t 1 * 8 + 1 * (x 1).val = (x 1).val; rw [e1]; omega

/-! ## What a point writes back -/

/-- The node layers of the arrays as the region finds them. -/
abbrev G2 (V : Entry) (c : Dev nD) : S500000x10.Idx → EReal :=
  Cert.Spec.node (V c main_v15) (V c main_v18) (V c main_v5) (V c main_arg0) (V c main_arg8) (V c main_v19)
    (V c main_arg10) (V c main_v20)

/-- The body's result at row `x 0` of point `t`'s block is the specification's at row `5000 t + x 0`. -/
theorem point2 (V : Entry) (c : Dev nD) (t : Fin cfg2.N) (x : S5000x10.Idx) (k : S500000x10.Idx)
    (hk0 : (k 0).val = 5000 * t.val + (x 0).val) (hk1 : (k 1).val = (x 1).val) :
    k2_pay1 (iblk2 V c 0 t) (iblk2 V c 1 t) (iblk2 V c 2 t) (iblk2 V c 3 t) (iblk2 V c 4 t) (iblk2 V c 5 t) (iblk2 V c 6 t)
      (iblk2 V c 7 t) x = G2 V c k := by
  obtain ⟨r, j, rfl⟩ : ∃ (r : Fin 5000) (j : Fin 10), x = ix2 r j := ⟨x 0, x 1, eq_ix2 x⟩
  obtain ⟨n, j', rfl⟩ : ∃ (n : Fin 500000) (j' : Fin 10), k = ix2 n j' := ⟨k 0, k 1, eq_ix2 k⟩
  have hn : n.val = 5000 * t.val + r.val := hk0
  obtain rfl : j' = j := Fin.ext hk1
  refine (pay_apply2 (iblk2 V c 0 t) (iblk2 V c 1 t) (iblk2 V c 2 t) (iblk2 V c 3 t) (iblk2 V c 4 t) (iblk2 V c 5 t)
    (iblk2 V c 6 t) (iblk2 V c 7 t) r j').trans ?_
  refine Eq.trans ?_ (node_apply2 (V c main_v15) (V c main_v18) (V c main_v5) (V c main_arg0) (V c main_arg8) (V c main_v19)
    (V c main_arg10) (V c main_v20) n j').symm
  have e0 : (fun q : Fin 10 => (iblk2 V c 0 t : Vec Ideal S5000x10 .f32) (ix2 r q))
      = fun q : Fin 10 => (V c main_v15 : S500000x10.Idx → EReal) (ix2 n q) :=
    funext fun q => iblk2_0_apply V c t (ix2 r q) (ix2 n q) hn rfl
  have e1 : (fun q : Fin 10 => (iblk2 V c 1 t : Vec Ideal S5000x10 .f32) (ix2 r q))
      = fun q : Fin 10 => (V c main_v18 : S500000x10.Idx → EReal) (ix2 n q) :=
    funext fun q => iblk2_1_apply V c t (ix2 r q) (ix2 n q) hn rfl
  have e2 : (fun q : Fin 10 => (iblk2 V c 2 t : Vec Ideal S5000x10 .f32) (ix2 r q))
      = fun q : Fin 10 => (V c main_v5 : S500000x10.Idx → EReal) (ix2 n q) :=
    funext fun q => iblk2_2_apply V c t (ix2 r q) (ix2 n q) hn rfl
  have e3 : (fun q : Fin 2 => (iblk2 V c 3 t : Vec Ideal S5000x2 .f32) (ix2 r q))
      = fun q : Fin 2 => (V c main_arg0 : S500000x2.Idx → EReal) (ix2 n q) :=
    funext fun q => iblk2_3_apply V c t (ix2 r q) (ix2 n q) hn rfl
  rw [e0, e1, e2, e3, iblk2_4_eq V c t, iblk2_5_eq V c t, iblk2_6_eq V c t, iblk2_7_eq V c t]

/-- WHAT POINT `t` WRITES BACK is block `t` of the node layers of the arrays as the region finds them. -/
theorem flushed_eq2 (V : Entry) (c : Dev nD) (t : Fin cfg2.N) :
    (dat2 (F := Ideal) V c).flushed 8 t = ((cfg2.win 8).blk t).view.read (Elt Ideal) (G2 V c) := by
  obtain ⟨-, -, -, -, -, -, -, -, e0, e1⟩ := idx_facts2 t
  show (cfg2.win 8).cut (grid2.coords t) ((dat2 V c).after 8 t) = _
  rw [after2_8]
  unfold out2_8
  rw [View.canon_unit_zero hz2]
  simp only [View.ld_unit_zero (S := S5000x10) hz2, View.ld_unit_zero (S := S5000x2) hz2, View.ld_unit_zero (S := S30x8) hz2,
    View.ld_unit_zero (S := S1x8) hz2, View.ld_unit_zero (S := S8x8) hz2]
  funext y
  rw [View.read_apply]
  refine point2 V c t y _ ?_ ?_
  · show win2_8.index t 0 * 5000 + 1 * (y 0).val = 5000 * t.val + (y 0).val; rw [e0]; omega
  · show win2_8.index t 1 * 10 + 1 * (y 1).val = (y 1).val; rw [e1]; omega

/-! ## The cover, and the array -/

/-- An index of the array is in point `t`'s block iff each coordinate is in the block's range on its axis. -/
theorem mem_blk2 (t : Fin cfg2.N) (i : S500000x10.Idx) :
    i ∈ ((cfg2.win 8).blk t).view.set ↔ ∀ a : Fin 2, win2_8.index t a * S5000x10.size a ≤ (i a).val
      ∧ (i a).val < win2_8.index t a * S5000x10.size a + S5000x10.size a := by
  show i ∈ ((View.whole main_v21).slice (win2_8.rect t)).set ↔ _
  rw [View.set_slice_whole, Rect.mem_set_unit]
  exact Iff.rfl

/-- Row `n` of the array is in the block of point `n / 5000`. -/
theorem cover2 (i : S500000x10.Idx) : ∃ t : Fin cfg2.N, (cfg2.win 8).flush t = true ∧ i ∈ ((cfg2.win 8).blk t).view.set := by
  have hi0 : (i 0).val < 500000 := (i 0).isLt
  have hi1 : (i 1).val < 10 := (i 1).isLt
  have hN : cfg2.N = 100 := N_2
  refine ⟨⟨(i 0).val / 5000, by rw [hN]; omega⟩, flush2_8 _, ?_⟩
  rw [mem_blk2]
  obtain ⟨-, -, -, -, -, -, -, -, e0, e1⟩ := idx_facts2 ⟨(i 0).val / 5000, by rw [hN]; omega⟩
  intro a
  match a with
  | ⟨0, _⟩ =>
    show win2_8.index _ (0 : Fin 2) * 5000 ≤ (i 0).val ∧ (i 0).val < win2_8.index _ (0 : Fin 2) * 5000 + 5000
    rw [e0]; show (i 0).val / 5000 * 5000 ≤ (i 0).val ∧ (i 0).val < (i 0).val / 5000 * 5000 + 5000; omega
  | ⟨1, _⟩ =>
    show win2_8.index _ (1 : Fin 2) * 10 ≤ (i 1).val ∧ (i 1).val < win2_8.index _ (1 : Fin 2) * 10 + 10
    rw [e1]; omega

/-- THE ARRAY after the call: the node layers of the arrays as the region finds them. -/
theorem arr2 (V : Entry) (c : Dev nD) :
    (dat2 (F := Ideal) V c).arrAt 8 cfg2.N
      = Cert.Spec.node (V c main_v15) (V c main_v18) (V c main_v5) (V c main_arg0) (V c main_arg8) (V c main_v19)
          (V c main_arg10) (V c main_v20) :=
  (dat2 (F := Ideal) V c).arrAt_eq_of_cover 8 (G2 V c) (fun t _ => flushed_eq2 V c t) cover2

end Cert.KernelIdeal.Value

end
-- ==== Proof.ChainIter1.lean ====
/-
  One round, from the exit of the call that made the node features to the round's node call's exit: two guarded gathers,
  the edge call, its output's two halves summed into the opposite endpoints, the node call.  The edge list's rows and the
  argument arrays stay where they are, and the node call's output is the specification's `step` of the features the round
  was entered with.
-/
import proofs.«426732_j67937792688144_3_alg».proof.Proof.Gen.KernelIdeal.Frame
import proofs.«426732_j67937792688144_3_alg».proof.Proof.Spec
import proofs.«426732_j67937792688144_3_alg».proof.Proof.ChainDefs
import proofs.«426732_j67937792688144_3_alg».proof.Proof.HostGlue
import proofs.«426732_j67937792688144_3_alg».proof.Proof.TakeStretch1
import proofs.«426732_j67937792688144_3_alg».proof.Proof.RegionEdgeMul1
import proofs.«426732_j67937792688144_3_alg».proof.Proof.RegionNode2
set_option maxRecDepth 16384

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- A stretch of host operations keeps a buffer none of them writes. -/
local macro "host_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- Contents that agree with `W` at the edge list's rows and at the arguments have what `W` has there. -/
private theorem inv_of_eq {W W' : Valuation τ sig (Elt Ideal)} {a : Cert.Spec.Args} (h : Inv W a)
    (h1 : W' (Proc.devRef .tc main_v1) = W (Proc.devRef .tc main_v1))
    (h3 : W' (Proc.devRef .tc main_v3) = W (Proc.devRef .tc main_v3))
    (g0 : W' (Proc.devRef .tc main_arg0) = W (Proc.devRef .tc main_arg0))
    (g4 : W' (Proc.devRef .tc main_arg4) = W (Proc.devRef .tc main_arg4))
    (g5 : W' (Proc.devRef .tc main_arg5) = W (Proc.devRef .tc main_arg5))
    (g6 : W' (Proc.devRef .tc main_arg6) = W (Proc.devRef .tc main_arg6))
    (g7 : W' (Proc.devRef .tc main_arg7) = W (Proc.devRef .tc main_arg7))
    (g8 : W' (Proc.devRef .tc main_arg8) = W (Proc.devRef .tc main_arg8))
    (g9 : W' (Proc.devRef .tc main_arg9) = W (Proc.devRef .tc main_arg9))
    (g10 : W' (Proc.devRef .tc main_arg10) = W (Proc.devRef .tc main_arg10))
    (g11 : W' (Proc.devRef .tc main_arg11) = W (Proc.devRef .tc main_arg11)) : Inv W' a :=
  ⟨h1.trans h.row, h3.trans h.col, g0.trans h.x, g4.trans h.e1_w, g5.trans h.e1_b, g6.trans h.e2_w, g7.trans h.e2_b,
    g8.trans h.n1_w, g9.trans h.n1_b, g10.trans h.n2_w, g11.trans h.n2_b⟩

/-- The rows and the arguments pass through a stretch of host operations that writes none of them. -/
local macro "inv_keeps " ops:ident : tactic =>
  `(tactic| (refine inv_of_eq (by assumption) ?_ ?_ ?_ ?_ ?_ ?_ ?_ ?_ ?_ ?_ ?_ <;> host_keeps $ops))

/-! ## The four stretches of host operations, from any contents -/

section Stretches
variable (W : Valuation τ sig (Elt Ideal)) (a : Cert.Spec.Args)

private theorem inv_gatherCol (h : Inv W a) : Inv (StableHlo.after hostOps1 W) a := by inv_keeps hostOps1
private theorem inv_gatherRow (h : Inv W a) : Inv (StableHlo.after hostOps1_1 W) a := by inv_keeps hostOps1_1
private theorem inv_biasRows (h : Inv W a) : Inv (StableHlo.after hostOps1_2 W) a := by inv_keeps hostOps1_2
private theorem inv_sums (h : Inv W a) : Inv (StableHlo.after hostOps2 W) a := by inv_keeps hostOps2

/-- The two bias vectors of the edge call, reshaped to rows. -/
private theorem biasRows_v8 : StableHlo.after hostOps1_2 W (Proc.devRef .tc main_v8)
    = shapeCast S1x8 (W (Proc.devRef .tc main_arg5)) shapeCasts_S8_S1x8 := by
  after_results; rfl
private theorem biasRows_v9 : StableHlo.after hostOps1_2 W (Proc.devRef .tc main_v9)
    = shapeCast S1x1 (W (Proc.devRef .tc main_arg7)) shapeCasts_S1_S1x1 := by
  after_results; rfl

/-- The sum of the edge call's right column half into the `col` endpoints, of its left half into the `row` endpoints, and
    the node call's two bias vectors reshaped to rows. -/
private theorem sums_v15 : StableHlo.after hostOps2 W (Proc.devRef .tc main_v15)
    = Cert.Spec.segsum (W (Proc.devRef .tc main_v3))
        (extractStridedSlice S4000000x10 ![0, 10] (W (Proc.devRef .tc main_v10)) slices_S4000000x20_S4000000x10_0_10) := by
  after_results; exact ksegsum_eq _ _
private theorem sums_v18 : StableHlo.after hostOps2 W (Proc.devRef .tc main_v18)
    = Cert.Spec.segsum (W (Proc.devRef .tc main_v1))
        (extractStridedSlice S4000000x10 ![0, 0] (W (Proc.devRef .tc main_v10)) slices_S4000000x20_S4000000x10_0_0) := by
  after_results; exact ksegsum_eq _ _
private theorem sums_v19 : StableHlo.after hostOps2 W (Proc.devRef .tc main_v19)
    = shapeCast S1x8 (W (Proc.devRef .tc main_arg9)) shapeCasts_S8_S1x8 := by
  after_results; rfl
private theorem sums_v20 : StableHlo.after hostOps2 W (Proc.devRef .tc main_v20)
    = shapeCast S1x8 (W (Proc.devRef .tc main_arg11)) shapeCasts_S8_S1x8 := by
  after_results; rfl

end Stretches

/-! ## The two calls: an argument a call stages is as entered, every buffer it does not stage is untouched -/

private theorem inv_edgeCall (c : Dev nD) (a : Cert.Spec.Args) (h : Inv (W5 m ρ c) a) : Inv (W6 m ρ c) a :=
  inv_of_eq h (W6_of_ne m ρ c main_v1 (by decide)) (W6_of_ne m ρ c main_v3 (by decide))
    (W6_of_ne m ρ c main_arg0 (by decide))
    ((W6_arr m ρ c 2).trans (((dat1 (V5 m ρ) c).arrAt_in 2 rfl _).trans (A_eq1 (V5 m ρ) c 2)))
    (W6_of_ne m ρ c main_arg5 (by decide))
    ((W6_arr m ρ c 4).trans (((dat1 (V5 m ρ) c).arrAt_in 4 rfl _).trans (A_eq1 (V5 m ρ) c 4)))
    (W6_of_ne m ρ c main_arg7 (by decide)) (W6_of_ne m ρ c main_arg8 (by decide))
    (W6_of_ne m ρ c main_arg9 (by decide)) (W6_of_ne m ρ c main_arg10 (by decide))
    (W6_of_ne m ρ c main_arg11 (by decide))

private theorem inv_nodeCall (c : Dev nD) (a : Cert.Spec.Args) (h : Inv (W7 m ρ c) a) : Inv (W8 m ρ c) a :=
  inv_of_eq h (W8_of_ne m ρ c main_v1 (by decide)) (W8_of_ne m ρ c main_v3 (by decide))
    ((W8_arr m ρ c 3).trans (((dat2 (V7 m ρ) c).arrAt_in 3 rfl _).trans (A_eq2 (V7 m ρ) c 3)))
    (W8_of_ne m ρ c main_arg4 (by decide)) (W8_of_ne m ρ c main_arg5 (by decide))
    (W8_of_ne m ρ c main_arg6 (by decide)) (W8_of_ne m ρ c main_arg7 (by decide))
    ((W8_arr m ρ c 4).trans (((dat2 (V7 m ρ) c).arrAt_in 4 rfl _).trans (A_eq2 (V7 m ρ) c 4)))
    (W8_of_ne m ρ c main_arg9 (by decide))
    ((W8_arr m ρ c 6).trans (((dat2 (V7 m ρ) c).arrAt_in 6 rfl _).trans (A_eq2 (V7 m ρ) c 6)))
    (W8_of_ne m ρ c main_arg11 (by decide))

/-! ## The round -/

theorem iter1 (c : Dev nD) (a : Cert.Spec.Args) (xc : Cert.Spec.FA Cert.ReferenceIdeal.S500000x10)
    (hI : Inv (W2 m ρ c) a) (hx : W2 m ρ c (Proc.devRef .tc main_v5) = xc) (hr : Cert.Spec.InRange a) :
    Inv (W8 m ρ c) a ∧ W8 m ρ c (Proc.devRef .tc main_v21) = Cert.Spec.step a xc := by
  -- after the gather at `col`: the `col` endpoints' rows
  have I3 : Inv (W3 m ρ c) a := inv_gatherCol (W2 m ρ c) a hI
  have x3 : W3 m ρ c (Proc.devRef .tc main_v5) = xc :=
    (show W3 m ρ c (Proc.devRef .tc main_v5) = W2 m ρ c (Proc.devRef .tc main_v5) by host_keeps hostOps1).trans hx
  have p3 : W3 m ρ c (Proc.devRef .tc main_v6) = Cert.Spec.rows xc a.col := by
    refine (take_col1 (W2 m ρ c)).trans ?_
    rw [hx, hI.col]; exact ktake_eq xc a.col hr.col
  -- after the gather at `row`: the `row` endpoints' rows
  have I4 : Inv (W4 m ρ c) a := inv_gatherRow (W3 m ρ c) a I3
  have x4 : W4 m ρ c (Proc.devRef .tc main_v5) = xc :=
    (show W4 m ρ c (Proc.devRef .tc main_v5) = W3 m ρ c (Proc.devRef .tc main_v5) by host_keeps hostOps1_1).trans x3
  have p4 : W4 m ρ c (Proc.devRef .tc main_v6) = Cert.Spec.rows xc a.col :=
    (show W4 m ρ c (Proc.devRef .tc main_v6) = W3 m ρ c (Proc.devRef .tc main_v6) by host_keeps hostOps1_1).trans p3
  have q4 : W4 m ρ c (Proc.devRef .tc main_v7) = Cert.Spec.rows xc a.row := by
    refine (take_row1 (W3 m ρ c)).trans ?_
    rw [x3, I3.row]; exact ktake_eq xc a.row hr.row
  -- the edge call's entry: its two bias rows
  have I5 : Inv (W5 m ρ c) a := inv_biasRows (W4 m ρ c) a I4
  have x5 : W5 m ρ c (Proc.devRef .tc main_v5) = xc :=
    (show W5 m ρ c (Proc.devRef .tc main_v5) = W4 m ρ c (Proc.devRef .tc main_v5) by host_keeps hostOps1_2).trans x4
  have p5 : V5 m ρ c main_v6 = Cert.Spec.rows xc a.col :=
    (show W5 m ρ c (Proc.devRef .tc main_v6) = W4 m ρ c (Proc.devRef .tc main_v6) by host_keeps hostOps1_2).trans p4
  have q5 : V5 m ρ c main_v7 = Cert.Spec.rows xc a.row :=
    (show W5 m ρ c (Proc.devRef .tc main_v7) = W4 m ρ c (Proc.devRef .tc main_v7) by host_keeps hostOps1_2).trans q4
  have b5 : V5 m ρ c main_v8 = Cert.Spec.row8 a.e1_b := by
    refine (biasRows_v8 (W4 m ρ c)).trans ?_
    rw [I4.e1_b]; exact reshape_row8 a.e1_b
  have d5 : V5 m ρ c main_v9 = Cert.Spec.row1 a.e2_b := by
    refine (biasRows_v9 (W4 m ρ c)).trans ?_
    rw [I4.e2_b]; exact reshape_row1 a.e2_b
  have w5 : V5 m ρ c main_arg4 = a.e1_w := I5.e1_w
  have u5 : V5 m ρ c main_arg6 = a.e2_w := I5.e2_w
  -- the edge call's exit: both gated endpoint rows of every edge
  have I6 : Inv (W6 m ρ c) a := inv_edgeCall m ρ c a I5
  have x6 : W6 m ρ c (Proc.devRef .tc main_v5) = xc := (W6_of_ne m ρ c main_v5 (by decide)).trans x5
  have o6 : W6 m ρ c (Proc.devRef .tc main_v10)
      = Cert.Spec.edgeMul (Cert.Spec.rows xc a.col) (Cert.Spec.rows xc a.row) a.e1_w (Cert.Spec.row8 a.e1_b) a.e2_w
          (Cert.Spec.row1 a.e2_b) := by
    refine ((W6_arr m ρ c 6).trans (arr1 (V5 m ρ) c)).trans ?_
    rw [p5, q5, w5, b5, u5, d5]
  -- the node call's entry: the two segment sums and its two bias rows
  have I7 : Inv (W7 m ρ c) a := inv_sums (W6 m ρ c) a I6
  have x7 : V7 m ρ c main_v5 = xc :=
    (show W7 m ρ c (Proc.devRef .tc main_v5) = W6 m ρ c (Proc.devRef .tc main_v5) by host_keeps hostOps2).trans x6
  have s7 : V7 m ρ c main_v15
      = Cert.Spec.segsum a.col (Cert.Spec.scaled (Cert.Spec.rows xc a.row) (Cert.Spec.score a xc)) := by
    refine (sums_v15 (W6 m ρ c)).trans ?_
    rw [I6.col, o6, sliceHi_edgeMul]; rfl
  have t7 : V7 m ρ c main_v18
      = Cert.Spec.segsum a.row (Cert.Spec.scaled (Cert.Spec.rows xc a.col) (Cert.Spec.score a xc)) := by
    refine (sums_v18 (W6 m ρ c)).trans ?_
    rw [I6.row, o6, sliceLo_edgeMul]; rfl
  have b7 : V7 m ρ c main_v19 = Cert.Spec.row8 a.n1_b := by
    refine (sums_v19 (W6 m ρ c)).trans ?_
    rw [I6.n1_b]; exact reshape_row8 a.n1_b
  have d7 : V7 m ρ c main_v20 = Cert.Spec.row8 a.n2_b := by
    refine (sums_v20 (W6 m ρ c)).trans ?_
    rw [I6.n2_b]; exact reshape_row8 a.n2_b
  have g7 : V7 m ρ c main_arg0 = a.x := I7.x
  have w7 : V7 m ρ c main_arg8 = a.n1_w := I7.n1_w
  have u7 : V7 m ρ c main_arg10 = a.n2_w := I7.n2_w
  -- the node call's exit
  refine ⟨inv_nodeCall m ρ c a I7, ?_⟩
  refine ((W8_arr m ρ c 8).trans (arr2 (V7 m ρ) c)).trans ?_
  rw [s7, t7, x7, g7, w7, b7, u7, d7]; rfl

end Cert.KernelIdeal.Value

end
-- ==== Proof.TakeStretch2.lean ====
/-
  A guarded gather stretch: twenty-three host operations that wrap the node ids, test them against the table's
  bounds, gather the rows and select between the gathered row and the fill value.  Run from ANY buffer contents, the
  stretch leaves in its result buffer the guarded gather `ktake` of the table's buffer and the ids' buffer.
-/
import proofs.«426732_j67937792688144_3_alg».proof.Proof.Gen.KernelIdeal.Frame
import proofs.«426732_j67937792688144_3_alg».proof.Proof.HostGlue
import Idealize.ShloMosaic.Lib.StableHlo.Run
set_option maxRecDepth 16384

noncomputable section

namespace Cert.KernelIdeal.Value

open Idealize.ShloMosaic Idealize.ShloMosaic.TcCoe Idealize.ShloMosaic.Tactic
open Idealize.SL Idealize.SL.Sem
open Cert.KernelIdeal Cert.KernelIdeal.Gen

/-- A typed reference's two transports cancel. -/
theorem tref_ofBuf_toBuf2 {T : BufTy} (x : StableHlo.TRef sig T) (v : T.Contents (Elt Ideal)) : x.ofBuf (x.toBuf v) = v := by
  simp only [StableHlo.TRef.ofBuf, StableHlo.TRef.toBuf, cast_cast, cast_eq]

/-- The guarded gather stretch over the `col` ids, from any contents: the result buffer holds `ktake` of the table's
    and the ids' buffers. -/
theorem take_col2 (Wp : Valuation τ sig (Elt Ideal)) :
    StableHlo.after (hostOps3 (F := Ideal)) Wp (Proc.devRef .tc main_v22)
      = ktake (Wp (Proc.devRef .tc main_v21)) (Wp (Proc.devRef .tc main_v3)) := by
  have e3 : (StableHlo.TRef.of main_v3 (by rfl) (by decide) (by rfl) : StableHlo.TRef sig ⟨S4000000, .i32⟩).ofBuf
      (Wp (Proc.devRef .tc main_v3)) = Wp (Proc.devRef .tc main_v3) := rfl
  have e5 : (StableHlo.TRef.of main_v21 (by rfl) (by decide) (by rfl) : StableHlo.TRef sig ⟨S500000x10, .f32⟩).ofBuf
      (Wp (Proc.devRef .tc main_v21)) = Wp (Proc.devRef .tc main_v21) := rfl
  have e6 : ∀ v : (⟨S4000000x10, .f32⟩ : BufTy).Contents (Elt Ideal),
      (StableHlo.TRef.of main_v22 (by rfl) (by decide) (by rfl) : StableHlo.TRef sig ⟨S4000000x10, .f32⟩).toBuf v = v := fun _ => rfl
  after_results_simp
  simp only [tref_ofBuf_toBuf2]
  rw [e3, e5, e6]
  unfold ktake ktakeMask ktakeIdx
  rfl

/-- The guarded gather stretch over the `row` ids, from any contents. -/
theorem take_row2 (Wp : Valuation τ sig (Elt Ideal)) :
    StableHlo.after (hostOps3_1 (F := Ideal)) Wp (Proc.devRef .tc main_v23)
      = ktake (Wp (Proc.devRef .tc main_v21)) (Wp (Proc.devRef .tc main_v1)) := by
  have e1 : (StableHlo.TRef.of main_v1 (by rfl) (by decide) (by rfl) : StableHlo.TRef sig ⟨S4000000, .i32⟩).ofBuf
      (Wp (Proc.devRef .tc main_v1)) = Wp (Proc.devRef .tc main_v1) := rfl
  have e5 : (StableHlo.TRef.of main_v21 (by rfl) (by decide) (by rfl) : StableHlo.TRef sig ⟨S500000x10, .f32⟩).ofBuf
      (Wp (Proc.devRef .tc main_v21)) = Wp (Proc.devRef .tc main_v21) := rfl
  have e7 : ∀ v : (⟨S4000000x10, .f32⟩ : BufTy).Contents (Elt Ideal),
      (StableHlo.TRef.of main_v23 (by rfl) (by decide) (by rfl) : StableHlo.TRef sig ⟨S4000000x10, .f32⟩).toBuf v = v := fun _ => rfl
  after_results_simp
  simp only [tref_ofBuf_toBuf2]
  rw [e1, e5, e7]
  unfold ktake ktakeMask ktakeIdx
  rfl

end Cert.KernelIdeal.Value

end
-- ==== Proof.RegionEdgeMul3.lean ====
/-
  An edge pallas_call: after its 625 grid points, each writing 6400 edge rows, the output array holds both gated
  endpoint rows of every edge.

  Point `t` stages rows `6400 t … 6400 t + 6399` of the two endpoint arrays and the four whole weight arrays, and writes
  back rows `6400 t … 6400 t + 6399` of the output.  The body acts on each row alone (`EdgeBody.edgeBody_apply`), and so
  does the specification (`Cert.Spec.Row.edgeMul_apply`): both are one row function of the edge's two endpoint rows.  So
  what point `t` writes back is block `t` of the specification on the arrays as the call finds them, and since row `n` lies
  in block `n / 6400` the blocks cover the output array.
-/
import proofs.«426732_j67937792688144_3_alg».proof.Proof.Gen.KernelIdeal.Frame
import proofs.«426732_j67937792688144_3_alg».proof.Proof.Spec
import proofs.«426732_j67937792688144_3_alg».proof.Proof.Args
import proofs.«426732_j67937792688144_3_alg».proof.Proof.EdgeMulBody
import proofs.«426732_j67937792688144_3_alg».proof.Proof.EdgeMulSpecRow
set_option maxRecDepth 16384

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

/-- The printed index maps, decided once over the grid: the two endpoint windows and the output window take block `t` of
    rows at point `t`; the four weight windows always take their one block. -/
theorem idx_facts3 : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

/-- Row `r` of window 0's block at point `t` is row `t * 6400 + r` of its array. -/
theorem blk0_apply3 (V : Entry) (c : Dev nD) (t : Fin cfg3.N) (r : Fin 6400) (q : Fin 10) (k : S4000000x10.Idx)
    (hk0 : (k 0).val = t.val * 6400 + r.val) (hk1 : (k 1).val = q.val) :
    (iblk3 (F := Ideal) V c 0 t : Vec Ideal S6400x10 .f32) (ix2 r q) = (V c main_v22 : Vec Ideal S4000000x10 .f32) k := by
  have e := idx_facts3 t
  unfold iblk3
  rw [View.read_apply]
  show V c main_v22 _ = V c main_v22 _
  refine congrArg (V c main_v22) ?_
  funext a
  apply Fin.ext
  match a with
  | ⟨0, _⟩ =>
    show win3_0.index t (0 : Fin 2) * 6400 + 1 * r.val = (k 0).val
    rw [e.1, hk0]; omega
  | ⟨1, _⟩ =>
    show win3_0.index t (1 : Fin 2) * 10 + 1 * q.val = (k 1).val
    rw [e.2.1, hk1]; omega

/-- Row `r` of window 1's block at point `t` is row `t * 6400 + r` of its array. -/
theorem blk1_apply3 (V : Entry) (c : Dev nD) (t : Fin cfg3.N) (r : Fin 6400) (q : Fin 10) (k : S4000000x10.Idx)
    (hk0 : (k 0).val = t.val * 6400 + r.val) (hk1 : (k 1).val = q.val) :
    (iblk3 (F := Ideal) V c 1 t : Vec Ideal S6400x10 .f32) (ix2 r q) = (V c main_v23 : Vec Ideal S4000000x10 .f32) k := by
  have e := idx_facts3 t
  unfold iblk3
  rw [View.read_apply]
  show V c main_v23 _ = V c main_v23 _
  refine congrArg (V c main_v23) ?_
  funext a
  apply Fin.ext
  match a with
  | ⟨0, _⟩ =>
    show win3_1.index t (0 : Fin 2) * 6400 + 1 * r.val = (k 0).val
    rw [e.2.2.1, hk0]; omega
  | ⟨1, _⟩ =>
    show win3_1.index t (1 : Fin 2) * 10 + 1 * q.val = (k 1).val
    rw [e.2.2.2.1, hk1]; omega

/-- Window 2's block at every point is its whole array. -/
theorem blk2_eq3 (V : Entry) (c : Dev nD) (t : Fin cfg3.N) :
    (iblk3 (F := Ideal) V c 2 t : Vec Ideal S20x8 .f32) = (V c main_arg4 : Vec Ideal S20x8 .f32) := by
  have e := idx_facts3 t
  funext y
  unfold iblk3
  rw [View.read_apply]
  show V c main_arg4 _ = V c main_arg4 _
  refine congrArg (V c main_arg4) ?_
  funext a
  apply Fin.ext
  match a with
  | ⟨0, _⟩ =>
    show win3_2.index t (0 : Fin 2) * 20 + 1 * (y 0).val = (y 0).val
    rw [e.2.2.2.2.1]; omega
  | ⟨1, _⟩ =>
    show win3_2.index t (1 : Fin 2) * 8 + 1 * (y 1).val = (y 1).val
    rw [e.2.2.2.2.2.1]; omega

/-- Window 3's block at every point is its whole array. -/
theorem blk3_eq3 (V : Entry) (c : Dev nD) (t : Fin cfg3.N) :
    (iblk3 (F := Ideal) V c 3 t : Vec Ideal S1x8 .f32) = (V c main_v24 : Vec Ideal S1x8 .f32) := by
  have e := idx_facts3 t
  funext y
  unfold iblk3
  rw [View.read_apply]
  show V c main_v24 _ = V c main_v24 _
  refine congrArg (V c main_v24) ?_
  funext a
  apply Fin.ext
  match a with
  | ⟨0, _⟩ =>
    show win3_3.index t (0 : Fin 2) * 1 + 1 * (y 0).val = (y 0).val
    rw [e.2.2.2.2.2.2.1]; omega
  | ⟨1, _⟩ =>
    show win3_3.index t (1 : Fin 2) * 8 + 1 * (y 1).val = (y 1).val
    rw [e.2.2.2.2.2.2.2.1]; omega

/-- Window 4's block at every point is its whole array. -/
theorem blk4_eq3 (V : Entry) (c : Dev nD) (t : Fin cfg3.N) :
    (iblk3 (F := Ideal) V c 4 t : Vec Ideal S8x1 .f32) = (V c main_arg6 : Vec Ideal S8x1 .f32) := by
  have e := idx_facts3 t
  funext y
  unfold iblk3
  rw [View.read_apply]
  show V c main_arg6 _ = V c main_arg6 _
  refine congrArg (V c main_arg6) ?_
  funext a
  apply Fin.ext
  match a with
  | ⟨0, _⟩ =>
    show win3_4.index t (0 : Fin 2) * 8 + 1 * (y 0).val = (y 0).val
    rw [e.2.2.2.2.2.2.2.2.1]; omega
  | ⟨1, _⟩ =>
    show win3_4.index t (1 : Fin 2) * 1 + 1 * (y 1).val = (y 1).val
    rw [e.2.2.2.2.2.2.2.2.2.1]; omega

/-- Window 5's block at every point is its whole array. -/
theorem blk5_eq3 (V : Entry) (c : Dev nD) (t : Fin cfg3.N) :
    (iblk3 (F := Ideal) V c 5 t : Vec Ideal S1x1 .f32) = (V c main_v25 : Vec Ideal S1x1 .f32) := by
  have e := idx_facts3 t
  funext y
  unfold iblk3
  rw [View.read_apply]
  show V c main_v25 _ = V c main_v25 _
  refine congrArg (V c main_v25) ?_
  funext a
  apply Fin.ext
  match a with
  | ⟨0, _⟩ =>
    show win3_5.index t (0 : Fin 2) * 1 + 1 * (y 0).val = (y 0).val
    rw [e.2.2.2.2.2.2.2.2.2.2.1]; omega
  | ⟨1, _⟩ =>
    show win3_5.index t (1 : Fin 2) * 1 + 1 * (y 1).val = (y 1).val
    rw [e.2.2.2.2.2.2.2.2.2.2.2.1]; omega

/-- AT ONE ENTRY: the body's result on blocks whose rows are rows `tv * 6400 + r` of the two endpoint arrays, read at
    `y`, is the specification on those arrays read at the entry `i` in row `tv * 6400 + y 0`, column `y 1`: both are
    the row function of the same two rows. -/
theorem point_eq3 (x0 x1 : Vec Ideal S6400x10 .f32) (w1 : Vec Ideal S20x8 .f32) (b1 : Vec Ideal S1x8 .f32)
    (w2 : Vec Ideal S8x1 .f32) (b2 : Vec Ideal S1x1 .f32) (A0 A1 : Vec Ideal S4000000x10 .f32)
    (tv : Nat) (y : S6400x20.Idx) (i : S4000000x20.Idx)
    (hi0 : (i 0).val = tv * 6400 + (y 0).val) (hi1 : (i 1).val = (y 1).val)
    (h0 : ∀ (r : Fin 6400) (q : Fin 10) (k : S4000000x10.Idx), (k 0).val = tv * 6400 + r.val → (k 1).val = q.val → x0 (ix2 r q) = A0 k)
    (h1 : ∀ (r : Fin 6400) (q : Fin 10) (k : S4000000x10.Idx), (k 0).val = tv * 6400 + r.val → (k 1).val = q.val → x1 (ix2 r q) = A1 k) :
    k3_pay1 (F := Ideal) x0 x1 w1 b1 w2 b2 y = Cert.Spec.edgeMul A0 A1 w1 b1 w2 b2 i := by
  obtain ⟨r, j, rfl⟩ : ∃ (r : Fin 6400) (j : Fin 20), y = ix2 r j := ⟨y 0, y 1, eq_ix2 y⟩
  obtain ⟨n, j', rfl⟩ : ∃ (n : Fin 4000000) (j' : Fin 20), i = ix2 n j' := ⟨i 0, i 1, eq_ix2 i⟩
  have hn : n.val = tv * 6400 + r.val := hi0
  obtain rfl : j = j' := (Fin.ext hi1).symm
  show EdgeBody.edgeBody x0 x1 w1 b1 w2 b2 (ix2 r j) = _
  rw [EdgeBody.edgeBody_apply, Cert.Spec.Row.edgeMul_apply]
  have ea : (fun q => x0 (ix2 r q)) = fun q => A0 (ix2 n q) := funext fun q => h0 r q (ix2 n q) hn rfl
  have eb : (fun q => x1 (ix2 r q)) = fun q => A1 (ix2 n q) := funext fun q => h1 r q (ix2 n q) hn rfl
  rw [ea, eb]

/-- WHAT POINT `t` WRITES BACK is block `t` of the specification on the arrays as the call finds them. -/
theorem flushed_eq3 (V : Entry) (c : Dev nD) (t : Fin cfg3.N) :
    (dat3 (F := Ideal) V c).flushed 6 t = ((cfg3.win 6).blk t).view.read (Elt Ideal)
      (Cert.Spec.edgeMul (V c main_v22) (V c main_v23) (V c main_arg4) (V c main_v24) (V c main_arg6) (V c main_v25)) := by
  have hz : (![0, 0] : Fin 2 → Nat) = fun _ => 0 := funext fun a => by fin_cases a <;> rfl
  have e := idx_facts3 t
  show (cfg3.win 6).cut (grid3.coords t) ((dat3 (F := Ideal) V c).after 6 t) = _
  rw [after3_6]
  unfold out3_6
  rw [View.canon_unit_zero hz]
  simp only [View.ld_unit_zero (S := S6400x10) hz, View.ld_unit_zero (S := S20x8) hz, View.ld_unit_zero (S := S1x8) hz,
    View.ld_unit_zero (S := S8x1) hz, View.ld_unit_zero (S := S1x1) hz]
  rw [blk2_eq3 V c t, blk3_eq3 V c t, blk4_eq3 V c t, blk5_eq3 V c t]
  funext y
  show k3_pay1 (F := Ideal) (iblk3 V c 0 t) (iblk3 V c 1 t) (V c main_arg4) (V c main_v24) (V c main_arg6) (V c main_v25) y
    = Cert.Spec.edgeMul (V c main_v22) (V c main_v23) (V c main_arg4) (V c main_v24) (V c main_arg6) (V c main_v25)
        (((cfg3.win 6).blk t).view.emb y)
  refine point_eq3 (iblk3 V c 0 t) (iblk3 V c 1 t) (V c main_arg4) (V c main_v24) (V c main_arg6) (V c main_v25)
    (V c main_v22) (V c main_v23) t.val y (((cfg3.win 6).blk t).view.emb y) ?_ ?_
    (fun r q k hk0 hk1 => blk0_apply3 V c t r q k hk0 hk1) (fun r q k hk0 hk1 => blk1_apply3 V c t r q k hk0 hk1)
  · show win3_6.index t (0 : Fin 2) * 6400 + 1 * (y 0).val = t.val * 6400 + (y 0).val
    rw [e.2.2.2.2.2.2.2.2.2.2.2.2.1]; omega
  · show win3_6.index t (1 : Fin 2) * 20 + 1 * (y 1).val = (y 1).val
    rw [e.2.2.2.2.2.2.2.2.2.2.2.2.2]; omega

/-- An entry of the output array is in point `t`'s block iff each coordinate is in the block's range on its axis. -/
theorem mem_blk3 (t : Fin cfg3.N) (i : S4000000x20.Idx) :
    i ∈ ((cfg3.win 6).blk t).view.set ↔ ∀ a : Fin 2, win3_6.index t a * S6400x20.size a ≤ (i a).val ∧ (i a).val < win3_6.index t a * S6400x20.size a + S6400x20.size a := by
  show i ∈ ((View.whole main_v26).slice (win3_6.rect t)).set ↔ _
  rw [View.set_slice_whole, Rect.mem_set_unit]
  exact Iff.rfl

/-- Every entry of the output array is in some point's block: row `n` is in block `n / 6400`. -/
theorem cover3 (i : S4000000x20.Idx) :
    ∃ t : Fin cfg3.N, (cfg3.win 6).flush t = true ∧ i ∈ ((cfg3.win 6).blk t).view.set := by
  have hi0 : (i 0).val < 4000000 := (i 0).isLt
  have hi1 : (i 1).val < 20 := (i 1).isLt
  have hN : cfg3.N = 625 := N_3
  obtain ⟨t, ht⟩ : ∃ t : Fin cfg3.N, t.val = (i 0).val / 6400 := ⟨⟨(i 0).val / 6400, by rw [hN]; omega⟩, rfl⟩
  have e := idx_facts3 t
  refine ⟨t, flush3_6 t, ?_⟩
  rw [mem_blk3]
  intro a
  match a with
  | ⟨0, _⟩ =>
    show win3_6.index t (0 : Fin 2) * 6400 ≤ (i 0).val ∧ (i 0).val < win3_6.index t (0 : Fin 2) * 6400 + 6400
    rw [e.2.2.2.2.2.2.2.2.2.2.2.2.1, ht]; omega
  | ⟨1, _⟩ =>
    show win3_6.index t (1 : Fin 2) * 20 ≤ (i 1).val ∧ (i 1).val < win3_6.index t (1 : Fin 2) * 20 + 20
    rw [e.2.2.2.2.2.2.2.2.2.2.2.2.2]; omega

theorem arr3 (V : Entry) (c : Dev nD) :
    (dat3 (F := Ideal) V c).arrAt 6 cfg3.N
      = Cert.Spec.edgeMul (V c main_v22) (V c main_v23) (V c main_arg4) (V c main_v24) (V c main_arg6) (V c main_v25) :=
  (dat3 (F := Ideal) V c).arrAt_eq_of_cover 6 _ (fun t _ => flushed_eq3 V c t) cover3

end Cert.KernelIdeal.Value

end
-- ==== Proof.RegionNode4.lean ====
/-
  A node pallas_call: after its 100 grid points, each writing 5000 node rows, the output array is the node layers of
  the whole arrays.  A grid point's block of the output is rows `5000 t … 5000 t + 4999`; the body computes each row of
  it from the same rows of the three feature arrays and of the coordinates, and from the whole weight arrays; read at a
  row and a feature, the body's arithmetic and the specification's are the same function of that node's rows.
-/
import proofs.«426732_j67937792688144_3_alg».proof.Proof.Gen.KernelIdeal.Frame
import proofs.«426732_j67937792688144_3_alg».proof.Proof.Spec
import proofs.«426732_j67937792688144_3_alg».proof.Proof.Args
import proofs.«426732_j67937792688144_3_alg».proof.Proof.NodeRow
import Idealize.ShloMosaic.Lib.Pipeline.Value
set_option maxRecDepth 16384

noncomputable section

namespace Cert.KernelIdeal.Value

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-! ## The body's arithmetic and the specification's, at a node -/

/-- The body's payload at a row of its block. -/
theorem pay_apply4 (x0 x1 x2 : Vec Ideal S5000x10 .f32) (x3 : Vec Ideal S5000x2 .f32) (x4 : Vec Ideal S30x8 .f32)
    (x5 : Vec Ideal S1x8 .f32) (x6 : Vec Ideal S8x8 .f32) (x7 : Vec Ideal S1x8 .f32) (r : Fin 5000) (j : Fin 10) :
    k4_pay1 x0 x1 x2 x3 x4 x5 x6 x7 (ix2 r j)
      = Cert.NodeRow.nodeRow (fun q => x0 (ix2 r q)) (fun q => x1 (ix2 r q)) (fun q => x2 (ix2 r q)) (fun q => x3 (ix2 r q))
          x4 x5 x6 x7 j :=
  Cert.NodeRow.kernNode_apply (M := 5000) x0 x1 x2 x3 x4 x5 x6 x7 shapeCasts_S5000x10_S5000x10
    concatenates_S5000x10_S5000x10_S5000x10_S5000x30_d1 concatenates_S5000x8_S5000x2_S5000x10_d1 shapeCasts_S1x8_S1x8
    broadcasts_S1x8_S5000x8 bitsLt_bf16_f32 dot_S5000x30_S30x8_S5000x8_1_0_0_1_n_n rfl dot_S5000x8_S8x8_S5000x8_1_0_0_1_n_n rfl r j

/-- The specification's node layers at a node. -/
theorem node_apply4 (mi mo xc : Cert.Spec.FA Cert.ReferenceIdeal.S500000x10) (x : Cert.Spec.FA Cert.ReferenceIdeal.S500000x2)
    (w1 : Cert.Spec.FA Cert.ReferenceIdeal.S30x8) (b1 : Cert.Spec.FA Cert.ReferenceIdeal.S1x8)
    (w2 : Cert.Spec.FA Cert.ReferenceIdeal.S8x8) (b2 : Cert.Spec.FA Cert.ReferenceIdeal.S1x8) (n : Fin 500000) (j : Fin 10) :
    Cert.Spec.node mi mo xc x w1 b1 w2 b2 (ix2 n j)
      = Cert.NodeRow.nodeRow (fun q => mi (ix2 n q)) (fun q => mo (ix2 n q)) (fun q => xc (ix2 n q)) (fun q => x (ix2 n q))
          w1 b1 w2 b2 j :=
  Cert.NodeRow.hostNode_apply (M := 500000) mi mo xc x w1 b1 w2 b2
    Cert.ReferenceIdeal.Gen.concatenates_S500000x10_S500000x10_S500000x10_S500000x30_d1
    Cert.ReferenceIdeal.Gen.concatenates_S500000x8_S500000x2_S500000x10_d1
    Cert.ReferenceIdeal.Gen.bcast_S1x8_S500000x8_0_1
    Cert.ReferenceIdeal.dot_S500000x30_S30x8_S500000x8_1_0_0_1_n_n rfl Cert.ReferenceIdeal.dot_S500000x8_S8x8_S500000x8_1_0_0_1_n_n rfl n j

/-! ## The blocks -/

theorem hz4 : (![0, 0] : Fin 2 → Nat) = fun _ => 0 := funext fun a => by fin_cases a <;> rfl

/-- The printed index maps, decided over the grid: the row windows' block index is `(t, 0)`, the weight windows' `(0, 0)`. -/
theorem idx_facts4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = t.val ∧ win4_8.index t (1 : Fin 2) = 0) :=
  (by decide +kernel : ∀ t : Fin grid4.N, _)

/-- A row window's block at point `t` is rows `5000 t …` of its array. -/
theorem iblk4_0_apply (V : Entry) (c : Dev nD) (t : Fin cfg4.N) (x : S5000x10.Idx) (k : S500000x10.Idx)
    (hk0 : (k 0).val = 5000 * t.val + (x 0).val) (hk1 : (k 1).val = (x 1).val) :
    (iblk4 V c 0 t : Vec Ideal S5000x10 .f32) x = (V c main_v31 : S500000x10.Idx → EReal) k := by
  obtain ⟨⟨e0, e1⟩, -⟩ := idx_facts4 t
  unfold iblk4
  rw [View.read_apply]
  show V c main_v31 _ = V c main_v31 _
  congr 1
  funext a
  apply Fin.ext
  match a with
  | ⟨0, _⟩ => show win4_0.index t 0 * 5000 + 1 * (x 0).val = (k 0).val; rw [e0, hk0]; omega
  | ⟨1, _⟩ => show win4_0.index t 1 * 10 + 1 * (x 1).val = (k 1).val; rw [e1, hk1]; omega

theorem iblk4_1_apply (V : Entry) (c : Dev nD) (t : Fin cfg4.N) (x : S5000x10.Idx) (k : S500000x10.Idx)
    (hk0 : (k 0).val = 5000 * t.val + (x 0).val) (hk1 : (k 1).val = (x 1).val) :
    (iblk4 V c 1 t : Vec Ideal S5000x10 .f32) x = (V c main_v34 : S500000x10.Idx → EReal) k := by
  obtain ⟨-, ⟨e0, e1⟩, -⟩ := idx_facts4 t
  unfold iblk4
  rw [View.read_apply]
  show V c main_v34 _ = V c main_v34 _
  congr 1
  funext a
  apply Fin.ext
  match a with
  | ⟨0, _⟩ => show win4_1.index t 0 * 5000 + 1 * (x 0).val = (k 0).val; rw [e0, hk0]; omega
  | ⟨1, _⟩ => show win4_1.index t 1 * 10 + 1 * (x 1).val = (k 1).val; rw [e1, hk1]; omega

theorem iblk4_2_apply (V : Entry) (c : Dev nD) (t : Fin cfg4.N) (x : S5000x10.Idx) (k : S500000x10.Idx)
    (hk0 : (k 0).val = 5000 * t.val + (x 0).val) (hk1 : (k 1).val = (x 1).val) :
    (iblk4 V c 2 t : Vec Ideal S5000x10 .f32) x = (V c main_v21 : S500000x10.Idx → EReal) k := by
  obtain ⟨-, -, ⟨e0, e1⟩, -⟩ := idx_facts4 t
  unfold iblk4
  rw [View.read_apply]
  show V c main_v21 _ = V c main_v21 _
  congr 1
  funext a
  apply Fin.ext
  match a with
  | ⟨0, _⟩ => show win4_2.index t 0 * 5000 + 1 * (x 0).val = (k 0).val; rw [e0, hk0]; omega
  | ⟨1, _⟩ => show win4_2.index t 1 * 10 + 1 * (x 1).val = (k 1).val; rw [e1, hk1]; omega

theorem iblk4_3_apply (V : Entry) (c : Dev nD) (t : Fin cfg4.N) (x : S5000x2.Idx) (k : S500000x2.Idx)
    (hk0 : (k 0).val = 5000 * t.val + (x 0).val) (hk1 : (k 1).val = (x 1).val) :
    (iblk4 V c 3 t : Vec Ideal S5000x2 .f32) x = (V c main_arg0 : S500000x2.Idx → EReal) k := by
  obtain ⟨-, -, -, ⟨e0, e1⟩, -⟩ := idx_facts4 t
  unfold iblk4
  rw [View.read_apply]
  show V c main_arg0 _ = V c main_arg0 _
  congr 1
  funext a
  apply Fin.ext
  match a with
  | ⟨0, _⟩ => show win4_3.index t 0 * 5000 + 1 * (x 0).val = (k 0).val; rw [e0, hk0]; omega
  | ⟨1, _⟩ => show win4_3.index t 1 * 2 + 1 * (x 1).val = (k 1).val; rw [e1, hk1]; omega

/-- A weight window's block is its whole array, at every point. -/
theorem iblk4_4_eq (V : Entry) (c : Dev nD) (t : Fin cfg4.N) :
    (iblk4 V c 4 t : Vec Ideal S30x8 .f32) = (V c main_arg8 : S30x8.Idx → EReal) := by
  obtain ⟨-, -, -, -, ⟨e0, e1⟩, -⟩ := idx_facts4 t
  funext x
  unfold iblk4
  rw [View.read_apply]
  show V c main_arg8 _ = V c main_arg8 _
  congr 1
  funext a
  apply Fin.ext
  match a with
  | ⟨0, _⟩ => show win4_4.index t 0 * 30 + 1 * (x 0).val = (x 0).val; rw [e0]; omega
  | ⟨1, _⟩ => show win4_4.index t 1 * 8 + 1 * (x 1).val = (x 1).val; rw [e1]; omega

theorem iblk4_5_eq (V : Entry) (c : Dev nD) (t : Fin cfg4.N) :
    (iblk4 V c 5 t : Vec Ideal S1x8 .f32) = (V c main_v35 : S1x8.Idx → EReal) := by
  obtain ⟨-, -, -, -, -, ⟨e0, e1⟩, -⟩ := idx_facts4 t
  funext x
  unfold iblk4
  rw [View.read_apply]
  show V c main_v35 _ = V c main_v35 _
  congr 1
  funext a
  apply Fin.ext
  match a with
  | ⟨0, _⟩ => show win4_5.index t 0 * 1 + 1 * (x 0).val = (x 0).val; rw [e0]; omega
  | ⟨1, _⟩ => show win4_5.index t 1 * 8 + 1 * (x 1).val = (x 1).val; rw [e1]; omega

theorem iblk4_6_eq (V : Entry) (c : Dev nD) (t : Fin cfg4.N) :
    (iblk4 V c 6 t : Vec Ideal S8x8 .f32) = (V c main_arg10 : S8x8.Idx → EReal) := by
  obtain ⟨-, -, -, -, -, -, ⟨e0, e1⟩, -⟩ := idx_facts4 t
  funext x
  unfold iblk4
  rw [View.read_apply]
  show V c main_arg10 _ = V c main_arg10 _
  congr 1
  funext a
  apply Fin.ext
  match a with
  | ⟨0, _⟩ => show win4_6.index t 0 * 8 + 1 * (x 0).val = (x 0).val; rw [e0]; omega
  | ⟨1, _⟩ => show win4_6.index t 1 * 8 + 1 * (x 1).val = (x 1).val; rw [e1]; omega

theorem iblk4_7_eq (V : Entry) (c : Dev nD) (t : Fin cfg4.N) :
    (iblk4 V c 7 t : Vec Ideal S1x8 .f32) = (V c main_v36 : S1x8.Idx → EReal) := by
  obtain ⟨-, -, -, -, -, -, -, ⟨e0, e1⟩, -⟩ := idx_facts4 t
  funext x
  unfold iblk4
  rw [View.read_apply]
  show V c main_v36 _ = V c main_v36 _
  congr 1
  funext a
  apply Fin.ext
  match a with
  | ⟨0, _⟩ => show win4_7.index t 0 * 1 + 1 * (x 0).val = (x 0).val; rw [e0]; omega
  | ⟨1, _⟩ => show win4_7.index t 1 * 8 + 1 * (x 1).val = (x 1).val; rw [e1]; omega

/-! ## What a point writes back -/

/-- The node layers of the arrays as the region finds them. -/
abbrev G4 (V : Entry) (c : Dev nD) : S500000x10.Idx → EReal :=
  Cert.Spec.node (V c main_v31) (V c main_v34) (V c main_v21) (V c main_arg0) (V c main_arg8) (V c main_v35)
    (V c main_arg10) (V c main_v36)

/-- The body's result at row `x 0` of point `t`'s block is the specification's at row `5000 t + x 0`. -/
theorem point4 (V : Entry) (c : Dev nD) (t : Fin cfg4.N) (x : S5000x10.Idx) (k : S500000x10.Idx)
    (hk0 : (k 0).val = 5000 * t.val + (x 0).val) (hk1 : (k 1).val = (x 1).val) :
    k4_pay1 (iblk4 V c 0 t) (iblk4 V c 1 t) (iblk4 V c 2 t) (iblk4 V c 3 t) (iblk4 V c 4 t) (iblk4 V c 5 t) (iblk4 V c 6 t)
      (iblk4 V c 7 t) x = G4 V c k := by
  obtain ⟨r, j, rfl⟩ : ∃ (r : Fin 5000) (j : Fin 10), x = ix2 r j := ⟨x 0, x 1, eq_ix2 x⟩
  obtain ⟨n, j', rfl⟩ : ∃ (n : Fin 500000) (j' : Fin 10), k = ix2 n j' := ⟨k 0, k 1, eq_ix2 k⟩
  have hn : n.val = 5000 * t.val + r.val := hk0
  obtain rfl : j' = j := Fin.ext hk1
  refine (pay_apply4 (iblk4 V c 0 t) (iblk4 V c 1 t) (iblk4 V c 2 t) (iblk4 V c 3 t) (iblk4 V c 4 t) (iblk4 V c 5 t)
    (iblk4 V c 6 t) (iblk4 V c 7 t) r j').trans ?_
  refine Eq.trans ?_ (node_apply4 (V c main_v31) (V c main_v34) (V c main_v21) (V c main_arg0) (V c main_arg8) (V c main_v35)
    (V c main_arg10) (V c main_v36) n j').symm
  have e0 : (fun q : Fin 10 => (iblk4 V c 0 t : Vec Ideal S5000x10 .f32) (ix2 r q))
      = fun q : Fin 10 => (V c main_v31 : S500000x10.Idx → EReal) (ix2 n q) :=
    funext fun q => iblk4_0_apply V c t (ix2 r q) (ix2 n q) hn rfl
  have e1 : (fun q : Fin 10 => (iblk4 V c 1 t : Vec Ideal S5000x10 .f32) (ix2 r q))
      = fun q : Fin 10 => (V c main_v34 : S500000x10.Idx → EReal) (ix2 n q) :=
    funext fun q => iblk4_1_apply V c t (ix2 r q) (ix2 n q) hn rfl
  have e2 : (fun q : Fin 10 => (iblk4 V c 2 t : Vec Ideal S5000x10 .f32) (ix2 r q))
      = fun q : Fin 10 => (V c main_v21 : S500000x10.Idx → EReal) (ix2 n q) :=
    funext fun q => iblk4_2_apply V c t (ix2 r q) (ix2 n q) hn rfl
  have e3 : (fun q : Fin 2 => (iblk4 V c 3 t : Vec Ideal S5000x2 .f32) (ix2 r q))
      = fun q : Fin 2 => (V c main_arg0 : S500000x2.Idx → EReal) (ix2 n q) :=
    funext fun q => iblk4_3_apply V c t (ix2 r q) (ix2 n q) hn rfl
  rw [e0, e1, e2, e3, iblk4_4_eq V c t, iblk4_5_eq V c t, iblk4_6_eq V c t, iblk4_7_eq V c t]

/-- WHAT POINT `t` WRITES BACK is block `t` of the node layers of the arrays as the region finds them. -/
theorem flushed_eq4 (V : Entry) (c : Dev nD) (t : Fin cfg4.N) :
    (dat4 (F := Ideal) V c).flushed 8 t = ((cfg4.win 8).blk t).view.read (Elt Ideal) (G4 V c) := by
  obtain ⟨-, -, -, -, -, -, -, -, e0, e1⟩ := idx_facts4 t
  show (cfg4.win 8).cut (grid4.coords t) ((dat4 V c).after 8 t) = _
  rw [after4_8]
  unfold out4_8
  rw [View.canon_unit_zero hz4]
  simp only [View.ld_unit_zero (S := S5000x10) hz4, View.ld_unit_zero (S := S5000x2) hz4, View.ld_unit_zero (S := S30x8) hz4,
    View.ld_unit_zero (S := S1x8) hz4, View.ld_unit_zero (S := S8x8) hz4]
  funext y
  rw [View.read_apply]
  refine point4 V c t y _ ?_ ?_
  · show win4_8.index t 0 * 5000 + 1 * (y 0).val = 5000 * t.val + (y 0).val; rw [e0]; omega
  · show win4_8.index t 1 * 10 + 1 * (y 1).val = (y 1).val; rw [e1]; omega

/-! ## The cover, and the array -/

/-- An index of the array is in point `t`'s block iff each coordinate is in the block's range on its axis. -/
theorem mem_blk4 (t : Fin cfg4.N) (i : S500000x10.Idx) :
    i ∈ ((cfg4.win 8).blk t).view.set ↔ ∀ a : Fin 2, win4_8.index t a * S5000x10.size a ≤ (i a).val
      ∧ (i a).val < win4_8.index t a * S5000x10.size a + S5000x10.size a := by
  show i ∈ ((View.whole main_v37).slice (win4_8.rect t)).set ↔ _
  rw [View.set_slice_whole, Rect.mem_set_unit]
  exact Iff.rfl

/-- Row `n` of the array is in the block of point `n / 5000`. -/
theorem cover4 (i : S500000x10.Idx) : ∃ t : Fin cfg4.N, (cfg4.win 8).flush t = true ∧ i ∈ ((cfg4.win 8).blk t).view.set := by
  have hi0 : (i 0).val < 500000 := (i 0).isLt
  have hi1 : (i 1).val < 10 := (i 1).isLt
  have hN : cfg4.N = 100 := N_4
  refine ⟨⟨(i 0).val / 5000, by rw [hN]; omega⟩, flush4_8 _, ?_⟩
  rw [mem_blk4]
  obtain ⟨-, -, -, -, -, -, -, -, e0, e1⟩ := idx_facts4 ⟨(i 0).val / 5000, by rw [hN]; omega⟩
  intro a
  match a with
  | ⟨0, _⟩ =>
    show win4_8.index _ (0 : Fin 2) * 5000 ≤ (i 0).val ∧ (i 0).val < win4_8.index _ (0 : Fin 2) * 5000 + 5000
    rw [e0]; show (i 0).val / 5000 * 5000 ≤ (i 0).val ∧ (i 0).val < (i 0).val / 5000 * 5000 + 5000; omega
  | ⟨1, _⟩ =>
    show win4_8.index _ (1 : Fin 2) * 10 ≤ (i 1).val ∧ (i 1).val < win4_8.index _ (1 : Fin 2) * 10 + 10
    rw [e1]; omega

/-- THE ARRAY after the call: the node layers of the arrays as the region finds them. -/
theorem arr4 (V : Entry) (c : Dev nD) :
    (dat4 (F := Ideal) V c).arrAt 8 cfg4.N
      = Cert.Spec.node (V c main_v31) (V c main_v34) (V c main_v21) (V c main_arg0) (V c main_arg8) (V c main_v35)
          (V c main_arg10) (V c main_v36) :=
  (dat4 (F := Ideal) V c).arrAt_eq_of_cover 8 (G4 V c) (fun t _ => flushed_eq4 V c t) cover4

end Cert.KernelIdeal.Value

end
-- ==== Proof.ChainIter2.lean ====
/-
  One round, from the exit of the call that made the node features to the round's node call's exit: two guarded gathers,
  the edge call, its output's two halves summed into the opposite endpoints, the node call.  The edge list's rows and the
  argument arrays stay where they are, and the node call's output is the specification's `step` of the features the round
  was entered with.
-/
import proofs.«426732_j67937792688144_3_alg».proof.Proof.Gen.KernelIdeal.Frame
import proofs.«426732_j67937792688144_3_alg».proof.Proof.Spec
import proofs.«426732_j67937792688144_3_alg».proof.Proof.ChainDefs
import proofs.«426732_j67937792688144_3_alg».proof.Proof.HostGlue
import proofs.«426732_j67937792688144_3_alg».proof.Proof.TakeStretch2
import proofs.«426732_j67937792688144_3_alg».proof.Proof.RegionEdgeMul3
import proofs.«426732_j67937792688144_3_alg».proof.Proof.RegionNode4
set_option maxRecDepth 16384

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- A stretch of host operations keeps a buffer none of them writes. -/
local macro "host_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- Contents that agree with `W` at the edge list's rows and at the arguments have what `W` has there. -/
private theorem inv_of_eq {W W' : Valuation τ sig (Elt Ideal)} {a : Cert.Spec.Args} (h : Inv W a)
    (h1 : W' (Proc.devRef .tc main_v1) = W (Proc.devRef .tc main_v1))
    (h3 : W' (Proc.devRef .tc main_v3) = W (Proc.devRef .tc main_v3))
    (g0 : W' (Proc.devRef .tc main_arg0) = W (Proc.devRef .tc main_arg0))
    (g4 : W' (Proc.devRef .tc main_arg4) = W (Proc.devRef .tc main_arg4))
    (g5 : W' (Proc.devRef .tc main_arg5) = W (Proc.devRef .tc main_arg5))
    (g6 : W' (Proc.devRef .tc main_arg6) = W (Proc.devRef .tc main_arg6))
    (g7 : W' (Proc.devRef .tc main_arg7) = W (Proc.devRef .tc main_arg7))
    (g8 : W' (Proc.devRef .tc main_arg8) = W (Proc.devRef .tc main_arg8))
    (g9 : W' (Proc.devRef .tc main_arg9) = W (Proc.devRef .tc main_arg9))
    (g10 : W' (Proc.devRef .tc main_arg10) = W (Proc.devRef .tc main_arg10))
    (g11 : W' (Proc.devRef .tc main_arg11) = W (Proc.devRef .tc main_arg11)) : Inv W' a :=
  ⟨h1.trans h.row, h3.trans h.col, g0.trans h.x, g4.trans h.e1_w, g5.trans h.e1_b, g6.trans h.e2_w, g7.trans h.e2_b,
    g8.trans h.n1_w, g9.trans h.n1_b, g10.trans h.n2_w, g11.trans h.n2_b⟩

/-- The rows and the arguments pass through a stretch of host operations that writes none of them. -/
local macro "inv_keeps " ops:ident : tactic =>
  `(tactic| (refine inv_of_eq (by assumption) ?_ ?_ ?_ ?_ ?_ ?_ ?_ ?_ ?_ ?_ ?_ <;> host_keeps $ops))

/-! ## The four stretches of host operations, from any contents -/

section Stretches
variable (W : Valuation τ sig (Elt Ideal)) (a : Cert.Spec.Args)

private theorem inv_gatherCol (h : Inv W a) : Inv (StableHlo.after hostOps3 W) a := by inv_keeps hostOps3
private theorem inv_gatherRow (h : Inv W a) : Inv (StableHlo.after hostOps3_1 W) a := by inv_keeps hostOps3_1
private theorem inv_biasRows (h : Inv W a) : Inv (StableHlo.after hostOps3_2 W) a := by inv_keeps hostOps3_2
private theorem inv_sums (h : Inv W a) : Inv (StableHlo.after hostOps4 W) a := by inv_keeps hostOps4

/-- The two bias vectors of the edge call, reshaped to rows. -/
private theorem biasRows_v8 : StableHlo.after hostOps3_2 W (Proc.devRef .tc main_v24)
    = shapeCast S1x8 (W (Proc.devRef .tc main_arg5)) shapeCasts_S8_S1x8 := by
  after_results; rfl
private theorem biasRows_v9 : StableHlo.after hostOps3_2 W (Proc.devRef .tc main_v25)
    = shapeCast S1x1 (W (Proc.devRef .tc main_arg7)) shapeCasts_S1_S1x1 := by
  after_results; rfl

/-- The sum of the edge call's right column half into the `col` endpoints, of its left half into the `row` endpoints, and
    the node call's two bias vectors reshaped to rows. -/
private theorem sums_v15 : StableHlo.after hostOps4 W (Proc.devRef .tc main_v31)
    = Cert.Spec.segsum (W (Proc.devRef .tc main_v3))
        (extractStridedSlice S4000000x10 ![0, 10] (W (Proc.devRef .tc main_v26)) slices_S4000000x20_S4000000x10_0_10) := by
  after_results; exact ksegsum_eq _ _
private theorem sums_v18 : StableHlo.after hostOps4 W (Proc.devRef .tc main_v34)
    = Cert.Spec.segsum (W (Proc.devRef .tc main_v1))
        (extractStridedSlice S4000000x10 ![0, 0] (W (Proc.devRef .tc main_v26)) slices_S4000000x20_S4000000x10_0_0) := by
  after_results; exact ksegsum_eq _ _
private theorem sums_v19 : StableHlo.after hostOps4 W (Proc.devRef .tc main_v35)
    = shapeCast S1x8 (W (Proc.devRef .tc main_arg9)) shapeCasts_S8_S1x8 := by
  after_results; rfl
private theorem sums_v20 : StableHlo.after hostOps4 W (Proc.devRef .tc main_v36)
    = shapeCast S1x8 (W (Proc.devRef .tc main_arg11)) shapeCasts_S8_S1x8 := by
  after_results; rfl

end Stretches

/-! ## The two calls: an argument a call stages is as entered, every buffer it does not stage is untouched -/

private theorem inv_edgeCall (c : Dev nD) (a : Cert.Spec.Args) (h : Inv (W11 m ρ c) a) : Inv (W12 m ρ c) a :=
  inv_of_eq h (W12_of_ne m ρ c main_v1 (by decide)) (W12_of_ne m ρ c main_v3 (by decide))
    (W12_of_ne m ρ c main_arg0 (by decide))
    ((W12_arr m ρ c 2).trans (((dat3 (V11 m ρ) c).arrAt_in 2 rfl _).trans (A_eq3 (V11 m ρ) c 2)))
    (W12_of_ne m ρ c main_arg5 (by decide))
    ((W12_arr m ρ c 4).trans (((dat3 (V11 m ρ) c).arrAt_in 4 rfl _).trans (A_eq3 (V11 m ρ) c 4)))
    (W12_of_ne m ρ c main_arg7 (by decide)) (W12_of_ne m ρ c main_arg8 (by decide))
    (W12_of_ne m ρ c main_arg9 (by decide)) (W12_of_ne m ρ c main_arg10 (by decide))
    (W12_of_ne m ρ c main_arg11 (by decide))

private theorem inv_nodeCall (c : Dev nD) (a : Cert.Spec.Args) (h : Inv (W13 m ρ c) a) : Inv (W14 m ρ c) a :=
  inv_of_eq h (W14_of_ne m ρ c main_v1 (by decide)) (W14_of_ne m ρ c main_v3 (by decide))
    ((W14_arr m ρ c 3).trans (((dat4 (V13 m ρ) c).arrAt_in 3 rfl _).trans (A_eq4 (V13 m ρ) c 3)))
    (W14_of_ne m ρ c main_arg4 (by decide)) (W14_of_ne m ρ c main_arg5 (by decide))
    (W14_of_ne m ρ c main_arg6 (by decide)) (W14_of_ne m ρ c main_arg7 (by decide))
    ((W14_arr m ρ c 4).trans (((dat4 (V13 m ρ) c).arrAt_in 4 rfl _).trans (A_eq4 (V13 m ρ) c 4)))
    (W14_of_ne m ρ c main_arg9 (by decide))
    ((W14_arr m ρ c 6).trans (((dat4 (V13 m ρ) c).arrAt_in 6 rfl _).trans (A_eq4 (V13 m ρ) c 6)))
    (W14_of_ne m ρ c main_arg11 (by decide))

/-! ## The round -/

theorem iter2 (c : Dev nD) (a : Cert.Spec.Args) (xc : Cert.Spec.FA Cert.ReferenceIdeal.S500000x10)
    (hI : Inv (W8 m ρ c) a) (hx : W8 m ρ c (Proc.devRef .tc main_v21) = xc) (hr : Cert.Spec.InRange a) :
    Inv (W14 m ρ c) a ∧ W14 m ρ c (Proc.devRef .tc main_v37) = Cert.Spec.step a xc := by
  -- after the gather at `col`: the `col` endpoints' rows
  have I3 : Inv (W9 m ρ c) a := inv_gatherCol (W8 m ρ c) a hI
  have x3 : W9 m ρ c (Proc.devRef .tc main_v21) = xc :=
    (show W9 m ρ c (Proc.devRef .tc main_v21) = W8 m ρ c (Proc.devRef .tc main_v21) by host_keeps hostOps3).trans hx
  have p3 : W9 m ρ c (Proc.devRef .tc main_v22) = Cert.Spec.rows xc a.col := by
    refine (take_col2 (W8 m ρ c)).trans ?_
    rw [hx, hI.col]; exact ktake_eq xc a.col hr.col
  -- after the gather at `row`: the `row` endpoints' rows
  have I4 : Inv (W10 m ρ c) a := inv_gatherRow (W9 m ρ c) a I3
  have x4 : W10 m ρ c (Proc.devRef .tc main_v21) = xc :=
    (show W10 m ρ c (Proc.devRef .tc main_v21) = W9 m ρ c (Proc.devRef .tc main_v21) by host_keeps hostOps3_1).trans x3
  have p4 : W10 m ρ c (Proc.devRef .tc main_v22) = Cert.Spec.rows xc a.col :=
    (show W10 m ρ c (Proc.devRef .tc main_v22) = W9 m ρ c (Proc.devRef .tc main_v22) by host_keeps hostOps3_1).trans p3
  have q4 : W10 m ρ c (Proc.devRef .tc main_v23) = Cert.Spec.rows xc a.row := by
    refine (take_row2 (W9 m ρ c)).trans ?_
    rw [x3, I3.row]; exact ktake_eq xc a.row hr.row
  -- the edge call's entry: its two bias rows
  have I5 : Inv (W11 m ρ c) a := inv_biasRows (W10 m ρ c) a I4
  have x5 : W11 m ρ c (Proc.devRef .tc main_v21) = xc :=
    (show W11 m ρ c (Proc.devRef .tc main_v21) = W10 m ρ c (Proc.devRef .tc main_v21) by host_keeps hostOps3_2).trans x4
  have p5 : V11 m ρ c main_v22 = Cert.Spec.rows xc a.col :=
    (show W11 m ρ c (Proc.devRef .tc main_v22) = W10 m ρ c (Proc.devRef .tc main_v22) by host_keeps hostOps3_2).trans p4
  have q5 : V11 m ρ c main_v23 = Cert.Spec.rows xc a.row :=
    (show W11 m ρ c (Proc.devRef .tc main_v23) = W10 m ρ c (Proc.devRef .tc main_v23) by host_keeps hostOps3_2).trans q4
  have b5 : V11 m ρ c main_v24 = Cert.Spec.row8 a.e1_b := by
    refine (biasRows_v8 (W10 m ρ c)).trans ?_
    rw [I4.e1_b]; exact reshape_row8 a.e1_b
  have d5 : V11 m ρ c main_v25 = Cert.Spec.row1 a.e2_b := by
    refine (biasRows_v9 (W10 m ρ c)).trans ?_
    rw [I4.e2_b]; exact reshape_row1 a.e2_b
  have w5 : V11 m ρ c main_arg4 = a.e1_w := I5.e1_w
  have u5 : V11 m ρ c main_arg6 = a.e2_w := I5.e2_w
  -- the edge call's exit: both gated endpoint rows of every edge
  have I6 : Inv (W12 m ρ c) a := inv_edgeCall m ρ c a I5
  have x6 : W12 m ρ c (Proc.devRef .tc main_v21) = xc := (W12_of_ne m ρ c main_v21 (by decide)).trans x5
  have o6 : W12 m ρ c (Proc.devRef .tc main_v26)
      = Cert.Spec.edgeMul (Cert.Spec.rows xc a.col) (Cert.Spec.rows xc a.row) a.e1_w (Cert.Spec.row8 a.e1_b) a.e2_w
          (Cert.Spec.row1 a.e2_b) := by
    refine ((W12_arr m ρ c 6).trans (arr3 (V11 m ρ) c)).trans ?_
    rw [p5, q5, w5, b5, u5, d5]
  -- the node call's entry: the two segment sums and its two bias rows
  have I7 : Inv (W13 m ρ c) a := inv_sums (W12 m ρ c) a I6
  have x7 : V13 m ρ c main_v21 = xc :=
    (show W13 m ρ c (Proc.devRef .tc main_v21) = W12 m ρ c (Proc.devRef .tc main_v21) by host_keeps hostOps4).trans x6
  have s7 : V13 m ρ c main_v31
      = Cert.Spec.segsum a.col (Cert.Spec.scaled (Cert.Spec.rows xc a.row) (Cert.Spec.score a xc)) := by
    refine (sums_v15 (W12 m ρ c)).trans ?_
    rw [I6.col, o6, sliceHi_edgeMul]; rfl
  have t7 : V13 m ρ c main_v34
      = Cert.Spec.segsum a.row (Cert.Spec.scaled (Cert.Spec.rows xc a.col) (Cert.Spec.score a xc)) := by
    refine (sums_v18 (W12 m ρ c)).trans ?_
    rw [I6.row, o6, sliceLo_edgeMul]; rfl
  have b7 : V13 m ρ c main_v35 = Cert.Spec.row8 a.n1_b := by
    refine (sums_v19 (W12 m ρ c)).trans ?_
    rw [I6.n1_b]; exact reshape_row8 a.n1_b
  have d7 : V13 m ρ c main_v36 = Cert.Spec.row8 a.n2_b := by
    refine (sums_v20 (W12 m ρ c)).trans ?_
    rw [I6.n2_b]; exact reshape_row8 a.n2_b
  have g7 : V13 m ρ c main_arg0 = a.x := I7.x
  have w7 : V13 m ρ c main_arg8 = a.n1_w := I7.n1_w
  have u7 : V13 m ρ c main_arg10 = a.n2_w := I7.n2_w
  -- the node call's exit
  refine ⟨inv_nodeCall m ρ c a I7, ?_⟩
  refine ((W14_arr m ρ c 8).trans (arr4 (V13 m ρ) c)).trans ?_
  rw [s7, t7, x7, g7, w7, b7, u7, d7]; rfl

end Cert.KernelIdeal.Value

end
-- ==== Proof.TakeStretch3.lean ====
/-
  A guarded gather stretch: twenty-three host operations that wrap the node ids, test them against the table's
  bounds, gather the rows and select between the gathered row and the fill value.  Run from ANY buffer contents, the
  stretch leaves in its result buffer the guarded gather `ktake` of the table's buffer and the ids' buffer.
-/
import proofs.«426732_j67937792688144_3_alg».proof.Proof.Gen.KernelIdeal.Frame
import proofs.«426732_j67937792688144_3_alg».proof.Proof.HostGlue
import Idealize.ShloMosaic.Lib.StableHlo.Run
set_option maxRecDepth 16384

noncomputable section

namespace Cert.KernelIdeal.Value

open Idealize.ShloMosaic Idealize.ShloMosaic.TcCoe Idealize.ShloMosaic.Tactic
open Idealize.SL Idealize.SL.Sem
open Cert.KernelIdeal Cert.KernelIdeal.Gen

/-- A typed reference's two transports cancel. -/
theorem tref_ofBuf_toBuf3 {T : BufTy} (x : StableHlo.TRef sig T) (v : T.Contents (Elt Ideal)) : x.ofBuf (x.toBuf v) = v := by
  simp only [StableHlo.TRef.ofBuf, StableHlo.TRef.toBuf, cast_cast, cast_eq]

/-- The guarded gather stretch over the `col` ids, from any contents: the result buffer holds `ktake` of the table's
    and the ids' buffers. -/
theorem take_col3 (Wp : Valuation τ sig (Elt Ideal)) :
    StableHlo.after (hostOps5 (F := Ideal)) Wp (Proc.devRef .tc main_v38)
      = ktake (Wp (Proc.devRef .tc main_v37)) (Wp (Proc.devRef .tc main_v3)) := by
  have e3 : (StableHlo.TRef.of main_v3 (by rfl) (by decide) (by rfl) : StableHlo.TRef sig ⟨S4000000, .i32⟩).ofBuf
      (Wp (Proc.devRef .tc main_v3)) = Wp (Proc.devRef .tc main_v3) := rfl
  have e5 : (StableHlo.TRef.of main_v37 (by rfl) (by decide) (by rfl) : StableHlo.TRef sig ⟨S500000x10, .f32⟩).ofBuf
      (Wp (Proc.devRef .tc main_v37)) = Wp (Proc.devRef .tc main_v37) := rfl
  have e6 : ∀ v : (⟨S4000000x10, .f32⟩ : BufTy).Contents (Elt Ideal),
      (StableHlo.TRef.of main_v38 (by rfl) (by decide) (by rfl) : StableHlo.TRef sig ⟨S4000000x10, .f32⟩).toBuf v = v := fun _ => rfl
  after_results_simp
  simp only [tref_ofBuf_toBuf3]
  rw [e3, e5, e6]
  unfold ktake ktakeMask ktakeIdx
  rfl

/-- The guarded gather stretch over the `row` ids, from any contents. -/
theorem take_row3 (Wp : Valuation τ sig (Elt Ideal)) :
    StableHlo.after (hostOps5_1 (F := Ideal)) Wp (Proc.devRef .tc main_v39)
      = ktake (Wp (Proc.devRef .tc main_v37)) (Wp (Proc.devRef .tc main_v1)) := by
  have e1 : (StableHlo.TRef.of main_v1 (by rfl) (by decide) (by rfl) : StableHlo.TRef sig ⟨S4000000, .i32⟩).ofBuf
      (Wp (Proc.devRef .tc main_v1)) = Wp (Proc.devRef .tc main_v1) := rfl
  have e5 : (StableHlo.TRef.of main_v37 (by rfl) (by decide) (by rfl) : StableHlo.TRef sig ⟨S500000x10, .f32⟩).ofBuf
      (Wp (Proc.devRef .tc main_v37)) = Wp (Proc.devRef .tc main_v37) := rfl
  have e7 : ∀ v : (⟨S4000000x10, .f32⟩ : BufTy).Contents (Elt Ideal),
      (StableHlo.TRef.of main_v39 (by rfl) (by decide) (by rfl) : StableHlo.TRef sig ⟨S4000000x10, .f32⟩).toBuf v = v := fun _ => rfl
  after_results_simp
  simp only [tref_ofBuf_toBuf3]
  rw [e1, e5, e7]
  unfold ktake ktakeMask ktakeIdx
  rfl

end Cert.KernelIdeal.Value

end
-- ==== Proof.RegionEdgeMul5.lean ====
/-
  An edge pallas_call: after its 625 grid points, each writing 6400 edge rows, the output array holds both gated
  endpoint rows of every edge.

  Point `t` stages rows `6400 t … 6400 t + 6399` of the two endpoint arrays and the four whole weight arrays, and writes
  back rows `6400 t … 6400 t + 6399` of the output.  The body acts on each row alone (`EdgeBody.edgeBody_apply`), and so
  does the specification (`Cert.Spec.Row.edgeMul_apply`): both are one row function of the edge's two endpoint rows.  So
  what point `t` writes back is block `t` of the specification on the arrays as the call finds them, and since row `n` lies
  in block `n / 6400` the blocks cover the output array.
-/
import proofs.«426732_j67937792688144_3_alg».proof.Proof.Gen.KernelIdeal.Frame
import proofs.«426732_j67937792688144_3_alg».proof.Proof.Spec
import proofs.«426732_j67937792688144_3_alg».proof.Proof.Args
import proofs.«426732_j67937792688144_3_alg».proof.Proof.EdgeMulBody
import proofs.«426732_j67937792688144_3_alg».proof.Proof.EdgeMulSpecRow
set_option maxRecDepth 16384

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

/-- The printed index maps, decided once over the grid: the two endpoint windows and the output window take block `t` of
    rows at point `t`; the four weight windows always take their one block. -/
theorem idx_facts5 : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = t.val
    ∧ win5_6.index t (1 : Fin 2) = 0 :=
  (by decide +kernel : ∀ t : Fin grid5.N, _)

/-- Row `r` of window 0's block at point `t` is row `t * 6400 + r` of its array. -/
theorem blk0_apply5 (V : Entry) (c : Dev nD) (t : Fin cfg5.N) (r : Fin 6400) (q : Fin 10) (k : S4000000x10.Idx)
    (hk0 : (k 0).val = t.val * 6400 + r.val) (hk1 : (k 1).val = q.val) :
    (iblk5 (F := Ideal) V c 0 t : Vec Ideal S6400x10 .f32) (ix2 r q) = (V c main_v38 : Vec Ideal S4000000x10 .f32) k := by
  have e := idx_facts5 t
  unfold iblk5
  rw [View.read_apply]
  show V c main_v38 _ = V c main_v38 _
  refine congrArg (V c main_v38) ?_
  funext a
  apply Fin.ext
  match a with
  | ⟨0, _⟩ =>
    show win5_0.index t (0 : Fin 2) * 6400 + 1 * r.val = (k 0).val
    rw [e.1, hk0]; omega
  | ⟨1, _⟩ =>
    show win5_0.index t (1 : Fin 2) * 10 + 1 * q.val = (k 1).val
    rw [e.2.1, hk1]; omega

/-- Row `r` of window 1's block at point `t` is row `t * 6400 + r` of its array. -/
theorem blk1_apply5 (V : Entry) (c : Dev nD) (t : Fin cfg5.N) (r : Fin 6400) (q : Fin 10) (k : S4000000x10.Idx)
    (hk0 : (k 0).val = t.val * 6400 + r.val) (hk1 : (k 1).val = q.val) :
    (iblk5 (F := Ideal) V c 1 t : Vec Ideal S6400x10 .f32) (ix2 r q) = (V c main_v39 : Vec Ideal S4000000x10 .f32) k := by
  have e := idx_facts5 t
  unfold iblk5
  rw [View.read_apply]
  show V c main_v39 _ = V c main_v39 _
  refine congrArg (V c main_v39) ?_
  funext a
  apply Fin.ext
  match a with
  | ⟨0, _⟩ =>
    show win5_1.index t (0 : Fin 2) * 6400 + 1 * r.val = (k 0).val
    rw [e.2.2.1, hk0]; omega
  | ⟨1, _⟩ =>
    show win5_1.index t (1 : Fin 2) * 10 + 1 * q.val = (k 1).val
    rw [e.2.2.2.1, hk1]; omega

/-- Window 2's block at every point is its whole array. -/
theorem blk2_eq5 (V : Entry) (c : Dev nD) (t : Fin cfg5.N) :
    (iblk5 (F := Ideal) V c 2 t : Vec Ideal S20x8 .f32) = (V c main_arg4 : Vec Ideal S20x8 .f32) := by
  have e := idx_facts5 t
  funext y
  unfold iblk5
  rw [View.read_apply]
  show V c main_arg4 _ = V c main_arg4 _
  refine congrArg (V c main_arg4) ?_
  funext a
  apply Fin.ext
  match a with
  | ⟨0, _⟩ =>
    show win5_2.index t (0 : Fin 2) * 20 + 1 * (y 0).val = (y 0).val
    rw [e.2.2.2.2.1]; omega
  | ⟨1, _⟩ =>
    show win5_2.index t (1 : Fin 2) * 8 + 1 * (y 1).val = (y 1).val
    rw [e.2.2.2.2.2.1]; omega

/-- Window 3's block at every point is its whole array. -/
theorem blk3_eq5 (V : Entry) (c : Dev nD) (t : Fin cfg5.N) :
    (iblk5 (F := Ideal) V c 3 t : Vec Ideal S1x8 .f32) = (V c main_v40 : Vec Ideal S1x8 .f32) := by
  have e := idx_facts5 t
  funext y
  unfold iblk5
  rw [View.read_apply]
  show V c main_v40 _ = V c main_v40 _
  refine congrArg (V c main_v40) ?_
  funext a
  apply Fin.ext
  match a with
  | ⟨0, _⟩ =>
    show win5_3.index t (0 : Fin 2) * 1 + 1 * (y 0).val = (y 0).val
    rw [e.2.2.2.2.2.2.1]; omega
  | ⟨1, _⟩ =>
    show win5_3.index t (1 : Fin 2) * 8 + 1 * (y 1).val = (y 1).val
    rw [e.2.2.2.2.2.2.2.1]; omega

/-- Window 4's block at every point is its whole array. -/
theorem blk4_eq5 (V : Entry) (c : Dev nD) (t : Fin cfg5.N) :
    (iblk5 (F := Ideal) V c 4 t : Vec Ideal S8x1 .f32) = (V c main_arg6 : Vec Ideal S8x1 .f32) := by
  have e := idx_facts5 t
  funext y
  unfold iblk5
  rw [View.read_apply]
  show V c main_arg6 _ = V c main_arg6 _
  refine congrArg (V c main_arg6) ?_
  funext a
  apply Fin.ext
  match a with
  | ⟨0, _⟩ =>
    show win5_4.index t (0 : Fin 2) * 8 + 1 * (y 0).val = (y 0).val
    rw [e.2.2.2.2.2.2.2.2.1]; omega
  | ⟨1, _⟩ =>
    show win5_4.index t (1 : Fin 2) * 1 + 1 * (y 1).val = (y 1).val
    rw [e.2.2.2.2.2.2.2.2.2.1]; omega

/-- Window 5's block at every point is its whole array. -/
theorem blk5_eq5 (V : Entry) (c : Dev nD) (t : Fin cfg5.N) :
    (iblk5 (F := Ideal) V c 5 t : Vec Ideal S1x1 .f32) = (V c main_v41 : Vec Ideal S1x1 .f32) := by
  have e := idx_facts5 t
  funext y
  unfold iblk5
  rw [View.read_apply]
  show V c main_v41 _ = V c main_v41 _
  refine congrArg (V c main_v41) ?_
  funext a
  apply Fin.ext
  match a with
  | ⟨0, _⟩ =>
    show win5_5.index t (0 : Fin 2) * 1 + 1 * (y 0).val = (y 0).val
    rw [e.2.2.2.2.2.2.2.2.2.2.1]; omega
  | ⟨1, _⟩ =>
    show win5_5.index t (1 : Fin 2) * 1 + 1 * (y 1).val = (y 1).val
    rw [e.2.2.2.2.2.2.2.2.2.2.2.1]; omega

/-- AT ONE ENTRY: the body's result on blocks whose rows are rows `tv * 6400 + r` of the two endpoint arrays, read at
    `y`, is the specification on those arrays read at the entry `i` in row `tv * 6400 + y 0`, column `y 1`: both are
    the row function of the same two rows. -/
theorem point_eq5 (x0 x1 : Vec Ideal S6400x10 .f32) (w1 : Vec Ideal S20x8 .f32) (b1 : Vec Ideal S1x8 .f32)
    (w2 : Vec Ideal S8x1 .f32) (b2 : Vec Ideal S1x1 .f32) (A0 A1 : Vec Ideal S4000000x10 .f32)
    (tv : Nat) (y : S6400x20.Idx) (i : S4000000x20.Idx)
    (hi0 : (i 0).val = tv * 6400 + (y 0).val) (hi1 : (i 1).val = (y 1).val)
    (h0 : ∀ (r : Fin 6400) (q : Fin 10) (k : S4000000x10.Idx), (k 0).val = tv * 6400 + r.val → (k 1).val = q.val → x0 (ix2 r q) = A0 k)
    (h1 : ∀ (r : Fin 6400) (q : Fin 10) (k : S4000000x10.Idx), (k 0).val = tv * 6400 + r.val → (k 1).val = q.val → x1 (ix2 r q) = A1 k) :
    k5_pay1 (F := Ideal) x0 x1 w1 b1 w2 b2 y = Cert.Spec.edgeMul A0 A1 w1 b1 w2 b2 i := by
  obtain ⟨r, j, rfl⟩ : ∃ (r : Fin 6400) (j : Fin 20), y = ix2 r j := ⟨y 0, y 1, eq_ix2 y⟩
  obtain ⟨n, j', rfl⟩ : ∃ (n : Fin 4000000) (j' : Fin 20), i = ix2 n j' := ⟨i 0, i 1, eq_ix2 i⟩
  have hn : n.val = tv * 6400 + r.val := hi0
  obtain rfl : j = j' := (Fin.ext hi1).symm
  show EdgeBody.edgeBody x0 x1 w1 b1 w2 b2 (ix2 r j) = _
  rw [EdgeBody.edgeBody_apply, Cert.Spec.Row.edgeMul_apply]
  have ea : (fun q => x0 (ix2 r q)) = fun q => A0 (ix2 n q) := funext fun q => h0 r q (ix2 n q) hn rfl
  have eb : (fun q => x1 (ix2 r q)) = fun q => A1 (ix2 n q) := funext fun q => h1 r q (ix2 n q) hn rfl
  rw [ea, eb]

/-- WHAT POINT `t` WRITES BACK is block `t` of the specification on the arrays as the call finds them. -/
theorem flushed_eq5 (V : Entry) (c : Dev nD) (t : Fin cfg5.N) :
    (dat5 (F := Ideal) V c).flushed 6 t = ((cfg5.win 6).blk t).view.read (Elt Ideal)
      (Cert.Spec.edgeMul (V c main_v38) (V c main_v39) (V c main_arg4) (V c main_v40) (V c main_arg6) (V c main_v41)) := by
  have hz : (![0, 0] : Fin 2 → Nat) = fun _ => 0 := funext fun a => by fin_cases a <;> rfl
  have e := idx_facts5 t
  show (cfg5.win 6).cut (grid5.coords t) ((dat5 (F := Ideal) V c).after 6 t) = _
  rw [after5_6]
  unfold out5_6
  rw [View.canon_unit_zero hz]
  simp only [View.ld_unit_zero (S := S6400x10) hz, View.ld_unit_zero (S := S20x8) hz, View.ld_unit_zero (S := S1x8) hz,
    View.ld_unit_zero (S := S8x1) hz, View.ld_unit_zero (S := S1x1) hz]
  rw [blk2_eq5 V c t, blk3_eq5 V c t, blk4_eq5 V c t, blk5_eq5 V c t]
  funext y
  show k5_pay1 (F := Ideal) (iblk5 V c 0 t) (iblk5 V c 1 t) (V c main_arg4) (V c main_v40) (V c main_arg6) (V c main_v41) y
    = Cert.Spec.edgeMul (V c main_v38) (V c main_v39) (V c main_arg4) (V c main_v40) (V c main_arg6) (V c main_v41)
        (((cfg5.win 6).blk t).view.emb y)
  refine point_eq5 (iblk5 V c 0 t) (iblk5 V c 1 t) (V c main_arg4) (V c main_v40) (V c main_arg6) (V c main_v41)
    (V c main_v38) (V c main_v39) t.val y (((cfg5.win 6).blk t).view.emb y) ?_ ?_
    (fun r q k hk0 hk1 => blk0_apply5 V c t r q k hk0 hk1) (fun r q k hk0 hk1 => blk1_apply5 V c t r q k hk0 hk1)
  · show win5_6.index t (0 : Fin 2) * 6400 + 1 * (y 0).val = t.val * 6400 + (y 0).val
    rw [e.2.2.2.2.2.2.2.2.2.2.2.2.1]; omega
  · show win5_6.index t (1 : Fin 2) * 20 + 1 * (y 1).val = (y 1).val
    rw [e.2.2.2.2.2.2.2.2.2.2.2.2.2]; omega

/-- An entry of the output array is in point `t`'s block iff each coordinate is in the block's range on its axis. -/
theorem mem_blk5 (t : Fin cfg5.N) (i : S4000000x20.Idx) :
    i ∈ ((cfg5.win 6).blk t).view.set ↔ ∀ a : Fin 2, win5_6.index t a * S6400x20.size a ≤ (i a).val ∧ (i a).val < win5_6.index t a * S6400x20.size a + S6400x20.size a := by
  show i ∈ ((View.whole main_v42).slice (win5_6.rect t)).set ↔ _
  rw [View.set_slice_whole, Rect.mem_set_unit]
  exact Iff.rfl

/-- Every entry of the output array is in some point's block: row `n` is in block `n / 6400`. -/
theorem cover5 (i : S4000000x20.Idx) :
    ∃ t : Fin cfg5.N, (cfg5.win 6).flush t = true ∧ i ∈ ((cfg5.win 6).blk t).view.set := by
  have hi0 : (i 0).val < 4000000 := (i 0).isLt
  have hi1 : (i 1).val < 20 := (i 1).isLt
  have hN : cfg5.N = 625 := N_5
  obtain ⟨t, ht⟩ : ∃ t : Fin cfg5.N, t.val = (i 0).val / 6400 := ⟨⟨(i 0).val / 6400, by rw [hN]; omega⟩, rfl⟩
  have e := idx_facts5 t
  refine ⟨t, flush5_6 t, ?_⟩
  rw [mem_blk5]
  intro a
  match a with
  | ⟨0, _⟩ =>
    show win5_6.index t (0 : Fin 2) * 6400 ≤ (i 0).val ∧ (i 0).val < win5_6.index t (0 : Fin 2) * 6400 + 6400
    rw [e.2.2.2.2.2.2.2.2.2.2.2.2.1, ht]; omega
  | ⟨1, _⟩ =>
    show win5_6.index t (1 : Fin 2) * 20 ≤ (i 1).val ∧ (i 1).val < win5_6.index t (1 : Fin 2) * 20 + 20
    rw [e.2.2.2.2.2.2.2.2.2.2.2.2.2]; omega

theorem arr5 (V : Entry) (c : Dev nD) :
    (dat5 (F := Ideal) V c).arrAt 6 cfg5.N
      = Cert.Spec.edgeMul (V c main_v38) (V c main_v39) (V c main_arg4) (V c main_v40) (V c main_arg6) (V c main_v41) :=
  (dat5 (F := Ideal) V c).arrAt_eq_of_cover 6 _ (fun t _ => flushed_eq5 V c t) cover5

end Cert.KernelIdeal.Value

end
-- ==== Proof.RegionNode6.lean ====
/-
  A node pallas_call: after its 100 grid points, each writing 5000 node rows, the output array is the node layers of
  the whole arrays.  A grid point's block of the output is rows `5000 t … 5000 t + 4999`; the body computes each row of
  it from the same rows of the three feature arrays and of the coordinates, and from the whole weight arrays; read at a
  row and a feature, the body's arithmetic and the specification's are the same function of that node's rows.
-/
import proofs.«426732_j67937792688144_3_alg».proof.Proof.Gen.KernelIdeal.Frame
import proofs.«426732_j67937792688144_3_alg».proof.Proof.Spec
import proofs.«426732_j67937792688144_3_alg».proof.Proof.Args
import proofs.«426732_j67937792688144_3_alg».proof.Proof.NodeRow
import Idealize.ShloMosaic.Lib.Pipeline.Value
set_option maxRecDepth 16384

noncomputable section

namespace Cert.KernelIdeal.Value

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-! ## The body's arithmetic and the specification's, at a node -/

/-- The body's payload at a row of its block. -/
theorem pay_apply6 (x0 x1 x2 : Vec Ideal S5000x10 .f32) (x3 : Vec Ideal S5000x2 .f32) (x4 : Vec Ideal S30x8 .f32)
    (x5 : Vec Ideal S1x8 .f32) (x6 : Vec Ideal S8x8 .f32) (x7 : Vec Ideal S1x8 .f32) (r : Fin 5000) (j : Fin 10) :
    k6_pay1 x0 x1 x2 x3 x4 x5 x6 x7 (ix2 r j)
      = Cert.NodeRow.nodeRow (fun q => x0 (ix2 r q)) (fun q => x1 (ix2 r q)) (fun q => x2 (ix2 r q)) (fun q => x3 (ix2 r q))
          x4 x5 x6 x7 j :=
  Cert.NodeRow.kernNode_apply (M := 5000) x0 x1 x2 x3 x4 x5 x6 x7 shapeCasts_S5000x10_S5000x10
    concatenates_S5000x10_S5000x10_S5000x10_S5000x30_d1 concatenates_S5000x8_S5000x2_S5000x10_d1 shapeCasts_S1x8_S1x8
    broadcasts_S1x8_S5000x8 bitsLt_bf16_f32 dot_S5000x30_S30x8_S5000x8_1_0_0_1_n_n rfl dot_S5000x8_S8x8_S5000x8_1_0_0_1_n_n rfl r j

/-- The specification's node layers at a node. -/
theorem node_apply6 (mi mo xc : Cert.Spec.FA Cert.ReferenceIdeal.S500000x10) (x : Cert.Spec.FA Cert.ReferenceIdeal.S500000x2)
    (w1 : Cert.Spec.FA Cert.ReferenceIdeal.S30x8) (b1 : Cert.Spec.FA Cert.ReferenceIdeal.S1x8)
    (w2 : Cert.Spec.FA Cert.ReferenceIdeal.S8x8) (b2 : Cert.Spec.FA Cert.ReferenceIdeal.S1x8) (n : Fin 500000) (j : Fin 10) :
    Cert.Spec.node mi mo xc x w1 b1 w2 b2 (ix2 n j)
      = Cert.NodeRow.nodeRow (fun q => mi (ix2 n q)) (fun q => mo (ix2 n q)) (fun q => xc (ix2 n q)) (fun q => x (ix2 n q))
          w1 b1 w2 b2 j :=
  Cert.NodeRow.hostNode_apply (M := 500000) mi mo xc x w1 b1 w2 b2
    Cert.ReferenceIdeal.Gen.concatenates_S500000x10_S500000x10_S500000x10_S500000x30_d1
    Cert.ReferenceIdeal.Gen.concatenates_S500000x8_S500000x2_S500000x10_d1
    Cert.ReferenceIdeal.Gen.bcast_S1x8_S500000x8_0_1
    Cert.ReferenceIdeal.dot_S500000x30_S30x8_S500000x8_1_0_0_1_n_n rfl Cert.ReferenceIdeal.dot_S500000x8_S8x8_S500000x8_1_0_0_1_n_n rfl n j

/-! ## The blocks -/

theorem hz6 : (![0, 0] : Fin 2 → Nat) = fun _ => 0 := funext fun a => by fin_cases a <;> rfl

/-- The printed index maps, decided over the grid: the row windows' block index is `(t, 0)`, the weight windows' `(0, 0)`. -/
theorem idx_facts6 : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = t.val ∧ win6_2.index t (1 : Fin 2) = 0)
    ∧ (win6_3.index t (0 : Fin 2) = t.val ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = 0 ∧ win6_6.index t (1 : Fin 2) = 0)
    ∧ (win6_7.index t (0 : Fin 2) = 0 ∧ win6_7.index t (1 : Fin 2) = 0)
    ∧ (win6_8.index t (0 : Fin 2) = t.val ∧ win6_8.index t (1 : Fin 2) = 0) :=
  (by decide +kernel : ∀ t : Fin grid6.N, _)

/-- A row window's block at point `t` is rows `5000 t …` of its array. -/
theorem iblk6_0_apply (V : Entry) (c : Dev nD) (t : Fin cfg6.N) (x : S5000x10.Idx) (k : S500000x10.Idx)
    (hk0 : (k 0).val = 5000 * t.val + (x 0).val) (hk1 : (k 1).val = (x 1).val) :
    (iblk6 V c 0 t : Vec Ideal S5000x10 .f32) x = (V c main_v47 : S500000x10.Idx → EReal) k := by
  obtain ⟨⟨e0, e1⟩, -⟩ := idx_facts6 t
  unfold iblk6
  rw [View.read_apply]
  show V c main_v47 _ = V c main_v47 _
  congr 1
  funext a
  apply Fin.ext
  match a with
  | ⟨0, _⟩ => show win6_0.index t 0 * 5000 + 1 * (x 0).val = (k 0).val; rw [e0, hk0]; omega
  | ⟨1, _⟩ => show win6_0.index t 1 * 10 + 1 * (x 1).val = (k 1).val; rw [e1, hk1]; omega

theorem iblk6_1_apply (V : Entry) (c : Dev nD) (t : Fin cfg6.N) (x : S5000x10.Idx) (k : S500000x10.Idx)
    (hk0 : (k 0).val = 5000 * t.val + (x 0).val) (hk1 : (k 1).val = (x 1).val) :
    (iblk6 V c 1 t : Vec Ideal S5000x10 .f32) x = (V c main_v50 : S500000x10.Idx → EReal) k := by
  obtain ⟨-, ⟨e0, e1⟩, -⟩ := idx_facts6 t
  unfold iblk6
  rw [View.read_apply]
  show V c main_v50 _ = V c main_v50 _
  congr 1
  funext a
  apply Fin.ext
  match a with
  | ⟨0, _⟩ => show win6_1.index t 0 * 5000 + 1 * (x 0).val = (k 0).val; rw [e0, hk0]; omega
  | ⟨1, _⟩ => show win6_1.index t 1 * 10 + 1 * (x 1).val = (k 1).val; rw [e1, hk1]; omega

theorem iblk6_2_apply (V : Entry) (c : Dev nD) (t : Fin cfg6.N) (x : S5000x10.Idx) (k : S500000x10.Idx)
    (hk0 : (k 0).val = 5000 * t.val + (x 0).val) (hk1 : (k 1).val = (x 1).val) :
    (iblk6 V c 2 t : Vec Ideal S5000x10 .f32) x = (V c main_v37 : S500000x10.Idx → EReal) k := by
  obtain ⟨-, -, ⟨e0, e1⟩, -⟩ := idx_facts6 t
  unfold iblk6
  rw [View.read_apply]
  show V c main_v37 _ = V c main_v37 _
  congr 1
  funext a
  apply Fin.ext
  match a with
  | ⟨0, _⟩ => show win6_2.index t 0 * 5000 + 1 * (x 0).val = (k 0).val; rw [e0, hk0]; omega
  | ⟨1, _⟩ => show win6_2.index t 1 * 10 + 1 * (x 1).val = (k 1).val; rw [e1, hk1]; omega

theorem iblk6_3_apply (V : Entry) (c : Dev nD) (t : Fin cfg6.N) (x : S5000x2.Idx) (k : S500000x2.Idx)
    (hk0 : (k 0).val = 5000 * t.val + (x 0).val) (hk1 : (k 1).val = (x 1).val) :
    (iblk6 V c 3 t : Vec Ideal S5000x2 .f32) x = (V c main_arg0 : S500000x2.Idx → EReal) k := by
  obtain ⟨-, -, -, ⟨e0, e1⟩, -⟩ := idx_facts6 t
  unfold iblk6
  rw [View.read_apply]
  show V c main_arg0 _ = V c main_arg0 _
  congr 1
  funext a
  apply Fin.ext
  match a with
  | ⟨0, _⟩ => show win6_3.index t 0 * 5000 + 1 * (x 0).val = (k 0).val; rw [e0, hk0]; omega
  | ⟨1, _⟩ => show win6_3.index t 1 * 2 + 1 * (x 1).val = (k 1).val; rw [e1, hk1]; omega

/-- A weight window's block is its whole array, at every point. -/
theorem iblk6_4_eq (V : Entry) (c : Dev nD) (t : Fin cfg6.N) :
    (iblk6 V c 4 t : Vec Ideal S30x8 .f32) = (V c main_arg8 : S30x8.Idx → EReal) := by
  obtain ⟨-, -, -, -, ⟨e0, e1⟩, -⟩ := idx_facts6 t
  funext x
  unfold iblk6
  rw [View.read_apply]
  show V c main_arg8 _ = V c main_arg8 _
  congr 1
  funext a
  apply Fin.ext
  match a with
  | ⟨0, _⟩ => show win6_4.index t 0 * 30 + 1 * (x 0).val = (x 0).val; rw [e0]; omega
  | ⟨1, _⟩ => show win6_4.index t 1 * 8 + 1 * (x 1).val = (x 1).val; rw [e1]; omega

theorem iblk6_5_eq (V : Entry) (c : Dev nD) (t : Fin cfg6.N) :
    (iblk6 V c 5 t : Vec Ideal S1x8 .f32) = (V c main_v51 : S1x8.Idx → EReal) := by
  obtain ⟨-, -, -, -, -, ⟨e0, e1⟩, -⟩ := idx_facts6 t
  funext x
  unfold iblk6
  rw [View.read_apply]
  show V c main_v51 _ = V c main_v51 _
  congr 1
  funext a
  apply Fin.ext
  match a with
  | ⟨0, _⟩ => show win6_5.index t 0 * 1 + 1 * (x 0).val = (x 0).val; rw [e0]; omega
  | ⟨1, _⟩ => show win6_5.index t 1 * 8 + 1 * (x 1).val = (x 1).val; rw [e1]; omega

theorem iblk6_6_eq (V : Entry) (c : Dev nD) (t : Fin cfg6.N) :
    (iblk6 V c 6 t : Vec Ideal S8x8 .f32) = (V c main_arg10 : S8x8.Idx → EReal) := by
  obtain ⟨-, -, -, -, -, -, ⟨e0, e1⟩, -⟩ := idx_facts6 t
  funext x
  unfold iblk6
  rw [View.read_apply]
  show V c main_arg10 _ = V c main_arg10 _
  congr 1
  funext a
  apply Fin.ext
  match a with
  | ⟨0, _⟩ => show win6_6.index t 0 * 8 + 1 * (x 0).val = (x 0).val; rw [e0]; omega
  | ⟨1, _⟩ => show win6_6.index t 1 * 8 + 1 * (x 1).val = (x 1).val; rw [e1]; omega

theorem iblk6_7_eq (V : Entry) (c : Dev nD) (t : Fin cfg6.N) :
    (iblk6 V c 7 t : Vec Ideal S1x8 .f32) = (V c main_v52 : S1x8.Idx → EReal) := by
  obtain ⟨-, -, -, -, -, -, -, ⟨e0, e1⟩, -⟩ := idx_facts6 t
  funext x
  unfold iblk6
  rw [View.read_apply]
  show V c main_v52 _ = V c main_v52 _
  congr 1
  funext a
  apply Fin.ext
  match a with
  | ⟨0, _⟩ => show win6_7.index t 0 * 1 + 1 * (x 0).val = (x 0).val; rw [e0]; omega
  | ⟨1, _⟩ => show win6_7.index t 1 * 8 + 1 * (x 1).val = (x 1).val; rw [e1]; omega

/-! ## What a point writes back -/

/-- The node layers of the arrays as the region finds them. -/
abbrev G6 (V : Entry) (c : Dev nD) : S500000x10.Idx → EReal :=
  Cert.Spec.node (V c main_v47) (V c main_v50) (V c main_v37) (V c main_arg0) (V c main_arg8) (V c main_v51)
    (V c main_arg10) (V c main_v52)

/-- The body's result at row `x 0` of point `t`'s block is the specification's at row `5000 t + x 0`. -/
theorem point6 (V : Entry) (c : Dev nD) (t : Fin cfg6.N) (x : S5000x10.Idx) (k : S500000x10.Idx)
    (hk0 : (k 0).val = 5000 * t.val + (x 0).val) (hk1 : (k 1).val = (x 1).val) :
    k6_pay1 (iblk6 V c 0 t) (iblk6 V c 1 t) (iblk6 V c 2 t) (iblk6 V c 3 t) (iblk6 V c 4 t) (iblk6 V c 5 t) (iblk6 V c 6 t)
      (iblk6 V c 7 t) x = G6 V c k := by
  obtain ⟨r, j, rfl⟩ : ∃ (r : Fin 5000) (j : Fin 10), x = ix2 r j := ⟨x 0, x 1, eq_ix2 x⟩
  obtain ⟨n, j', rfl⟩ : ∃ (n : Fin 500000) (j' : Fin 10), k = ix2 n j' := ⟨k 0, k 1, eq_ix2 k⟩
  have hn : n.val = 5000 * t.val + r.val := hk0
  obtain rfl : j' = j := Fin.ext hk1
  refine (pay_apply6 (iblk6 V c 0 t) (iblk6 V c 1 t) (iblk6 V c 2 t) (iblk6 V c 3 t) (iblk6 V c 4 t) (iblk6 V c 5 t)
    (iblk6 V c 6 t) (iblk6 V c 7 t) r j').trans ?_
  refine Eq.trans ?_ (node_apply6 (V c main_v47) (V c main_v50) (V c main_v37) (V c main_arg0) (V c main_arg8) (V c main_v51)
    (V c main_arg10) (V c main_v52) n j').symm
  have e0 : (fun q : Fin 10 => (iblk6 V c 0 t : Vec Ideal S5000x10 .f32) (ix2 r q))
      = fun q : Fin 10 => (V c main_v47 : S500000x10.Idx → EReal) (ix2 n q) :=
    funext fun q => iblk6_0_apply V c t (ix2 r q) (ix2 n q) hn rfl
  have e1 : (fun q : Fin 10 => (iblk6 V c 1 t : Vec Ideal S5000x10 .f32) (ix2 r q))
      = fun q : Fin 10 => (V c main_v50 : S500000x10.Idx → EReal) (ix2 n q) :=
    funext fun q => iblk6_1_apply V c t (ix2 r q) (ix2 n q) hn rfl
  have e2 : (fun q : Fin 10 => (iblk6 V c 2 t : Vec Ideal S5000x10 .f32) (ix2 r q))
      = fun q : Fin 10 => (V c main_v37 : S500000x10.Idx → EReal) (ix2 n q) :=
    funext fun q => iblk6_2_apply V c t (ix2 r q) (ix2 n q) hn rfl
  have e3 : (fun q : Fin 2 => (iblk6 V c 3 t : Vec Ideal S5000x2 .f32) (ix2 r q))
      = fun q : Fin 2 => (V c main_arg0 : S500000x2.Idx → EReal) (ix2 n q) :=
    funext fun q => iblk6_3_apply V c t (ix2 r q) (ix2 n q) hn rfl
  rw [e0, e1, e2, e3, iblk6_4_eq V c t, iblk6_5_eq V c t, iblk6_6_eq V c t, iblk6_7_eq V c t]

/-- WHAT POINT `t` WRITES BACK is block `t` of the node layers of the arrays as the region finds them. -/
theorem flushed_eq6 (V : Entry) (c : Dev nD) (t : Fin cfg6.N) :
    (dat6 (F := Ideal) V c).flushed 8 t = ((cfg6.win 8).blk t).view.read (Elt Ideal) (G6 V c) := by
  obtain ⟨-, -, -, -, -, -, -, -, e0, e1⟩ := idx_facts6 t
  show (cfg6.win 8).cut (grid6.coords t) ((dat6 V c).after 8 t) = _
  rw [after6_8]
  unfold out6_8
  rw [View.canon_unit_zero hz6]
  simp only [View.ld_unit_zero (S := S5000x10) hz6, View.ld_unit_zero (S := S5000x2) hz6, View.ld_unit_zero (S := S30x8) hz6,
    View.ld_unit_zero (S := S1x8) hz6, View.ld_unit_zero (S := S8x8) hz6]
  funext y
  rw [View.read_apply]
  refine point6 V c t y _ ?_ ?_
  · show win6_8.index t 0 * 5000 + 1 * (y 0).val = 5000 * t.val + (y 0).val; rw [e0]; omega
  · show win6_8.index t 1 * 10 + 1 * (y 1).val = (y 1).val; rw [e1]; omega

/-! ## The cover, and the array -/

/-- An index of the array is in point `t`'s block iff each coordinate is in the block's range on its axis. -/
theorem mem_blk6 (t : Fin cfg6.N) (i : S500000x10.Idx) :
    i ∈ ((cfg6.win 8).blk t).view.set ↔ ∀ a : Fin 2, win6_8.index t a * S5000x10.size a ≤ (i a).val
      ∧ (i a).val < win6_8.index t a * S5000x10.size a + S5000x10.size a := by
  show i ∈ ((View.whole main_v53).slice (win6_8.rect t)).set ↔ _
  rw [View.set_slice_whole, Rect.mem_set_unit]
  exact Iff.rfl

/-- Row `n` of the array is in the block of point `n / 5000`. -/
theorem cover6 (i : S500000x10.Idx) : ∃ t : Fin cfg6.N, (cfg6.win 8).flush t = true ∧ i ∈ ((cfg6.win 8).blk t).view.set := by
  have hi0 : (i 0).val < 500000 := (i 0).isLt
  have hi1 : (i 1).val < 10 := (i 1).isLt
  have hN : cfg6.N = 100 := N_6
  refine ⟨⟨(i 0).val / 5000, by rw [hN]; omega⟩, flush6_8 _, ?_⟩
  rw [mem_blk6]
  obtain ⟨-, -, -, -, -, -, -, -, e0, e1⟩ := idx_facts6 ⟨(i 0).val / 5000, by rw [hN]; omega⟩
  intro a
  match a with
  | ⟨0, _⟩ =>
    show win6_8.index _ (0 : Fin 2) * 5000 ≤ (i 0).val ∧ (i 0).val < win6_8.index _ (0 : Fin 2) * 5000 + 5000
    rw [e0]; show (i 0).val / 5000 * 5000 ≤ (i 0).val ∧ (i 0).val < (i 0).val / 5000 * 5000 + 5000; omega
  | ⟨1, _⟩ =>
    show win6_8.index _ (1 : Fin 2) * 10 ≤ (i 1).val ∧ (i 1).val < win6_8.index _ (1 : Fin 2) * 10 + 10
    rw [e1]; omega

/-- THE ARRAY after the call: the node layers of the arrays as the region finds them. -/
theorem arr6 (V : Entry) (c : Dev nD) :
    (dat6 (F := Ideal) V c).arrAt 8 cfg6.N
      = Cert.Spec.node (V c main_v47) (V c main_v50) (V c main_v37) (V c main_arg0) (V c main_arg8) (V c main_v51)
          (V c main_arg10) (V c main_v52) :=
  (dat6 (F := Ideal) V c).arrAt_eq_of_cover 8 (G6 V c) (fun t _ => flushed_eq6 V c t) cover6

end Cert.KernelIdeal.Value

end
-- ==== Proof.ChainIter3.lean ====
/-
  One round, from the exit of the call that made the node features to the round's node call's exit: two guarded gathers,
  the edge call, its output's two halves summed into the opposite endpoints, the node call.  The edge list's rows and the
  argument arrays stay where they are, and the node call's output is the specification's `step` of the features the round
  was entered with.
-/
import proofs.«426732_j67937792688144_3_alg».proof.Proof.Gen.KernelIdeal.Frame
import proofs.«426732_j67937792688144_3_alg».proof.Proof.Spec
import proofs.«426732_j67937792688144_3_alg».proof.Proof.ChainDefs
import proofs.«426732_j67937792688144_3_alg».proof.Proof.HostGlue
import proofs.«426732_j67937792688144_3_alg».proof.Proof.TakeStretch3
import proofs.«426732_j67937792688144_3_alg».proof.Proof.RegionEdgeMul5
import proofs.«426732_j67937792688144_3_alg».proof.Proof.RegionNode6
set_option maxRecDepth 16384

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- A stretch of host operations keeps a buffer none of them writes. -/
local macro "host_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- Contents that agree with `W` at the edge list's rows and at the arguments have what `W` has there. -/
private theorem inv_of_eq {W W' : Valuation τ sig (Elt Ideal)} {a : Cert.Spec.Args} (h : Inv W a)
    (h1 : W' (Proc.devRef .tc main_v1) = W (Proc.devRef .tc main_v1))
    (h3 : W' (Proc.devRef .tc main_v3) = W (Proc.devRef .tc main_v3))
    (g0 : W' (Proc.devRef .tc main_arg0) = W (Proc.devRef .tc main_arg0))
    (g4 : W' (Proc.devRef .tc main_arg4) = W (Proc.devRef .tc main_arg4))
    (g5 : W' (Proc.devRef .tc main_arg5) = W (Proc.devRef .tc main_arg5))
    (g6 : W' (Proc.devRef .tc main_arg6) = W (Proc.devRef .tc main_arg6))
    (g7 : W' (Proc.devRef .tc main_arg7) = W (Proc.devRef .tc main_arg7))
    (g8 : W' (Proc.devRef .tc main_arg8) = W (Proc.devRef .tc main_arg8))
    (g9 : W' (Proc.devRef .tc main_arg9) = W (Proc.devRef .tc main_arg9))
    (g10 : W' (Proc.devRef .tc main_arg10) = W (Proc.devRef .tc main_arg10))
    (g11 : W' (Proc.devRef .tc main_arg11) = W (Proc.devRef .tc main_arg11)) : Inv W' a :=
  ⟨h1.trans h.row, h3.trans h.col, g0.trans h.x, g4.trans h.e1_w, g5.trans h.e1_b, g6.trans h.e2_w, g7.trans h.e2_b,
    g8.trans h.n1_w, g9.trans h.n1_b, g10.trans h.n2_w, g11.trans h.n2_b⟩

/-- The rows and the arguments pass through a stretch of host operations that writes none of them. -/
local macro "inv_keeps " ops:ident : tactic =>
  `(tactic| (refine inv_of_eq (by assumption) ?_ ?_ ?_ ?_ ?_ ?_ ?_ ?_ ?_ ?_ ?_ <;> host_keeps $ops))

/-! ## The four stretches of host operations, from any contents -/

section Stretches
variable (W : Valuation τ sig (Elt Ideal)) (a : Cert.Spec.Args)

private theorem inv_gatherCol (h : Inv W a) : Inv (StableHlo.after hostOps5 W) a := by inv_keeps hostOps5
private theorem inv_gatherRow (h : Inv W a) : Inv (StableHlo.after hostOps5_1 W) a := by inv_keeps hostOps5_1
private theorem inv_biasRows (h : Inv W a) : Inv (StableHlo.after hostOps5_2 W) a := by inv_keeps hostOps5_2
private theorem inv_sums (h : Inv W a) : Inv (StableHlo.after hostOps6 W) a := by inv_keeps hostOps6

/-- The two bias vectors of the edge call, reshaped to rows. -/
private theorem biasRows_v8 : StableHlo.after hostOps5_2 W (Proc.devRef .tc main_v40)
    = shapeCast S1x8 (W (Proc.devRef .tc main_arg5)) shapeCasts_S8_S1x8 := by
  after_results; rfl
private theorem biasRows_v9 : StableHlo.after hostOps5_2 W (Proc.devRef .tc main_v41)
    = shapeCast S1x1 (W (Proc.devRef .tc main_arg7)) shapeCasts_S1_S1x1 := by
  after_results; rfl

/-- The sum of the edge call's right column half into the `col` endpoints, of its left half into the `row` endpoints, and
    the node call's two bias vectors reshaped to rows. -/
private theorem sums_v15 : StableHlo.after hostOps6 W (Proc.devRef .tc main_v47)
    = Cert.Spec.segsum (W (Proc.devRef .tc main_v3))
        (extractStridedSlice S4000000x10 ![0, 10] (W (Proc.devRef .tc main_v42)) slices_S4000000x20_S4000000x10_0_10) := by
  after_results; exact ksegsum_eq _ _
private theorem sums_v18 : StableHlo.after hostOps6 W (Proc.devRef .tc main_v50)
    = Cert.Spec.segsum (W (Proc.devRef .tc main_v1))
        (extractStridedSlice S4000000x10 ![0, 0] (W (Proc.devRef .tc main_v42)) slices_S4000000x20_S4000000x10_0_0) := by
  after_results; exact ksegsum_eq _ _
private theorem sums_v19 : StableHlo.after hostOps6 W (Proc.devRef .tc main_v51)
    = shapeCast S1x8 (W (Proc.devRef .tc main_arg9)) shapeCasts_S8_S1x8 := by
  after_results; rfl
private theorem sums_v20 : StableHlo.after hostOps6 W (Proc.devRef .tc main_v52)
    = shapeCast S1x8 (W (Proc.devRef .tc main_arg11)) shapeCasts_S8_S1x8 := by
  after_results; rfl

end Stretches

/-! ## The two calls: an argument a call stages is as entered, every buffer it does not stage is untouched -/

private theorem inv_edgeCall (c : Dev nD) (a : Cert.Spec.Args) (h : Inv (W17 m ρ c) a) : Inv (W18 m ρ c) a :=
  inv_of_eq h (W18_of_ne m ρ c main_v1 (by decide)) (W18_of_ne m ρ c main_v3 (by decide))
    (W18_of_ne m ρ c main_arg0 (by decide))
    ((W18_arr m ρ c 2).trans (((dat5 (V17 m ρ) c).arrAt_in 2 rfl _).trans (A_eq5 (V17 m ρ) c 2)))
    (W18_of_ne m ρ c main_arg5 (by decide))
    ((W18_arr m ρ c 4).trans (((dat5 (V17 m ρ) c).arrAt_in 4 rfl _).trans (A_eq5 (V17 m ρ) c 4)))
    (W18_of_ne m ρ c main_arg7 (by decide)) (W18_of_ne m ρ c main_arg8 (by decide))
    (W18_of_ne m ρ c main_arg9 (by decide)) (W18_of_ne m ρ c main_arg10 (by decide))
    (W18_of_ne m ρ c main_arg11 (by decide))

private theorem inv_nodeCall (c : Dev nD) (a : Cert.Spec.Args) (h : Inv (W19 m ρ c) a) : Inv (W20 m ρ c) a :=
  inv_of_eq h (W20_of_ne m ρ c main_v1 (by decide)) (W20_of_ne m ρ c main_v3 (by decide))
    ((W20_arr m ρ c 3).trans (((dat6 (V19 m ρ) c).arrAt_in 3 rfl _).trans (A_eq6 (V19 m ρ) c 3)))
    (W20_of_ne m ρ c main_arg4 (by decide)) (W20_of_ne m ρ c main_arg5 (by decide))
    (W20_of_ne m ρ c main_arg6 (by decide)) (W20_of_ne m ρ c main_arg7 (by decide))
    ((W20_arr m ρ c 4).trans (((dat6 (V19 m ρ) c).arrAt_in 4 rfl _).trans (A_eq6 (V19 m ρ) c 4)))
    (W20_of_ne m ρ c main_arg9 (by decide))
    ((W20_arr m ρ c 6).trans (((dat6 (V19 m ρ) c).arrAt_in 6 rfl _).trans (A_eq6 (V19 m ρ) c 6)))
    (W20_of_ne m ρ c main_arg11 (by decide))

/-! ## The round -/

theorem iter3 (c : Dev nD) (a : Cert.Spec.Args) (xc : Cert.Spec.FA Cert.ReferenceIdeal.S500000x10)
    (hI : Inv (W14 m ρ c) a) (hx : W14 m ρ c (Proc.devRef .tc main_v37) = xc) (hr : Cert.Spec.InRange a) :
    Inv (W20 m ρ c) a ∧ W20 m ρ c (Proc.devRef .tc main_v53) = Cert.Spec.step a xc := by
  -- after the gather at `col`: the `col` endpoints' rows
  have I3 : Inv (W15 m ρ c) a := inv_gatherCol (W14 m ρ c) a hI
  have x3 : W15 m ρ c (Proc.devRef .tc main_v37) = xc :=
    (show W15 m ρ c (Proc.devRef .tc main_v37) = W14 m ρ c (Proc.devRef .tc main_v37) by host_keeps hostOps5).trans hx
  have p3 : W15 m ρ c (Proc.devRef .tc main_v38) = Cert.Spec.rows xc a.col := by
    refine (take_col3 (W14 m ρ c)).trans ?_
    rw [hx, hI.col]; exact ktake_eq xc a.col hr.col
  -- after the gather at `row`: the `row` endpoints' rows
  have I4 : Inv (W16 m ρ c) a := inv_gatherRow (W15 m ρ c) a I3
  have x4 : W16 m ρ c (Proc.devRef .tc main_v37) = xc :=
    (show W16 m ρ c (Proc.devRef .tc main_v37) = W15 m ρ c (Proc.devRef .tc main_v37) by host_keeps hostOps5_1).trans x3
  have p4 : W16 m ρ c (Proc.devRef .tc main_v38) = Cert.Spec.rows xc a.col :=
    (show W16 m ρ c (Proc.devRef .tc main_v38) = W15 m ρ c (Proc.devRef .tc main_v38) by host_keeps hostOps5_1).trans p3
  have q4 : W16 m ρ c (Proc.devRef .tc main_v39) = Cert.Spec.rows xc a.row := by
    refine (take_row3 (W15 m ρ c)).trans ?_
    rw [x3, I3.row]; exact ktake_eq xc a.row hr.row
  -- the edge call's entry: its two bias rows
  have I5 : Inv (W17 m ρ c) a := inv_biasRows (W16 m ρ c) a I4
  have x5 : W17 m ρ c (Proc.devRef .tc main_v37) = xc :=
    (show W17 m ρ c (Proc.devRef .tc main_v37) = W16 m ρ c (Proc.devRef .tc main_v37) by host_keeps hostOps5_2).trans x4
  have p5 : V17 m ρ c main_v38 = Cert.Spec.rows xc a.col :=
    (show W17 m ρ c (Proc.devRef .tc main_v38) = W16 m ρ c (Proc.devRef .tc main_v38) by host_keeps hostOps5_2).trans p4
  have q5 : V17 m ρ c main_v39 = Cert.Spec.rows xc a.row :=
    (show W17 m ρ c (Proc.devRef .tc main_v39) = W16 m ρ c (Proc.devRef .tc main_v39) by host_keeps hostOps5_2).trans q4
  have b5 : V17 m ρ c main_v40 = Cert.Spec.row8 a.e1_b := by
    refine (biasRows_v8 (W16 m ρ c)).trans ?_
    rw [I4.e1_b]; exact reshape_row8 a.e1_b
  have d5 : V17 m ρ c main_v41 = Cert.Spec.row1 a.e2_b := by
    refine (biasRows_v9 (W16 m ρ c)).trans ?_
    rw [I4.e2_b]; exact reshape_row1 a.e2_b
  have w5 : V17 m ρ c main_arg4 = a.e1_w := I5.e1_w
  have u5 : V17 m ρ c main_arg6 = a.e2_w := I5.e2_w
  -- the edge call's exit: both gated endpoint rows of every edge
  have I6 : Inv (W18 m ρ c) a := inv_edgeCall m ρ c a I5
  have x6 : W18 m ρ c (Proc.devRef .tc main_v37) = xc := (W18_of_ne m ρ c main_v37 (by decide)).trans x5
  have o6 : W18 m ρ c (Proc.devRef .tc main_v42)
      = Cert.Spec.edgeMul (Cert.Spec.rows xc a.col) (Cert.Spec.rows xc a.row) a.e1_w (Cert.Spec.row8 a.e1_b) a.e2_w
          (Cert.Spec.row1 a.e2_b) := by
    refine ((W18_arr m ρ c 6).trans (arr5 (V17 m ρ) c)).trans ?_
    rw [p5, q5, w5, b5, u5, d5]
  -- the node call's entry: the two segment sums and its two bias rows
  have I7 : Inv (W19 m ρ c) a := inv_sums (W18 m ρ c) a I6
  have x7 : V19 m ρ c main_v37 = xc :=
    (show W19 m ρ c (Proc.devRef .tc main_v37) = W18 m ρ c (Proc.devRef .tc main_v37) by host_keeps hostOps6).trans x6
  have s7 : V19 m ρ c main_v47
      = Cert.Spec.segsum a.col (Cert.Spec.scaled (Cert.Spec.rows xc a.row) (Cert.Spec.score a xc)) := by
    refine (sums_v15 (W18 m ρ c)).trans ?_
    rw [I6.col, o6, sliceHi_edgeMul]; rfl
  have t7 : V19 m ρ c main_v50
      = Cert.Spec.segsum a.row (Cert.Spec.scaled (Cert.Spec.rows xc a.col) (Cert.Spec.score a xc)) := by
    refine (sums_v18 (W18 m ρ c)).trans ?_
    rw [I6.row, o6, sliceLo_edgeMul]; rfl
  have b7 : V19 m ρ c main_v51 = Cert.Spec.row8 a.n1_b := by
    refine (sums_v19 (W18 m ρ c)).trans ?_
    rw [I6.n1_b]; exact reshape_row8 a.n1_b
  have d7 : V19 m ρ c main_v52 = Cert.Spec.row8 a.n2_b := by
    refine (sums_v20 (W18 m ρ c)).trans ?_
    rw [I6.n2_b]; exact reshape_row8 a.n2_b
  have g7 : V19 m ρ c main_arg0 = a.x := I7.x
  have w7 : V19 m ρ c main_arg8 = a.n1_w := I7.n1_w
  have u7 : V19 m ρ c main_arg10 = a.n2_w := I7.n2_w
  -- the node call's exit
  refine ⟨inv_nodeCall m ρ c a I7, ?_⟩
  refine ((W20_arr m ρ c 8).trans (arr6 (V19 m ρ) c)).trans ?_
  rw [s7, t7, x7, g7, w7, b7, u7, d7]; rfl

end Cert.KernelIdeal.Value

end
-- ==== Proof.RegionEdgeOnly.lean ====
/-
  The last pallas_call: after its 625 grid points, each writing 6400 edge rows, the output column is every edge's score.
-/
import proofs.«426732_j67937792688144_3_alg».proof.Proof.Gen.KernelIdeal.Frame
import proofs.«426732_j67937792688144_3_alg».proof.Proof.Spec
import proofs.«426732_j67937792688144_3_alg».proof.Proof.Args
import Idealize.ShloMosaic.Lib.ValueIdx
import Idealize.ShloMosaic.Lib.Pipeline.Value
import Idealize.ShloMosaic.Lib.IdealHost
import Idealize.ShloMosaic.Lib.KernelVsHost
import Idealize.ShloMosaic.PureOps.Ideal.Laws
set_option maxRecDepth 16384

noncomputable section

namespace Cert.KernelIdeal.EdgeOnly

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen Cert.KernelIdeal.Value
open scoped BigOperators

/-! ## Reading the layout operations of one edge row -/

/-- The contraction sum of a rows-by-columns product at entry (a, b) is the sum over the shared coordinate of
    the products of row a's and column b's entries. -/
theorem dot2_sum {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    (∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q))
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A one-row matrix laid down `m` rows by the kernel's broadcast, read at (r, t), is the row at (0, t). -/
theorem broadcastTo_oneRow_apply {α : Type} {m n : Nat} (h : (⟨2, ![1, n]⟩ : Shape).Broadcasts ⟨2, ![m, n]⟩)
    (y : (⟨2, ![1, n]⟩ : Shape).Idx → α) (r : Fin m) (t : Fin n) :
    broadcastTo ⟨2, ![m, n]⟩ y h (ix2 r t) = y (ix2 (0 : Fin 1) t) := by
  refine broadcastTo_apply y h (ix2 r t) (ix2 (0 : Fin 1) t) ?_
  intro a
  match a with
  | ⟨0, _⟩ =>
    show (0 : ℕ) = if (1 : ℕ) = 1 then 0 else _
    simp
  | ⟨1, _⟩ =>
    show t.val = if n = 1 then 0 else t.val
    split_ifs with hn
    · have := t.isLt; omega
    · rfl

/-- Two ten-column matrices side by side, read at (r, q): the first one's column q below ten, the second one's
    column q - 10 from ten on. -/
theorem cat10_apply {m : Nat} (h : Shape.Concatenates [(⟨2, ![m, 10]⟩ : Shape), ⟨2, ![m, 10]⟩] ⟨2, ![m, 20]⟩ 1)
    (x y : (⟨2, ![m, 10]⟩ : Shape).Idx → EReal) (r : Fin m) (q : Fin 20) :
    concatenate ⟨2, ![m, 20]⟩ 1 [⟨⟨2, ![m, 10]⟩, x⟩, ⟨⟨2, ![m, 10]⟩, y⟩] h (ix2 r q)
      = if hq : q.val < 10 then x (ix2 r ⟨q.val, hq⟩) else y (ix2 r ⟨q.val - 10, by omega⟩) := by
  split
  · rename_i hq
    refine concatenate_pair_apply_left 1 x y h (ix2 r q) rfl (ix2 r ⟨q.val, hq⟩) ?_
    intro b
    match b with
    | ⟨0, _⟩ => rfl
    | ⟨1, _⟩ => rfl
  · rename_i hq
    refine concatenate_pair_apply_right 1 x y h (ix2 r q) rfl rfl (ix2 r ⟨q.val - 10, by omega⟩) ?_ ?_
    · intro b hb
      match b, hb with
      | ⟨0, _⟩, _ => rfl
      | ⟨1, _⟩, hb => exact absurd rfl hb
    · show (q.val - 10) + 10 = q.val
      omega

/-- One edge's score from its two endpoint rows `a` and `b`:
    `logistic (tanh ([a, b] · W1 + b1) · W2 + b2)`, the sums over the twenty and the eight columns. -/
def edgeScore (a b : Fin 10 → EReal) (w1 : (⟨2, ![20, 8]⟩ : Shape).Idx → EReal) (b1 : (⟨2, ![1, 8]⟩ : Shape).Idx → EReal)
    (w2 : (⟨2, ![8, 1]⟩ : Shape).Idx → EReal) (b2 : (⟨2, ![1, 1]⟩ : Shape).Idx → EReal) : EReal :=
  Ideal.logistic ((∑ c : Fin 8, Ideal.tanh ((∑ q : Fin 20,
      (if hq : q.val < 10 then a ⟨q.val, hq⟩ else b ⟨q.val - 10, by omega⟩) * w1 (ix2 q c)) + b1 (ix2 (0 : Fin 1) c))
        * w2 (ix2 c (0 : Fin 1))) + b2 (ix2 (0 : Fin 1) (0 : Fin 1)))

/-! ## The kernel body's result, row by row -/

/-- Row `r` of the body's result is the score of row `r` of its two endpoint blocks. -/
theorem pay7_apply (x0 x1 : Vec Ideal S6400x10 .f32) (w1 : Vec Ideal S20x8 .f32) (b1 : Vec Ideal S1x8 .f32)
    (w2 : Vec Ideal S8x1 .f32) (b2 : Vec Ideal S1x1 .f32) (r : Fin 6400) (z : Fin 1) :
    k7_pay1 x0 x1 w1 b1 w2 b2 (ix2 r z)
      = edgeScore (fun j => x0 (ix2 r j)) (fun j => x1 (ix2 r j)) w1 b1 w2 b2 := by
  obtain rfl : z = 0 := Subsingleton.elim _ _
  unfold k7_pay1 edgeScore
  simp only [shapeCast_self]
  refine congrArg Ideal.logistic (congrArg₂ (· + ·) ?_ ?_)
  · refine (Ideal.matmul_constant_zero_apply _ none _ _ (ix2 r 0)).trans
      ((dot2_sum dot_S6400x8_S8x1_S6400x1_1_0_0_1_n_n_wf _ _ r 0).trans (Finset.sum_congr rfl fun c _ => ?_))
    refine congrArg₂ (· * ·) (congrArg Ideal.tanh (congrArg₂ (· + ·) ?_ ?_)) rfl
    · refine (Ideal.matmul_constant_zero_apply _ none _ _ (ix2 r c)).trans
        ((dot2_sum dot_S6400x20_S20x8_S6400x8_1_0_0_1_n_n_wf _ _ r c).trans (Finset.sum_congr rfl fun q _ => ?_))
      refine congrArg₂ (· * ·) ?_ rfl
      show concatenate S6400x20 1 [⟨S6400x10, shapeCast S6400x10 x0 shapeCasts_S6400x10_S6400x10⟩,
        ⟨S6400x10, shapeCast S6400x10 x1 shapeCasts_S6400x10_S6400x10⟩] concatenates_S6400x10_S6400x10_S6400x20_d1 (ix2 r q) = _
      rw [shapeCast_self x0, shapeCast_self x1]
      exact cat10_apply concatenates_S6400x10_S6400x10_S6400x20_d1 x0 x1 r q
    · exact broadcastTo_oneRow_apply _ b1 r c
  · exact broadcastTo_oneRow_apply _ b2 r 0

/-! ## The specification's score, edge by edge -/

/-- The constant one is the extended real one. -/
theorem edgeOne_apply (i : Cert.ReferenceIdeal.S4000000x1.Idx) : Cert.Spec.edgeOne i = 1 := by
  show Ideal.ofBits .f32 0x3F800000#32 = 1
  exact Ideal.ofBits_one_f32

/-- Edge `n`'s entry of the specification's score is the score of row `n` of the two endpoint arrays. -/
theorem gate_apply (xc xr : Cert.Spec.FA Cert.ReferenceIdeal.S4000000x10) (w1 : Cert.Spec.FA Cert.ReferenceIdeal.S20x8)
    (b1 : Cert.Spec.FA Cert.ReferenceIdeal.S1x8) (w2 : Cert.Spec.FA Cert.ReferenceIdeal.S8x1)
    (b2 : Cert.Spec.FA Cert.ReferenceIdeal.S1x1) (n : Fin 4000000) (z : Fin 1) :
    Cert.Spec.gate xc xr w1 b1 w2 b2 (ix2 n z)
      = edgeScore (fun j => xc (ix2 n j)) (fun j => xr (ix2 n j)) w1 b1 w2 b2 := by
  obtain rfl : z = 0 := Subsingleton.elim _ _
  unfold Cert.Spec.gate edgeScore Ideal.logistic
  refine congrArg₂ Ideal.div (edgeOne_apply _) (congrArg₂ (· + ·) (edgeOne_apply _)
    (congrArg Ideal.exp (congrArg Neg.neg (congrArg₂ (· + ·) ?_ ?_))))
  · refine (Ideal.dotGeneral_apply _ none _ _ _ (ix2 n 0)).trans
      ((dot2_sum Cert.ReferenceIdeal.Gen.dot_S4000000x8_S8x1_S4000000x1_1_0_0_1_n_n_wf _ _ n 0).trans
        (Finset.sum_congr rfl fun c _ => ?_))
    refine congrArg₂ (· * ·) (congrArg Ideal.tanh (congrArg₂ (· + ·) ?_ ?_)) rfl
    · refine (Ideal.dotGeneral_apply _ none _ _ _ (ix2 n c)).trans
        ((dot2_sum Cert.ReferenceIdeal.Gen.dot_S4000000x20_S20x8_S4000000x8_1_0_0_1_n_n_wf _ _ n c).trans
          (Finset.sum_congr rfl fun q _ => ?_))
      exact congrArg₂ (· * ·)
        (cat10_apply Cert.ReferenceIdeal.Gen.concatenates_S4000000x10_S4000000x10_S4000000x20_d1 xc xr n q) rfl
    · exact broadcastInDim_oneRow_apply Cert.ReferenceIdeal.Gen.bcast_S1x8_S4000000x8_0_1 b1 n c
  · exact broadcastInDim_oneRow_apply Cert.ReferenceIdeal.Gen.bcast_S1x1_S4000000x1_0_1 b2 n 0

/-- The body's result at row `r` of a block is the specification's score at edge `n` whenever the blocks' row `r`
    is the arrays' row `n`. -/
theorem pay7_eq_gate (x0 x1 : Vec Ideal S6400x10 .f32) (xc xr : Cert.Spec.FA Cert.ReferenceIdeal.S4000000x10)
    (w1 : Vec Ideal S20x8 .f32) (b1 : Vec Ideal S1x8 .f32) (w2 : Vec Ideal S8x1 .f32) (b2 : Vec Ideal S1x1 .f32)
    (r : Fin 6400) (n : Fin 4000000) (z z' : Fin 1)
    (h0 : ∀ j : Fin 10, x0 (ix2 r j) = xc (ix2 n j)) (h1 : ∀ j : Fin 10, x1 (ix2 r j) = xr (ix2 n j)) :
    k7_pay1 x0 x1 w1 b1 w2 b2 (ix2 r z) = Cert.Spec.gate xc xr w1 b1 w2 b2 (ix2 n z') := by
  rw [pay7_apply, gate_apply, funext h0, funext h1]

/-- The same at any index of a block and any index of the arrays, with the weights named apart: the body's result at
    an entry of row `j 0` is the specification's score at an entry of edge `i 0` whenever the endpoint blocks' row
    `j 0` is the endpoint arrays' row `i 0` and the weights are the same. -/
theorem pay7_eq_gate_at (x0 x1 : Vec Ideal S6400x10 .f32) (xc xr : Cert.Spec.FA Cert.ReferenceIdeal.S4000000x10)
    (w1 : Vec Ideal S20x8 .f32) (w1' : Cert.Spec.FA Cert.ReferenceIdeal.S20x8)
    (b1 : Vec Ideal S1x8 .f32) (b1' : Cert.Spec.FA Cert.ReferenceIdeal.S1x8)
    (w2 : Vec Ideal S8x1 .f32) (w2' : Cert.Spec.FA Cert.ReferenceIdeal.S8x1)
    (b2 : Vec Ideal S1x1 .f32) (b2' : Cert.Spec.FA Cert.ReferenceIdeal.S1x1)
    (j : S6400x1.Idx) (i : Cert.ReferenceIdeal.S4000000x1.Idx)
    (h0 : ∀ q : Fin 10, x0 (ix2 (j 0) q) = xc (ix2 (i 0) q)) (h1 : ∀ q : Fin 10, x1 (ix2 (j 0) q) = xr (ix2 (i 0) q))
    (e1 : w1 = w1') (e2 : b1 = b1') (e3 : w2 = w2') (e4 : b2 = b2') :
    k7_pay1 x0 x1 w1 b1 w2 b2 j = Cert.Spec.gate xc xr w1' b1' w2' b2' i := by
  subst e1 e2 e3 e4
  rw [eq_ix2 j, eq_ix2 i]
  exact pay7_eq_gate x0 x1 xc xr w1 b1 w2 b2 (j 0) (i 0) (j 1) (i 1) h0 h1

/-! ## From blocks to the array -/

theorem hz7 : (![0, 0] : Fin 2 → Nat) = fun _ => 0 := funext fun a => by fin_cases a <;> rfl

/-- The block index maps over the grid: point `t` takes block `t` of rows of the two endpoint arrays and of the
    output column, and the one block of each weight. -/
theorem idx7 : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = 0 ∧ win7_2.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = 0 ∧ win7_5.index t (1 : Fin 2) = 0)
    ∧ (win7_6.index t (0 : Fin 2) = t.val ∧ win7_6.index t (1 : Fin 2) = 0) :=
  (by decide +kernel : ∀ t : Fin grid7.N, _)

/-- Row `x 0` of point `t`'s block of the `col` endpoint rows is row `6400 t + x 0` of the array. -/
theorem iblk7_0_apply (V : Entry) (c : Dev nD) (t : Fin cfg7.N) (x : S6400x10.Idx) (k : S4000000x10.Idx)
    (hk0 : (k 0).val = 6400 * t.val + (x 0).val) (hk1 : (k 1).val = (x 1).val) :
    (iblk7 V c 0 t : Vec Ideal S6400x10 .f32) x = (V c main_v54 : S4000000x10.Idx → Elt Ideal .f32) k := by
  obtain ⟨⟨e0, e1⟩, -⟩ := idx7 t
  unfold iblk7
  rw [View.read_apply]
  show V c main_v54 _ = V c main_v54 _
  congr 1
  funext a
  apply Fin.ext
  match a with
  | ⟨0, _⟩ => show win7_0.index t 0 * 6400 + 1 * (x 0).val = (k 0).val; rw [e0, hk0]; omega
  | ⟨1, _⟩ => show win7_0.index t 1 * 10 + 1 * (x 1).val = (k 1).val; rw [e1, hk1]; omega

theorem iblk7_1_apply (V : Entry) (c : Dev nD) (t : Fin cfg7.N) (x : S6400x10.Idx) (k : S4000000x10.Idx)
    (hk0 : (k 0).val = 6400 * t.val + (x 0).val) (hk1 : (k 1).val = (x 1).val) :
    (iblk7 V c 1 t : Vec Ideal S6400x10 .f32) x = (V c main_v55 : S4000000x10.Idx → Elt Ideal .f32) k := by
  obtain ⟨-, ⟨e0, e1⟩, -⟩ := idx7 t
  unfold iblk7
  rw [View.read_apply]
  show V c main_v55 _ = V c main_v55 _
  congr 1
  funext a
  apply Fin.ext
  match a with
  | ⟨0, _⟩ => show win7_1.index t 0 * 6400 + 1 * (x 0).val = (k 0).val; rw [e0, hk0]; omega
  | ⟨1, _⟩ => show win7_1.index t 1 * 10 + 1 * (x 1).val = (k 1).val; rw [e1, hk1]; omega

theorem iblk7_2_eq (V : Entry) (c : Dev nD) (t : Fin cfg7.N) :
    (iblk7 V c 2 t : Vec Ideal S20x8 .f32) = (V c main_arg4 : S20x8.Idx → Elt Ideal .f32) := by
  obtain ⟨-, -, ⟨e0, e1⟩, -⟩ := idx7 t
  funext x
  unfold iblk7
  rw [View.read_apply]
  show V c main_arg4 _ = V c main_arg4 x
  congr 1
  funext a
  apply Fin.ext
  match a with
  | ⟨0, _⟩ => show win7_2.index t 0 * 20 + 1 * (x 0).val = (x 0).val; rw [e0]; omega
  | ⟨1, _⟩ => show win7_2.index t 1 * 8 + 1 * (x 1).val = (x 1).val; rw [e1]; omega
theorem iblk7_3_eq (V : Entry) (c : Dev nD) (t : Fin cfg7.N) :
    (iblk7 V c 3 t : Vec Ideal S1x8 .f32) = (V c main_v56 : S1x8.Idx → Elt Ideal .f32) := by
  obtain ⟨-, -, -, ⟨e0, e1⟩, -⟩ := idx7 t
  funext x
  unfold iblk7
  rw [View.read_apply]
  show V c main_v56 _ = V c main_v56 x
  congr 1
  funext a
  apply Fin.ext
  match a with
  | ⟨0, _⟩ => show win7_3.index t 0 * 1 + 1 * (x 0).val = (x 0).val; rw [e0]; omega
  | ⟨1, _⟩ => show win7_3.index t 1 * 8 + 1 * (x 1).val = (x 1).val; rw [e1]; omega
theorem iblk7_4_eq (V : Entry) (c : Dev nD) (t : Fin cfg7.N) :
    (iblk7 V c 4 t : Vec Ideal S8x1 .f32) = (V c main_arg6 : S8x1.Idx → Elt Ideal .f32) := by
  obtain ⟨-, -, -, -, ⟨e0, e1⟩, -⟩ := idx7 t
  funext x
  unfold iblk7
  rw [View.read_apply]
  show V c main_arg6 _ = V c main_arg6 x
  congr 1
  funext a
  apply Fin.ext
  match a with
  | ⟨0, _⟩ => show win7_4.index t 0 * 8 + 1 * (x 0).val = (x 0).val; rw [e0]; omega
  | ⟨1, _⟩ => show win7_4.index t 1 * 1 + 1 * (x 1).val = (x 1).val; rw [e1]; omega
theorem iblk7_5_eq (V : Entry) (c : Dev nD) (t : Fin cfg7.N) :
    (iblk7 V c 5 t : Vec Ideal S1x1 .f32) = (V c main_v57 : S1x1.Idx → Elt Ideal .f32) := by
  obtain ⟨-, -, -, -, -, ⟨e0, e1⟩, -⟩ := idx7 t
  funext x
  unfold iblk7
  rw [View.read_apply]
  show V c main_v57 _ = V c main_v57 x
  congr 1
  funext a
  apply Fin.ext
  match a with
  | ⟨0, _⟩ => show win7_5.index t 0 * 1 + 1 * (x 0).val = (x 0).val; rw [e0]; omega
  | ⟨1, _⟩ => show win7_5.index t 1 * 1 + 1 * (x 1).val = (x 1).val; rw [e1]; omega

/-- Every edge's score from the arrays the region is entered at. -/
abbrev gate7 (V : Entry) (c : Dev nD) : S4000000x1.Idx → Elt Ideal .f32 :=
  Cert.Spec.gate (V c main_v54) (V c main_v55) (V c main_arg4) (V c main_v56) (V c main_arg6) (V c main_v57)

/-- What point `t` writes back is block `t` of the scores. -/
theorem flushed7_eq (V : Entry) (c : Dev nD) (t : Fin cfg7.N) :
    (dat7 (F := Ideal) V c).flushed 6 t = ((cfg7.win 6).blk t).view.read (Elt Ideal) (gate7 V c) := by
  show (cfg7.win 6).cut (grid7.coords t) ((dat7 V c).after 6 t) = _
  rw [after7_6]
  unfold out7_6
  rw [View.canon_unit_zero hz7]
  simp only [View.ld_unit_zero (S := S6400x10) hz7, View.ld_unit_zero (S := S20x8) hz7, View.ld_unit_zero (S := S1x8) hz7,
    View.ld_unit_zero (S := S8x1) hz7, View.ld_unit_zero (S := S1x1) hz7]
  obtain ⟨-, -, -, -, -, -, ⟨e0, e1⟩⟩ := idx7 t
  funext j
  show k7_pay1 (iblk7 V c 0 t) (iblk7 V c 1 t) (iblk7 V c 2 t) (iblk7 V c 3 t) (iblk7 V c 4 t) (iblk7 V c 5 t) j
    = gate7 V c (((cfg7.win 6).blk t).view.emb j)
  have hr : ((((cfg7.win 6).blk t).view.emb j) 0).val = 6400 * t.val + (j 0).val := by
    show win7_6.index t 0 * 6400 + 1 * (j 0).val = _
    rw [e0]; omega
  exact pay7_eq_gate_at (iblk7 V c 0 t) (iblk7 V c 1 t) (V c main_v54) (V c main_v55) (iblk7 V c 2 t) (V c main_arg4)
    (iblk7 V c 3 t) (V c main_v56) (iblk7 V c 4 t) (V c main_arg6) (iblk7 V c 5 t) (V c main_v57) j
    (((cfg7.win 6).blk t).view.emb j)
    (fun q => iblk7_0_apply V c t (ix2 (j 0) q) (ix2 ((((cfg7.win 6).blk t).view.emb j) 0) q) hr rfl)
    (fun q => iblk7_1_apply V c t (ix2 (j 0) q) (ix2 ((((cfg7.win 6).blk t).view.emb j) 0) q) hr rfl)
    (iblk7_2_eq V c t) (iblk7_3_eq V c t) (iblk7_4_eq V c t) (iblk7_5_eq V c t)

/-- An index of the output column is in point `t`'s block iff each coordinate is in the block's range on its axis. -/
theorem mem_blk7 (t : Fin cfg7.N) (i : S4000000x1.Idx) :
    i ∈ ((cfg7.win 6).blk t).view.set ↔ ∀ a : Fin 2, win7_6.index t a * S6400x1.size a ≤ (i a).val
      ∧ (i a).val < win7_6.index t a * S6400x1.size a + S6400x1.size a := by
  show i ∈ ((View.whole main_v58).slice (win7_6.rect t)).set ↔ _
  rw [View.set_slice_whole, Rect.mem_set_unit]
  exact Iff.rfl

/-- Edge `n` is written by point `n / 6400`: the 625 blocks of 6400 rows tile the four million edges. -/
theorem cover7 (i : S4000000x1.Idx) :
    ∃ t : Fin cfg7.N, (cfg7.win 6).flush t = true ∧ i ∈ ((cfg7.win 6).blk t).view.set := by
  have hi0 : (i 0).val < 4000000 := (i 0).isLt
  have hi1 : (i 1).val < 1 := (i 1).isLt
  have hN : cfg7.N = 625 := N_7
  obtain ⟨t, ht⟩ : ∃ t : Fin cfg7.N, t.val = (i 0).val / 6400 := ⟨⟨(i 0).val / 6400, by rw [hN]; omega⟩, rfl⟩
  obtain ⟨-, -, -, -, -, -, ⟨e0, e1⟩⟩ := idx7 t
  refine ⟨t, flush7_6 t, ?_⟩
  rw [mem_blk7]
  intro a
  match a with
  | ⟨0, _⟩ =>
    show win7_6.index t 0 * 6400 ≤ (i 0).val ∧ (i 0).val < win7_6.index t 0 * 6400 + 6400
    rw [e0, ht]; omega
  | ⟨1, _⟩ =>
    show win7_6.index t 1 * 1 ≤ (i 1).val ∧ (i 1).val < win7_6.index t 1 * 1 + 1
    rw [e1]; omega

end Cert.KernelIdeal.EdgeOnly

namespace Cert.KernelIdeal.Value

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.EdgeOnly

/-- After the region the output column holds every edge's score. -/
theorem arr7 (V : Entry) (c : Dev nD) :
    (dat7 (F := Ideal) V c).arrAt 6 cfg7.N
      = Cert.Spec.gate (V c main_v54) (V c main_v55) (V c main_arg4) (V c main_v56) (V c main_arg6) (V c main_v57) := by
  exact (dat7 (F := Ideal) V c).arrAt_eq_of_cover 6 (gate7 V c) (fun t _ => flushed7_eq V c t) cover7

end Cert.KernelIdeal.Value

end
-- ==== Proof.TakeStretch4.lean ====
/-
  A guarded gather stretch: twenty-three host operations that wrap the node ids, test them against the table's
  bounds, gather the rows and select between the gathered row and the fill value.  Run from ANY buffer contents, the
  stretch leaves in its result buffer the guarded gather `ktake` of the table's buffer and the ids' buffer.
-/
import proofs.«426732_j67937792688144_3_alg».proof.Proof.Gen.KernelIdeal.Frame
import proofs.«426732_j67937792688144_3_alg».proof.Proof.HostGlue
import Idealize.ShloMosaic.Lib.StableHlo.Run
set_option maxRecDepth 16384

noncomputable section

namespace Cert.KernelIdeal.Value

open Idealize.ShloMosaic Idealize.ShloMosaic.TcCoe Idealize.ShloMosaic.Tactic
open Idealize.SL Idealize.SL.Sem
open Cert.KernelIdeal Cert.KernelIdeal.Gen

/-- A typed reference's two transports cancel. -/
theorem tref_ofBuf_toBuf4 {T : BufTy} (x : StableHlo.TRef sig T) (v : T.Contents (Elt Ideal)) : x.ofBuf (x.toBuf v) = v := by
  simp only [StableHlo.TRef.ofBuf, StableHlo.TRef.toBuf, cast_cast, cast_eq]

/-- The guarded gather stretch over the `col` ids, from any contents: the result buffer holds `ktake` of the table's
    and the ids' buffers. -/
theorem take_col4 (Wp : Valuation τ sig (Elt Ideal)) :
    StableHlo.after (hostOps7 (F := Ideal)) Wp (Proc.devRef .tc main_v54)
      = ktake (Wp (Proc.devRef .tc main_v53)) (Wp (Proc.devRef .tc main_v3)) := by
  have e3 : (StableHlo.TRef.of main_v3 (by rfl) (by decide) (by rfl) : StableHlo.TRef sig ⟨S4000000, .i32⟩).ofBuf
      (Wp (Proc.devRef .tc main_v3)) = Wp (Proc.devRef .tc main_v3) := rfl
  have e5 : (StableHlo.TRef.of main_v53 (by rfl) (by decide) (by rfl) : StableHlo.TRef sig ⟨S500000x10, .f32⟩).ofBuf
      (Wp (Proc.devRef .tc main_v53)) = Wp (Proc.devRef .tc main_v53) := rfl
  have e6 : ∀ v : (⟨S4000000x10, .f32⟩ : BufTy).Contents (Elt Ideal),
      (StableHlo.TRef.of main_v54 (by rfl) (by decide) (by rfl) : StableHlo.TRef sig ⟨S4000000x10, .f32⟩).toBuf v = v := fun _ => rfl
  after_results_simp
  simp only [tref_ofBuf_toBuf4]
  rw [e3, e5, e6]
  unfold ktake ktakeMask ktakeIdx
  rfl

/-- The guarded gather stretch over the `row` ids, from any contents. -/
theorem take_row4 (Wp : Valuation τ sig (Elt Ideal)) :
    StableHlo.after (hostOps7_1 (F := Ideal)) Wp (Proc.devRef .tc main_v55)
      = ktake (Wp (Proc.devRef .tc main_v53)) (Wp (Proc.devRef .tc main_v1)) := by
  have e1 : (StableHlo.TRef.of main_v1 (by rfl) (by decide) (by rfl) : StableHlo.TRef sig ⟨S4000000, .i32⟩).ofBuf
      (Wp (Proc.devRef .tc main_v1)) = Wp (Proc.devRef .tc main_v1) := rfl
  have e5 : (StableHlo.TRef.of main_v53 (by rfl) (by decide) (by rfl) : StableHlo.TRef sig ⟨S500000x10, .f32⟩).ofBuf
      (Wp (Proc.devRef .tc main_v53)) = Wp (Proc.devRef .tc main_v53) := rfl
  have e7 : ∀ v : (⟨S4000000x10, .f32⟩ : BufTy).Contents (Elt Ideal),
      (StableHlo.TRef.of main_v55 (by rfl) (by decide) (by rfl) : StableHlo.TRef sig ⟨S4000000x10, .f32⟩).toBuf v = v := fun _ => rfl
  after_results_simp
  simp only [tref_ofBuf_toBuf4]
  rw [e1, e5, e7]
  unfold ktake ktakeMask ktakeIdx
  rfl

end Cert.KernelIdeal.Value

end
-- ==== Proof.ChainFinal.lean ====
/-
  From the third node call's exit to the return: two guarded gathers, the last pallas_call, and the reshape of its
  column to a vector.
-/
import proofs.«426732_j67937792688144_3_alg».proof.Proof.Gen.KernelIdeal.Frame
import proofs.«426732_j67937792688144_3_alg».proof.Proof.Spec
import proofs.«426732_j67937792688144_3_alg».proof.Proof.ChainDefs
import proofs.«426732_j67937792688144_3_alg».proof.Proof.HostGlue
import proofs.«426732_j67937792688144_3_alg».proof.Proof.RegionEdgeOnly
import proofs.«426732_j67937792688144_3_alg».proof.Proof.TakeStretch4
set_option maxRecDepth 16384

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

/-- A stretch of host operations leaves a buffer that none of them writes as it was. -/
local macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

section Host

/-! ## The host stretches, from any contents `Wp` -/

variable (Wp : Valuation τ sig (Elt Ideal))

/-- The two bias vectors reshaped to rows, and the score column reshaped to a vector. -/
theorem host72_v56 :
    StableHlo.after (hostOps7_2 (F := Ideal)) Wp (Proc.devRef .tc main_v56)
      = shapeCast S1x8 (Wp (Proc.devRef .tc main_arg5) : FVec Ideal S8 .f32) shapeCasts_S8_S1x8 := by
  after_results
  rfl
theorem host72_v57 :
    StableHlo.after (hostOps7_2 (F := Ideal)) Wp (Proc.devRef .tc main_v57)
      = shapeCast S1x1 (Wp (Proc.devRef .tc main_arg7) : FVec Ideal S1 .f32) shapeCasts_S1_S1x1 := by
  after_results
  rfl
theorem host8_v59 :
    StableHlo.after (hostOps8 (F := Ideal)) Wp (Proc.devRef .tc main_v59)
      = shapeCast S4000000 (Wp (Proc.devRef .tc main_v58) : FVec Ideal S4000000x1 .f32) shapeCasts_S4000000x1_S4000000 := by
  after_results
  rfl

/-- The first gather writes neither the node features, nor the `row` ids, nor an argument. -/
theorem k7_v53 : StableHlo.after (hostOps7 (F := Ideal)) Wp (Proc.devRef .tc main_v53) = Wp (Proc.devRef .tc main_v53) := by
  host_keeps hostOps7
theorem k7_v1 : StableHlo.after (hostOps7 (F := Ideal)) Wp (Proc.devRef .tc main_v1) = Wp (Proc.devRef .tc main_v1) := by
  host_keeps hostOps7
theorem k7_arg4 : StableHlo.after (hostOps7 (F := Ideal)) Wp (Proc.devRef .tc main_arg4) = Wp (Proc.devRef .tc main_arg4) := by
  host_keeps hostOps7
theorem k7_arg5 : StableHlo.after (hostOps7 (F := Ideal)) Wp (Proc.devRef .tc main_arg5) = Wp (Proc.devRef .tc main_arg5) := by
  host_keeps hostOps7
theorem k7_arg6 : StableHlo.after (hostOps7 (F := Ideal)) Wp (Proc.devRef .tc main_arg6) = Wp (Proc.devRef .tc main_arg6) := by
  host_keeps hostOps7
theorem k7_arg7 : StableHlo.after (hostOps7 (F := Ideal)) Wp (Proc.devRef .tc main_arg7) = Wp (Proc.devRef .tc main_arg7) := by
  host_keeps hostOps7

/-- The second gather writes neither the first one's result nor an argument. -/
theorem k71_v54 : StableHlo.after (hostOps7_1 (F := Ideal)) Wp (Proc.devRef .tc main_v54) = Wp (Proc.devRef .tc main_v54) := by
  host_keeps hostOps7_1
theorem k71_arg4 : StableHlo.after (hostOps7_1 (F := Ideal)) Wp (Proc.devRef .tc main_arg4) = Wp (Proc.devRef .tc main_arg4) := by
  host_keeps hostOps7_1
theorem k71_arg5 : StableHlo.after (hostOps7_1 (F := Ideal)) Wp (Proc.devRef .tc main_arg5) = Wp (Proc.devRef .tc main_arg5) := by
  host_keeps hostOps7_1
theorem k71_arg6 : StableHlo.after (hostOps7_1 (F := Ideal)) Wp (Proc.devRef .tc main_arg6) = Wp (Proc.devRef .tc main_arg6) := by
  host_keeps hostOps7_1
theorem k71_arg7 : StableHlo.after (hostOps7_1 (F := Ideal)) Wp (Proc.devRef .tc main_arg7) = Wp (Proc.devRef .tc main_arg7) := by
  host_keeps hostOps7_1

/-- The two reshapes write neither gather's result nor a weight matrix. -/
theorem k72_v54 : StableHlo.after (hostOps7_2 (F := Ideal)) Wp (Proc.devRef .tc main_v54) = Wp (Proc.devRef .tc main_v54) := by
  host_keeps hostOps7_2
theorem k72_v55 : StableHlo.after (hostOps7_2 (F := Ideal)) Wp (Proc.devRef .tc main_v55) = Wp (Proc.devRef .tc main_v55) := by
  host_keeps hostOps7_2
theorem k72_arg4 : StableHlo.after (hostOps7_2 (F := Ideal)) Wp (Proc.devRef .tc main_arg4) = Wp (Proc.devRef .tc main_arg4) := by
  host_keeps hostOps7_2
theorem k72_arg6 : StableHlo.after (hostOps7_2 (F := Ideal)) Wp (Proc.devRef .tc main_arg6) = Wp (Proc.devRef .tc main_arg6) := by
  host_keeps hostOps7_2

end Host

variable (m : (ℓ : Loc nD τ sig) → Buf (Elt Ideal) ℓ) (ρ : Dev nD → PrngReg)

theorem final (c : Dev nD) (a : Cert.Spec.Args) (xc : Cert.Spec.FA Cert.ReferenceIdeal.S500000x10)
    (hI : Inv (W20 m ρ c) a) (hx : W20 m ρ c (Proc.devRef .tc main_v53) = xc) (hr : Cert.Spec.InRange a) :
    W25 m ρ c (Proc.devRef .tc main_v59)
      = shapeCast Cert.ReferenceIdeal.S4000000 (Cert.Spec.score a xc) Cert.ReferenceIdeal.Gen.shapeCasts_S4000000x1_S4000000 := by
  -- what the last call's six input arrays hold when it is entered
  have e54 : V23 m ρ c main_v54 = Cert.Spec.rows xc a.col :=
    calc V23 m ρ c main_v54
      _ = W22 m ρ c (Proc.devRef .tc main_v54) := k72_v54 _
      _ = W21 m ρ c (Proc.devRef .tc main_v54) := k71_v54 _
      _ = ktake (W20 m ρ c (Proc.devRef .tc main_v53)) (W20 m ρ c (Proc.devRef .tc main_v3)) := take_col4 _
      _ = ktake xc a.col := by rw [hx, hI.col]
      _ = Cert.Spec.rows xc a.col := ktake_eq xc a.col hr.col
  have e55 : V23 m ρ c main_v55 = Cert.Spec.rows xc a.row :=
    calc V23 m ρ c main_v55
      _ = W22 m ρ c (Proc.devRef .tc main_v55) := k72_v55 _
      _ = ktake (W21 m ρ c (Proc.devRef .tc main_v53)) (W21 m ρ c (Proc.devRef .tc main_v1)) := take_row4 _
      _ = ktake (W20 m ρ c (Proc.devRef .tc main_v53)) (W20 m ρ c (Proc.devRef .tc main_v1)) := by
            rw [show W21 m ρ c (Proc.devRef .tc main_v53) = W20 m ρ c (Proc.devRef .tc main_v53) from k7_v53 _,
              show W21 m ρ c (Proc.devRef .tc main_v1) = W20 m ρ c (Proc.devRef .tc main_v1) from k7_v1 _]
      _ = ktake xc a.row := by rw [hx, hI.row]
      _ = Cert.Spec.rows xc a.row := ktake_eq xc a.row hr.row
  have e4 : V23 m ρ c main_arg4 = a.e1_w :=
    calc V23 m ρ c main_arg4
      _ = W22 m ρ c (Proc.devRef .tc main_arg4) := k72_arg4 _
      _ = W21 m ρ c (Proc.devRef .tc main_arg4) := k71_arg4 _
      _ = W20 m ρ c (Proc.devRef .tc main_arg4) := k7_arg4 _
      _ = a.e1_w := hI.e1_w
  have e6 : V23 m ρ c main_arg6 = a.e2_w :=
    calc V23 m ρ c main_arg6
      _ = W22 m ρ c (Proc.devRef .tc main_arg6) := k72_arg6 _
      _ = W21 m ρ c (Proc.devRef .tc main_arg6) := k71_arg6 _
      _ = W20 m ρ c (Proc.devRef .tc main_arg6) := k7_arg6 _
      _ = a.e2_w := hI.e2_w
  have b5 : W22 m ρ c (Proc.devRef .tc main_arg5) = a.e1_b :=
    calc W22 m ρ c (Proc.devRef .tc main_arg5)
      _ = W21 m ρ c (Proc.devRef .tc main_arg5) := k71_arg5 _
      _ = W20 m ρ c (Proc.devRef .tc main_arg5) := k7_arg5 _
      _ = a.e1_b := hI.e1_b
  have b7 : W22 m ρ c (Proc.devRef .tc main_arg7) = a.e2_b :=
    calc W22 m ρ c (Proc.devRef .tc main_arg7)
      _ = W21 m ρ c (Proc.devRef .tc main_arg7) := k71_arg7 _
      _ = W20 m ρ c (Proc.devRef .tc main_arg7) := k7_arg7 _
      _ = a.e2_b := hI.e2_b
  have e56 : V23 m ρ c main_v56 = Cert.Spec.row8 a.e1_b :=
    calc V23 m ρ c main_v56
      _ = shapeCast S1x8 (W22 m ρ c (Proc.devRef .tc main_arg5) : FVec Ideal S8 .f32) shapeCasts_S8_S1x8 := host72_v56 _
      _ = shapeCast S1x8 (a.e1_b : FVec Ideal S8 .f32) shapeCasts_S8_S1x8 := by rw [b5]
      _ = Cert.Spec.row8 a.e1_b := reshape_row8 _
  have e57 : V23 m ρ c main_v57 = Cert.Spec.row1 a.e2_b :=
    calc V23 m ρ c main_v57
      _ = shapeCast S1x1 (W22 m ρ c (Proc.devRef .tc main_arg7) : FVec Ideal S1 .f32) shapeCasts_S1_S1x1 := host72_v57 _
      _ = shapeCast S1x1 (a.e2_b : FVec Ideal S1 .f32) shapeCasts_S1_S1x1 := by rw [b7]
      _ = Cert.Spec.row1 a.e2_b := reshape_row1 _
  -- the last call's output column, then its reshape
  have e58 : W24 m ρ c (Proc.devRef .tc main_v58) = Cert.Spec.score a xc :=
    calc W24 m ρ c (Proc.devRef .tc main_v58)
      _ = Cert.Spec.gate (V23 m ρ c main_v54) (V23 m ρ c main_v55) (V23 m ρ c main_arg4) (V23 m ρ c main_v56)
            (V23 m ρ c main_arg6) (V23 m ρ c main_v57) := (W24_arr m ρ c 6).trans (arr7 (V23 m ρ) c)
      _ = Cert.Spec.gate (Cert.Spec.rows xc a.col) (Cert.Spec.rows xc a.row) a.e1_w (Cert.Spec.row8 a.e1_b) a.e2_w
            (Cert.Spec.row1 a.e2_b) := by rw [e54, e55, e4, e56, e6, e57]
      _ = Cert.Spec.score a xc := rfl
  calc W25 m ρ c (Proc.devRef .tc main_v59)
    _ = shapeCast S4000000 (W24 m ρ c (Proc.devRef .tc main_v58) : FVec Ideal S4000000x1 .f32) shapeCasts_S4000000x1_S4000000 :=
          host8_v59 _
    _ = shapeCast S4000000 (Cert.Spec.score a xc : FVec Ideal S4000000x1 .f32) shapeCasts_S4000000x1_S4000000 := by rw [e58]
    _ = _ := rfl

end Cert.KernelIdeal.Value

end
-- ==== Proof.KernelValue.lean ====
/-
  The idealized kernel's result as the specification's function of the arguments: the input layer's call, three rounds,
  the last edge call and the reshape, composed along the boundaries of @main.  The precondition enters once, as the
  range of the node ids, which every guarded gather of the program needs.
-/
import proofs.«426732_j67937792688144_3_alg».proof.Proof.Gen.KernelIdeal.Frame
import proofs.«426732_j67937792688144_3_alg».proof.Proof.Spec
import proofs.«426732_j67937792688144_3_alg».proof.Proof.ChainStart
import proofs.«426732_j67937792688144_3_alg».proof.Proof.ChainIter1
import proofs.«426732_j67937792688144_3_alg».proof.Proof.ChainIter2
import proofs.«426732_j67937792688144_3_alg».proof.Proof.ChainIter3
import proofs.«426732_j67937792688144_3_alg».proof.Proof.ChainFinal
set_option maxRecDepth 16384

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- With the node ids in range, the result buffer at the last boundary holds `Spec.out` of the launch's arguments. -/
theorem kernel_value (c : Dev nD) (hr : Cert.Spec.InRange (argsOf m c)) :
    W25 m ρ c (Proc.devRef .tc main_v59) = Cert.Spec.out (argsOf m c) := by
  obtain ⟨hI2, hx2⟩ := start m ρ c
  obtain ⟨hI8, hx8⟩ := iter1 m ρ c _ _ hI2 hx2 hr
  obtain ⟨hI14, hx14⟩ := iter2 m ρ c _ _ hI8 hx8 hr
  obtain ⟨hI20, hx20⟩ := iter3 m ρ c _ _ hI14 hx14 hr
  exact final m ρ c _ _ hI20 hx20 hr

end Cert.KernelIdeal.Value

end
-- ==== Proof.PreRange.lean ====
/-
  What the precondition says of the edge list: its last two conjuncts are `0 ≤ id` and `id < 500000` for every entry of
  the `[2, 4000000]` array, so both of its rows hold node ids in range.
-/
import proofs.«426732_j67937792688144_3_alg».proof.Proof.Gen.Pre_finite_inputs
import proofs.«426732_j67937792688144_3_alg».proof.Proof.Spec
import Idealize.ShloMosaic.Lib.ReduceAll

noncomputable section

namespace Cert.Spec

open Idealize.ShloMosaic Idealize.SL.Sem

/-- The tail of the predicate is a conjunction whose last two conjuncts are `all (0 ≤ id)` and `all (id < 500000)`
    over the edge list: if it is one, every entry, read signed, lies in `[0, 500000)`. The float conjuncts before them
    play no part, so this holds over any float model. -/
theorem inRange_entry_of_part3 [Cert.Pre_finite_inputs.Facts] {F : FTy → Type} [FloatOps F]
    (ei : IVec Cert.Pre_finite_inputs.S2x4000000 32) (v48 : IVec Cert.Pre_finite_inputs.S_ 1)
    (v49 v50 : FVec F Cert.Pre_finite_inputs.S8 .f32)
    (h : Cert.Pre_finite_inputs.fn_part3 (F := F) ei v48 v49 v50 = fun _ => 1#1)
    (i : Cert.Pre_finite_inputs.S2x4000000.Idx) : 0 ≤ (ei i).toInt ∧ (ei i).toInt < 500000 := by
  -- the predicate at its one index: a conjunction of bits
  have e := congrFun h (fun d => d.elim0)
  dsimp only [Cert.Pre_finite_inputs.fn_part3, andi] at e
  obtain ⟨e1, hlt⟩ := IntOp.andi_eq_one.1 e
  obtain ⟨-, hge⟩ := IntOp.andi_eq_one.1 e1
  -- an `all` that is one is one at every entry (the scalar shape has one index: the empty tuple)
  haveI : Subsingleton Cert.Pre_finite_inputs.S_.Idx := ⟨fun _ _ => funext fun d => d.elim0⟩
  have gge := Host.reduce_andi_all _ _ _ _ _ hge i
  have glt := Host.reduce_andi_all _ _ _ _ _ hlt i
  -- the two signed comparisons, against the constants 0 and 500000
  have z0 : (0#32 : BitVec 32).toInt = 0 := by decide
  have z5 : (500000#32 : BitVec 32).toInt = 500000 := by decide
  have a0 : (0#32 : BitVec 32).toInt ≤ (ei i).toInt := IntOp.cmpi_sge.1 gge
  have a5 : (ei i).toInt < (500000#32 : BitVec 32).toInt := IntOp.cmpi_slt.1 glt
  rw [z0] at a0
  rw [z5] at a5
  exact ⟨a0, a5⟩

/-- If the precondition's predicate is all ones at the arguments `a`, every node id of the edge list is in range. -/
theorem inRange_of_fn (a : Args)
    (h : Cert.Pre_finite_inputs.fn (F := Ideal) a.x a.ei a.win_w a.win_b a.e1_w a.e1_b a.e2_w a.e2_b a.n1_w a.n1_b a.n2_w a.n2_b
      = fun _ => 1#1) : InRange a := by
  -- the predicate is its last part at the edge list, whatever the earlier conjuncts are
  have key : ∀ i : Cert.Pre_finite_inputs.S2x4000000.Idx, 0 ≤ (a.ei i).toInt ∧ (a.ei i).toInt < 500000 :=
    fun i => inRange_entry_of_part3 a.ei _ _ _ h i
  -- each row of the edge list is the edge list read at some index
  refine ⟨fun e => ?_, fun e => ?_⟩
  · unfold Args.row shapeCast extractStridedSlice
    exact key _
  · unfold Args.col shapeCast extractStridedSlice
    exact key _

end Cert.Spec

end
-- ==== Proof.RefValue.lean ====
/-
  The reference's run read as the specification: its 281 host operations are the input layer, three rounds and the last
  edge score, in the specification's own order, so its result buffer ends at `Spec.out` of its argument arrays.
-/
import proofs.«426732_j67937792688144_3_alg».proof.Proof.Gen.ReferenceIdeal.Run
import proofs.«426732_j67937792688144_3_alg».proof.Proof.Spec

noncomputable section

namespace Cert.ReferenceIdeal.RefValue

open Idealize.ShloMosaic Idealize.ShloMosaic.TcCoe Idealize.SL.Sem
open Cert.ReferenceIdeal Cert.ReferenceIdeal.Gen Cert.ReferenceIdeal.Value

/-- Core `c`'s argument arrays in the launch memory `m`. -/
def argsOf (m : (ℓ : Loc nD τ sig) → Buf (Elt Ideal) ℓ) (c : Dev nD) : Cert.Spec.Args where
  x := m ((c : Thread nD τ).loc main_arg0)
  ei := m ((c : Thread nD τ).loc main_arg1)
  win_w := m ((c : Thread nD τ).loc main_arg2)
  win_b := m ((c : Thread nD τ).loc main_arg3)
  e1_w := m ((c : Thread nD τ).loc main_arg4)
  e1_b := m ((c : Thread nD τ).loc main_arg5)
  e2_w := m ((c : Thread nD τ).loc main_arg6)
  e2_b := m ((c : Thread nD τ).loc main_arg7)
  n1_w := m ((c : Thread nD τ).loc main_arg8)
  n1_b := m ((c : Thread nD τ).loc main_arg9)
  n2_w := m ((c : Thread nD τ).loc main_arg10)
  n2_b := m ((c : Thread nD τ).loc main_arg11)

/-- The argument arrays among any contents `V` of the device's buffers: the same record as `argsOf`, read off the
    contents instead of the launch memory. -/
def argsAt (V : Valuation τ sig (Elt Ideal)) : Cert.Spec.Args where
  x := V (Proc.devRef .tc main_arg0)
  ei := V (Proc.devRef .tc main_arg1)
  win_w := V (Proc.devRef .tc main_arg2)
  win_b := V (Proc.devRef .tc main_arg3)
  e1_w := V (Proc.devRef .tc main_arg4)
  e1_b := V (Proc.devRef .tc main_arg5)
  e2_w := V (Proc.devRef .tc main_arg6)
  e2_b := V (Proc.devRef .tc main_arg7)
  n1_w := V (Proc.devRef .tc main_arg8)
  n1_b := V (Proc.devRef .tc main_arg9)
  n2_w := V (Proc.devRef .tc main_arg10)
  n2_b := V (Proc.devRef .tc main_arg11)

/-- At the launch memory's contents the record is `argsOf`. -/
theorem argsAt_launch (m : (ℓ : Loc nD τ sig) → Buf (Elt Ideal) ℓ) (c : Dev nD) :
    argsAt (StableHlo.launchContents m c) = argsOf m c := rfl

section stages

variable (V : Valuation τ sig (Elt Ideal))

/-! Each named intermediate of the run is one stage of the specification. The run spells a stage out over the
    stages before it; the earlier stages are rewritten to the specification's names first, so what is left to compare
    is one stage's own operations, which the specification writes in the same order. -/

/-- The two rows of the edge list. -/
theorem row_eq : res_main_v1 V = (argsAt V).row := rfl
theorem col_eq : res_main_v3 V = (argsAt V).col := rfl

/-- The input layer. -/
theorem start_eq : res_main_v9 V = Cert.Spec.start (argsAt V) := rfl

/-- The first round: the edge scores of the input layer's features, then the node layers. -/
theorem score1_eq : res_main_v39 V = Cert.Spec.score (argsAt V) (Cert.Spec.start (argsAt V)) := by
  unfold res_main_v39
  rw [start_eq, row_eq, col_eq]
  rfl

theorem step1_eq : res_main_v75 V = Cert.Spec.step (argsAt V) (Cert.Spec.start (argsAt V)) := by
  unfold res_main_v75
  rw [score1_eq, start_eq, row_eq, col_eq]
  rfl

/-- The second round. -/
theorem score2_eq :
    res_main_v105 V = Cert.Spec.score (argsAt V) (Cert.Spec.step (argsAt V) (Cert.Spec.start (argsAt V))) := by
  unfold res_main_v105
  rw [step1_eq, row_eq, col_eq]
  rfl

theorem step2_eq :
    res_main_v141 V = Cert.Spec.step (argsAt V) (Cert.Spec.step (argsAt V) (Cert.Spec.start (argsAt V))) := by
  unfold res_main_v141
  rw [score2_eq, step1_eq, row_eq, col_eq]
  rfl

/-- The third round. -/
theorem score3_eq : res_main_v171 V
    = Cert.Spec.score (argsAt V) (Cert.Spec.step (argsAt V) (Cert.Spec.step (argsAt V) (Cert.Spec.start (argsAt V)))) := by
  unfold res_main_v171
  rw [step2_eq, row_eq, col_eq]
  rfl

theorem step3_eq : res_main_v207 V
    = Cert.Spec.step (argsAt V) (Cert.Spec.step (argsAt V) (Cert.Spec.step (argsAt V) (Cert.Spec.start (argsAt V)))) := by
  unfold res_main_v207
  rw [score3_eq, step2_eq, row_eq, col_eq]
  rfl

end stages

variable (m : (ℓ : Loc nD τ sig) → Buf (Elt Ideal) ℓ) (ρ : Dev nD → PrngReg)

/-- Every weakly fair execution of the reference ends with its result at `Spec.out` of the arguments, the arguments as
    launched. -/
theorem run_spec : θ_run defs (onTc (τ := τ) (main (F := Ideal))) ⟨m, fun _ => 0, ρ⟩ (fun r => ∀ c : Dev nD,
      r.2.mem ((c.tc : Thread nD τ).loc main_v238) = Cert.Spec.out (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run defs _ _).mono (fun r h c => ⟨(h c).1.trans ?_, (h c).2⟩) (Value.run (F := Ideal) m ρ)
  -- the result is the edge score of the third round's features, as a vector over the edges
  rw [step3_eq, row_eq, col_eq, argsAt_launch]
  rfl

end Cert.ReferenceIdeal.RefValue

end
-- ==== Proof.lean ====
/-
  The certificate: a graph network's Pallas program against its jnp reference, over the extended reals.

  Both programs compute one function of the arguments (Proof/Spec.lean): the input layer, three rounds of edge gate,
  segment sums and node layers, and the last edge gate.  The Pallas program does every dense layer in a pallas_call
  blocked over rows; each call's output array is the layer applied to the whole input arrays, because every layer works
  row by row and the blocks partition the rows (Proof/Region*.lean).  Between the calls both programs use the same gather
  and segment sum; the Pallas program's gather carries a guard on the node id, which the precondition's range
  `0 ≤ id < 500000` makes vacuous (Proof/HostGlue.lean, Proof/PreRange.lean).  The frames are the generated ones; the
  reference's is its generated run with the result dropped.  The ideal pass rewrote nothing, so `preserves` is `True`.
-/
import proofs.«426732_j67937792688144_3_alg».proof.Defs
import proofs.«426732_j67937792688144_3_alg».proof.Proof.Gen.Kernel
import proofs.«426732_j67937792688144_3_alg».proof.Proof.Gen.Kernel.Skeleton
import proofs.«426732_j67937792688144_3_alg».proof.Proof.Gen.Kernel.Launch
import proofs.«426732_j67937792688144_3_alg».proof.Proof.Gen.Kernel.Points
import proofs.«426732_j67937792688144_3_alg».proof.Proof.Gen.Kernel.Frame
import proofs.«426732_j67937792688144_3_alg».proof.Proof.Gen.KernelIdeal
import proofs.«426732_j67937792688144_3_alg».proof.Proof.Gen.KernelIdeal.Skeleton
import proofs.«426732_j67937792688144_3_alg».proof.Proof.Gen.KernelIdeal.Launch
import proofs.«426732_j67937792688144_3_alg».proof.Proof.Gen.KernelIdeal.Points
import proofs.«426732_j67937792688144_3_alg».proof.Proof.Gen.KernelIdeal.Frame
import proofs.«426732_j67937792688144_3_alg».proof.Proof.Gen.ReferenceIdeal
import proofs.«426732_j67937792688144_3_alg».proof.Proof.Gen.ReferenceIdeal.Run
import proofs.«426732_j67937792688144_3_alg».proof.Proof.Gen.Pre_finite_inputs
import proofs.«426732_j67937792688144_3_alg».proof.Proof.KernelRun
import proofs.«426732_j67937792688144_3_alg».proof.Proof.KernelValue
import proofs.«426732_j67937792688144_3_alg».proof.Proof.PreRange
import proofs.«426732_j67937792688144_3_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The two launch memories agree on the arguments, so they give the specification the same record. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.RefValue.argsOf m' c = Cert.KernelIdeal.Value.argsOf m c := by
  obtain ⟨h0, h1, h2, h3, h4, h5, h6, h7, h8, h9, h10, h11⟩ := h
  unfold Cert.ReferenceIdeal.RefValue.argsOf Cert.KernelIdeal.Value.argsOf
  rw [h0, h1, h2, h3, h4, h5, h6, h7, h8, h9, h10, h11]

/-- Run from memories that agree on the arguments, both idealized programs end with `Spec.out` of those arguments in
    their result buffers. -/
theorem algebraic : @Cert.algebraic_KernelIdeal_ReferenceIdeal Cert.KernelIdeal.Gen.facts Cert.ReferenceIdeal.Gen.facts Cert.Pre_finite_inputs.Gen.facts := by
  intro m ρ m' ρ' hpre hagree
  have hr : ∀ c, Cert.Spec.InRange (Cert.KernelIdeal.Value.argsOf m c) := fun c =>
    Cert.Spec.inRange_of_fn _ (hpre c)
  refine ⟨fun c => Cert.Spec.out (Cert.KernelIdeal.Value.argsOf m c), ?_, ?_⟩
  · exact (θ_run Cert.KernelIdeal.defs _ _).mono
      (fun r h c => ⟨(h c).1.trans (Cert.KernelIdeal.Value.kernel_value m ρ c (hr c)), (h c).2⟩)
      (Cert.KernelIdeal.Value.run (F := Ideal) m ρ)
  · exact (θ_run Cert.ReferenceIdeal.defs _ _).mono
      (fun r h c => ⟨(h c).1.trans (congrArg Cert.Spec.out (args_agree m m' c (hagree c))), (h c).2⟩)
      (Cert.ReferenceIdeal.RefValue.run_spec m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
